-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)) →
    ∃ (v0 : (c : Dev Cert.KernelIdeal.nD) → Buf (Elt Ideal) ((c.tc : Thread Cert.KernelIdeal.nD Cert.KernelIdeal.τ).loc Cert.KernelIdeal.main_v67)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v67) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v67) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S100000x133 : Shape := ⟨2, ![100000, 133]⟩
abbrev S200000x147 : Shape := ⟨2, ![200000, 147]⟩
abbrev S100000x6 : Shape := ⟨2, ![100000, 6]⟩
abbrev S200000 : Shape := ⟨1, ![200000]⟩
abbrev S147x300 : Shape := ⟨2, ![147, 300]⟩
abbrev S300x300 : Shape := ⟨2, ![300, 300]⟩
abbrev S433x300 : Shape := ⟨2, ![433, 300]⟩
abbrev S300 : Shape := ⟨1, ![300]⟩
abbrev S_ : Shape := ⟨0, ![]⟩

class Facts : Prop where
  bcast_S_S100000x133 : S_.BroadcastsInDim S100000x133 (![] : Fin 0 → Fin S100000x133.rank)
  reducesTo_S100000x133_S_d0_1 : S100000x133.ReducesTo [0, 1] S_
  h_S_ : 0 < S_.numel
  bcast_S_S200000x147 : S_.BroadcastsInDim S200000x147 (![] : Fin 0 → Fin S200000x147.rank)
  reducesTo_S200000x147_S_d0_1 : S200000x147.ReducesTo [0, 1] S_
  bcast_S_S147x300 : S_.BroadcastsInDim S147x300 (![] : Fin 0 → Fin S147x300.rank)
  reducesTo_S147x300_S_d0_1 : S147x300.ReducesTo [0, 1] S_
  bcast_S_S300x300 : S_.BroadcastsInDim S300x300 (![] : Fin 0 → Fin S300x300.rank)
  reducesTo_S300x300_S_d0_1 : S300x300.ReducesTo [0, 1] S_
  bcast_S_S433x300 : S_.BroadcastsInDim S433x300 (![] : Fin 0 → Fin S433x300.rank)
  reducesTo_S433x300_S_d0_1 : S433x300.ReducesTo [0, 1] S_
  bcast_S_S300 : S_.BroadcastsInDim S300 (![] : Fin 0 → Fin S300.rank)
  reducesTo_S300_S_d0 : S300.ReducesTo [0] S_
  bcast_S_S100000x6 : S_.BroadcastsInDim S100000x6 (![] : Fin 0 → Fin S100000x6.rank)
  reducesTo_S100000x6_S_d0_1 : S100000x6.ReducesTo [0, 1] S_
  bcast_S_S200000 : S_.BroadcastsInDim S200000 (![] : Fin 0 → Fin S200000.rank)
  reducesTo_S200000_S_d0 : S200000.ReducesTo [0] S_

variable [Facts]

def fn_part2 {F : FTy → Type} [FloatOps F] (main_arg3 : IVec S200000 32) (main_arg4 : IVec S200000 32) (main_v28 : IVec S_ 1) (main_v33 : IVec S100000x6 1) : IVec S_ 1 :=
  let main_c_12 : IVec S_ 1 := constantI S_ 1 1#1
  let main_v34 : IVec S_ 1 := (fun x v => Host.reduce IntOp.andi x v reducesTo_S100000x6_S_d0_1 h_S_) main_v33 main_c_12
  let main_v35 : IVec S_ 1 := andi main_v28 main_v34
  let main_c_13 : IVec S_ 32 := constantI S_ 32 0#32
  let main_v36 : IVec S200000 32 := broadcastInDim S200000 ![] bcast_S_S200000 main_c_13
  let main_v37 : IVec S200000 1 := cmpi .sge main_arg3 main_v36
  let main_c_14 : IVec S_ 32 := constantI S_ 32 100000#32
  let main_v38 : IVec S200000 32 := broadcastInDim S200000 ![] bcast_S_S200000 main_c_14
  let main_v39 : IVec S200000 1 := cmpi .slt main_arg3 main_v38
  let main_v40 : IVec S200000 1 := andi main_v37 main_v39
  let main_c_15 : IVec S_ 1 := constantI S_ 1 1#1
  let main_v41 : IVec S_ 1 := (fun x v => Host.reduce IntOp.andi x v reducesTo_S200000_S_d0 h_S_) main_v40 main_c_15
  let main_v42 : IVec S_ 1 := andi main_v35 main_v41
  let main_c_16 : IVec S_ 32 := constantI S_ 32 0#32
  let main_v43 : IVec S200000 32 := broadcastInDim S200000 ![] bcast_S_S200000 main_c_16
  let main_v44 : IVec S200000 1 := cmpi .sge main_arg4 main_v43
  let main_c_17 : IVec S_ 32 := constantI S_ 32 200000#32
  let main_v45 : IVec S200000 32 := broadcastInDim S200000 ![] bcast_S_S200000 main_c_17
  let main_v46 : IVec S200000 1 := cmpi .slt main_arg4 main_v45
  let main_v47 : IVec S200000 1 := andi main_v44 main_v46
  let main_c_18 : IVec S_ 1 := constantI S_ 1 1#1
  let main_v48 : IVec S_ 1 := (fun x v => Host.reduce IntOp.andi x v reducesTo_S200000_S_d0 h_S_) main_v47 main_c_18
  let main_v49 : IVec S_ 1 := andi main_v42 main_v48
  main_v49

def fn_part1 {F : FTy → Type} [FloatOps F] (main_arg2 : IVec S100000x6 32) (main_arg3 : IVec S200000 32) (main_arg4 : IVec S200000 32) (main_arg7 : FVec F S433x300 .f32) (main_arg8 : FVec F S300 .f32) (main_v13 : IVec S_ 1) (main_v16 : IVec S300x300 1) : IVec S_ 1 :=
  let main_c_5 : IVec S_ 1 := constantI S_ 1 1#1
  let main_v17 : IVec S_ 1 := (fun x v => Host.reduce IntOp.andi x v reducesTo_S300x300_S_d0_1 h_S_) main_v16 main_c_5
  let main_v18 : IVec S_ 1 := andi main_v13 main_v17
  let main_v19 : FVec F S433x300 .f32 := Host.absf main_arg7
  let main_cst_6 : FVec F S_ .f32 := constant S_ .f32 0x7F800000#32
  let main_v20 : FVec F S433x300 .f32 := broadcastInDim S433x300 ![] bcast_S_S433x300 main_cst_6
  let main_v21 : IVec S433x300 1 := cmpf .olt main_v19 main_v20
  let main_c_7 : IVec S_ 1 := constantI S_ 1 1#1
  let main_v22 : IVec S_ 1 := (fun x v => Host.reduce IntOp.andi x v reducesTo_S433x300_S_d0_1 h_S_) main_v21 main_c_7
  let main_v23 : IVec S_ 1 := andi main_v18 main_v22
  let main_v24 : FVec F S300 .f32 := Host.absf main_arg8
  let main_cst_8 : FVec F S_ .f32 := constant S_ .f32 0x7F800000#32
  let main_v25 : FVec F S300 .f32 := broadcastInDim S300 ![] bcast_S_S300 main_cst_8
  let main_v26 : IVec S300 1 := cmpf .olt main_v24 main_v25
  let main_c_9 : IVec S_ 1 := constantI S_ 1 1#1
  let main_v27 : IVec S_ 1 := (fun x v => Host.reduce IntOp.andi x v reducesTo_S300_S_d0 h_S_) main_v26 main_c_9
  let main_v28 : IVec S_ 1 := andi main_v23 main_v27
  let main_c_10 : IVec S_ 32 := constantI S_ 32 0#32
  let main_v29 : IVec S100000x6 32 := broadcastInDim S100000x6 ![] bcast_S_S100000x6 main_c_10
  let main_v30 : IVec S100000x6 1 := cmpi .sge main_arg2 main_v29
  let main_c_11 : IVec S_ 32 := constantI S_ 32 200000#32
  let main_v31 : IVec S100000x6 32 := broadcastInDim S100000x6 ![] bcast_S_S100000x6 main_c_11
  let main_v32 : IVec S100000x6 1 := cmpi .slt main_arg2 main_v31
  let main_v33 : IVec S100000x6 1 := andi main_v30 main_v32
  fn_part2 (F := F) main_arg3 main_arg4 main_v28 main_v33

def fn {F : FTy → Type} [FloatOps F] (main_arg0 : FVec F S100000x133 .f32) (main_arg1 : FVec F S200000x147 .f32) (main_arg2 : IVec S100000x6 32) (main_arg3 : IVec S200000 32) (main_arg4 : IVec S200000 32) (main_arg5 : FVec F S147x300 .f32) (main_arg6 : FVec F S300x300 .f32) (main_arg7 : FVec F S433x300 .f32) (main_arg8 : FVec F S300 .f32) : IVec S_ 1 :=
  let main_v0 : FVec F S100000x133 .f32 := Host.absf main_arg0
  let main_cst : FVec F S_ .f32 := constant S_ .f32 0x7F800000#32
  let main_v1 : FVec F S100000x133 .f32 := broadcastInDim S100000x133 ![] bcast_S_S100000x133 main_cst
  let main_v2 : IVec S100000x133 1 := cmpf .olt main_v0 main_v1
  let main_c : IVec S_ 1 := constantI S_ 1 1#1
  let main_v3 : IVec S_ 1 := (fun x v => Host.reduce IntOp.andi x v reducesTo_S100000x133_S_d0_1 h_S_) main_v2 main_c
  let main_v4 : FVec F S200000x147 .f32 := Host.absf main_arg1
  let main_cst_0 : FVec F S_ .f32 := constant S_ .f32 0x7F800000#32
  let main_v5 : FVec F S200000x147 .f32 := broadcastInDim S200000x147 ![] bcast_S_S200000x147 main_cst_0
  let main_v6 : IVec S200000x147 1 := cmpf .olt main_v4 main_v5
  let main_c_1 : IVec S_ 1 := constantI S_ 1 1#1
  let main_v7 : IVec S_ 1 := (fun x v => Host.reduce IntOp.andi x v reducesTo_S200000x147_S_d0_1 h_S_) main_v6 main_c_1
  let main_v8 : IVec S_ 1 := andi main_v3 main_v7
  let main_v9 : FVec F S147x300 .f32 := Host.absf main_arg5
  let main_cst_2 : FVec F S_ .f32 := constant S_ .f32 0x7F800000#32
  let main_v10 : FVec F S147x300 .f32 := broadcastInDim S147x300 ![] bcast_S_S147x300 main_cst_2
  let main_v11 : IVec S147x300 1 := cmpf .olt main_v9 main_v10
  let main_c_3 : IVec S_ 1 := constantI S_ 1 1#1
  let main_v12 : IVec S_ 1 := (fun x v => Host.reduce IntOp.andi x v reducesTo_S147x300_S_d0_1 h_S_) main_v11 main_c_3
  let main_v13 : IVec S_ 1 := andi main_v8 main_v12
  let main_v14 : FVec F S300x300 .f32 := Host.absf main_arg6
  let main_cst_4 : FVec F S_ .f32 := constant S_ .f32 0x7F800000#32
  let main_v15 : FVec F S300x300 .f32 := broadcastInDim S300x300 ![] bcast_S_S300x300 main_cst_4
  let main_v16 : IVec S300x300 1 := cmpf .olt main_v14 main_v15
  fn_part1 (F := F) main_arg2 main_arg3 main_arg4 main_arg7 main_arg8 main_v13 main_v16
-- ==== Kernel.lean ====
abbrev S100000x133 : Shape := ⟨2, ![100000, 133]⟩
abbrev S200000x147 : Shape := ⟨2, ![200000, 147]⟩
abbrev S100000x6 : Shape := ⟨2, ![100000, 6]⟩
abbrev S200000 : Shape := ⟨1, ![200000]⟩
abbrev S147x300 : Shape := ⟨2, ![147, 300]⟩
abbrev S300x300 : Shape := ⟨2, ![300, 300]⟩
abbrev S433x300 : Shape := ⟨2, ![433, 300]⟩
abbrev S300 : Shape := ⟨1, ![300]⟩
abbrev S200000x300 : Shape := ⟨2, ![200000, 300]⟩
abbrev S2000x147 : Shape := ⟨2, ![2000, 147]⟩
abbrev S2000x300 : Shape := ⟨2, ![2000, 300]⟩
abbrev S100000x1 : Shape := ⟨2, ![100000, 1]⟩
abbrev S100000 : Shape := ⟨1, ![100000]⟩
abbrev S_ : Shape := ⟨0, ![]⟩
abbrev S1 : Shape := ⟨1, ![1]⟩
abbrev S1x1 : Shape := ⟨2, ![1, 1]⟩
abbrev S100000x300 : Shape := ⟨2, ![100000, 300]⟩
abbrev S1000x300 : Shape := ⟨2, ![1000, 300]⟩
abbrev S200000x1 : Shape := ⟨2, ![200000, 1]⟩
abbrev S133x300 : Shape := ⟨2, ![133, 300]⟩
abbrev S1x300 : Shape := ⟨2, ![1, 300]⟩
abbrev S2000x133 : Shape := ⟨2, ![2000, 133]⟩

abbrev nBuf : Space → Nat
  | .hbm => 562
  | .vmem => 76
  | .smem => 0
  | _ => 0

abbrev hbmTy0_0 (i : Nat) : BufTy := match i % 128 with
  | 0 => ⟨S100000x133, .f32⟩
  | 1 => ⟨S200000x147, .f32⟩
  | 2 => ⟨S100000x6, .i32⟩
  | 3 => ⟨S200000, .i32⟩
  | 4 => ⟨S200000, .i32⟩
  | 5 => ⟨S147x300, .f32⟩
  | 6 => ⟨S300x300, .f32⟩
  | 7 => ⟨S433x300, .f32⟩
  | 8 => ⟨S300, .f32⟩
  | 9 => ⟨S200000x300, .f32⟩
  | 10 => ⟨S200000x300, .f32⟩
  | 11 => ⟨S100000x1, .i32⟩
  | 12 => ⟨S100000, .i32⟩
  | 13 => ⟨S_, .i32⟩
  | 14 => ⟨S100000, .i32⟩
  | 15 => ⟨S100000, .i1⟩
  | 16 => ⟨S_, .i32⟩
  | 17 => ⟨S100000, .i32⟩
  | 18 => ⟨S100000, .i32⟩
  | 19 => ⟨S100000, .i32⟩
  | 20 => ⟨S100000x1, .i32⟩
  | 21 => ⟨S1, .i32⟩
  | 22 => ⟨S_, .i32⟩
  | 23 => ⟨S100000x1, .i32⟩
  | 24 => ⟨S100000x1, .i1⟩
  | 25 => ⟨S1x1, .i32⟩
  | 26 => ⟨S100000x1, .i32⟩
  | 27 => ⟨S100000x1, .i1⟩
  | 28 => ⟨S100000x1, .i1⟩
  | 29 => ⟨S_, .i1⟩
  | 30 => ⟨S100000, .i1⟩
  | 31 => ⟨S100000x300, .f32⟩
  | 32 => ⟨S100000x300, .i1⟩
  | 33 => ⟨S_, .f32⟩
  | 34 => ⟨S100000x300, .f32⟩
  | 35 => ⟨S100000x300, .f32⟩
  | 36 => ⟨S100000x1, .i32⟩
  | 37 => ⟨S100000, .i32⟩
  | 38 => ⟨S_, .i32⟩
  | 39 => ⟨S100000, .i32⟩
  | 40 => ⟨S100000, .i1⟩
  | 41 => ⟨S_, .i32⟩
  | 42 => ⟨S100000, .i32⟩
  | 43 => ⟨S100000, .i32⟩
  | 44 => ⟨S100000, .i32⟩
  | 45 => ⟨S100000x1, .i32⟩
  | 46 => ⟨S1, .i32⟩
  | 47 => ⟨S_, .i32⟩
  | 48 => ⟨S100000x1, .i32⟩
  | 49 => ⟨S100000x1, .i1⟩
  | 50 => ⟨S1x1, .i32⟩
  | 51 => ⟨S100000x1, .i32⟩
  | 52 => ⟨S100000x1, .i1⟩
  | 53 => ⟨S100000x1, .i1⟩
  | 54 => ⟨S_, .i1⟩
  | 55 => ⟨S100000, .i1⟩
  | 56 => ⟨S100000x300, .f32⟩
  | 57 => ⟨S100000x300, .i1⟩
  | 58 => ⟨S_, .f32⟩
  | 59 => ⟨S100000x300, .f32⟩
  | 60 => ⟨S100000x300, .f32⟩
  | 61 => ⟨S100000x1, .i32⟩
  | 62 => ⟨S100000, .i32⟩
  | 63 => ⟨S_, .i32⟩
  | 64 => ⟨S100000, .i32⟩
  | 65 => ⟨S100000, .i1⟩
  | 66 => ⟨S_, .i32⟩
  | 67 => ⟨S100000, .i32⟩
  | 68 => ⟨S100000, .i32⟩
  | 69 => ⟨S100000, .i32⟩
  | 70 => ⟨S100000x1, .i32⟩
  | 71 => ⟨S1, .i32⟩
  | 72 => ⟨S_, .i32⟩
  | 73 => ⟨S100000x1, .i32⟩
  | 74 => ⟨S100000x1, .i1⟩
  | 75 => ⟨S1x1, .i32⟩
  | 76 => ⟨S100000x1, .i32⟩
  | 77 => ⟨S100000x1, .i1⟩
  | 78 => ⟨S100000x1, .i1⟩
  | 79 => ⟨S_, .i1⟩
  | 80 => ⟨S100000, .i1⟩
  | 81 => ⟨S100000x300, .f32⟩
  | 82 => ⟨S100000x300, .i1⟩
  | 83 => ⟨S_, .f32⟩
  | 84 => ⟨S100000x300, .f32⟩
  | 85 => ⟨S100000x300, .f32⟩
  | 86 => ⟨S100000x1, .i32⟩
  | 87 => ⟨S100000, .i32⟩
  | 88 => ⟨S_, .i32⟩
  | 89 => ⟨S100000, .i32⟩
  | 90 => ⟨S100000, .i1⟩
  | 91 => ⟨S_, .i32⟩
  | 92 => ⟨S100000, .i32⟩
  | 93 => ⟨S100000, .i32⟩
  | 94 => ⟨S100000, .i32⟩
  | 95 => ⟨S100000x1, .i32⟩
  | 96 => ⟨S1, .i32⟩
  | 97 => ⟨S_, .i32⟩
  | 98 => ⟨S100000x1, .i32⟩
  | 99 => ⟨S100000x1, .i1⟩
  | 100 => ⟨S1x1, .i32⟩
  | 101 => ⟨S100000x1, .i32⟩
  | 102 => ⟨S100000x1, .i1⟩
  | 103 => ⟨S100000x1, .i1⟩
  | 104 => ⟨S_, .i1⟩
  | 105 => ⟨S100000, .i1⟩
  | 106 => ⟨S100000x300, .f32⟩
  | 107 => ⟨S100000x300, .i1⟩
  | 108 => ⟨S_, .f32⟩
  | 109 => ⟨S100000x300, .f32⟩
  | 110 => ⟨S100000x300, .f32⟩
  | 111 => ⟨S100000x1, .i32⟩
  | 112 => ⟨S100000, .i32⟩
  | 113 => ⟨S_, .i32⟩
  | 114 => ⟨S100000, .i32⟩
  | 115 => ⟨S100000, .i1⟩
  | 116 => ⟨S_, .i32⟩
  | 117 => ⟨S100000, .i32⟩
  | 118 => ⟨S100000, .i32⟩
  | 119 => ⟨S100000, .i32⟩
  | 120 => ⟨S100000x1, .i32⟩
  | 121 => ⟨S1, .i32⟩
  | 122 => ⟨S_, .i32⟩
  | 123 => ⟨S100000x1, .i32⟩
  | 124 => ⟨S100000x1, .i1⟩
  | 125 => ⟨S1x1, .i32⟩
  | 126 => ⟨S100000x1, .i32⟩
  | 127 => ⟨S100000x1, .i1⟩
  | _ => ⟨S100000x133, .f32⟩

abbrev hbmTy0_1 (i : Nat) : BufTy := match i % 128 with
  | 0 => ⟨S100000x1, .i1⟩
  | 1 => ⟨S_, .i1⟩
  | 2 => ⟨S100000, .i1⟩
  | 3 => ⟨S100000x300, .f32⟩
  | 4 => ⟨S100000x300, .i1⟩
  | 5 => ⟨S_, .f32⟩
  | 6 => ⟨S100000x300, .f32⟩
  | 7 => ⟨S100000x300, .f32⟩
  | 8 => ⟨S100000x1, .i32⟩
  | 9 => ⟨S100000, .i32⟩
  | 10 => ⟨S_, .i32⟩
  | 11 => ⟨S100000, .i32⟩
  | 12 => ⟨S100000, .i1⟩
  | 13 => ⟨S_, .i32⟩
  | 14 => ⟨S100000, .i32⟩
  | 15 => ⟨S100000, .i32⟩
  | 16 => ⟨S100000, .i32⟩
  | 17 => ⟨S100000x1, .i32⟩
  | 18 => ⟨S1, .i32⟩
  | 19 => ⟨S_, .i32⟩
  | 20 => ⟨S100000x1, .i32⟩
  | 21 => ⟨S100000x1, .i1⟩
  | 22 => ⟨S1x1, .i32⟩
  | 23 => ⟨S100000x1, .i32⟩
  | 24 => ⟨S100000x1, .i1⟩
  | 25 => ⟨S100000x1, .i1⟩
  | 26 => ⟨S_, .i1⟩
  | 27 => ⟨S100000, .i1⟩
  | 28 => ⟨S100000x300, .f32⟩
  | 29 => ⟨S100000x300, .i1⟩
  | 30 => ⟨S_, .f32⟩
  | 31 => ⟨S100000x300, .f32⟩
  | 32 => ⟨S100000x300, .f32⟩
  | 33 => ⟨S100000x300, .f32⟩
  | 34 => ⟨S_, .i32⟩
  | 35 => ⟨S200000, .i32⟩
  | 36 => ⟨S200000, .i1⟩
  | 37 => ⟨S_, .i32⟩
  | 38 => ⟨S200000, .i32⟩
  | 39 => ⟨S200000, .i32⟩
  | 40 => ⟨S200000, .i32⟩
  | 41 => ⟨S200000x1, .i32⟩
  | 42 => ⟨S1, .i32⟩
  | 43 => ⟨S_, .i32⟩
  | 44 => ⟨S200000x1, .i32⟩
  | 45 => ⟨S200000x1, .i1⟩
  | 46 => ⟨S1x1, .i32⟩
  | 47 => ⟨S200000x1, .i32⟩
  | 48 => ⟨S200000x1, .i1⟩
  | 49 => ⟨S200000x1, .i1⟩
  | 50 => ⟨S_, .i1⟩
  | 51 => ⟨S200000, .i1⟩
  | 52 => ⟨S200000x300, .f32⟩
  | 53 => ⟨S200000x300, .i1⟩
  | 54 => ⟨S_, .f32⟩
  | 55 => ⟨S200000x300, .f32⟩
  | 56 => ⟨S200000x300, .f32⟩
  | 57 => ⟨S_, .i32⟩
  | 58 => ⟨S200000, .i32⟩
  | 59 => ⟨S200000, .i1⟩
  | 60 => ⟨S_, .i32⟩
  | 61 => ⟨S200000, .i32⟩
  | 62 => ⟨S200000, .i32⟩
  | 63 => ⟨S200000, .i32⟩
  | 64 => ⟨S200000x1, .i32⟩
  | 65 => ⟨S1, .i32⟩
  | 66 => ⟨S_, .i32⟩
  | 67 => ⟨S200000x1, .i32⟩
  | 68 => ⟨S200000x1, .i1⟩
  | 69 => ⟨S1x1, .i32⟩
  | 70 => ⟨S200000x1, .i32⟩
  | 71 => ⟨S200000x1, .i1⟩
  | 72 => ⟨S200000x1, .i1⟩
  | 73 => ⟨S_, .i1⟩
  | 74 => ⟨S200000, .i1⟩
  | 75 => ⟨S200000x300, .f32⟩
  | 76 => ⟨S200000x300, .i1⟩
  | 77 => ⟨S_, .f32⟩
  | 78 => ⟨S200000x300, .f32⟩
  | 79 => ⟨S200000x300, .f32⟩
  | 80 => ⟨S200000x300, .f32⟩
  | 81 => ⟨S100000x1, .i32⟩
  | 82 => ⟨S100000, .i32⟩
  | 83 => ⟨S_, .i32⟩
  | 84 => ⟨S100000, .i32⟩
  | 85 => ⟨S100000, .i1⟩
  | 86 => ⟨S_, .i32⟩
  | 87 => ⟨S100000, .i32⟩
  | 88 => ⟨S100000, .i32⟩
  | 89 => ⟨S100000, .i32⟩
  | 90 => ⟨S100000x1, .i32⟩
  | 91 => ⟨S1, .i32⟩
  | 92 => ⟨S_, .i32⟩
  | 93 => ⟨S100000x1, .i32⟩
  | 94 => ⟨S100000x1, .i1⟩
  | 95 => ⟨S1x1, .i32⟩
  | 96 => ⟨S100000x1, .i32⟩
  | 97 => ⟨S100000x1, .i1⟩
  | 98 => ⟨S100000x1, .i1⟩
  | 99 => ⟨S_, .i1⟩
  | 100 => ⟨S100000, .i1⟩
  | 101 => ⟨S100000x300, .f32⟩
  | 102 => ⟨S100000x300, .i1⟩
  | 103 => ⟨S_, .f32⟩
  | 104 => ⟨S100000x300, .f32⟩
  | 105 => ⟨S100000x300, .f32⟩
  | 106 => ⟨S100000x1, .i32⟩
  | 107 => ⟨S100000, .i32⟩
  | 108 => ⟨S_, .i32⟩
  | 109 => ⟨S100000, .i32⟩
  | 110 => ⟨S100000, .i1⟩
  | 111 => ⟨S_, .i32⟩
  | 112 => ⟨S100000, .i32⟩
  | 113 => ⟨S100000, .i32⟩
  | 114 => ⟨S100000, .i32⟩
  | 115 => ⟨S100000x1, .i32⟩
  | 116 => ⟨S1, .i32⟩
  | 117 => ⟨S_, .i32⟩
  | 118 => ⟨S100000x1, .i32⟩
  | 119 => ⟨S100000x1, .i1⟩
  | 120 => ⟨S1x1, .i32⟩
  | 121 => ⟨S100000x1, .i32⟩
  | 122 => ⟨S100000x1, .i1⟩
  | 123 => ⟨S100000x1, .i1⟩
  | 124 => ⟨S_, .i1⟩
  | 125 => ⟨S100000, .i1⟩
  | 126 => ⟨S100000x300, .f32⟩
  | 127 => ⟨S100000x300, .i1⟩
  | _ => ⟨S100000x133, .f32⟩

abbrev hbmTy0_2 (i : Nat) : BufTy := match i % 128 with
  | 0 => ⟨S_, .f32⟩
  | 1 => ⟨S100000x300, .f32⟩
  | 2 => ⟨S100000x300, .f32⟩
  | 3 => ⟨S100000x1, .i32⟩
  | 4 => ⟨S100000, .i32⟩
  | 5 => ⟨S_, .i32⟩
  | 6 => ⟨S100000, .i32⟩
  | 7 => ⟨S100000, .i1⟩
  | 8 => ⟨S_, .i32⟩
  | 9 => ⟨S100000, .i32⟩
  | 10 => ⟨S100000, .i32⟩
  | 11 => ⟨S100000, .i32⟩
  | 12 => ⟨S100000x1, .i32⟩
  | 13 => ⟨S1, .i32⟩
  | 14 => ⟨S_, .i32⟩
  | 15 => ⟨S100000x1, .i32⟩
  | 16 => ⟨S100000x1, .i1⟩
  | 17 => ⟨S1x1, .i32⟩
  | 18 => ⟨S100000x1, .i32⟩
  | 19 => ⟨S100000x1, .i1⟩
  | 20 => ⟨S100000x1, .i1⟩
  | 21 => ⟨S_, .i1⟩
  | 22 => ⟨S100000, .i1⟩
  | 23 => ⟨S100000x300, .f32⟩
  | 24 => ⟨S100000x300, .i1⟩
  | 25 => ⟨S_, .f32⟩
  | 26 => ⟨S100000x300, .f32⟩
  | 27 => ⟨S100000x300, .f32⟩
  | 28 => ⟨S100000x1, .i32⟩
  | 29 => ⟨S100000, .i32⟩
  | 30 => ⟨S_, .i32⟩
  | 31 => ⟨S100000, .i32⟩
  | 32 => ⟨S100000, .i1⟩
  | 33 => ⟨S_, .i32⟩
  | 34 => ⟨S100000, .i32⟩
  | 35 => ⟨S100000, .i32⟩
  | 36 => ⟨S100000, .i32⟩
  | 37 => ⟨S100000x1, .i32⟩
  | 38 => ⟨S1, .i32⟩
  | 39 => ⟨S_, .i32⟩
  | 40 => ⟨S100000x1, .i32⟩
  | 41 => ⟨S100000x1, .i1⟩
  | 42 => ⟨S1x1, .i32⟩
  | 43 => ⟨S100000x1, .i32⟩
  | 44 => ⟨S100000x1, .i1⟩
  | 45 => ⟨S100000x1, .i1⟩
  | 46 => ⟨S_, .i1⟩
  | 47 => ⟨S100000, .i1⟩
  | 48 => ⟨S100000x300, .f32⟩
  | 49 => ⟨S100000x300, .i1⟩
  | 50 => ⟨S_, .f32⟩
  | 51 => ⟨S100000x300, .f32⟩
  | 52 => ⟨S100000x300, .f32⟩
  | 53 => ⟨S100000x1, .i32⟩
  | 54 => ⟨S100000, .i32⟩
  | 55 => ⟨S_, .i32⟩
  | 56 => ⟨S100000, .i32⟩
  | 57 => ⟨S100000, .i1⟩
  | 58 => ⟨S_, .i32⟩
  | 59 => ⟨S100000, .i32⟩
  | 60 => ⟨S100000, .i32⟩
  | 61 => ⟨S100000, .i32⟩
  | 62 => ⟨S100000x1, .i32⟩
  | 63 => ⟨S1, .i32⟩
  | 64 => ⟨S_, .i32⟩
  | 65 => ⟨S100000x1, .i32⟩
  | 66 => ⟨S100000x1, .i1⟩
  | 67 => ⟨S1x1, .i32⟩
  | 68 => ⟨S100000x1, .i32⟩
  | 69 => ⟨S100000x1, .i1⟩
  | 70 => ⟨S100000x1, .i1⟩
  | 71 => ⟨S_, .i1⟩
  | 72 => ⟨S100000, .i1⟩
  | 73 => ⟨S100000x300, .f32⟩
  | 74 => ⟨S100000x300, .i1⟩
  | 75 => ⟨S_, .f32⟩
  | 76 => ⟨S100000x300, .f32⟩
  | 77 => ⟨S100000x300, .f32⟩
  | 78 => ⟨S100000x1, .i32⟩
  | 79 => ⟨S100000, .i32⟩
  | 80 => ⟨S_, .i32⟩
  | 81 => ⟨S100000, .i32⟩
  | 82 => ⟨S100000, .i1⟩
  | 83 => ⟨S_, .i32⟩
  | 84 => ⟨S100000, .i32⟩
  | 85 => ⟨S100000, .i32⟩
  | 86 => ⟨S100000, .i32⟩
  | 87 => ⟨S100000x1, .i32⟩
  | 88 => ⟨S1, .i32⟩
  | 89 => ⟨S_, .i32⟩
  | 90 => ⟨S100000x1, .i32⟩
  | 91 => ⟨S100000x1, .i1⟩
  | 92 => ⟨S1x1, .i32⟩
  | 93 => ⟨S100000x1, .i32⟩
  | 94 => ⟨S100000x1, .i1⟩
  | 95 => ⟨S100000x1, .i1⟩
  | 96 => ⟨S_, .i1⟩
  | 97 => ⟨S100000, .i1⟩
  | 98 => ⟨S100000x300, .f32⟩
  | 99 => ⟨S100000x300, .i1⟩
  | 100 => ⟨S_, .f32⟩
  | 101 => ⟨S100000x300, .f32⟩
  | 102 => ⟨S100000x300, .f32⟩
  | 103 => ⟨S100000x300, .f32⟩
  | 104 => ⟨S_, .i32⟩
  | 105 => ⟨S200000, .i32⟩
  | 106 => ⟨S200000, .i1⟩
  | 107 => ⟨S_, .i32⟩
  | 108 => ⟨S200000, .i32⟩
  | 109 => ⟨S200000, .i32⟩
  | 110 => ⟨S200000, .i32⟩
  | 111 => ⟨S200000x1, .i32⟩
  | 112 => ⟨S1, .i32⟩
  | 113 => ⟨S_, .i32⟩
  | 114 => ⟨S200000x1, .i32⟩
  | 115 => ⟨S200000x1, .i1⟩
  | 116 => ⟨S1x1, .i32⟩
  | 117 => ⟨S200000x1, .i32⟩
  | 118 => ⟨S200000x1, .i1⟩
  | 119 => ⟨S200000x1, .i1⟩
  | 120 => ⟨S_, .i1⟩
  | 121 => ⟨S200000, .i1⟩
  | 122 => ⟨S200000x300, .f32⟩
  | 123 => ⟨S200000x300, .i1⟩
  | 124 => ⟨S_, .f32⟩
  | 125 => ⟨S200000x300, .f32⟩
  | 126 => ⟨S200000x300, .f32⟩
  | 127 => ⟨S_, .i32⟩
  | _ => ⟨S100000x133, .f32⟩

abbrev hbmTy0_3 (i : Nat) : BufTy := match i % 128 with
  | 0 => ⟨S200000, .i32⟩
  | 1 => ⟨S200000, .i1⟩
  | 2 => ⟨S_, .i32⟩
  | 3 => ⟨S200000, .i32⟩
  | 4 => ⟨S200000, .i32⟩
  | 5 => ⟨S200000, .i32⟩
  | 6 => ⟨S200000x1, .i32⟩
  | 7 => ⟨S1, .i32⟩
  | 8 => ⟨S_, .i32⟩
  | 9 => ⟨S200000x1, .i32⟩
  | 10 => ⟨S200000x1, .i1⟩
  | 11 => ⟨S1x1, .i32⟩
  | 12 => ⟨S200000x1, .i32⟩
  | 13 => ⟨S200000x1, .i1⟩
  | 14 => ⟨S200000x1, .i1⟩
  | 15 => ⟨S_, .i1⟩
  | 16 => ⟨S200000, .i1⟩
  | 17 => ⟨S200000x300, .f32⟩
  | 18 => ⟨S200000x300, .i1⟩
  | 19 => ⟨S_, .f32⟩
  | 20 => ⟨S200000x300, .f32⟩
  | 21 => ⟨S200000x300, .f32⟩
  | 22 => ⟨S200000x300, .f32⟩
  | 23 => ⟨S100000x1, .i32⟩
  | 24 => ⟨S100000, .i32⟩
  | 25 => ⟨S_, .i32⟩
  | 26 => ⟨S100000, .i32⟩
  | 27 => ⟨S100000, .i1⟩
  | 28 => ⟨S_, .i32⟩
  | 29 => ⟨S100000, .i32⟩
  | 30 => ⟨S100000, .i32⟩
  | 31 => ⟨S100000, .i32⟩
  | 32 => ⟨S100000x1, .i32⟩
  | 33 => ⟨S1, .i32⟩
  | 34 => ⟨S_, .i32⟩
  | 35 => ⟨S100000x1, .i32⟩
  | 36 => ⟨S100000x1, .i1⟩
  | 37 => ⟨S1x1, .i32⟩
  | 38 => ⟨S100000x1, .i32⟩
  | 39 => ⟨S100000x1, .i1⟩
  | 40 => ⟨S100000x1, .i1⟩
  | 41 => ⟨S_, .i1⟩
  | 42 => ⟨S100000, .i1⟩
  | 43 => ⟨S100000x300, .f32⟩
  | 44 => ⟨S100000x300, .i1⟩
  | 45 => ⟨S_, .f32⟩
  | 46 => ⟨S100000x300, .f32⟩
  | 47 => ⟨S100000x300, .f32⟩
  | 48 => ⟨S100000x1, .i32⟩
  | 49 => ⟨S100000, .i32⟩
  | 50 => ⟨S_, .i32⟩
  | 51 => ⟨S100000, .i32⟩
  | 52 => ⟨S100000, .i1⟩
  | 53 => ⟨S_, .i32⟩
  | 54 => ⟨S100000, .i32⟩
  | 55 => ⟨S100000, .i32⟩
  | 56 => ⟨S100000, .i32⟩
  | 57 => ⟨S100000x1, .i32⟩
  | 58 => ⟨S1, .i32⟩
  | 59 => ⟨S_, .i32⟩
  | 60 => ⟨S100000x1, .i32⟩
  | 61 => ⟨S100000x1, .i1⟩
  | 62 => ⟨S1x1, .i32⟩
  | 63 => ⟨S100000x1, .i32⟩
  | 64 => ⟨S100000x1, .i1⟩
  | 65 => ⟨S100000x1, .i1⟩
  | 66 => ⟨S_, .i1⟩
  | 67 => ⟨S100000, .i1⟩
  | 68 => ⟨S100000x300, .f32⟩
  | 69 => ⟨S100000x300, .i1⟩
  | 70 => ⟨S_, .f32⟩
  | 71 => ⟨S100000x300, .f32⟩
  | 72 => ⟨S100000x300, .f32⟩
  | 73 => ⟨S100000x1, .i32⟩
  | 74 => ⟨S100000, .i32⟩
  | 75 => ⟨S_, .i32⟩
  | 76 => ⟨S100000, .i32⟩
  | 77 => ⟨S100000, .i1⟩
  | 78 => ⟨S_, .i32⟩
  | 79 => ⟨S100000, .i32⟩
  | 80 => ⟨S100000, .i32⟩
  | 81 => ⟨S100000, .i32⟩
  | 82 => ⟨S100000x1, .i32⟩
  | 83 => ⟨S1, .i32⟩
  | 84 => ⟨S_, .i32⟩
  | 85 => ⟨S100000x1, .i32⟩
  | 86 => ⟨S100000x1, .i1⟩
  | 87 => ⟨S1x1, .i32⟩
  | 88 => ⟨S100000x1, .i32⟩
  | 89 => ⟨S100000x1, .i1⟩
  | 90 => ⟨S100000x1, .i1⟩
  | 91 => ⟨S_, .i1⟩
  | 92 => ⟨S100000, .i1⟩
  | 93 => ⟨S100000x300, .f32⟩
  | 94 => ⟨S100000x300, .i1⟩
  | 95 => ⟨S_, .f32⟩
  | 96 => ⟨S100000x300, .f32⟩
  | 97 => ⟨S100000x300, .f32⟩
  | 98 => ⟨S100000x1, .i32⟩
  | 99 => ⟨S100000, .i32⟩
  | 100 => ⟨S_, .i32⟩
  | 101 => ⟨S100000, .i32⟩
  | 102 => ⟨S100000, .i1⟩
  | 103 => ⟨S_, .i32⟩
  | 104 => ⟨S100000, .i32⟩
  | 105 => ⟨S100000, .i32⟩
  | 106 => ⟨S100000, .i32⟩
  | 107 => ⟨S100000x1, .i32⟩
  | 108 => ⟨S1, .i32⟩
  | 109 => ⟨S_, .i32⟩
  | 110 => ⟨S100000x1, .i32⟩
  | 111 => ⟨S100000x1, .i1⟩
  | 112 => ⟨S1x1, .i32⟩
  | 113 => ⟨S100000x1, .i32⟩
  | 114 => ⟨S100000x1, .i1⟩
  | 115 => ⟨S100000x1, .i1⟩
  | 116 => ⟨S_, .i1⟩
  | 117 => ⟨S100000, .i1⟩
  | 118 => ⟨S100000x300, .f32⟩
  | 119 => ⟨S100000x300, .i1⟩
  | 120 => ⟨S_, .f32⟩
  | 121 => ⟨S100000x300, .f32⟩
  | 122 => ⟨S100000x300, .f32⟩
  | 123 => ⟨S100000x1, .i32⟩
  | 124 => ⟨S100000, .i32⟩
  | 125 => ⟨S_, .i32⟩
  | 126 => ⟨S100000, .i32⟩
  | 127 => ⟨S100000, .i1⟩
  | _ => ⟨S100000x133, .f32⟩

abbrev hbmTy0_4 (i : Nat) : BufTy := match i % 128 with
  | 0 => ⟨S_, .i32⟩
  | 1 => ⟨S100000, .i32⟩
  | 2 => ⟨S100000, .i32⟩
  | 3 => ⟨S100000, .i32⟩
  | 4 => ⟨S100000x1, .i32⟩
  | 5 => ⟨S1, .i32⟩
  | 6 => ⟨S_, .i32⟩
  | 7 => ⟨S100000x1, .i32⟩
  | 8 => ⟨S100000x1, .i1⟩
  | 9 => ⟨S1x1, .i32⟩
  | 10 => ⟨S100000x1, .i32⟩
  | 11 => ⟨S100000x1, .i1⟩
  | 12 => ⟨S100000x1, .i1⟩
  | 13 => ⟨S_, .i1⟩
  | 14 => ⟨S100000, .i1⟩
  | 15 => ⟨S100000x300, .f32⟩
  | 16 => ⟨S100000x300, .i1⟩
  | 17 => ⟨S_, .f32⟩
  | 18 => ⟨S100000x300, .f32⟩
  | 19 => ⟨S100000x300, .f32⟩
  | 20 => ⟨S100000x1, .i32⟩
  | 21 => ⟨S100000, .i32⟩
  | 22 => ⟨S_, .i32⟩
  | 23 => ⟨S100000, .i32⟩
  | 24 => ⟨S100000, .i1⟩
  | 25 => ⟨S_, .i32⟩
  | 26 => ⟨S100000, .i32⟩
  | 27 => ⟨S100000, .i32⟩
  | 28 => ⟨S100000, .i32⟩
  | 29 => ⟨S100000x1, .i32⟩
  | 30 => ⟨S1, .i32⟩
  | 31 => ⟨S_, .i32⟩
  | 32 => ⟨S100000x1, .i32⟩
  | 33 => ⟨S100000x1, .i1⟩
  | 34 => ⟨S1x1, .i32⟩
  | 35 => ⟨S100000x1, .i32⟩
  | 36 => ⟨S100000x1, .i1⟩
  | 37 => ⟨S100000x1, .i1⟩
  | 38 => ⟨S_, .i1⟩
  | 39 => ⟨S100000, .i1⟩
  | 40 => ⟨S100000x300, .f32⟩
  | 41 => ⟨S100000x300, .i1⟩
  | 42 => ⟨S_, .f32⟩
  | 43 => ⟨S100000x300, .f32⟩
  | 44 => ⟨S100000x300, .f32⟩
  | 45 => ⟨S100000x300, .f32⟩
  | 46 => ⟨S133x300, .f32⟩
  | 47 => ⟨S300x300, .f32⟩
  | 48 => ⟨S1x300, .f32⟩
  | 49 => ⟨S100000x300, .f32⟩
  | _ => ⟨S100000x133, .f32⟩

abbrev hbmTy (i : Nat) : BufTy := match i / 128 with
  | 0 => hbmTy0_0 i
  | 1 => hbmTy0_1 i
  | 2 => hbmTy0_2 i
  | 3 => hbmTy0_3 i
  | 4 => hbmTy0_4 i
  | _ => ⟨S100000x133, .f32⟩

abbrev bufTy : (tb : Table) → Fin (tcTables nBuf tb) → BufTy
  | .hbm, ⟨i, _⟩ => hbmTy i
  | .local _ .vmem, ⟨0, _⟩ => ⟨S2000x147, .f32⟩
  | .local _ .vmem, ⟨1, _⟩ => ⟨S2000x147, .f32⟩
  | .local _ .vmem, ⟨2, _⟩ => ⟨S147x300, .f32⟩
  | .local _ .vmem, ⟨3, _⟩ => ⟨S2000x300, .f32⟩
  | .local _ .vmem, ⟨4, _⟩ => ⟨S2000x300, .f32⟩
  | .local _ .vmem, ⟨5, _⟩ => ⟨S2000x300, .f32⟩
  | .local _ .vmem, ⟨6, _⟩ => ⟨S2000x300, .f32⟩
  | .local _ .vmem, ⟨7, _⟩ => ⟨S1000x300, .f32⟩
  | .local _ .vmem, ⟨8, _⟩ => ⟨S1000x300, .f32⟩
  | .local _ .vmem, ⟨9, _⟩ => ⟨S1000x300, .f32⟩
  | .local _ .vmem, ⟨10, _⟩ => ⟨S1000x300, .f32⟩
  | .local _ .vmem, ⟨11, _⟩ => ⟨S1000x300, .f32⟩
  | .local _ .vmem, ⟨12, _⟩ => ⟨S1000x300, .f32⟩
  | .local _ .vmem, ⟨13, _⟩ => ⟨S1000x300, .f32⟩
  | .local _ .vmem, ⟨14, _⟩ => ⟨S1000x300, .f32⟩
  | .local _ .vmem, ⟨15, _⟩ => ⟨S1000x300, .f32⟩
  | .local _ .vmem, ⟨16, _⟩ => ⟨S1000x300, .f32⟩
  | .local _ .vmem, ⟨17, _⟩ => ⟨S1000x300, .f32⟩
  | .local _ .vmem, ⟨18, _⟩ => ⟨S1000x300, .f32⟩
  | .local _ .vmem, ⟨19, _⟩ => ⟨S1000x300, .f32⟩
  | .local _ .vmem, ⟨20, _⟩ => ⟨S1000x300, .f32⟩
  | .local _ .vmem, ⟨21, _⟩ => ⟨S2000x300, .f32⟩
  | .local _ .vmem, ⟨22, _⟩ => ⟨S2000x300, .f32⟩
  | .local _ .vmem, ⟨23, _⟩ => ⟨S2000x300, .f32⟩
  | .local _ .vmem, ⟨24, _⟩ => ⟨S2000x300, .f32⟩
  | .local _ .vmem, ⟨25, _⟩ => ⟨S2000x300, .f32⟩
  | .local _ .vmem, ⟨26, _⟩ => ⟨S2000x300, .f32⟩
  | .local _ .vmem, ⟨27, _⟩ => ⟨S300x300, .f32⟩
  | .local _ .vmem, ⟨28, _⟩ => ⟨S2000x300, .f32⟩
  | .local _ .vmem, ⟨29, _⟩ => ⟨S2000x300, .f32⟩
  | .local _ .vmem, ⟨30, _⟩ => ⟨S1000x300, .f32⟩
  | .local _ .vmem, ⟨31, _⟩ => ⟨S1000x300, .f32⟩
  | .local _ .vmem, ⟨32, _⟩ => ⟨S1000x300, .f32⟩
  | .local _ .vmem, ⟨33, _⟩ => ⟨S1000x300, .f32⟩
  | .local _ .vmem, ⟨34, _⟩ => ⟨S1000x300, .f32⟩
  | .local _ .vmem, ⟨35, _⟩ => ⟨S1000x300, .f32⟩
  | .local _ .vmem, ⟨36, _⟩ => ⟨S1000x300, .f32⟩
  | .local _ .vmem, ⟨37, _⟩ => ⟨S1000x300, .f32⟩
  | .local _ .vmem, ⟨38, _⟩ => ⟨S1000x300, .f32⟩
  | .local _ .vmem, ⟨39, _⟩ => ⟨S1000x300, .f32⟩
  | .local _ .vmem, ⟨40, _⟩ => ⟨S1000x300, .f32⟩
  | .local _ .vmem, ⟨41, _⟩ => ⟨S1000x300, .f32⟩
  | .local _ .vmem, ⟨42, _⟩ => ⟨S1000x300, .f32⟩
  | .local _ .vmem, ⟨43, _⟩ => ⟨S1000x300, .f32⟩
  | .local _ .vmem, ⟨44, _⟩ => ⟨S2000x300, .f32⟩
  | .local _ .vmem, ⟨45, _⟩ => ⟨S2000x300, .f32⟩
  | .local _ .vmem, ⟨46, _⟩ => ⟨S2000x300, .f32⟩
  | .local _ .vmem, ⟨47, _⟩ => ⟨S2000x300, .f32⟩
  | .local _ .vmem, ⟨48, _⟩ => ⟨S2000x300, .f32⟩
  | .local _ .vmem, ⟨49, _⟩ => ⟨S2000x300, .f32⟩
  | .local _ .vmem, ⟨50, _⟩ => ⟨S300x300, .f32⟩
  | .local _ .vmem, ⟨51, _⟩ => ⟨S2000x300, .f32⟩
  | .local _ .vmem, ⟨52, _⟩ => ⟨S2000x300, .f32⟩
  | .local _ .vmem, ⟨53, _⟩ => ⟨S1000x300, .f32⟩
  | .local _ .vmem, ⟨54, _⟩ => ⟨S1000x300, .f32⟩
  | .local _ .vmem, ⟨55, _⟩ => ⟨S1000x300, .f32⟩
  | .local _ .vmem, ⟨56, _⟩ => ⟨S1000x300, .f32⟩
  | .local _ .vmem, ⟨57, _⟩ => ⟨S1000x300, .f32⟩
  | .local _ .vmem, ⟨58, _⟩ => ⟨S1000x300, .f32⟩
  | .local _ .vmem, ⟨59, _⟩ => ⟨S1000x300, .f32⟩
  | .local _ .vmem, ⟨60, _⟩ => ⟨S1000x300, .f32⟩
  | .local _ .vmem, ⟨61, _⟩ => ⟨S1000x300, .f32⟩
  | .local _ .vmem, ⟨62, _⟩ => ⟨S1000x300, .f32⟩
  | .local _ .vmem, ⟨63, _⟩ => ⟨S1000x300, .f32⟩
  | .local _ .vmem, ⟨64, _⟩ => ⟨S1000x300, .f32⟩
  | .local _ .vmem, ⟨65, _⟩ => ⟨S1000x300, .f32⟩
  | .local _ .vmem, ⟨66, _⟩ => ⟨S1000x300, .f32⟩
  | .local _ .vmem, ⟨67, _⟩ => ⟨S2000x133, .f32⟩
  | .local _ .vmem, ⟨68, _⟩ => ⟨S2000x133, .f32⟩
  | .local _ .vmem, ⟨69, _⟩ => ⟨S2000x300, .f32⟩
  | .local _ .vmem, ⟨70, _⟩ => ⟨S2000x300, .f32⟩
  | .local _ .vmem, ⟨71, _⟩ => ⟨S133x300, .f32⟩
  | .local _ .vmem, ⟨72, _⟩ => ⟨S300x300, .f32⟩
  | .local _ .vmem, ⟨73, _⟩ => ⟨S1x300, .f32⟩
  | .local _ .vmem, ⟨74, _⟩ => ⟨S2000x300, .f32⟩
  | .local _ .vmem, ⟨75, _⟩ => ⟨S2000x300, .f32⟩
  | _, _ => ⟨S100000x133, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | .vmem, ⟨36, _⟩ => true
  | .vmem, ⟨37, _⟩ => true
  | .vmem, ⟨38, _⟩ => true
  | .vmem, ⟨39, _⟩ => true
  | .vmem, ⟨40, _⟩ => true
  | .vmem, ⟨41, _⟩ => true
  | .vmem, ⟨42, _⟩ => true
  | .vmem, ⟨43, _⟩ => true
  | .vmem, ⟨44, _⟩ => true
  | .vmem, ⟨45, _⟩ => true
  | .vmem, ⟨46, _⟩ => true
  | .vmem, ⟨47, _⟩ => true
  | .vmem, ⟨48, _⟩ => true
  | .vmem, ⟨49, _⟩ => true
  | .vmem, ⟨50, _⟩ => true
  | .vmem, ⟨51, _⟩ => true
  | .vmem, ⟨52, _⟩ => true
  | .vmem, ⟨53, _⟩ => true
  | .vmem, ⟨54, _⟩ => true
  | .vmem, ⟨55, _⟩ => true
  | .vmem, ⟨56, _⟩ => true
  | .vmem, ⟨57, _⟩ => true
  | .vmem, ⟨58, _⟩ => true
  | .vmem, ⟨59, _⟩ => true
  | .vmem, ⟨60, _⟩ => true
  | .vmem, ⟨61, _⟩ => true
  | .vmem, ⟨62, _⟩ => true
  | .vmem, ⟨63, _⟩ => true
  | .vmem, ⟨64, _⟩ => true
  | .vmem, ⟨65, _⟩ => true
  | .vmem, ⟨66, _⟩ => true
  | .vmem, ⟨67, _⟩ => true
  | .vmem, ⟨68, _⟩ => true
  | .vmem, ⟨69, _⟩ => true
  | .vmem, ⟨70, _⟩ => true
  | .vmem, ⟨71, _⟩ => true
  | .vmem, ⟨72, _⟩ => true
  | .vmem, ⟨73, _⟩ => true
  | .vmem, ⟨74, _⟩ => true
  | .vmem, ⟨75, _⟩ => true
  | _, _ => false

abbrev semScoped : Fin 0 → Bool
  | ⟨_, h⟩ => absurd h (Nat.not_lt_zero _)

abbrev dmaSemScoped : Fin 76 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | ⟨40, _⟩ => true
  | ⟨41, _⟩ => true
  | ⟨42, _⟩ => true
  | ⟨43, _⟩ => true
  | ⟨44, _⟩ => true
  | ⟨45, _⟩ => true
  | ⟨46, _⟩ => true
  | ⟨47, _⟩ => true
  | ⟨48, _⟩ => true
  | ⟨49, _⟩ => true
  | ⟨50, _⟩ => true
  | ⟨51, _⟩ => true
  | ⟨52, _⟩ => true
  | ⟨53, _⟩ => true
  | ⟨54, _⟩ => true
  | ⟨55, _⟩ => true
  | ⟨56, _⟩ => true
  | ⟨57, _⟩ => true
  | ⟨58, _⟩ => true
  | ⟨59, _⟩ => true
  | ⟨60, _⟩ => true
  | ⟨61, _⟩ => true
  | ⟨62, _⟩ => true
  | ⟨63, _⟩ => true
  | ⟨64, _⟩ => true
  | ⟨65, _⟩ => true
  | ⟨66, _⟩ => true
  | ⟨67, _⟩ => true
  | ⟨68, _⟩ => true
  | ⟨69, _⟩ => true
  | ⟨70, _⟩ => true
  | ⟨71, _⟩ => true
  | ⟨72, _⟩ => true
  | ⟨73, _⟩ => true
  | ⟨74, _⟩ => true
  | ⟨75, _⟩ => true
  | _ => false

abbrev sig : RefSig :=
  ofTc nBuf bufTy 0 76 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0_0 : Ref sig .tc := ⟨.hbm, 9, rfl⟩
abbrev main_v0_1 : Ref sig .tc := ⟨.hbm, 10, rfl⟩
abbrev main_v1 : Ref sig .tc := ⟨.hbm, 11, rfl⟩
abbrev main_v2 : Ref sig .tc := ⟨.hbm, 12, rfl⟩
abbrev main_call0_c : Ref sig .tc := ⟨.hbm, 13, rfl⟩
abbrev main_call0_v0 : Ref sig .tc := ⟨.hbm, 14, rfl⟩
abbrev main_call0_v1 : Ref sig .tc := ⟨.hbm, 15, rfl⟩
abbrev main_call0_c_0 : Ref sig .tc := ⟨.hbm, 16, rfl⟩
abbrev main_call0_v2 : Ref sig .tc := ⟨.hbm, 17, rfl⟩
abbrev main_call0_v3 : Ref sig .tc := ⟨.hbm, 18, rfl⟩
abbrev main_call0_v4 : Ref sig .tc := ⟨.hbm, 19, rfl⟩
abbrev main_call0_v5 : Ref sig .tc := ⟨.hbm, 20, rfl⟩
abbrev main_call0_c_1 : Ref sig .tc := ⟨.hbm, 21, rfl⟩
abbrev main_call0_c_2 : Ref sig .tc := ⟨.hbm, 22, rfl⟩
abbrev main_call0_v6 : Ref sig .tc := ⟨.hbm, 23, rfl⟩
abbrev main_call0_v7 : Ref sig .tc := ⟨.hbm, 24, rfl⟩
abbrev main_call0_v8 : Ref sig .tc := ⟨.hbm, 25, rfl⟩
abbrev main_call0_v9 : Ref sig .tc := ⟨.hbm, 26, rfl⟩
abbrev main_call0_v10 : Ref sig .tc := ⟨.hbm, 27, rfl⟩
abbrev main_call0_v11 : Ref sig .tc := ⟨.hbm, 28, rfl⟩
abbrev main_call0_c_3 : Ref sig .tc := ⟨.hbm, 29, rfl⟩
abbrev main_call0_v12 : Ref sig .tc := ⟨.hbm, 30, rfl⟩
abbrev main_call0_v13 : Ref sig .tc := ⟨.hbm, 31, rfl⟩
abbrev main_call0_v14 : Ref sig .tc := ⟨.hbm, 32, rfl⟩
abbrev main_call0_cst : Ref sig .tc := ⟨.hbm, 33, rfl⟩
abbrev main_call0_v15 : Ref sig .tc := ⟨.hbm, 34, rfl⟩
abbrev main_v3 : Ref sig .tc := ⟨.hbm, 35, rfl⟩
abbrev main_v4 : Ref sig .tc := ⟨.hbm, 36, rfl⟩
abbrev main_v5 : Ref sig .tc := ⟨.hbm, 37, rfl⟩
abbrev main_call1_c : Ref sig .tc := ⟨.hbm, 38, rfl⟩
abbrev main_call1_v0 : Ref sig .tc := ⟨.hbm, 39, rfl⟩
abbrev main_call1_v1 : Ref sig .tc := ⟨.hbm, 40, rfl⟩
abbrev main_call1_c_0 : Ref sig .tc := ⟨.hbm, 41, rfl⟩
abbrev main_call1_v2 : Ref sig .tc := ⟨.hbm, 42, rfl⟩
abbrev main_call1_v3 : Ref sig .tc := ⟨.hbm, 43, rfl⟩
abbrev main_call1_v4 : Ref sig .tc := ⟨.hbm, 44, rfl⟩
abbrev main_call1_v5 : Ref sig .tc := ⟨.hbm, 45, rfl⟩
abbrev main_call1_c_1 : Ref sig .tc := ⟨.hbm, 46, rfl⟩
abbrev main_call1_c_2 : Ref sig .tc := ⟨.hbm, 47, rfl⟩
abbrev main_call1_v6 : Ref sig .tc := ⟨.hbm, 48, rfl⟩
abbrev main_call1_v7 : Ref sig .tc := ⟨.hbm, 49, rfl⟩
abbrev main_call1_v8 : Ref sig .tc := ⟨.hbm, 50, rfl⟩
abbrev main_call1_v9 : Ref sig .tc := ⟨.hbm, 51, rfl⟩
abbrev main_call1_v10 : Ref sig .tc := ⟨.hbm, 52, rfl⟩
abbrev main_call1_v11 : Ref sig .tc := ⟨.hbm, 53, rfl⟩
abbrev main_call1_c_3 : Ref sig .tc := ⟨.hbm, 54, rfl⟩
abbrev main_call1_v12 : Ref sig .tc := ⟨.hbm, 55, rfl⟩
abbrev main_call1_v13 : Ref sig .tc := ⟨.hbm, 56, rfl⟩
abbrev main_call1_v14 : Ref sig .tc := ⟨.hbm, 57, rfl⟩
abbrev main_call1_cst : Ref sig .tc := ⟨.hbm, 58, rfl⟩
abbrev main_call1_v15 : Ref sig .tc := ⟨.hbm, 59, rfl⟩
abbrev main_v6 : Ref sig .tc := ⟨.hbm, 60, rfl⟩
abbrev main_v7 : Ref sig .tc := ⟨.hbm, 61, rfl⟩
abbrev main_v8 : Ref sig .tc := ⟨.hbm, 62, rfl⟩
abbrev main_call2_c : Ref sig .tc := ⟨.hbm, 63, rfl⟩
abbrev main_call2_v0 : Ref sig .tc := ⟨.hbm, 64, rfl⟩
abbrev main_call2_v1 : Ref sig .tc := ⟨.hbm, 65, rfl⟩
abbrev main_call2_c_0 : Ref sig .tc := ⟨.hbm, 66, rfl⟩
abbrev main_call2_v2 : Ref sig .tc := ⟨.hbm, 67, rfl⟩
abbrev main_call2_v3 : Ref sig .tc := ⟨.hbm, 68, rfl⟩
abbrev main_call2_v4 : Ref sig .tc := ⟨.hbm, 69, rfl⟩
abbrev main_call2_v5 : Ref sig .tc := ⟨.hbm, 70, rfl⟩
abbrev main_call2_c_1 : Ref sig .tc := ⟨.hbm, 71, rfl⟩
abbrev main_call2_c_2 : Ref sig .tc := ⟨.hbm, 72, rfl⟩
abbrev main_call2_v6 : Ref sig .tc := ⟨.hbm, 73, rfl⟩
abbrev main_call2_v7 : Ref sig .tc := ⟨.hbm, 74, rfl⟩
abbrev main_call2_v8 : Ref sig .tc := ⟨.hbm, 75, rfl⟩
abbrev main_call2_v9 : Ref sig .tc := ⟨.hbm, 76, rfl⟩
abbrev main_call2_v10 : Ref sig .tc := ⟨.hbm, 77, rfl⟩
abbrev main_call2_v11 : Ref sig .tc := ⟨.hbm, 78, rfl⟩
abbrev main_call2_c_3 : Ref sig .tc := ⟨.hbm, 79, rfl⟩
abbrev main_call2_v12 : Ref sig .tc := ⟨.hbm, 80, rfl⟩
abbrev main_call2_v13 : Ref sig .tc := ⟨.hbm, 81, rfl⟩
abbrev main_call2_v14 : Ref sig .tc := ⟨.hbm, 82, rfl⟩
abbrev main_call2_cst : Ref sig .tc := ⟨.hbm, 83, rfl⟩
abbrev main_call2_v15 : Ref sig .tc := ⟨.hbm, 84, rfl⟩
abbrev main_v9 : Ref sig .tc := ⟨.hbm, 85, rfl⟩
abbrev main_v10 : Ref sig .tc := ⟨.hbm, 86, rfl⟩
abbrev main_v11 : Ref sig .tc := ⟨.hbm, 87, rfl⟩
abbrev main_call3_c : Ref sig .tc := ⟨.hbm, 88, rfl⟩
abbrev main_call3_v0 : Ref sig .tc := ⟨.hbm, 89, rfl⟩
abbrev main_call3_v1 : Ref sig .tc := ⟨.hbm, 90, rfl⟩
abbrev main_call3_c_0 : Ref sig .tc := ⟨.hbm, 91, rfl⟩
abbrev main_call3_v2 : Ref sig .tc := ⟨.hbm, 92, rfl⟩
abbrev main_call3_v3 : Ref sig .tc := ⟨.hbm, 93, rfl⟩
abbrev main_call3_v4 : Ref sig .tc := ⟨.hbm, 94, rfl⟩
abbrev main_call3_v5 : Ref sig .tc := ⟨.hbm, 95, rfl⟩
abbrev main_call3_c_1 : Ref sig .tc := ⟨.hbm, 96, rfl⟩
abbrev main_call3_c_2 : Ref sig .tc := ⟨.hbm, 97, rfl⟩
abbrev main_call3_v6 : Ref sig .tc := ⟨.hbm, 98, rfl⟩
abbrev main_call3_v7 : Ref sig .tc := ⟨.hbm, 99, rfl⟩
abbrev main_call3_v8 : Ref sig .tc := ⟨.hbm, 100, rfl⟩
abbrev main_call3_v9 : Ref sig .tc := ⟨.hbm, 101, rfl⟩
abbrev main_call3_v10 : Ref sig .tc := ⟨.hbm, 102, rfl⟩
abbrev main_call3_v11 : Ref sig .tc := ⟨.hbm, 103, rfl⟩
abbrev main_call3_c_3 : Ref sig .tc := ⟨.hbm, 104, rfl⟩
abbrev main_call3_v12 : Ref sig .tc := ⟨.hbm, 105, rfl⟩
abbrev main_call3_v13 : Ref sig .tc := ⟨.hbm, 106, rfl⟩
abbrev main_call3_v14 : Ref sig .tc := ⟨.hbm, 107, rfl⟩
abbrev main_call3_cst : Ref sig .tc := ⟨.hbm, 108, rfl⟩
abbrev main_call3_v15 : Ref sig .tc := ⟨.hbm, 109, rfl⟩
abbrev main_v12 : Ref sig .tc := ⟨.hbm, 110, rfl⟩
abbrev main_v13 : Ref sig .tc := ⟨.hbm, 111, rfl⟩
abbrev main_v14 : Ref sig .tc := ⟨.hbm, 112, rfl⟩
abbrev main_call4_c : Ref sig .tc := ⟨.hbm, 113, rfl⟩
abbrev main_call4_v0 : Ref sig .tc := ⟨.hbm, 114, rfl⟩
abbrev main_call4_v1 : Ref sig .tc := ⟨.hbm, 115, rfl⟩
abbrev main_call4_c_0 : Ref sig .tc := ⟨.hbm, 116, rfl⟩
abbrev main_call4_v2 : Ref sig .tc := ⟨.hbm, 117, rfl⟩
abbrev main_call4_v3 : Ref sig .tc := ⟨.hbm, 118, rfl⟩
abbrev main_call4_v4 : Ref sig .tc := ⟨.hbm, 119, rfl⟩
abbrev main_call4_v5 : Ref sig .tc := ⟨.hbm, 120, rfl⟩
abbrev main_call4_c_1 : Ref sig .tc := ⟨.hbm, 121, rfl⟩
abbrev main_call4_c_2 : Ref sig .tc := ⟨.hbm, 122, rfl⟩
abbrev main_call4_v6 : Ref sig .tc := ⟨.hbm, 123, rfl⟩
abbrev main_call4_v7 : Ref sig .tc := ⟨.hbm, 124, rfl⟩
abbrev main_call4_v8 : Ref sig .tc := ⟨.hbm, 125, rfl⟩
abbrev main_call4_v9 : Ref sig .tc := ⟨.hbm, 126, rfl⟩
abbrev main_call4_v10 : Ref sig .tc := ⟨.hbm, 127, rfl⟩
abbrev main_call4_v11 : Ref sig .tc := ⟨.hbm, 128, rfl⟩
abbrev main_call4_c_3 : Ref sig .tc := ⟨.hbm, 129, rfl⟩
abbrev main_call4_v12 : Ref sig .tc := ⟨.hbm, 130, rfl⟩
abbrev main_call4_v13 : Ref sig .tc := ⟨.hbm, 131, rfl⟩
abbrev main_call4_v14 : Ref sig .tc := ⟨.hbm, 132, rfl⟩
abbrev main_call4_cst : Ref sig .tc := ⟨.hbm, 133, rfl⟩
abbrev main_call4_v15 : Ref sig .tc := ⟨.hbm, 134, rfl⟩
abbrev main_v15 : Ref sig .tc := ⟨.hbm, 135, rfl⟩
abbrev main_v16 : Ref sig .tc := ⟨.hbm, 136, rfl⟩
abbrev main_v17 : Ref sig .tc := ⟨.hbm, 137, rfl⟩
abbrev main_call5_c : Ref sig .tc := ⟨.hbm, 138, rfl⟩
abbrev main_call5_v0 : Ref sig .tc := ⟨.hbm, 139, rfl⟩
abbrev main_call5_v1 : Ref sig .tc := ⟨.hbm, 140, rfl⟩
abbrev main_call5_c_0 : Ref sig .tc := ⟨.hbm, 141, rfl⟩
abbrev main_call5_v2 : Ref sig .tc := ⟨.hbm, 142, rfl⟩
abbrev main_call5_v3 : Ref sig .tc := ⟨.hbm, 143, rfl⟩
abbrev main_call5_v4 : Ref sig .tc := ⟨.hbm, 144, rfl⟩
abbrev main_call5_v5 : Ref sig .tc := ⟨.hbm, 145, rfl⟩
abbrev main_call5_c_1 : Ref sig .tc := ⟨.hbm, 146, rfl⟩
abbrev main_call5_c_2 : Ref sig .tc := ⟨.hbm, 147, rfl⟩
abbrev main_call5_v6 : Ref sig .tc := ⟨.hbm, 148, rfl⟩
abbrev main_call5_v7 : Ref sig .tc := ⟨.hbm, 149, rfl⟩
abbrev main_call5_v8 : Ref sig .tc := ⟨.hbm, 150, rfl⟩
abbrev main_call5_v9 : Ref sig .tc := ⟨.hbm, 151, rfl⟩
abbrev main_call5_v10 : Ref sig .tc := ⟨.hbm, 152, rfl⟩
abbrev main_call5_v11 : Ref sig .tc := ⟨.hbm, 153, rfl⟩
abbrev main_call5_c_3 : Ref sig .tc := ⟨.hbm, 154, rfl⟩
abbrev main_call5_v12 : Ref sig .tc := ⟨.hbm, 155, rfl⟩
abbrev main_call5_v13 : Ref sig .tc := ⟨.hbm, 156, rfl⟩
abbrev main_call5_v14 : Ref sig .tc := ⟨.hbm, 157, rfl⟩
abbrev main_call5_cst : Ref sig .tc := ⟨.hbm, 158, rfl⟩
abbrev main_call5_v15 : Ref sig .tc := ⟨.hbm, 159, rfl⟩
abbrev main_v18 : Ref sig .tc := ⟨.hbm, 160, rfl⟩
abbrev main_v19 : Ref sig .tc := ⟨.hbm, 161, rfl⟩
abbrev main_call6_c : Ref sig .tc := ⟨.hbm, 162, rfl⟩
abbrev main_call6_v0 : Ref sig .tc := ⟨.hbm, 163, rfl⟩
abbrev main_call6_v1 : Ref sig .tc := ⟨.hbm, 164, rfl⟩
abbrev main_call6_c_0 : Ref sig .tc := ⟨.hbm, 165, rfl⟩
abbrev main_call6_v2 : Ref sig .tc := ⟨.hbm, 166, rfl⟩
abbrev main_call6_v3 : Ref sig .tc := ⟨.hbm, 167, rfl⟩
abbrev main_call6_v4 : Ref sig .tc := ⟨.hbm, 168, rfl⟩
abbrev main_call6_v5 : Ref sig .tc := ⟨.hbm, 169, rfl⟩
abbrev main_call6_c_1 : Ref sig .tc := ⟨.hbm, 170, rfl⟩
abbrev main_call6_c_2 : Ref sig .tc := ⟨.hbm, 171, rfl⟩
abbrev main_call6_v6 : Ref sig .tc := ⟨.hbm, 172, rfl⟩
abbrev main_call6_v7 : Ref sig .tc := ⟨.hbm, 173, rfl⟩
abbrev main_call6_v8 : Ref sig .tc := ⟨.hbm, 174, rfl⟩
abbrev main_call6_v9 : Ref sig .tc := ⟨.hbm, 175, rfl⟩
abbrev main_call6_v10 : Ref sig .tc := ⟨.hbm, 176, rfl⟩
abbrev main_call6_v11 : Ref sig .tc := ⟨.hbm, 177, rfl⟩
abbrev main_call6_c_3 : Ref sig .tc := ⟨.hbm, 178, rfl⟩
abbrev main_call6_v12 : Ref sig .tc := ⟨.hbm, 179, rfl⟩
abbrev main_call6_v13 : Ref sig .tc := ⟨.hbm, 180, rfl⟩
abbrev main_call6_v14 : Ref sig .tc := ⟨.hbm, 181, rfl⟩
abbrev main_call6_cst : Ref sig .tc := ⟨.hbm, 182, rfl⟩
abbrev main_call6_v15 : Ref sig .tc := ⟨.hbm, 183, rfl⟩
abbrev main_v20 : Ref sig .tc := ⟨.hbm, 184, rfl⟩
abbrev main_call7_c : Ref sig .tc := ⟨.hbm, 185, rfl⟩
abbrev main_call7_v0 : Ref sig .tc := ⟨.hbm, 186, rfl⟩
abbrev main_call7_v1 : Ref sig .tc := ⟨.hbm, 187, rfl⟩
abbrev main_call7_c_0 : Ref sig .tc := ⟨.hbm, 188, rfl⟩
abbrev main_call7_v2 : Ref sig .tc := ⟨.hbm, 189, rfl⟩
abbrev main_call7_v3 : Ref sig .tc := ⟨.hbm, 190, rfl⟩
abbrev main_call7_v4 : Ref sig .tc := ⟨.hbm, 191, rfl⟩
abbrev main_call7_v5 : Ref sig .tc := ⟨.hbm, 192, rfl⟩
abbrev main_call7_c_1 : Ref sig .tc := ⟨.hbm, 193, rfl⟩
abbrev main_call7_c_2 : Ref sig .tc := ⟨.hbm, 194, rfl⟩
abbrev main_call7_v6 : Ref sig .tc := ⟨.hbm, 195, rfl⟩
abbrev main_call7_v7 : Ref sig .tc := ⟨.hbm, 196, rfl⟩
abbrev main_call7_v8 : Ref sig .tc := ⟨.hbm, 197, rfl⟩
abbrev main_call7_v9 : Ref sig .tc := ⟨.hbm, 198, rfl⟩
abbrev main_call7_v10 : Ref sig .tc := ⟨.hbm, 199, rfl⟩
abbrev main_call7_v11 : Ref sig .tc := ⟨.hbm, 200, rfl⟩
abbrev main_call7_c_3 : Ref sig .tc := ⟨.hbm, 201, rfl⟩
abbrev main_call7_v12 : Ref sig .tc := ⟨.hbm, 202, rfl⟩
abbrev main_call7_v13 : Ref sig .tc := ⟨.hbm, 203, rfl⟩
abbrev main_call7_v14 : Ref sig .tc := ⟨.hbm, 204, rfl⟩
abbrev main_call7_cst : Ref sig .tc := ⟨.hbm, 205, rfl⟩
abbrev main_call7_v15 : Ref sig .tc := ⟨.hbm, 206, rfl⟩
abbrev main_v21 : Ref sig .tc := ⟨.hbm, 207, rfl⟩
abbrev main_v22 : Ref sig .tc := ⟨.hbm, 208, rfl⟩
abbrev main_v23 : Ref sig .tc := ⟨.hbm, 209, rfl⟩
abbrev main_v24 : Ref sig .tc := ⟨.hbm, 210, rfl⟩
abbrev main_call8_c : Ref sig .tc := ⟨.hbm, 211, rfl⟩
abbrev main_call8_v0 : Ref sig .tc := ⟨.hbm, 212, rfl⟩
abbrev main_call8_v1 : Ref sig .tc := ⟨.hbm, 213, rfl⟩
abbrev main_call8_c_0 : Ref sig .tc := ⟨.hbm, 214, rfl⟩
abbrev main_call8_v2 : Ref sig .tc := ⟨.hbm, 215, rfl⟩
abbrev main_call8_v3 : Ref sig .tc := ⟨.hbm, 216, rfl⟩
abbrev main_call8_v4 : Ref sig .tc := ⟨.hbm, 217, rfl⟩
abbrev main_call8_v5 : Ref sig .tc := ⟨.hbm, 218, rfl⟩
abbrev main_call8_c_1 : Ref sig .tc := ⟨.hbm, 219, rfl⟩
abbrev main_call8_c_2 : Ref sig .tc := ⟨.hbm, 220, rfl⟩
abbrev main_call8_v6 : Ref sig .tc := ⟨.hbm, 221, rfl⟩
abbrev main_call8_v7 : Ref sig .tc := ⟨.hbm, 222, rfl⟩
abbrev main_call8_v8 : Ref sig .tc := ⟨.hbm, 223, rfl⟩
abbrev main_call8_v9 : Ref sig .tc := ⟨.hbm, 224, rfl⟩
abbrev main_call8_v10 : Ref sig .tc := ⟨.hbm, 225, rfl⟩
abbrev main_call8_v11 : Ref sig .tc := ⟨.hbm, 226, rfl⟩
abbrev main_call8_c_3 : Ref sig .tc := ⟨.hbm, 227, rfl⟩
abbrev main_call8_v12 : Ref sig .tc := ⟨.hbm, 228, rfl⟩
abbrev main_call8_v13 : Ref sig .tc := ⟨.hbm, 229, rfl⟩
abbrev main_call8_v14 : Ref sig .tc := ⟨.hbm, 230, rfl⟩
abbrev main_call8_cst : Ref sig .tc := ⟨.hbm, 231, rfl⟩
abbrev main_call8_v15 : Ref sig .tc := ⟨.hbm, 232, rfl⟩
abbrev main_v25 : Ref sig .tc := ⟨.hbm, 233, rfl⟩
abbrev main_v26 : Ref sig .tc := ⟨.hbm, 234, rfl⟩
abbrev main_v27 : Ref sig .tc := ⟨.hbm, 235, rfl⟩
abbrev main_call9_c : Ref sig .tc := ⟨.hbm, 236, rfl⟩
abbrev main_call9_v0 : Ref sig .tc := ⟨.hbm, 237, rfl⟩
abbrev main_call9_v1 : Ref sig .tc := ⟨.hbm, 238, rfl⟩
abbrev main_call9_c_0 : Ref sig .tc := ⟨.hbm, 239, rfl⟩
abbrev main_call9_v2 : Ref sig .tc := ⟨.hbm, 240, rfl⟩
abbrev main_call9_v3 : Ref sig .tc := ⟨.hbm, 241, rfl⟩
abbrev main_call9_v4 : Ref sig .tc := ⟨.hbm, 242, rfl⟩
abbrev main_call9_v5 : Ref sig .tc := ⟨.hbm, 243, rfl⟩
abbrev main_call9_c_1 : Ref sig .tc := ⟨.hbm, 244, rfl⟩
abbrev main_call9_c_2 : Ref sig .tc := ⟨.hbm, 245, rfl⟩
abbrev main_call9_v6 : Ref sig .tc := ⟨.hbm, 246, rfl⟩
abbrev main_call9_v7 : Ref sig .tc := ⟨.hbm, 247, rfl⟩
abbrev main_call9_v8 : Ref sig .tc := ⟨.hbm, 248, rfl⟩
abbrev main_call9_v9 : Ref sig .tc := ⟨.hbm, 249, rfl⟩
abbrev main_call9_v10 : Ref sig .tc := ⟨.hbm, 250, rfl⟩
abbrev main_call9_v11 : Ref sig .tc := ⟨.hbm, 251, rfl⟩
abbrev main_call9_c_3 : Ref sig .tc := ⟨.hbm, 252, rfl⟩
abbrev main_call9_v12 : Ref sig .tc := ⟨.hbm, 253, rfl⟩
abbrev main_call9_v13 : Ref sig .tc := ⟨.hbm, 254, rfl⟩
abbrev main_call9_v14 : Ref sig .tc := ⟨.hbm, 255, rfl⟩
abbrev main_call9_cst : Ref sig .tc := ⟨.hbm, 256, rfl⟩
abbrev main_call9_v15 : Ref sig .tc := ⟨.hbm, 257, rfl⟩
abbrev main_v28 : Ref sig .tc := ⟨.hbm, 258, rfl⟩
abbrev main_v29 : Ref sig .tc := ⟨.hbm, 259, rfl⟩
abbrev main_v30 : Ref sig .tc := ⟨.hbm, 260, rfl⟩
abbrev main_call10_c : Ref sig .tc := ⟨.hbm, 261, rfl⟩
abbrev main_call10_v0 : Ref sig .tc := ⟨.hbm, 262, rfl⟩
abbrev main_call10_v1 : Ref sig .tc := ⟨.hbm, 263, rfl⟩
abbrev main_call10_c_0 : Ref sig .tc := ⟨.hbm, 264, rfl⟩
abbrev main_call10_v2 : Ref sig .tc := ⟨.hbm, 265, rfl⟩
abbrev main_call10_v3 : Ref sig .tc := ⟨.hbm, 266, rfl⟩
abbrev main_call10_v4 : Ref sig .tc := ⟨.hbm, 267, rfl⟩
abbrev main_call10_v5 : Ref sig .tc := ⟨.hbm, 268, rfl⟩
abbrev main_call10_c_1 : Ref sig .tc := ⟨.hbm, 269, rfl⟩
abbrev main_call10_c_2 : Ref sig .tc := ⟨.hbm, 270, rfl⟩
abbrev main_call10_v6 : Ref sig .tc := ⟨.hbm, 271, rfl⟩
abbrev main_call10_v7 : Ref sig .tc := ⟨.hbm, 272, rfl⟩
abbrev main_call10_v8 : Ref sig .tc := ⟨.hbm, 273, rfl⟩
abbrev main_call10_v9 : Ref sig .tc := ⟨.hbm, 274, rfl⟩
abbrev main_call10_v10 : Ref sig .tc := ⟨.hbm, 275, rfl⟩
abbrev main_call10_v11 : Ref sig .tc := ⟨.hbm, 276, rfl⟩
abbrev main_call10_c_3 : Ref sig .tc := ⟨.hbm, 277, rfl⟩
abbrev main_call10_v12 : Ref sig .tc := ⟨.hbm, 278, rfl⟩
abbrev main_call10_v13 : Ref sig .tc := ⟨.hbm, 279, rfl⟩
abbrev main_call10_v14 : Ref sig .tc := ⟨.hbm, 280, rfl⟩
abbrev main_call10_cst : Ref sig .tc := ⟨.hbm, 281, rfl⟩
abbrev main_call10_v15 : Ref sig .tc := ⟨.hbm, 282, rfl⟩
abbrev main_v31 : Ref sig .tc := ⟨.hbm, 283, rfl⟩
abbrev main_v32 : Ref sig .tc := ⟨.hbm, 284, rfl⟩
abbrev main_v33 : Ref sig .tc := ⟨.hbm, 285, rfl⟩
abbrev main_call11_c : Ref sig .tc := ⟨.hbm, 286, rfl⟩
abbrev main_call11_v0 : Ref sig .tc := ⟨.hbm, 287, rfl⟩
abbrev main_call11_v1 : Ref sig .tc := ⟨.hbm, 288, rfl⟩
abbrev main_call11_c_0 : Ref sig .tc := ⟨.hbm, 289, rfl⟩
abbrev main_call11_v2 : Ref sig .tc := ⟨.hbm, 290, rfl⟩
abbrev main_call11_v3 : Ref sig .tc := ⟨.hbm, 291, rfl⟩
abbrev main_call11_v4 : Ref sig .tc := ⟨.hbm, 292, rfl⟩
abbrev main_call11_v5 : Ref sig .tc := ⟨.hbm, 293, rfl⟩
abbrev main_call11_c_1 : Ref sig .tc := ⟨.hbm, 294, rfl⟩
abbrev main_call11_c_2 : Ref sig .tc := ⟨.hbm, 295, rfl⟩
abbrev main_call11_v6 : Ref sig .tc := ⟨.hbm, 296, rfl⟩
abbrev main_call11_v7 : Ref sig .tc := ⟨.hbm, 297, rfl⟩
abbrev main_call11_v8 : Ref sig .tc := ⟨.hbm, 298, rfl⟩
abbrev main_call11_v9 : Ref sig .tc := ⟨.hbm, 299, rfl⟩
abbrev main_call11_v10 : Ref sig .tc := ⟨.hbm, 300, rfl⟩
abbrev main_call11_v11 : Ref sig .tc := ⟨.hbm, 301, rfl⟩
abbrev main_call11_c_3 : Ref sig .tc := ⟨.hbm, 302, rfl⟩
abbrev main_call11_v12 : Ref sig .tc := ⟨.hbm, 303, rfl⟩
abbrev main_call11_v13 : Ref sig .tc := ⟨.hbm, 304, rfl⟩
abbrev main_call11_v14 : Ref sig .tc := ⟨.hbm, 305, rfl⟩
abbrev main_call11_cst : Ref sig .tc := ⟨.hbm, 306, rfl⟩
abbrev main_call11_v15 : Ref sig .tc := ⟨.hbm, 307, rfl⟩
abbrev main_v34 : Ref sig .tc := ⟨.hbm, 308, rfl⟩
abbrev main_v35 : Ref sig .tc := ⟨.hbm, 309, rfl⟩
abbrev main_v36 : Ref sig .tc := ⟨.hbm, 310, rfl⟩
abbrev main_call12_c : Ref sig .tc := ⟨.hbm, 311, rfl⟩
abbrev main_call12_v0 : Ref sig .tc := ⟨.hbm, 312, rfl⟩
abbrev main_call12_v1 : Ref sig .tc := ⟨.hbm, 313, rfl⟩
abbrev main_call12_c_0 : Ref sig .tc := ⟨.hbm, 314, rfl⟩
abbrev main_call12_v2 : Ref sig .tc := ⟨.hbm, 315, rfl⟩
abbrev main_call12_v3 : Ref sig .tc := ⟨.hbm, 316, rfl⟩
abbrev main_call12_v4 : Ref sig .tc := ⟨.hbm, 317, rfl⟩
abbrev main_call12_v5 : Ref sig .tc := ⟨.hbm, 318, rfl⟩
abbrev main_call12_c_1 : Ref sig .tc := ⟨.hbm, 319, rfl⟩
abbrev main_call12_c_2 : Ref sig .tc := ⟨.hbm, 320, rfl⟩
abbrev main_call12_v6 : Ref sig .tc := ⟨.hbm, 321, rfl⟩
abbrev main_call12_v7 : Ref sig .tc := ⟨.hbm, 322, rfl⟩
abbrev main_call12_v8 : Ref sig .tc := ⟨.hbm, 323, rfl⟩
abbrev main_call12_v9 : Ref sig .tc := ⟨.hbm, 324, rfl⟩
abbrev main_call12_v10 : Ref sig .tc := ⟨.hbm, 325, rfl⟩
abbrev main_call12_v11 : Ref sig .tc := ⟨.hbm, 326, rfl⟩
abbrev main_call12_c_3 : Ref sig .tc := ⟨.hbm, 327, rfl⟩
abbrev main_call12_v12 : Ref sig .tc := ⟨.hbm, 328, rfl⟩
abbrev main_call12_v13 : Ref sig .tc := ⟨.hbm, 329, rfl⟩
abbrev main_call12_v14 : Ref sig .tc := ⟨.hbm, 330, rfl⟩
abbrev main_call12_cst : Ref sig .tc := ⟨.hbm, 331, rfl⟩
abbrev main_call12_v15 : Ref sig .tc := ⟨.hbm, 332, rfl⟩
abbrev main_v37 : Ref sig .tc := ⟨.hbm, 333, rfl⟩
abbrev main_v38 : Ref sig .tc := ⟨.hbm, 334, rfl⟩
abbrev main_v39 : Ref sig .tc := ⟨.hbm, 335, rfl⟩
abbrev main_call13_c : Ref sig .tc := ⟨.hbm, 336, rfl⟩
abbrev main_call13_v0 : Ref sig .tc := ⟨.hbm, 337, rfl⟩
abbrev main_call13_v1 : Ref sig .tc := ⟨.hbm, 338, rfl⟩
abbrev main_call13_c_0 : Ref sig .tc := ⟨.hbm, 339, rfl⟩
abbrev main_call13_v2 : Ref sig .tc := ⟨.hbm, 340, rfl⟩
abbrev main_call13_v3 : Ref sig .tc := ⟨.hbm, 341, rfl⟩
abbrev main_call13_v4 : Ref sig .tc := ⟨.hbm, 342, rfl⟩
abbrev main_call13_v5 : Ref sig .tc := ⟨.hbm, 343, rfl⟩
abbrev main_call13_c_1 : Ref sig .tc := ⟨.hbm, 344, rfl⟩
abbrev main_call13_c_2 : Ref sig .tc := ⟨.hbm, 345, rfl⟩
abbrev main_call13_v6 : Ref sig .tc := ⟨.hbm, 346, rfl⟩
abbrev main_call13_v7 : Ref sig .tc := ⟨.hbm, 347, rfl⟩
abbrev main_call13_v8 : Ref sig .tc := ⟨.hbm, 348, rfl⟩
abbrev main_call13_v9 : Ref sig .tc := ⟨.hbm, 349, rfl⟩
abbrev main_call13_v10 : Ref sig .tc := ⟨.hbm, 350, rfl⟩
abbrev main_call13_v11 : Ref sig .tc := ⟨.hbm, 351, rfl⟩
abbrev main_call13_c_3 : Ref sig .tc := ⟨.hbm, 352, rfl⟩
abbrev main_call13_v12 : Ref sig .tc := ⟨.hbm, 353, rfl⟩
abbrev main_call13_v13 : Ref sig .tc := ⟨.hbm, 354, rfl⟩
abbrev main_call13_v14 : Ref sig .tc := ⟨.hbm, 355, rfl⟩
abbrev main_call13_cst : Ref sig .tc := ⟨.hbm, 356, rfl⟩
abbrev main_call13_v15 : Ref sig .tc := ⟨.hbm, 357, rfl⟩
abbrev main_v40 : Ref sig .tc := ⟨.hbm, 358, rfl⟩
abbrev main_v41 : Ref sig .tc := ⟨.hbm, 359, rfl⟩
abbrev main_call14_c : Ref sig .tc := ⟨.hbm, 360, rfl⟩
abbrev main_call14_v0 : Ref sig .tc := ⟨.hbm, 361, rfl⟩
abbrev main_call14_v1 : Ref sig .tc := ⟨.hbm, 362, rfl⟩
abbrev main_call14_c_0 : Ref sig .tc := ⟨.hbm, 363, rfl⟩
abbrev main_call14_v2 : Ref sig .tc := ⟨.hbm, 364, rfl⟩
abbrev main_call14_v3 : Ref sig .tc := ⟨.hbm, 365, rfl⟩
abbrev main_call14_v4 : Ref sig .tc := ⟨.hbm, 366, rfl⟩
abbrev main_call14_v5 : Ref sig .tc := ⟨.hbm, 367, rfl⟩
abbrev main_call14_c_1 : Ref sig .tc := ⟨.hbm, 368, rfl⟩
abbrev main_call14_c_2 : Ref sig .tc := ⟨.hbm, 369, rfl⟩
abbrev main_call14_v6 : Ref sig .tc := ⟨.hbm, 370, rfl⟩
abbrev main_call14_v7 : Ref sig .tc := ⟨.hbm, 371, rfl⟩
abbrev main_call14_v8 : Ref sig .tc := ⟨.hbm, 372, rfl⟩
abbrev main_call14_v9 : Ref sig .tc := ⟨.hbm, 373, rfl⟩
abbrev main_call14_v10 : Ref sig .tc := ⟨.hbm, 374, rfl⟩
abbrev main_call14_v11 : Ref sig .tc := ⟨.hbm, 375, rfl⟩
abbrev main_call14_c_3 : Ref sig .tc := ⟨.hbm, 376, rfl⟩
abbrev main_call14_v12 : Ref sig .tc := ⟨.hbm, 377, rfl⟩
abbrev main_call14_v13 : Ref sig .tc := ⟨.hbm, 378, rfl⟩
abbrev main_call14_v14 : Ref sig .tc := ⟨.hbm, 379, rfl⟩
abbrev main_call14_cst : Ref sig .tc := ⟨.hbm, 380, rfl⟩
abbrev main_call14_v15 : Ref sig .tc := ⟨.hbm, 381, rfl⟩
abbrev main_v42 : Ref sig .tc := ⟨.hbm, 382, rfl⟩
abbrev main_call15_c : Ref sig .tc := ⟨.hbm, 383, rfl⟩
abbrev main_call15_v0 : Ref sig .tc := ⟨.hbm, 384, rfl⟩
abbrev main_call15_v1 : Ref sig .tc := ⟨.hbm, 385, rfl⟩
abbrev main_call15_c_0 : Ref sig .tc := ⟨.hbm, 386, rfl⟩
abbrev main_call15_v2 : Ref sig .tc := ⟨.hbm, 387, rfl⟩
abbrev main_call15_v3 : Ref sig .tc := ⟨.hbm, 388, rfl⟩
abbrev main_call15_v4 : Ref sig .tc := ⟨.hbm, 389, rfl⟩
abbrev main_call15_v5 : Ref sig .tc := ⟨.hbm, 390, rfl⟩
abbrev main_call15_c_1 : Ref sig .tc := ⟨.hbm, 391, rfl⟩
abbrev main_call15_c_2 : Ref sig .tc := ⟨.hbm, 392, rfl⟩
abbrev main_call15_v6 : Ref sig .tc := ⟨.hbm, 393, rfl⟩
abbrev main_call15_v7 : Ref sig .tc := ⟨.hbm, 394, rfl⟩
abbrev main_call15_v8 : Ref sig .tc := ⟨.hbm, 395, rfl⟩
abbrev main_call15_v9 : Ref sig .tc := ⟨.hbm, 396, rfl⟩
abbrev main_call15_v10 : Ref sig .tc := ⟨.hbm, 397, rfl⟩
abbrev main_call15_v11 : Ref sig .tc := ⟨.hbm, 398, rfl⟩
abbrev main_call15_c_3 : Ref sig .tc := ⟨.hbm, 399, rfl⟩
abbrev main_call15_v12 : Ref sig .tc := ⟨.hbm, 400, rfl⟩
abbrev main_call15_v13 : Ref sig .tc := ⟨.hbm, 401, rfl⟩
abbrev main_call15_v14 : Ref sig .tc := ⟨.hbm, 402, rfl⟩
abbrev main_call15_cst : Ref sig .tc := ⟨.hbm, 403, rfl⟩
abbrev main_call15_v15 : Ref sig .tc := ⟨.hbm, 404, rfl⟩
abbrev main_v43 : Ref sig .tc := ⟨.hbm, 405, rfl⟩
abbrev main_v44 : Ref sig .tc := ⟨.hbm, 406, rfl⟩
abbrev main_v45 : Ref sig .tc := ⟨.hbm, 407, rfl⟩
abbrev main_v46 : Ref sig .tc := ⟨.hbm, 408, rfl⟩
abbrev main_call16_c : Ref sig .tc := ⟨.hbm, 409, rfl⟩
abbrev main_call16_v0 : Ref sig .tc := ⟨.hbm, 410, rfl⟩
abbrev main_call16_v1 : Ref sig .tc := ⟨.hbm, 411, rfl⟩
abbrev main_call16_c_0 : Ref sig .tc := ⟨.hbm, 412, rfl⟩
abbrev main_call16_v2 : Ref sig .tc := ⟨.hbm, 413, rfl⟩
abbrev main_call16_v3 : Ref sig .tc := ⟨.hbm, 414, rfl⟩
abbrev main_call16_v4 : Ref sig .tc := ⟨.hbm, 415, rfl⟩
abbrev main_call16_v5 : Ref sig .tc := ⟨.hbm, 416, rfl⟩
abbrev main_call16_c_1 : Ref sig .tc := ⟨.hbm, 417, rfl⟩
abbrev main_call16_c_2 : Ref sig .tc := ⟨.hbm, 418, rfl⟩
abbrev main_call16_v6 : Ref sig .tc := ⟨.hbm, 419, rfl⟩
abbrev main_call16_v7 : Ref sig .tc := ⟨.hbm, 420, rfl⟩
abbrev main_call16_v8 : Ref sig .tc := ⟨.hbm, 421, rfl⟩
abbrev main_call16_v9 : Ref sig .tc := ⟨.hbm, 422, rfl⟩
abbrev main_call16_v10 : Ref sig .tc := ⟨.hbm, 423, rfl⟩
abbrev main_call16_v11 : Ref sig .tc := ⟨.hbm, 424, rfl⟩
abbrev main_call16_c_3 : Ref sig .tc := ⟨.hbm, 425, rfl⟩
abbrev main_call16_v12 : Ref sig .tc := ⟨.hbm, 426, rfl⟩
abbrev main_call16_v13 : Ref sig .tc := ⟨.hbm, 427, rfl⟩
abbrev main_call16_v14 : Ref sig .tc := ⟨.hbm, 428, rfl⟩
abbrev main_call16_cst : Ref sig .tc := ⟨.hbm, 429, rfl⟩
abbrev main_call16_v15 : Ref sig .tc := ⟨.hbm, 430, rfl⟩
abbrev main_v47 : Ref sig .tc := ⟨.hbm, 431, rfl⟩
abbrev main_v48 : Ref sig .tc := ⟨.hbm, 432, rfl⟩
abbrev main_v49 : Ref sig .tc := ⟨.hbm, 433, rfl⟩
abbrev main_call17_c : Ref sig .tc := ⟨.hbm, 434, rfl⟩
abbrev main_call17_v0 : Ref sig .tc := ⟨.hbm, 435, rfl⟩
abbrev main_call17_v1 : Ref sig .tc := ⟨.hbm, 436, rfl⟩
abbrev main_call17_c_0 : Ref sig .tc := ⟨.hbm, 437, rfl⟩
abbrev main_call17_v2 : Ref sig .tc := ⟨.hbm, 438, rfl⟩
abbrev main_call17_v3 : Ref sig .tc := ⟨.hbm, 439, rfl⟩
abbrev main_call17_v4 : Ref sig .tc := ⟨.hbm, 440, rfl⟩
abbrev main_call17_v5 : Ref sig .tc := ⟨.hbm, 441, rfl⟩
abbrev main_call17_c_1 : Ref sig .tc := ⟨.hbm, 442, rfl⟩
abbrev main_call17_c_2 : Ref sig .tc := ⟨.hbm, 443, rfl⟩
abbrev main_call17_v6 : Ref sig .tc := ⟨.hbm, 444, rfl⟩
abbrev main_call17_v7 : Ref sig .tc := ⟨.hbm, 445, rfl⟩
abbrev main_call17_v8 : Ref sig .tc := ⟨.hbm, 446, rfl⟩
abbrev main_call17_v9 : Ref sig .tc := ⟨.hbm, 447, rfl⟩
abbrev main_call17_v10 : Ref sig .tc := ⟨.hbm, 448, rfl⟩
abbrev main_call17_v11 : Ref sig .tc := ⟨.hbm, 449, rfl⟩
abbrev main_call17_c_3 : Ref sig .tc := ⟨.hbm, 450, rfl⟩
abbrev main_call17_v12 : Ref sig .tc := ⟨.hbm, 451, rfl⟩
abbrev main_call17_v13 : Ref sig .tc := ⟨.hbm, 452, rfl⟩
abbrev main_call17_v14 : Ref sig .tc := ⟨.hbm, 453, rfl⟩
abbrev main_call17_cst : Ref sig .tc := ⟨.hbm, 454, rfl⟩
abbrev main_call17_v15 : Ref sig .tc := ⟨.hbm, 455, rfl⟩
abbrev main_v50 : Ref sig .tc := ⟨.hbm, 456, rfl⟩
abbrev main_v51 : Ref sig .tc := ⟨.hbm, 457, rfl⟩
abbrev main_v52 : Ref sig .tc := ⟨.hbm, 458, rfl⟩
abbrev main_call18_c : Ref sig .tc := ⟨.hbm, 459, rfl⟩
abbrev main_call18_v0 : Ref sig .tc := ⟨.hbm, 460, rfl⟩
abbrev main_call18_v1 : Ref sig .tc := ⟨.hbm, 461, rfl⟩
abbrev main_call18_c_0 : Ref sig .tc := ⟨.hbm, 462, rfl⟩
abbrev main_call18_v2 : Ref sig .tc := ⟨.hbm, 463, rfl⟩
abbrev main_call18_v3 : Ref sig .tc := ⟨.hbm, 464, rfl⟩
abbrev main_call18_v4 : Ref sig .tc := ⟨.hbm, 465, rfl⟩
abbrev main_call18_v5 : Ref sig .tc := ⟨.hbm, 466, rfl⟩
abbrev main_call18_c_1 : Ref sig .tc := ⟨.hbm, 467, rfl⟩
abbrev main_call18_c_2 : Ref sig .tc := ⟨.hbm, 468, rfl⟩
abbrev main_call18_v6 : Ref sig .tc := ⟨.hbm, 469, rfl⟩
abbrev main_call18_v7 : Ref sig .tc := ⟨.hbm, 470, rfl⟩
abbrev main_call18_v8 : Ref sig .tc := ⟨.hbm, 471, rfl⟩
abbrev main_call18_v9 : Ref sig .tc := ⟨.hbm, 472, rfl⟩
abbrev main_call18_v10 : Ref sig .tc := ⟨.hbm, 473, rfl⟩
abbrev main_call18_v11 : Ref sig .tc := ⟨.hbm, 474, rfl⟩
abbrev main_call18_c_3 : Ref sig .tc := ⟨.hbm, 475, rfl⟩
abbrev main_call18_v12 : Ref sig .tc := ⟨.hbm, 476, rfl⟩
abbrev main_call18_v13 : Ref sig .tc := ⟨.hbm, 477, rfl⟩
abbrev main_call18_v14 : Ref sig .tc := ⟨.hbm, 478, rfl⟩
abbrev main_call18_cst : Ref sig .tc := ⟨.hbm, 479, rfl⟩
abbrev main_call18_v15 : Ref sig .tc := ⟨.hbm, 480, rfl⟩
abbrev main_v53 : Ref sig .tc := ⟨.hbm, 481, rfl⟩
abbrev main_v54 : Ref sig .tc := ⟨.hbm, 482, rfl⟩
abbrev main_v55 : Ref sig .tc := ⟨.hbm, 483, rfl⟩
abbrev main_call19_c : Ref sig .tc := ⟨.hbm, 484, rfl⟩
abbrev main_call19_v0 : Ref sig .tc := ⟨.hbm, 485, rfl⟩
abbrev main_call19_v1 : Ref sig .tc := ⟨.hbm, 486, rfl⟩
abbrev main_call19_c_0 : Ref sig .tc := ⟨.hbm, 487, rfl⟩
abbrev main_call19_v2 : Ref sig .tc := ⟨.hbm, 488, rfl⟩
abbrev main_call19_v3 : Ref sig .tc := ⟨.hbm, 489, rfl⟩
abbrev main_call19_v4 : Ref sig .tc := ⟨.hbm, 490, rfl⟩
abbrev main_call19_v5 : Ref sig .tc := ⟨.hbm, 491, rfl⟩
abbrev main_call19_c_1 : Ref sig .tc := ⟨.hbm, 492, rfl⟩
abbrev main_call19_c_2 : Ref sig .tc := ⟨.hbm, 493, rfl⟩
abbrev main_call19_v6 : Ref sig .tc := ⟨.hbm, 494, rfl⟩
abbrev main_call19_v7 : Ref sig .tc := ⟨.hbm, 495, rfl⟩
abbrev main_call19_v8 : Ref sig .tc := ⟨.hbm, 496, rfl⟩
abbrev main_call19_v9 : Ref sig .tc := ⟨.hbm, 497, rfl⟩
abbrev main_call19_v10 : Ref sig .tc := ⟨.hbm, 498, rfl⟩
abbrev main_call19_v11 : Ref sig .tc := ⟨.hbm, 499, rfl⟩
abbrev main_call19_c_3 : Ref sig .tc := ⟨.hbm, 500, rfl⟩
abbrev main_call19_v12 : Ref sig .tc := ⟨.hbm, 501, rfl⟩
abbrev main_call19_v13 : Ref sig .tc := ⟨.hbm, 502, rfl⟩
abbrev main_call19_v14 : Ref sig .tc := ⟨.hbm, 503, rfl⟩
abbrev main_call19_cst : Ref sig .tc := ⟨.hbm, 504, rfl⟩
abbrev main_call19_v15 : Ref sig .tc := ⟨.hbm, 505, rfl⟩
abbrev main_v56 : Ref sig .tc := ⟨.hbm, 506, rfl⟩
abbrev main_v57 : Ref sig .tc := ⟨.hbm, 507, rfl⟩
abbrev main_v58 : Ref sig .tc := ⟨.hbm, 508, rfl⟩
abbrev main_call20_c : Ref sig .tc := ⟨.hbm, 509, rfl⟩
abbrev main_call20_v0 : Ref sig .tc := ⟨.hbm, 510, rfl⟩
abbrev main_call20_v1 : Ref sig .tc := ⟨.hbm, 511, rfl⟩
abbrev main_call20_c_0 : Ref sig .tc := ⟨.hbm, 512, rfl⟩
abbrev main_call20_v2 : Ref sig .tc := ⟨.hbm, 513, rfl⟩
abbrev main_call20_v3 : Ref sig .tc := ⟨.hbm, 514, rfl⟩
abbrev main_call20_v4 : Ref sig .tc := ⟨.hbm, 515, rfl⟩
abbrev main_call20_v5 : Ref sig .tc := ⟨.hbm, 516, rfl⟩
abbrev main_call20_c_1 : Ref sig .tc := ⟨.hbm, 517, rfl⟩
abbrev main_call20_c_2 : Ref sig .tc := ⟨.hbm, 518, rfl⟩
abbrev main_call20_v6 : Ref sig .tc := ⟨.hbm, 519, rfl⟩
abbrev main_call20_v7 : Ref sig .tc := ⟨.hbm, 520, rfl⟩
abbrev main_call20_v8 : Ref sig .tc := ⟨.hbm, 521, rfl⟩
abbrev main_call20_v9 : Ref sig .tc := ⟨.hbm, 522, rfl⟩
abbrev main_call20_v10 : Ref sig .tc := ⟨.hbm, 523, rfl⟩
abbrev main_call20_v11 : Ref sig .tc := ⟨.hbm, 524, rfl⟩
abbrev main_call20_c_3 : Ref sig .tc := ⟨.hbm, 525, rfl⟩
abbrev main_call20_v12 : Ref sig .tc := ⟨.hbm, 526, rfl⟩
abbrev main_call20_v13 : Ref sig .tc := ⟨.hbm, 527, rfl⟩
abbrev main_call20_v14 : Ref sig .tc := ⟨.hbm, 528, rfl⟩
abbrev main_call20_cst : Ref sig .tc := ⟨.hbm, 529, rfl⟩
abbrev main_call20_v15 : Ref sig .tc := ⟨.hbm, 530, rfl⟩
abbrev main_v59 : Ref sig .tc := ⟨.hbm, 531, rfl⟩
abbrev main_v60 : Ref sig .tc := ⟨.hbm, 532, rfl⟩
abbrev main_v61 : Ref sig .tc := ⟨.hbm, 533, rfl⟩
abbrev main_call21_c : Ref sig .tc := ⟨.hbm, 534, rfl⟩
abbrev main_call21_v0 : Ref sig .tc := ⟨.hbm, 535, rfl⟩
abbrev main_call21_v1 : Ref sig .tc := ⟨.hbm, 536, rfl⟩
abbrev main_call21_c_0 : Ref sig .tc := ⟨.hbm, 537, rfl⟩
abbrev main_call21_v2 : Ref sig .tc := ⟨.hbm, 538, rfl⟩
abbrev main_call21_v3 : Ref sig .tc := ⟨.hbm, 539, rfl⟩
abbrev main_call21_v4 : Ref sig .tc := ⟨.hbm, 540, rfl⟩
abbrev main_call21_v5 : Ref sig .tc := ⟨.hbm, 541, rfl⟩
abbrev main_call21_c_1 : Ref sig .tc := ⟨.hbm, 542, rfl⟩
abbrev main_call21_c_2 : Ref sig .tc := ⟨.hbm, 543, rfl⟩
abbrev main_call21_v6 : Ref sig .tc := ⟨.hbm, 544, rfl⟩
abbrev main_call21_v7 : Ref sig .tc := ⟨.hbm, 545, rfl⟩
abbrev main_call21_v8 : Ref sig .tc := ⟨.hbm, 546, rfl⟩
abbrev main_call21_v9 : Ref sig .tc := ⟨.hbm, 547, rfl⟩
abbrev main_call21_v10 : Ref sig .tc := ⟨.hbm, 548, rfl⟩
abbrev main_call21_v11 : Ref sig .tc := ⟨.hbm, 549, rfl⟩
abbrev main_call21_c_3 : Ref sig .tc := ⟨.hbm, 550, rfl⟩
abbrev main_call21_v12 : Ref sig .tc := ⟨.hbm, 551, rfl⟩
abbrev main_call21_v13 : Ref sig .tc := ⟨.hbm, 552, rfl⟩
abbrev main_call21_v14 : Ref sig .tc := ⟨.hbm, 553, rfl⟩
abbrev main_call21_cst : Ref sig .tc := ⟨.hbm, 554, rfl⟩
abbrev main_call21_v15 : Ref sig .tc := ⟨.hbm, 555, rfl⟩
abbrev main_v62 : Ref sig .tc := ⟨.hbm, 556, rfl⟩
abbrev main_v63 : Ref sig .tc := ⟨.hbm, 557, rfl⟩
abbrev main_v64 : Ref sig .tc := ⟨.hbm, 558, rfl⟩
abbrev main_v65 : Ref sig .tc := ⟨.hbm, 559, rfl⟩
abbrev main_v66 : Ref sig .tc := ⟨.hbm, 560, rfl⟩
abbrev main_v67 : Ref sig .tc := ⟨.hbm, 561, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc1_stg0_0 : Ref sig .tc := ⟨.vmem, 7, rfl⟩
abbrev cc1_stg0_1 : Ref sig .tc := ⟨.vmem, 8, rfl⟩
abbrev cc1_stg1_0 : Ref sig .tc := ⟨.vmem, 9, rfl⟩
abbrev cc1_stg1_1 : Ref sig .tc := ⟨.vmem, 10, rfl⟩
abbrev cc1_stg2_0 : Ref sig .tc := ⟨.vmem, 11, rfl⟩
abbrev cc1_stg2_1 : Ref sig .tc := ⟨.vmem, 12, rfl⟩
abbrev cc1_stg3_0 : Ref sig .tc := ⟨.vmem, 13, rfl⟩
abbrev cc1_stg3_1 : Ref sig .tc := ⟨.vmem, 14, rfl⟩
abbrev cc1_stg4_0 : Ref sig .tc := ⟨.vmem, 15, rfl⟩
abbrev cc1_stg4_1 : Ref sig .tc := ⟨.vmem, 16, rfl⟩
abbrev cc1_stg5_0 : Ref sig .tc := ⟨.vmem, 17, rfl⟩
abbrev cc1_stg5_1 : Ref sig .tc := ⟨.vmem, 18, rfl⟩
abbrev cc1_stg6_0 : Ref sig .tc := ⟨.vmem, 19, rfl⟩
abbrev cc1_stg6_1 : Ref sig .tc := ⟨.vmem, 20, rfl⟩
abbrev cc2_stg0_0 : Ref sig .tc := ⟨.vmem, 21, rfl⟩
abbrev cc2_stg0_1 : Ref sig .tc := ⟨.vmem, 22, rfl⟩
abbrev cc2_stg1_0 : Ref sig .tc := ⟨.vmem, 23, rfl⟩
abbrev cc2_stg1_1 : Ref sig .tc := ⟨.vmem, 24, rfl⟩
abbrev cc2_stg2_0 : Ref sig .tc := ⟨.vmem, 25, rfl⟩
abbrev cc2_stg2_1 : Ref sig .tc := ⟨.vmem, 26, rfl⟩
abbrev cc2_stg3_0 : Ref sig .tc := ⟨.vmem, 27, rfl⟩
abbrev cc2_stg4_0 : Ref sig .tc := ⟨.vmem, 28, rfl⟩
abbrev cc2_stg4_1 : Ref sig .tc := ⟨.vmem, 29, rfl⟩
abbrev cc3_stg0_0 : Ref sig .tc := ⟨.vmem, 30, rfl⟩
abbrev cc3_stg0_1 : Ref sig .tc := ⟨.vmem, 31, rfl⟩
abbrev cc3_stg1_0 : Ref sig .tc := ⟨.vmem, 32, rfl⟩
abbrev cc3_stg1_1 : Ref sig .tc := ⟨.vmem, 33, rfl⟩
abbrev cc3_stg2_0 : Ref sig .tc := ⟨.vmem, 34, rfl⟩
abbrev cc3_stg2_1 : Ref sig .tc := ⟨.vmem, 35, rfl⟩
abbrev cc3_stg3_0 : Ref sig .tc := ⟨.vmem, 36, rfl⟩
abbrev cc3_stg3_1 : Ref sig .tc := ⟨.vmem, 37, rfl⟩
abbrev cc3_stg4_0 : Ref sig .tc := ⟨.vmem, 38, rfl⟩
abbrev cc3_stg4_1 : Ref sig .tc := ⟨.vmem, 39, rfl⟩
abbrev cc3_stg5_0 : Ref sig .tc := ⟨.vmem, 40, rfl⟩
abbrev cc3_stg5_1 : Ref sig .tc := ⟨.vmem, 41, rfl⟩
abbrev cc3_stg6_0 : Ref sig .tc := ⟨.vmem, 42, rfl⟩
abbrev cc3_stg6_1 : Ref sig .tc := ⟨.vmem, 43, rfl⟩
abbrev cc4_stg0_0 : Ref sig .tc := ⟨.vmem, 44, rfl⟩
abbrev cc4_stg0_1 : Ref sig .tc := ⟨.vmem, 45, rfl⟩
abbrev cc4_stg1_0 : Ref sig .tc := ⟨.vmem, 46, rfl⟩
abbrev cc4_stg1_1 : Ref sig .tc := ⟨.vmem, 47, rfl⟩
abbrev cc4_stg2_0 : Ref sig .tc := ⟨.vmem, 48, rfl⟩
abbrev cc4_stg2_1 : Ref sig .tc := ⟨.vmem, 49, rfl⟩
abbrev cc4_stg3_0 : Ref sig .tc := ⟨.vmem, 50, rfl⟩
abbrev cc4_stg4_0 : Ref sig .tc := ⟨.vmem, 51, rfl⟩
abbrev cc4_stg4_1 : Ref sig .tc := ⟨.vmem, 52, rfl⟩
abbrev cc5_stg0_0 : Ref sig .tc := ⟨.vmem, 53, rfl⟩
abbrev cc5_stg0_1 : Ref sig .tc := ⟨.vmem, 54, rfl⟩
abbrev cc5_stg1_0 : Ref sig .tc := ⟨.vmem, 55, rfl⟩
abbrev cc5_stg1_1 : Ref sig .tc := ⟨.vmem, 56, rfl⟩
abbrev cc5_stg2_0 : Ref sig .tc := ⟨.vmem, 57, rfl⟩
abbrev cc5_stg2_1 : Ref sig .tc := ⟨.vmem, 58, rfl⟩
abbrev cc5_stg3_0 : Ref sig .tc := ⟨.vmem, 59, rfl⟩
abbrev cc5_stg3_1 : Ref sig .tc := ⟨.vmem, 60, rfl⟩
abbrev cc5_stg4_0 : Ref sig .tc := ⟨.vmem, 61, rfl⟩
abbrev cc5_stg4_1 : Ref sig .tc := ⟨.vmem, 62, rfl⟩
abbrev cc5_stg5_0 : Ref sig .tc := ⟨.vmem, 63, rfl⟩
abbrev cc5_stg5_1 : Ref sig .tc := ⟨.vmem, 64, rfl⟩
abbrev cc5_stg6_0 : Ref sig .tc := ⟨.vmem, 65, rfl⟩
abbrev cc5_stg6_1 : Ref sig .tc := ⟨.vmem, 66, rfl⟩
abbrev cc6_stg0_0 : Ref sig .tc := ⟨.vmem, 67, rfl⟩
abbrev cc6_stg0_1 : Ref sig .tc := ⟨.vmem, 68, rfl⟩
abbrev cc6_stg1_0 : Ref sig .tc := ⟨.vmem, 69, rfl⟩
abbrev cc6_stg1_1 : Ref sig .tc := ⟨.vmem, 70, rfl⟩
abbrev cc6_stg2_0 : Ref sig .tc := ⟨.vmem, 71, rfl⟩
abbrev cc6_stg3_0 : Ref sig .tc := ⟨.vmem, 72, rfl⟩
abbrev cc6_stg4_0 : Ref sig .tc := ⟨.vmem, 73, rfl⟩
abbrev cc6_stg5_0 : Ref sig .tc := ⟨.vmem, 74, rfl⟩
abbrev cc6_stg5_1 : Ref sig .tc := ⟨.vmem, 75, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6
abbrev cc1_sem0_0 : DmaSem sig := 7
abbrev cc1_sem0_1 : DmaSem sig := 8
abbrev cc1_sem1_0 : DmaSem sig := 9
abbrev cc1_sem1_1 : DmaSem sig := 10
abbrev cc1_sem2_0 : DmaSem sig := 11
abbrev cc1_sem2_1 : DmaSem sig := 12
abbrev cc1_sem3_0 : DmaSem sig := 13
abbrev cc1_sem3_1 : DmaSem sig := 14
abbrev cc1_sem4_0 : DmaSem sig := 15
abbrev cc1_sem4_1 : DmaSem sig := 16
abbrev cc1_sem5_0 : DmaSem sig := 17
abbrev cc1_sem5_1 : DmaSem sig := 18
abbrev cc1_sem6_0 : DmaSem sig := 19
abbrev cc1_sem6_1 : DmaSem sig := 20
abbrev cc2_sem0_0 : DmaSem sig := 21
abbrev cc2_sem0_1 : DmaSem sig := 22
abbrev cc2_sem1_0 : DmaSem sig := 23
abbrev cc2_sem1_1 : DmaSem sig := 24
abbrev cc2_sem2_0 : DmaSem sig := 25
abbrev cc2_sem2_1 : DmaSem sig := 26
abbrev cc2_sem3_0 : DmaSem sig := 27
abbrev cc2_sem4_0 : DmaSem sig := 28
abbrev cc2_sem4_1 : DmaSem sig := 29
abbrev cc3_sem0_0 : DmaSem sig := 30
abbrev cc3_sem0_1 : DmaSem sig := 31
abbrev cc3_sem1_0 : DmaSem sig := 32
abbrev cc3_sem1_1 : DmaSem sig := 33
abbrev cc3_sem2_0 : DmaSem sig := 34
abbrev cc3_sem2_1 : DmaSem sig := 35
abbrev cc3_sem3_0 : DmaSem sig := 36
abbrev cc3_sem3_1 : DmaSem sig := 37
abbrev cc3_sem4_0 : DmaSem sig := 38
abbrev cc3_sem4_1 : DmaSem sig := 39
abbrev cc3_sem5_0 : DmaSem sig := 40
abbrev cc3_sem5_1 : DmaSem sig := 41
abbrev cc3_sem6_0 : DmaSem sig := 42
abbrev cc3_sem6_1 : DmaSem sig := 43
abbrev cc4_sem0_0 : DmaSem sig := 44
abbrev cc4_sem0_1 : DmaSem sig := 45
abbrev cc4_sem1_0 : DmaSem sig := 46
abbrev cc4_sem1_1 : DmaSem sig := 47
abbrev cc4_sem2_0 : DmaSem sig := 48
abbrev cc4_sem2_1 : DmaSem sig := 49
abbrev cc4_sem3_0 : DmaSem sig := 50
abbrev cc4_sem4_0 : DmaSem sig := 51
abbrev cc4_sem4_1 : DmaSem sig := 52
abbrev cc5_sem0_0 : DmaSem sig := 53
abbrev cc5_sem0_1 : DmaSem sig := 54
abbrev cc5_sem1_0 : DmaSem sig := 55
abbrev cc5_sem1_1 : DmaSem sig := 56
abbrev cc5_sem2_0 : DmaSem sig := 57
abbrev cc5_sem2_1 : DmaSem sig := 58
abbrev cc5_sem3_0 : DmaSem sig := 59
abbrev cc5_sem3_1 : DmaSem sig := 60
abbrev cc5_sem4_0 : DmaSem sig := 61
abbrev cc5_sem4_1 : DmaSem sig := 62
abbrev cc5_sem5_0 : DmaSem sig := 63
abbrev cc5_sem5_1 : DmaSem sig := 64
abbrev cc5_sem6_0 : DmaSem sig := 65
abbrev cc5_sem6_1 : DmaSem sig := 66
abbrev cc6_sem0_0 : DmaSem sig := 67
abbrev cc6_sem0_1 : DmaSem sig := 68
abbrev cc6_sem1_0 : DmaSem sig := 69
abbrev cc6_sem1_1 : DmaSem sig := 70
abbrev cc6_sem2_0 : DmaSem sig := 71
abbrev cc6_sem3_0 : DmaSem sig := 72
abbrev cc6_sem4_0 : DmaSem sig := 73
abbrev cc6_sem5_0 : DmaSem sig := 74
abbrev cc6_sem5_1 : DmaSem sig := 75

abbrev nD : Nat := 1
abbrev τ : Topo := Topo.v7x

variable {F : FTy → Type} [FloatOps F]

abbrev grid0 : Pipeline.Grid := ⟨1, ![100], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S2000x147 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S147x300 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S2000x300 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S2000x300 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev grid1 : Pipeline.Grid := ⟨1, ![100], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_3 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_4 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_5 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_6 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S1000x300 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S1000x300 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 2 → Memref sig .tc .vmem S1000x300 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

abbrev stage1_3 : Fin 2 → Memref sig .tc .vmem S1000x300 .f32 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true]

abbrev stage1_4 : Fin 2 → Memref sig .tc .vmem S1000x300 .f32 := fun | 0 => Memref.whole cc1_stg4_0 | 1 => Memref.whole cc1_stg4_1 | ⟨_ + 2, h⟩ => absurd h (Nat.not_lt.2 (Nat.le_add_left _ _))
abbrev sem1_4 : Fin 2 → DmaSem sig := fun | 0 => cc1_sem4_0 | 1 => cc1_sem4_1 | ⟨_ + 2, h⟩ => absurd h (Nat.not_lt.2 (Nat.le_add_left _ _))
abbrev reads1_4 : Fin grid1.rank → Bool := ![true]

abbrev stage1_5 : Fin 2 → Memref sig .tc .vmem S1000x300 .f32 := fun | 0 => Memref.whole cc1_stg5_0 | 1 => Memref.whole cc1_stg5_1 | ⟨_ + 2, h⟩ => absurd h (Nat.not_lt.2 (Nat.le_add_left _ _))
abbrev sem1_5 : Fin 2 → DmaSem sig := fun | 0 => cc1_sem5_0 | 1 => cc1_sem5_1 | ⟨_ + 2, h⟩ => absurd h (Nat.not_lt.2 (Nat.le_add_left _ _))
abbrev reads1_5 : Fin grid1.rank → Bool := ![true]

abbrev stage1_6 : Fin 2 → Memref sig .tc .vmem S1000x300 .f32 := fun | 0 => Memref.whole cc1_stg6_0 | 1 => Memref.whole cc1_stg6_1 | ⟨_ + 2, h⟩ => absurd h (Nat.not_lt.2 (Nat.le_add_left _ _))
abbrev sem1_6 : Fin 2 → DmaSem sig := fun | 0 => cc1_sem6_0 | 1 => cc1_sem6_1 | ⟨_ + 2, h⟩ => absurd h (Nat.not_lt.2 (Nat.le_add_left _ _))
abbrev reads1_6 : Fin grid1.rank → Bool := ![true]

abbrev grid2 : Pipeline.Grid := ⟨1, ![100], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_2 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_3 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_4 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S2000x300 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 2 → Memref sig .tc .vmem S2000x300 .f32 := fun | 0 => Memref.whole cc2_stg1_0 | 1 => Memref.whole cc2_stg1_1 | ⟨_ + 2, h⟩ => absurd h (Nat.not_lt.2 (Nat.le_add_left _ _))
abbrev sem2_1 : Fin 2 → DmaSem sig := fun | 0 => cc2_sem1_0 | 1 => cc2_sem1_1 | ⟨_ + 2, h⟩ => absurd h (Nat.not_lt.2 (Nat.le_add_left _ _))
abbrev reads2_1 : Fin grid2.rank → Bool := ![true]

abbrev stage2_2 : Fin 2 → Memref sig .tc .vmem S2000x300 .f32 := fun | 0 => Memref.whole cc2_stg2_0 | 1 => Memref.whole cc2_stg2_1 | ⟨_ + 2, h⟩ => absurd h (Nat.not_lt.2 (Nat.le_add_left _ _))
abbrev sem2_2 : Fin 2 → DmaSem sig := fun | 0 => cc2_sem2_0 | 1 => cc2_sem2_1 | ⟨_ + 2, h⟩ => absurd h (Nat.not_lt.2 (Nat.le_add_left _ _))
abbrev reads2_2 : Fin grid2.rank → Bool := ![true]

abbrev stage2_3 : Fin 1 → Memref sig .tc .vmem S300x300 .f32 := fun | 0 => Memref.whole cc2_stg3_0 | ⟨_ + 1, h⟩ => absurd h (Nat.not_lt.2 (Nat.le_add_left _ _))
abbrev sem2_3 : Fin 1 → DmaSem sig := fun | 0 => cc2_sem3_0 | ⟨_ + 1, h⟩ => absurd h (Nat.not_lt.2 (Nat.le_add_left _ _))
abbrev reads2_3 : Fin grid2.rank → Bool := ![false]

abbrev stage2_4 : Fin 2 → Memref sig .tc .vmem S2000x300 .f32 := fun | 0 => Memref.whole cc2_stg4_0 | 1 => Memref.whole cc2_stg4_1 | ⟨_ + 2, h⟩ => absurd h (Nat.not_lt.2 (Nat.le_add_left _ _))
abbrev sem2_4 : Fin 2 → DmaSem sig := fun | 0 => cc2_sem4_0 | 1 => cc2_sem4_1 | ⟨_ + 2, h⟩ => absurd h (Nat.not_lt.2 (Nat.le_add_left _ _))
abbrev reads2_4 : Fin grid2.rank → Bool := ![true]

abbrev grid3 : Pipeline.Grid := ⟨1, ![100], ![false]⟩

def cc3_transform_0 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_1 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_2 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_3 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_4 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_5 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_6 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage3_0 : Fin 2 → Memref sig .tc .vmem S1000x300 .f32 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true]

abbrev stage3_1 : Fin 2 → Memref sig .tc .vmem S1000x300 .f32 := fun | 0 => Memref.whole cc3_stg1_0 | 1 => Memref.whole cc3_stg1_1 | ⟨_ + 2, h⟩ => absurd h (Nat.not_lt.2 (Nat.le_add_left _ _))
abbrev sem3_1 : Fin 2 → DmaSem sig := fun | 0 => cc3_sem1_0 | 1 => cc3_sem1_1 | ⟨_ + 2, h⟩ => absurd h (Nat.not_lt.2 (Nat.le_add_left _ _))
abbrev reads3_1 : Fin grid3.rank → Bool := ![true]

abbrev stage3_2 : Fin 2 → Memref sig .tc .vmem S1000x300 .f32 := fun | 0 => Memref.whole cc3_stg2_0 | 1 => Memref.whole cc3_stg2_1 | ⟨_ + 2, h⟩ => absurd h (Nat.not_lt.2 (Nat.le_add_left _ _))
abbrev sem3_2 : Fin 2 → DmaSem sig := fun | 0 => cc3_sem2_0 | 1 => cc3_sem2_1 | ⟨_ + 2, h⟩ => absurd h (Nat.not_lt.2 (Nat.le_add_left _ _))
abbrev reads3_2 : Fin grid3.rank → Bool := ![true]

abbrev stage3_3 : Fin 2 → Memref sig .tc .vmem S1000x300 .f32 := fun | 0 => Memref.whole cc3_stg3_0 | 1 => Memref.whole cc3_stg3_1 | ⟨_ + 2, h⟩ => absurd h (Nat.not_lt.2 (Nat.le_add_left _ _))
abbrev sem3_3 : Fin 2 → DmaSem sig := fun | 0 => cc3_sem3_0 | 1 => cc3_sem3_1 | ⟨_ + 2, h⟩ => absurd h (Nat.not_lt.2 (Nat.le_add_left _ _))
abbrev reads3_3 : Fin grid3.rank → Bool := ![true]

abbrev stage3_4 : Fin 2 → Memref sig .tc .vmem S1000x300 .f32 := fun | 0 => Memref.whole cc3_stg4_0 | 1 => Memref.whole cc3_stg4_1 | ⟨_ + 2, h⟩ => absurd h (Nat.not_lt.2 (Nat.le_add_left _ _))
abbrev sem3_4 : Fin 2 → DmaSem sig := fun | 0 => cc3_sem4_0 | 1 => cc3_sem4_1 | ⟨_ + 2, h⟩ => absurd h (Nat.not_lt.2 (Nat.le_add_left _ _))
abbrev reads3_4 : Fin grid3.rank → Bool := ![true]

abbrev stage3_5 : Fin 2 → Memref sig .tc .vmem S1000x300 .f32 := fun | 0 => Memref.whole cc3_stg5_0 | 1 => Memref.whole cc3_stg5_1 | ⟨_ + 2, h⟩ => absurd h (Nat.not_lt.2 (Nat.le_add_left _ _))
abbrev sem3_5 : Fin 2 → DmaSem sig := fun | 0 => cc3_sem5_0 | 1 => cc3_sem5_1 | ⟨_ + 2, h⟩ => absurd h (Nat.not_lt.2 (Nat.le_add_left _ _))
abbrev reads3_5 : Fin grid3.rank → Bool := ![true]

abbrev stage3_6 : Fin 2 → Memref sig .tc .vmem S1000x300 .f32 := fun | 0 => Memref.whole cc3_stg6_0 | 1 => Memref.whole cc3_stg6_1 | ⟨_ + 2, h⟩ => absurd h (Nat.not_lt.2 (Nat.le_add_left _ _))
abbrev sem3_6 : Fin 2 → DmaSem sig := fun | 0 => cc3_sem6_0 | 1 => cc3_sem6_1 | ⟨_ + 2, h⟩ => absurd h (Nat.not_lt.2 (Nat.le_add_left _ _))
abbrev reads3_6 : Fin grid3.rank → Bool := ![true]

abbrev grid4 : Pipeline.Grid := ⟨1, ![100], ![false]⟩

def cc4_transform_0 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

def cc4_transform_1 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

def cc4_transform_2 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

def cc4_transform_3 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_4 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage4_0 : Fin 2 → Memref sig .tc .vmem S2000x300 .f32 := fun | 0 => Memref.whole cc4_stg0_0 | 1 => Memref.whole cc4_stg0_1 | ⟨_ + 2, h⟩ => absurd h (Nat.not_lt.2 (Nat.le_add_left _ _))
abbrev sem4_0 : Fin 2 → DmaSem sig := fun | 0 => cc4_sem0_0 | 1 => cc4_sem0_1 | ⟨_ + 2, h⟩ => absurd h (Nat.not_lt.2 (Nat.le_add_left _ _))
abbrev reads4_0 : Fin grid4.rank → Bool := ![true]

abbrev stage4_1 : Fin 2 → Memref sig .tc .vmem S2000x300 .f32 := fun | 0 => Memref.whole cc4_stg1_0 | 1 => Memref.whole cc4_stg1_1 | ⟨_ + 2, h⟩ => absurd h (Nat.not_lt.2 (Nat.le_add_left _ _))
abbrev sem4_1 : Fin 2 → DmaSem sig := fun | 0 => cc4_sem1_0 | 1 => cc4_sem1_1 | ⟨_ + 2, h⟩ => absurd h (Nat.not_lt.2 (Nat.le_add_left _ _))
abbrev reads4_1 : Fin grid4.rank → Bool := ![true]

abbrev stage4_2 : Fin 2 → Memref sig .tc .vmem S2000x300 .f32 := fun | 0 => Memref.whole cc4_stg2_0 | 1 => Memref.whole cc4_stg2_1 | ⟨_ + 2, h⟩ => absurd h (Nat.not_lt.2 (Nat.le_add_left _ _))
abbrev sem4_2 : Fin 2 → DmaSem sig := fun | 0 => cc4_sem2_0 | 1 => cc4_sem2_1 | ⟨_ + 2, h⟩ => absurd h (Nat.not_lt.2 (Nat.le_add_left _ _))
abbrev reads4_2 : Fin grid4.rank → Bool := ![true]

abbrev stage4_3 : Fin 1 → Memref sig .tc .vmem S300x300 .f32 := fun | 0 => Memref.whole cc4_stg3_0 | ⟨_ + 1, h⟩ => absurd h (Nat.not_lt.2 (Nat.le_add_left _ _))
abbrev sem4_3 : Fin 1 → DmaSem sig := fun | 0 => cc4_sem3_0 | ⟨_ + 1, h⟩ => absurd h (Nat.not_lt.2 (Nat.le_add_left _ _))
abbrev reads4_3 : Fin grid4.rank → Bool := ![false]

abbrev stage4_4 : Fin 2 → Memref sig .tc .vmem S2000x300 .f32 := fun | 0 => Memref.whole cc4_stg4_0 | 1 => Memref.whole cc4_stg4_1 | ⟨_ + 2, h⟩ => absurd h (Nat.not_lt.2 (Nat.le_add_left _ _))
abbrev sem4_4 : Fin 2 → DmaSem sig := fun | 0 => cc4_sem4_0 | 1 => cc4_sem4_1 | ⟨_ + 2, h⟩ => absurd h (Nat.not_lt.2 (Nat.le_add_left _ _))
abbrev reads4_4 : Fin grid4.rank → Bool := ![true]

abbrev grid5 : Pipeline.Grid := ⟨1, ![100], ![false]⟩

def cc5_transform_0 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

def cc5_transform_1 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

def cc5_transform_2 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

def cc5_transform_3 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

def cc5_transform_4 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

def cc5_transform_5 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

def cc5_transform_6 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage5_0 : Fin 2 → Memref sig .tc .vmem S1000x300 .f32 := fun | 0 => Memref.whole cc5_stg0_0 | 1 => Memref.whole cc5_stg0_1 | ⟨_ + 2, h⟩ => absurd h (Nat.not_lt.2 (Nat.le_add_left _ _))
abbrev sem5_0 : Fin 2 → DmaSem sig := fun | 0 => cc5_sem0_0 | 1 => cc5_sem0_1 | ⟨_ + 2, h⟩ => absurd h (Nat.not_lt.2 (Nat.le_add_left _ _))
abbrev reads5_0 : Fin grid5.rank → Bool := ![true]

abbrev stage5_1 : Fin 2 → Memref sig .tc .vmem S1000x300 .f32 := fun | 0 => Memref.whole cc5_stg1_0 | 1 => Memref.whole cc5_stg1_1 | ⟨_ + 2, h⟩ => absurd h (Nat.not_lt.2 (Nat.le_add_left _ _))
abbrev sem5_1 : Fin 2 → DmaSem sig := fun | 0 => cc5_sem1_0 | 1 => cc5_sem1_1 | ⟨_ + 2, h⟩ => absurd h (Nat.not_lt.2 (Nat.le_add_left _ _))
abbrev reads5_1 : Fin grid5.rank → Bool := ![true]

abbrev stage5_2 : Fin 2 → Memref sig .tc .vmem S1000x300 .f32 := fun | 0 => Memref.whole cc5_stg2_0 | 1 => Memref.whole cc5_stg2_1 | ⟨_ + 2, h⟩ => absurd h (Nat.not_lt.2 (Nat.le_add_left _ _))
abbrev sem5_2 : Fin 2 → DmaSem sig := fun | 0 => cc5_sem2_0 | 1 => cc5_sem2_1 | ⟨_ + 2, h⟩ => absurd h (Nat.not_lt.2 (Nat.le_add_left _ _))
abbrev reads5_2 : Fin grid5.rank → Bool := ![true]

abbrev stage5_3 : Fin 2 → Memref sig .tc .vmem S1000x300 .f32 := fun | 0 => Memref.whole cc5_stg3_0 | 1 => Memref.whole cc5_stg3_1 | ⟨_ + 2, h⟩ => absurd h (Nat.not_lt.2 (Nat.le_add_left _ _))
abbrev sem5_3 : Fin 2 → DmaSem sig := fun | 0 => cc5_sem3_0 | 1 => cc5_sem3_1 | ⟨_ + 2, h⟩ => absurd h (Nat.not_lt.2 (Nat.le_add_left _ _))
abbrev reads5_3 : Fin grid5.rank → Bool := ![true]

abbrev stage5_4 : Fin 2 → Memref sig .tc .vmem S1000x300 .f32 := fun | 0 => Memref.whole cc5_stg4_0 | 1 => Memref.whole cc5_stg4_1 | ⟨_ + 2, h⟩ => absurd h (Nat.not_lt.2 (Nat.le_add_left _ _))
abbrev sem5_4 : Fin 2 → DmaSem sig := fun | 0 => cc5_sem4_0 | 1 => cc5_sem4_1 | ⟨_ + 2, h⟩ => absurd h (Nat.not_lt.2 (Nat.le_add_left _ _))
abbrev reads5_4 : Fin grid5.rank → Bool := ![true]

abbrev stage5_5 : Fin 2 → Memref sig .tc .vmem S1000x300 .f32 := fun | 0 => Memref.whole cc5_stg5_0 | 1 => Memref.whole cc5_stg5_1 | ⟨_ + 2, h⟩ => absurd h (Nat.not_lt.2 (Nat.le_add_left _ _))
abbrev sem5_5 : Fin 2 → DmaSem sig := fun | 0 => cc5_sem5_0 | 1 => cc5_sem5_1 | ⟨_ + 2, h⟩ => absurd h (Nat.not_lt.2 (Nat.le_add_left _ _))
abbrev reads5_5 : Fin grid5.rank → Bool := ![true]

abbrev stage5_6 : Fin 2 → Memref sig .tc .vmem S1000x300 .f32 := fun | 0 => Memref.whole cc5_stg6_0 | 1 => Memref.whole cc5_stg6_1 | ⟨_ + 2, h⟩ => absurd h (Nat.not_lt.2 (Nat.le_add_left _ _))
abbrev sem5_6 : Fin 2 → DmaSem sig := fun | 0 => cc5_sem6_0 | 1 => cc5_sem6_1 | ⟨_ + 2, h⟩ => absurd h (Nat.not_lt.2 (Nat.le_add_left _ _))
abbrev reads5_6 : Fin grid5.rank → Bool := ![true]

abbrev grid6 : Pipeline.Grid := ⟨1, ![50], ![false]⟩

def cc6_transform_0 (i : grid6.Coords) : Fin 2 → Nat :=
  let arg0 : BitVec 32 := BitVec.ofNat 32 (i 0).val
  let c0_i32 : BitVec 32 := 0#32
  let c0_i32_0 : BitVec 32 := 0#32
  ![arg0.toNat, c0_i32.toNat]

def cc6_transform_1 (i : grid6.Coords) : Fin 2 → Nat :=
  let arg0 : BitVec 32 := BitVec.ofNat 32 (i 0).val
  let c0_i32 : BitVec 32 := 0#32
  let c0_i32_0 : BitVec 32 := 0#32
  ![arg0.toNat, c0_i32.toNat]

def cc6_transform_2 (i : grid6.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc6_transform_3 (i : grid6.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc6_transform_4 (i : grid6.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc6_transform_5 (i : grid6.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage6_0 : Fin 2 → Memref sig .tc .vmem S2000x133 .f32 := fun | 0 => Memref.whole cc6_stg0_0 | 1 => Memref.whole cc6_stg0_1 | ⟨_ + 2, h⟩ => absurd h (Nat.not_lt.2 (Nat.le_add_left _ _))
abbrev sem6_0 : Fin 2 → DmaSem sig := fun | 0 => cc6_sem0_0 | 1 => cc6_sem0_1 | ⟨_ + 2, h⟩ => absurd h (Nat.not_lt.2 (Nat.le_add_left _ _))
abbrev reads6_0 : Fin grid6.rank → Bool := ![true]

abbrev stage6_1 : Fin 2 → Memref sig .tc .vmem S2000x300 .f32 := fun | 0 => Memref.whole cc6_stg1_0 | 1 => Memref.whole cc6_stg1_1 | ⟨_ + 2, h⟩ => absurd h (Nat.not_lt.2 (Nat.le_add_left _ _))
abbrev sem6_1 : Fin 2 → DmaSem sig := fun | 0 => cc6_sem1_0 | 1 => cc6_sem1_1 | ⟨_ + 2, h⟩ => absurd h (Nat.not_lt.2 (Nat.le_add_left _ _))
abbrev reads6_1 : Fin grid6.rank → Bool := ![true]

abbrev stage6_2 : Fin 1 → Memref sig .tc .vmem S133x300 .f32 := fun | 0 => Memref.whole cc6_stg2_0 | ⟨_ + 1, h⟩ => absurd h (Nat.not_lt.2 (Nat.le_add_left _ _))
abbrev sem6_2 : Fin 1 → DmaSem sig := fun | 0 => cc6_sem2_0 | ⟨_ + 1, h⟩ => absurd h (Nat.not_lt.2 (Nat.le_add_left _ _))
abbrev reads6_2 : Fin grid6.rank → Bool := ![false]

abbrev stage6_3 : Fin 1 → Memref sig .tc .vmem S300x300 .f32 := fun | 0 => Memref.whole cc6_stg3_0 | ⟨_ + 1, h⟩ => absurd h (Nat.not_lt.2 (Nat.le_add_left _ _))
abbrev sem6_3 : Fin 1 → DmaSem sig := fun | 0 => cc6_sem3_0 | ⟨_ + 1, h⟩ => absurd h (Nat.not_lt.2 (Nat.le_add_left _ _))
abbrev reads6_3 : Fin grid6.rank → Bool := ![false]

abbrev stage6_4 : Fin 1 → Memref sig .tc .vmem S1x300 .f32 := fun | 0 => Memref.whole cc6_stg4_0 | ⟨_ + 1, h⟩ => absurd h (Nat.not_lt.2 (Nat.le_add_left _ _))
abbrev sem6_4 : Fin 1 → DmaSem sig := fun | 0 => cc6_sem4_0 | ⟨_ + 1, h⟩ => absurd h (Nat.not_lt.2 (Nat.le_add_left _ _))
abbrev reads6_4 : Fin grid6.rank → Bool := ![false]

abbrev stage6_5 : Fin 2 → Memref sig .tc .vmem S2000x300 .f32 := fun | 0 => Memref.whole cc6_stg5_0 | 1 => Memref.whole cc6_stg5_1 | ⟨_ + 2, h⟩ => absurd h (Nat.not_lt.2 (Nat.le_add_left _ _))
abbrev sem6_5 : Fin 2 → DmaSem sig := fun | 0 => cc6_sem5_0 | 1 => cc6_sem5_1 | ⟨_ + 2, h⟩ => absurd h (Nat.not_lt.2 (Nat.le_add_left _ _))
abbrev reads6_5 : Fin grid6.rank → Bool := ![true]

class Facts₀ : Prop where
  inb_S2000x147_S2000x147_0_0 : ∀ a, (![0, 0] : Fin 2 → Nat) a + S2000x147.size a ≤ S2000x147.size a
  h_S2000x147 : 0 < S2000x147.numel
  bitsLt_bf16_f32 : FTy.bits .bf16 < FTy.bits .f32
  inb_S147x300_S147x300_0_0 : ∀ a, (![0, 0] : Fin 2 → Nat) a + S147x300.size a ≤ S147x300.size a
  h_S147x300 : 0 < S147x300.numel
  inb_S2000x300_S2000x300_0_0 : ∀ a, (![0, 0] : Fin 2 → Nat) a + S2000x300.size a ≤ S2000x300.size a
  h_S2000x300 : 0 < S2000x300.numel
  slices_S100000x6_S100000x1_0_0 : S100000x6.Slices ![0, 0] S100000x1
  shapeCasts_S100000x1_S100000 : S100000x1.ShapeCasts S100000
  bcast_S_S100000 : S_.BroadcastsInDim S100000 (![] : Fin 0 → Fin S100000.rank)
  bcast_S100000_S100000x1_0 : S100000.BroadcastsInDim S100000x1 (![0] : Fin 1 → Fin S100000x1.rank)
  bcast_S_S100000x1 : S_.BroadcastsInDim S100000x1 (![] : Fin 0 → Fin S100000x1.rank)
  bcast_S1_S1x1_1 : S1.BroadcastsInDim S1x1 (![1] : Fin 1 → Fin S1x1.rank)
  bcast_S1x1_S100000x1_0_1 : S1x1.BroadcastsInDim S100000x1 (![0, 1] : Fin 2 → Fin S100000x1.rank)
  reducesTo_S100000x1_S100000_d1 : S100000x1.ReducesTo [1] S100000
  h_S_ : 0 < S_.numel
  bcast_S100000_S100000x300_0 : S100000.BroadcastsInDim S100000x300 (![0] : Fin 1 → Fin S100000x300.rank)
  bcast_S_S100000x300 : S_.BroadcastsInDim S100000x300 (![] : Fin 0 → Fin S100000x300.rank)
  slices_S100000x6_S100000x1_0_1 : S100000x6.Slices ![0, 1] S100000x1
  slices_S100000x6_S100000x1_0_2 : S100000x6.Slices ![0, 2] S100000x1
  slices_S100000x6_S100000x1_0_3 : S100000x6.Slices ![0, 3] S100000x1
  slices_S100000x6_S100000x1_0_4 : S100000x6.Slices ![0, 4] S100000x1
  slices_S100000x6_S100000x1_0_5 : S100000x6.Slices ![0, 5] S100000x1
  inb_S1000x300_S1000x300_0_0 : ∀ a, (![0, 0] : Fin 2 → Nat) a + S1000x300.size a ≤ S1000x300.size a
  h_S1000x300 : 0 < S1000x300.numel
  shapeCasts_S1000x300_S1000x300 : S1000x300.ShapeCasts S1000x300
  bcast_S_S200000 : S_.BroadcastsInDim S200000 (![] : Fin 0 → Fin S200000.rank)
  bcast_S200000_S200000x1_0 : S200000.BroadcastsInDim S200000x1 (![0] : Fin 1 → Fin S200000x1.rank)
  bcast_S_S200000x1 : S_.BroadcastsInDim S200000x1 (![] : Fin 0 → Fin S200000x1.rank)
  bcast_S1x1_S200000x1_0_1 : S1x1.BroadcastsInDim S200000x1 (![0, 1] : Fin 2 → Fin S200000x1.rank)
  reducesTo_S200000x1_S200000_d1 : S200000x1.ReducesTo [1] S200000
  bcast_S200000_S200000x300_0 : S200000.BroadcastsInDim S200000x300 (![0] : Fin 1 → Fin S200000x300.rank)
  bcast_S_S200000x300 : S_.BroadcastsInDim S200000x300 (![] : Fin 0 → Fin S200000x300.rank)
  shapeCasts_S2000x300_S2000x300 : S2000x300.ShapeCasts S2000x300
  inb_S300x300_S300x300_0_0 : ∀ a, (![0, 0] : Fin 2 → Nat) a + S300x300.size a ≤ S300x300.size a
  h_S300x300 : 0 < S300x300.numel
  slices_S433x300_S133x300_0_0 : S433x300.Slices ![0, 0] S133x300
  slices_S433x300_S300x300_133_0 : S433x300.Slices ![133, 0] S300x300
  shapeCasts_S300_S1x300 : S300.ShapeCasts S1x300
  inb_S2000x133_S2000x133_0_0 : ∀ a, (![0, 0] : Fin 2 → Nat) a + S2000x133.size a ≤ S2000x133.size a
  h_S2000x133 : 0 < S2000x133.numel
  inb_S133x300_S133x300_0_0 : ∀ a, (![0, 0] : Fin 2 → Nat) a + S133x300.size a ≤ S133x300.size a
  h_S133x300 : 0 < S133x300.numel
  shapeCasts_S133x300_S133x300 : S133x300.ShapeCasts S133x300
  shapeCasts_S300x300_S300x300 : S300x300.ShapeCasts S300x300
  inb_S1x300_S1x300_0_0 : ∀ a, (![0, 0] : Fin 2 → Nat) a + S1x300.size a ≤ S1x300.size a
  h_S1x300 : 0 < S1x300.numel
  shapeCasts_S1x300_S1x300 : S1x300.ShapeCasts S1x300
  broadcasts_S1x300_S2000x300 : S1x300.Broadcasts S2000x300
  dot_S2000x147_S147x300_S2000x300_1_0_0_1_n_n_wf : DotDims.WF S2000x147 S147x300 S2000x300 [1] [0] [0] [1] [] []
  gather_S200000x300_S100000x1_S100000x300_1_0_n_n_0_1_1300_wf : GatherDims.WF S200000x300 S100000x1 S100000x300 [1] [0] [] [0] [] 1 ![1, 300]
  gather_S100000x300_S200000x1_S200000x300_1_0_n_n_0_1_1300_wf : GatherDims.WF S100000x300 S200000x1 S200000x300 [1] [0] [] [0] [] 1 ![1, 300]
  gather_S200000x300_S200000x1_S200000x300_1_0_n_n_0_1_1300_wf : GatherDims.WF S200000x300 S200000x1 S200000x300 [1] [0] [] [0] [] 1 ![1, 300]
  dot_S2000x300_S300x300_S2000x300_1_0_0_1_n_n_wf : DotDims.WF S2000x300 S300x300 S2000x300 [1] [0] [0] [1] [] []
  dot_S2000x133_S133x300_S2000x300_1_0_0_1_n_n_wf : DotDims.WF S2000x133 S133x300 S2000x300 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S2000x147.size a ≤ S200000x147.size a
  hwx0_0 : ∀ i : grid0.Coords, EltTy.bits .f32 = 32 ∨ (Rect.block (s := S200000x147) S2000x147.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S147x300.size a ≤ S147x300.size a
  hwx0_1 : ∀ i : grid0.Coords, EltTy.bits .f32 = 32 ∨ (Rect.block (s := S147x300) S147x300.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S2000x300.size a ≤ S200000x300.size a
  hwx0_2 : ∀ i : grid0.Coords, EltTy.bits .f32 = 32 ∨ (Rect.block (s := S200000x300) S2000x300.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S2000x300.size a ≤ S200000x300.size a
  hwx0_3 : ∀ i : grid0.Coords, EltTy.bits .f32 = 32 ∨ (Rect.block (s := S200000x300) S2000x300.size (cc0_transform_3 i) (hinb0_3 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S1000x300.size a ≤ S100000x300.size a
  hwx1_0 : ∀ i : grid1.Coords, EltTy.bits .f32 = 32 ∨ (Rect.block (s := S100000x300) S1000x300.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S1000x300.size a ≤ S100000x300.size a
  hwx1_1 : ∀ i : grid1.Coords, EltTy.bits .f32 = 32 ∨ (Rect.block (s := S100000x300) S1000x300.size (cc1_transform_1 i) (hinb1_1 i)).WholeWords (EltTy.packing .f32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S1000x300.size a ≤ S100000x300.size a
  hwx1_2 : ∀ i : grid1.Coords, EltTy.bits .f32 = 32 ∨ (Rect.block (s := S100000x300) S1000x300.size (cc1_transform_2 i) (hinb1_2 i)).WholeWords (EltTy.packing .f32)
  hstage1_3 : ∀ j, (stage1_3 j).IsWhole
  nbuf1_3 : grid1.bufCount reads1_3 false = 2
  hreads1_3 : ∀ i i' : grid1.Coords, (∀ a, reads1_3 a = true → i a = i' a) → cc1_transform_3 i = cc1_transform_3 i'
  hinb1_3 : ∀ (i : grid1.Coords) a, (cc1_transform_3 i a + 1) * S1000x300.size a ≤ S100000x300.size a
  hwx1_3 : ∀ i : grid1.Coords, EltTy.bits .f32 = 32 ∨ (Rect.block (s := S100000x300) S1000x300.size (cc1_transform_3 i) (hinb1_3 i)).WholeWords (EltTy.packing .f32)
  hstage1_4 : ∀ j, (stage1_4 j).IsWhole
  nbuf1_4 : grid1.bufCount reads1_4 false = 2
  hreads1_4 : ∀ i i' : grid1.Coords, (∀ a, reads1_4 a = true → i a = i' a) → cc1_transform_4 i = cc1_transform_4 i'
  hinb1_4 : ∀ (i : grid1.Coords) a, (cc1_transform_4 i a + 1) * S1000x300.size a ≤ S100000x300.size a
  hwx1_4 : ∀ i : grid1.Coords, EltTy.bits .f32 = 32 ∨ (Rect.block (s := S100000x300) S1000x300.size (cc1_transform_4 i) (hinb1_4 i)).WholeWords (EltTy.packing .f32)
  hstage1_5 : ∀ j, (stage1_5 j).IsWhole
  nbuf1_5 : grid1.bufCount reads1_5 false = 2
  hreads1_5 : ∀ i i' : grid1.Coords, (∀ a, reads1_5 a = true → i a = i' a) → cc1_transform_5 i = cc1_transform_5 i'
  hinb1_5 : ∀ (i : grid1.Coords) a, (cc1_transform_5 i a + 1) * S1000x300.size a ≤ S100000x300.size a
  hwx1_5 : ∀ i : grid1.Coords, EltTy.bits .f32 = 32 ∨ (Rect.block (s := S100000x300) S1000x300.size (cc1_transform_5 i) (hinb1_5 i)).WholeWords (EltTy.packing .f32)
  hstage1_6 : ∀ j, (stage1_6 j).IsWhole
  nbuf1_6 : grid1.bufCount reads1_6 false = 2
  hreads1_6 : ∀ i i' : grid1.Coords, (∀ a, reads1_6 a = true → i a = i' a) → cc1_transform_6 i = cc1_transform_6 i'
  hinb1_6 : ∀ (i : grid1.Coords) a, (cc1_transform_6 i a + 1) * S1000x300.size a ≤ S100000x300.size a
  hwx1_6 : ∀ i : grid1.Coords, EltTy.bits .f32 = 32 ∨ (Rect.block (s := S100000x300) S1000x300.size (cc1_transform_6 i) (hinb1_6 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S2000x300.size a ≤ S200000x300.size a
  hwx2_0 : ∀ i : grid2.Coords, EltTy.bits .f32 = 32 ∨ (Rect.block (s := S200000x300) S2000x300.size (cc2_transform_0 i) (hinb2_0 i)).WholeWords (EltTy.packing .f32)
  hstage2_1 : ∀ j, (stage2_1 j).IsWhole
  nbuf2_1 : grid2.bufCount reads2_1 false = 2
  hreads2_1 : ∀ i i' : grid2.Coords, (∀ a, reads2_1 a = true → i a = i' a) → cc2_transform_1 i = cc2_transform_1 i'
  hinb2_1 : ∀ (i : grid2.Coords) a, (cc2_transform_1 i a + 1) * S2000x300.size a ≤ S200000x300.size a
  hwx2_1 : ∀ i : grid2.Coords, EltTy.bits .f32 = 32 ∨ (Rect.block (s := S200000x300) S2000x300.size (cc2_transform_1 i) (hinb2_1 i)).WholeWords (EltTy.packing .f32)
  hstage2_2 : ∀ j, (stage2_2 j).IsWhole
  nbuf2_2 : grid2.bufCount reads2_2 false = 2
  hreads2_2 : ∀ i i' : grid2.Coords, (∀ a, reads2_2 a = true → i a = i' a) → cc2_transform_2 i = cc2_transform_2 i'
  hinb2_2 : ∀ (i : grid2.Coords) a, (cc2_transform_2 i a + 1) * S2000x300.size a ≤ S200000x300.size a
  hwx2_2 : ∀ i : grid2.Coords, EltTy.bits .f32 = 32 ∨ (Rect.block (s := S200000x300) S2000x300.size (cc2_transform_2 i) (hinb2_2 i)).WholeWords (EltTy.packing .f32)
  hstage2_3 : ∀ j, (stage2_3 j).IsWhole
  nbuf2_3 : grid2.bufCount reads2_3 true = 1
  hreads2_3 : ∀ i i' : grid2.Coords, (∀ a, reads2_3 a = true → i a = i' a) → cc2_transform_3 i = cc2_transform_3 i'
  hinb2_3 : ∀ (i : grid2.Coords) a, (cc2_transform_3 i a + 1) * S300x300.size a ≤ S300x300.size a
  hwx2_3 : ∀ i : grid2.Coords, EltTy.bits .f32 = 32 ∨ (Rect.block (s := S300x300) S300x300.size (cc2_transform_3 i) (hinb2_3 i)).WholeWords (EltTy.packing .f32)
  hstage2_4 : ∀ j, (stage2_4 j).IsWhole
  nbuf2_4 : grid2.bufCount reads2_4 false = 2
  hreads2_4 : ∀ i i' : grid2.Coords, (∀ a, reads2_4 a = true → i a = i' a) → cc2_transform_4 i = cc2_transform_4 i'
  hinb2_4 : ∀ (i : grid2.Coords) a, (cc2_transform_4 i a + 1) * S2000x300.size a ≤ S200000x300.size a
  hwx2_4 : ∀ i : grid2.Coords, EltTy.bits .f32 = 32 ∨ (Rect.block (s := S200000x300) S2000x300.size (cc2_transform_4 i) (hinb2_4 i)).WholeWords (EltTy.packing .f32)
  hrank3 : 0 < grid3.rank
  hstage3_0 : ∀ j, (stage3_0 j).IsWhole
  nbuf3_0 : grid3.bufCount reads3_0 false = 2
  hreads3_0 : ∀ i i' : grid3.Coords, (∀ a, reads3_0 a = true → i a = i' a) → cc3_transform_0 i = cc3_transform_0 i'
  hinb3_0 : ∀ (i : grid3.Coords) a, (cc3_transform_0 i a + 1) * S1000x300.size a ≤ S100000x300.size a
  hwx3_0 : ∀ i : grid3.Coords, EltTy.bits .f32 = 32 ∨ (Rect.block (s := S100000x300) S1000x300.size (cc3_transform_0 i) (hinb3_0 i)).WholeWords (EltTy.packing .f32)
  hstage3_1 : ∀ j, (stage3_1 j).IsWhole
  nbuf3_1 : grid3.bufCount reads3_1 false = 2
  hreads3_1 : ∀ i i' : grid3.Coords, (∀ a, reads3_1 a = true → i a = i' a) → cc3_transform_1 i = cc3_transform_1 i'
  hinb3_1 : ∀ (i : grid3.Coords) a, (cc3_transform_1 i a + 1) * S1000x300.size a ≤ S100000x300.size a
  hwx3_1 : ∀ i : grid3.Coords, EltTy.bits .f32 = 32 ∨ (Rect.block (s := S100000x300) S1000x300.size (cc3_transform_1 i) (hinb3_1 i)).WholeWords (EltTy.packing .f32)
  hstage3_2 : ∀ j, (stage3_2 j).IsWhole
  nbuf3_2 : grid3.bufCount reads3_2 false = 2
  hreads3_2 : ∀ i i' : grid3.Coords, (∀ a, reads3_2 a = true → i a = i' a) → cc3_transform_2 i = cc3_transform_2 i'
  hinb3_2 : ∀ (i : grid3.Coords) a, (cc3_transform_2 i a + 1) * S1000x300.size a ≤ S100000x300.size a
  hwx3_2 : ∀ i : grid3.Coords, EltTy.bits .f32 = 32 ∨ (Rect.block (s := S100000x300) S1000x300.size (cc3_transform_2 i) (hinb3_2 i)).WholeWords (EltTy.packing .f32)
  hstage3_3 : ∀ j, (stage3_3 j).IsWhole
  nbuf3_3 : grid3.bufCount reads3_3 false = 2
  hreads3_3 : ∀ i i' : grid3.Coords, (∀ a, reads3_3 a = true → i a = i' a) → cc3_transform_3 i = cc3_transform_3 i'
  hinb3_3 : ∀ (i : grid3.Coords) a, (cc3_transform_3 i a + 1) * S1000x300.size a ≤ S100000x300.size a
  hwx3_3 : ∀ i : grid3.Coords, EltTy.bits .f32 = 32 ∨ (Rect.block (s := S100000x300) S1000x300.size (cc3_transform_3 i) (hinb3_3 i)).WholeWords (EltTy.packing .f32)
  hstage3_4 : ∀ j, (stage3_4 j).IsWhole
  nbuf3_4 : grid3.bufCount reads3_4 false = 2
  hreads3_4 : ∀ i i' : grid3.Coords, (∀ a, reads3_4 a = true → i a = i' a) → cc3_transform_4 i = cc3_transform_4 i'
  hinb3_4 : ∀ (i : grid3.Coords) a, (cc3_transform_4 i a + 1) * S1000x300.size a ≤ S100000x300.size a
  hwx3_4 : ∀ i : grid3.Coords, EltTy.bits .f32 = 32 ∨ (Rect.block (s := S100000x300) S1000x300.size (cc3_transform_4 i) (hinb3_4 i)).WholeWords (EltTy.packing .f32)
  hstage3_5 : ∀ j, (stage3_5 j).IsWhole
  nbuf3_5 : grid3.bufCount reads3_5 false = 2
  hreads3_5 : ∀ i i' : grid3.Coords, (∀ a, reads3_5 a = true → i a = i' a) → cc3_transform_5 i = cc3_transform_5 i'
  hinb3_5 : ∀ (i : grid3.Coords) a, (cc3_transform_5 i a + 1) * S1000x300.size a ≤ S100000x300.size a
  hwx3_5 : ∀ i : grid3.Coords, EltTy.bits .f32 = 32 ∨ (Rect.block (s := S100000x300) S1000x300.size (cc3_transform_5 i) (hinb3_5 i)).WholeWords (EltTy.packing .f32)
  hstage3_6 : ∀ j, (stage3_6 j).IsWhole
  nbuf3_6 : grid3.bufCount reads3_6 false = 2
  hreads3_6 : ∀ i i' : grid3.Coords, (∀ a, reads3_6 a = true → i a = i' a) → cc3_transform_6 i = cc3_transform_6 i'
  hinb3_6 : ∀ (i : grid3.Coords) a, (cc3_transform_6 i a + 1) * S1000x300.size a ≤ S100000x300.size a
  hwx3_6 : ∀ i : grid3.Coords, EltTy.bits .f32 = 32 ∨ (Rect.block (s := S100000x300) S1000x300.size (cc3_transform_6 i) (hinb3_6 i)).WholeWords (EltTy.packing .f32)
  hrank4 : 0 < grid4.rank
  hstage4_0 : ∀ j, (stage4_0 j).IsWhole
  nbuf4_0 : grid4.bufCount reads4_0 false = 2
  hreads4_0 : ∀ i i' : grid4.Coords, (∀ a, reads4_0 a = true → i a = i' a) → cc4_transform_0 i = cc4_transform_0 i'
  hinb4_0 : ∀ (i : grid4.Coords) a, (cc4_transform_0 i a + 1) * S2000x300.size a ≤ S200000x300.size a
  hwx4_0 : ∀ i : grid4.Coords, EltTy.bits .f32 = 32 ∨ (Rect.block (s := S200000x300) S2000x300.size (cc4_transform_0 i) (hinb4_0 i)).WholeWords (EltTy.packing .f32)
  hstage4_1 : ∀ j, (stage4_1 j).IsWhole
  nbuf4_1 : grid4.bufCount reads4_1 false = 2
  hreads4_1 : ∀ i i' : grid4.Coords, (∀ a, reads4_1 a = true → i a = i' a) → cc4_transform_1 i = cc4_transform_1 i'
  hinb4_1 : ∀ (i : grid4.Coords) a, (cc4_transform_1 i a + 1) * S2000x300.size a ≤ S200000x300.size a
  hwx4_1 : ∀ i : grid4.Coords, EltTy.bits .f32 = 32 ∨ (Rect.block (s := S200000x300) S2000x300.size (cc4_transform_1 i) (hinb4_1 i)).WholeWords (EltTy.packing .f32)
  hstage4_2 : ∀ j, (stage4_2 j).IsWhole
  nbuf4_2 : grid4.bufCount reads4_2 false = 2
  hreads4_2 : ∀ i i' : grid4.Coords, (∀ a, reads4_2 a = true → i a = i' a) → cc4_transform_2 i = cc4_transform_2 i'
  hinb4_2 : ∀ (i : grid4.Coords) a, (cc4_transform_2 i a + 1) * S2000x300.size a ≤ S200000x300.size a
  hwx4_2 : ∀ i : grid4.Coords, EltTy.bits .f32 = 32 ∨ (Rect.block (s := S200000x300) S2000x300.size (cc4_transform_2 i) (hinb4_2 i)).WholeWords (EltTy.packing .f32)
  hstage4_3 : ∀ j, (stage4_3 j).IsWhole
  nbuf4_3 : grid4.bufCount reads4_3 true = 1
  hreads4_3 : ∀ i i' : grid4.Coords, (∀ a, reads4_3 a = true → i a = i' a) → cc4_transform_3 i = cc4_transform_3 i'
  hinb4_3 : ∀ (i : grid4.Coords) a, (cc4_transform_3 i a + 1) * S300x300.size a ≤ S300x300.size a
  hwx4_3 : ∀ i : grid4.Coords, EltTy.bits .f32 = 32 ∨ (Rect.block (s := S300x300) S300x300.size (cc4_transform_3 i) (hinb4_3 i)).WholeWords (EltTy.packing .f32)
  hstage4_4 : ∀ j, (stage4_4 j).IsWhole
  nbuf4_4 : grid4.bufCount reads4_4 false = 2
  hreads4_4 : ∀ i i' : grid4.Coords, (∀ a, reads4_4 a = true → i a = i' a) → cc4_transform_4 i = cc4_transform_4 i'
  hinb4_4 : ∀ (i : grid4.Coords) a, (cc4_transform_4 i a + 1) * S2000x300.size a ≤ S200000x300.size a
  hwx4_4 : ∀ i : grid4.Coords, EltTy.bits .f32 = 32 ∨ (Rect.block (s := S200000x300) S2000x300.size (cc4_transform_4 i) (hinb4_4 i)).WholeWords (EltTy.packing .f32)
  hrank5 : 0 < grid5.rank
  hstage5_0 : ∀ j, (stage5_0 j).IsWhole
  nbuf5_0 : grid5.bufCount reads5_0 false = 2
  hreads5_0 : ∀ i i' : grid5.Coords, (∀ a, reads5_0 a = true → i a = i' a) → cc5_transform_0 i = cc5_transform_0 i'
  hinb5_0 : ∀ (i : grid5.Coords) a, (cc5_transform_0 i a + 1) * S1000x300.size a ≤ S100000x300.size a
  hwx5_0 : ∀ i : grid5.Coords, EltTy.bits .f32 = 32 ∨ (Rect.block (s := S100000x300) S1000x300.size (cc5_transform_0 i) (hinb5_0 i)).WholeWords (EltTy.packing .f32)
  hstage5_1 : ∀ j, (stage5_1 j).IsWhole
  nbuf5_1 : grid5.bufCount reads5_1 false = 2
  hreads5_1 : ∀ i i' : grid5.Coords, (∀ a, reads5_1 a = true → i a = i' a) → cc5_transform_1 i = cc5_transform_1 i'
  hinb5_1 : ∀ (i : grid5.Coords) a, (cc5_transform_1 i a + 1) * S1000x300.size a ≤ S100000x300.size a
  hwx5_1 : ∀ i : grid5.Coords, EltTy.bits .f32 = 32 ∨ (Rect.block (s := S100000x300) S1000x300.size (cc5_transform_1 i) (hinb5_1 i)).WholeWords (EltTy.packing .f32)
  hstage5_2 : ∀ j, (stage5_2 j).IsWhole
  nbuf5_2 : grid5.bufCount reads5_2 false = 2
  hreads5_2 : ∀ i i' : grid5.Coords, (∀ a, reads5_2 a = true → i a = i' a) → cc5_transform_2 i = cc5_transform_2 i'
  hinb5_2 : ∀ (i : grid5.Coords) a, (cc5_transform_2 i a + 1) * S1000x300.size a ≤ S100000x300.size a
  hwx5_2 : ∀ i : grid5.Coords, EltTy.bits .f32 = 32 ∨ (Rect.block (s := S100000x300) S1000x300.size (cc5_transform_2 i) (hinb5_2 i)).WholeWords (EltTy.packing .f32)
  hstage5_3 : ∀ j, (stage5_3 j).IsWhole
  nbuf5_3 : grid5.bufCount reads5_3 false = 2
  hreads5_3 : ∀ i i' : grid5.Coords, (∀ a, reads5_3 a = true → i a = i' a) → cc5_transform_3 i = cc5_transform_3 i'
  hinb5_3 : ∀ (i : grid5.Coords) a, (cc5_transform_3 i a + 1) * S1000x300.size a ≤ S100000x300.size a
  hwx5_3 : ∀ i : grid5.Coords, EltTy.bits .f32 = 32 ∨ (Rect.block (s := S100000x300) S1000x300.size (cc5_transform_3 i) (hinb5_3 i)).WholeWords (EltTy.packing .f32)
  hstage5_4 : ∀ j, (stage5_4 j).IsWhole
  nbuf5_4 : grid5.bufCount reads5_4 false = 2
  hreads5_4 : ∀ i i' : grid5.Coords, (∀ a, reads5_4 a = true → i a = i' a) → cc5_transform_4 i = cc5_transform_4 i'
  hinb5_4 : ∀ (i : grid5.Coords) a, (cc5_transform_4 i a + 1) * S1000x300.size a ≤ S100000x300.size a
  hwx5_4 : ∀ i : grid5.Coords, EltTy.bits .f32 = 32 ∨ (Rect.block (s := S100000x300) S1000x300.size (cc5_transform_4 i) (hinb5_4 i)).WholeWords (EltTy.packing .f32)
  hstage5_5 : ∀ j, (stage5_5 j).IsWhole
  nbuf5_5 : grid5.bufCount reads5_5 false = 2
  hreads5_5 : ∀ i i' : grid5.Coords, (∀ a, reads5_5 a = true → i a = i' a) → cc5_transform_5 i = cc5_transform_5 i'
  hinb5_5 : ∀ (i : grid5.Coords) a, (cc5_transform_5 i a + 1) * S1000x300.size a ≤ S100000x300.size a
  hwx5_5 : ∀ i : grid5.Coords, EltTy.bits .f32 = 32 ∨ (Rect.block (s := S100000x300) S1000x300.size (cc5_transform_5 i) (hinb5_5 i)).WholeWords (EltTy.packing .f32)
  hstage5_6 : ∀ j, (stage5_6 j).IsWhole
  nbuf5_6 : grid5.bufCount reads5_6 false = 2
  hreads5_6 : ∀ i i' : grid5.Coords, (∀ a, reads5_6 a = true → i a = i' a) → cc5_transform_6 i = cc5_transform_6 i'
  hinb5_6 : ∀ (i : grid5.Coords) a, (cc5_transform_6 i a + 1) * S1000x300.size a ≤ S100000x300.size a
  hwx5_6 : ∀ i : grid5.Coords, EltTy.bits .f32 = 32 ∨ (Rect.block (s := S100000x300) S1000x300.size (cc5_transform_6 i) (hinb5_6 i)).WholeWords (EltTy.packing .f32)
  hrank6 : 0 < grid6.rank
  hstage6_0 : ∀ j, (stage6_0 j).IsWhole
  nbuf6_0 : grid6.bufCount reads6_0 false = 2
  hreads6_0 : ∀ i i' : grid6.Coords, (∀ a, reads6_0 a = true → i a = i' a) → cc6_transform_0 i = cc6_transform_0 i'
  hinb6_0 : ∀ (i : grid6.Coords) a, (cc6_transform_0 i a + 1) * S2000x133.size a ≤ S100000x133.size a
  hwx6_0 : ∀ i : grid6.Coords, EltTy.bits .f32 = 32 ∨ (Rect.block (s := S100000x133) S2000x133.size (cc6_transform_0 i) (hinb6_0 i)).WholeWords (EltTy.packing .f32)
  hstage6_1 : ∀ j, (stage6_1 j).IsWhole
  nbuf6_1 : grid6.bufCount reads6_1 false = 2
  hreads6_1 : ∀ i i' : grid6.Coords, (∀ a, reads6_1 a = true → i a = i' a) → cc6_transform_1 i = cc6_transform_1 i'
  hinb6_1 : ∀ (i : grid6.Coords) a, (cc6_transform_1 i a + 1) * S2000x300.size a ≤ S100000x300.size a
  hwx6_1 : ∀ i : grid6.Coords, EltTy.bits .f32 = 32 ∨ (Rect.block (s := S100000x300) S2000x300.size (cc6_transform_1 i) (hinb6_1 i)).WholeWords (EltTy.packing .f32)
  hstage6_2 : ∀ j, (stage6_2 j).IsWhole
  nbuf6_2 : grid6.bufCount reads6_2 true = 1
  hreads6_2 : ∀ i i' : grid6.Coords, (∀ a, reads6_2 a = true → i a = i' a) → cc6_transform_2 i = cc6_transform_2 i'
  hinb6_2 : ∀ (i : grid6.Coords) a, (cc6_transform_2 i a + 1) * S133x300.size a ≤ S133x300.size a
  hwx6_2 : ∀ i : grid6.Coords, EltTy.bits .f32 = 32 ∨ (Rect.block (s := S133x300) S133x300.size (cc6_transform_2 i) (hinb6_2 i)).WholeWords (EltTy.packing .f32)
  hstage6_3 : ∀ j, (stage6_3 j).IsWhole
  nbuf6_3 : grid6.bufCount reads6_3 true = 1
  hreads6_3 : ∀ i i' : grid6.Coords, (∀ a, reads6_3 a = true → i a = i' a) → cc6_transform_3 i = cc6_transform_3 i'
  hinb6_3 : ∀ (i : grid6.Coords) a, (cc6_transform_3 i a + 1) * S300x300.size a ≤ S300x300.size a
  hwx6_3 : ∀ i : grid6.Coords, EltTy.bits .f32 = 32 ∨ (Rect.block (s := S300x300) S300x300.size (cc6_transform_3 i) (hinb6_3 i)).WholeWords (EltTy.packing .f32)
  hstage6_4 : ∀ j, (stage6_4 j).IsWhole
  nbuf6_4 : grid6.bufCount reads6_4 true = 1
  hreads6_4 : ∀ i i' : grid6.Coords, (∀ a, reads6_4 a = true → i a = i' a) → cc6_transform_4 i = cc6_transform_4 i'
  hinb6_4 : ∀ (i : grid6.Coords) a, (cc6_transform_4 i a + 1) * S1x300.size a ≤ S1x300.size a
  hwx6_4 : ∀ i : grid6.Coords, EltTy.bits .f32 = 32 ∨ (Rect.block (s := S1x300) S1x300.size (cc6_transform_4 i) (hinb6_4 i)).WholeWords (EltTy.packing .f32)
  hstage6_5 : ∀ j, (stage6_5 j).IsWhole
  nbuf6_5 : grid6.bufCount reads6_5 false = 2
  hreads6_5 : ∀ i i' : grid6.Coords, (∀ a, reads6_5 a = true → i a = i' a) → cc6_transform_5 i = cc6_transform_5 i'
  hinb6_5 : ∀ (i : grid6.Coords) a, (cc6_transform_5 i a + 1) * S2000x300.size a ≤ S100000x300.size a
  hwx6_5 : ∀ i : grid6.Coords, EltTy.bits .f32 = 32 ∨ (Rect.block (s := S100000x300) S2000x300.size (cc6_transform_5 i) (hinb6_5 i)).WholeWords (EltTy.packing .f32)

variable [Facts₀]

def dot_S2000x147_S147x300_S2000x300_1_0_0_1_n_n : DotDims S2000x147 S147x300 S2000x300 where
  lhsContracting := [1]
  rhsContracting := [0]
  lhsNonContracting := [0]
  rhsNonContracting := [1]
  lhsBatch := []
  rhsBatch := []
  wf := dot_S2000x147_S147x300_S2000x300_1_0_0_1_n_n_wf
def gather_S200000x300_S100000x1_S100000x300_1_0_n_n_0_1_1300 : GatherDims S200000x300 S100000x1 S100000x300 where
  offsetDims := [1]
  collapsedSliceDims := [0]
  operandBatchingDims := []
  startIndicesBatchingDims := []
  startIndexMap := [0]
  indexVectorDim := 1
  sliceSizes := ![1, 300]
  wf := gather_S200000x300_S100000x1_S100000x300_1_0_n_n_0_1_1300_wf
def gather_S100000x300_S200000x1_S200000x300_1_0_n_n_0_1_1300 : GatherDims S100000x300 S200000x1 S200000x300 where
  offsetDims := [1]
  collapsedSliceDims := [0]
  operandBatchingDims := []
  startIndicesBatchingDims := []
  startIndexMap := [0]
  indexVectorDim := 1
  sliceSizes := ![1, 300]
  wf := gather_S100000x300_S200000x1_S200000x300_1_0_n_n_0_1_1300_wf
def gather_S200000x300_S200000x1_S200000x300_1_0_n_n_0_1_1300 : GatherDims S200000x300 S200000x1 S200000x300 where
  offsetDims := [1]
  collapsedSliceDims := [0]
  operandBatchingDims := []
  startIndicesBatchingDims := []
  startIndexMap := [0]
  indexVectorDim := 1
  sliceSizes := ![1, 300]
  wf := gather_S200000x300_S200000x1_S200000x300_1_0_n_n_0_1_1300_wf
def dot_S2000x300_S300x300_S2000x300_1_0_0_1_n_n : DotDims S2000x300 S300x300 S2000x300 where
  lhsContracting := [1]
  rhsContracting := [0]
  lhsNonContracting := [0]
  rhsNonContracting := [1]
  lhsBatch := []
  rhsBatch := []
  wf := dot_S2000x300_S300x300_S2000x300_1_0_0_1_n_n_wf
def dot_S2000x133_S133x300_S2000x300_1_0_0_1_n_n : DotDims S2000x133 S133x300 S2000x300 where
  lhsContracting := [1]
  rhsContracting := [0]
  lhsNonContracting := [0]
  rhsNonContracting := [1]
  lhsBatch := []
  rhsBatch := []
  wf := dot_S2000x133_S133x300_S2000x300_1_0_0_1_n_n_wf

abbrev win0_0 : Pipeline.Window sig grid0 :=
  Pipeline.Window.ofSpec (Memref.whole main_arg1) S2000x147.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg5) S147x300.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v0_0) S2000x300.size cc0_transform_2 reads0_2 true false 2 stage0_2 sem0_2
    hrank0 hreads0_2 hinb0_2 nbuf0_2 (Memref.isWhole_whole _) hwx0_2 hstage0_2

abbrev win0_3 : Pipeline.Window sig grid0 :=
  Pipeline.Window.ofSpec (Memref.whole main_v0_1) S2000x300.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

abbrev win1_0 : Pipeline.Window sig grid1 :=
  Pipeline.Window.ofSpec (Memref.whole main_v3) S1000x300.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v6) S1000x300.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v9) S1000x300.size cc1_transform_2 reads1_2 false false 2 stage1_2 sem1_2
    hrank1 hreads1_2 hinb1_2 nbuf1_2 (Memref.isWhole_whole _) hwx1_2 hstage1_2

abbrev win1_3 : Pipeline.Window sig grid1 :=
  Pipeline.Window.ofSpec (Memref.whole main_v12) S1000x300.size cc1_transform_3 reads1_3 false false 2 stage1_3 sem1_3
    hrank1 hreads1_3 hinb1_3 nbuf1_3 (Memref.isWhole_whole _) hwx1_3 hstage1_3

abbrev win1_4 : Pipeline.Window sig grid1 :=
  Pipeline.Window.ofSpec (Memref.whole main_v15) S1000x300.size cc1_transform_4 reads1_4 false false 2 stage1_4 sem1_4
    hrank1 hreads1_4 hinb1_4 nbuf1_4 (Memref.isWhole_whole _) hwx1_4 hstage1_4

abbrev win1_5 : Pipeline.Window sig grid1 :=
  Pipeline.Window.ofSpec (Memref.whole main_v18) S1000x300.size cc1_transform_5 reads1_5 false false 2 stage1_5 sem1_5
    hrank1 hreads1_5 hinb1_5 nbuf1_5 (Memref.isWhole_whole _) hwx1_5 hstage1_5

abbrev win1_6 : Pipeline.Window sig grid1 :=
  Pipeline.Window.ofSpec (Memref.whole main_v19) S1000x300.size cc1_transform_6 reads1_6 true false 2 stage1_6 sem1_6
    hrank1 hreads1_6 hinb1_6 nbuf1_6 (Memref.isWhole_whole _) hwx1_6 hstage1_6

abbrev win1 : Fin 7 → Pipeline.Window sig grid1 := fun | 0 => win1_0 | 1 => win1_1 | 2 => win1_2 | 3 => win1_3 | 4 => win1_4 | 5 => win1_5 | 6 => win1_6 | ⟨_ + 7, h⟩ => absurd h (Nat.not_lt.2 (Nat.le_add_left _ _))
abbrev spec1 : Fin 7 → Pipeline.WinSpec sig grid1.rank := fun w => (win1 w).toWinSpec

abbrev win2_0 : Pipeline.Window sig grid2 :=
  Pipeline.Window.ofSpec (Memref.whole main_v20) S2000x300.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v21) S2000x300.size cc2_transform_1 reads2_1 false false 2 stage2_1 sem2_1
    hrank2 hreads2_1 hinb2_1 nbuf2_1 (Memref.isWhole_whole _) hwx2_1 hstage2_1

abbrev win2_2 : Pipeline.Window sig grid2 :=
  Pipeline.Window.ofSpec (Memref.whole main_v0_0) S2000x300.size cc2_transform_2 reads2_2 false false 2 stage2_2 sem2_2
    hrank2 hreads2_2 hinb2_2 nbuf2_2 (Memref.isWhole_whole _) hwx2_2 hstage2_2

abbrev win2_3 : Pipeline.Window sig grid2 :=
  Pipeline.Window.ofSpec (Memref.whole main_arg6) S300x300.size cc2_transform_3 reads2_3 false true 1 stage2_3 sem2_3
    hrank2 hreads2_3 hinb2_3 nbuf2_3 (Memref.isWhole_whole _) hwx2_3 hstage2_3

abbrev win2_4 : Pipeline.Window sig grid2 :=
  Pipeline.Window.ofSpec (Memref.whole main_v22) S2000x300.size cc2_transform_4 reads2_4 true false 2 stage2_4 sem2_4
    hrank2 hreads2_4 hinb2_4 nbuf2_4 (Memref.isWhole_whole _) hwx2_4 hstage2_4

abbrev win2 : Fin 5 → Pipeline.Window sig grid2 := fun | 0 => win2_0 | 1 => win2_1 | 2 => win2_2 | 3 => win2_3 | 4 => win2_4 | ⟨_ + 5, h⟩ => absurd h (Nat.not_lt.2 (Nat.le_add_left _ _))
abbrev spec2 : Fin 5 → Pipeline.WinSpec sig grid2.rank := fun w => (win2 w).toWinSpec

abbrev win3_0 : Pipeline.Window sig grid3 :=
  Pipeline.Window.ofSpec (Memref.whole main_v25) S1000x300.size cc3_transform_0 reads3_0 false false 2 stage3_0 sem3_0
    hrank3 hreads3_0 hinb3_0 nbuf3_0 (Memref.isWhole_whole _) hwx3_0 hstage3_0

abbrev win3_1 : Pipeline.Window sig grid3 :=
  Pipeline.Window.ofSpec (Memref.whole main_v28) S1000x300.size cc3_transform_1 reads3_1 false false 2 stage3_1 sem3_1
    hrank3 hreads3_1 hinb3_1 nbuf3_1 (Memref.isWhole_whole _) hwx3_1 hstage3_1

abbrev win3_2 : Pipeline.Window sig grid3 :=
  Pipeline.Window.ofSpec (Memref.whole main_v31) S1000x300.size cc3_transform_2 reads3_2 false false 2 stage3_2 sem3_2
    hrank3 hreads3_2 hinb3_2 nbuf3_2 (Memref.isWhole_whole _) hwx3_2 hstage3_2

abbrev win3_3 : Pipeline.Window sig grid3 :=
  Pipeline.Window.ofSpec (Memref.whole main_v34) S1000x300.size cc3_transform_3 reads3_3 false false 2 stage3_3 sem3_3
    hrank3 hreads3_3 hinb3_3 nbuf3_3 (Memref.isWhole_whole _) hwx3_3 hstage3_3

abbrev win3_4 : Pipeline.Window sig grid3 :=
  Pipeline.Window.ofSpec (Memref.whole main_v37) S1000x300.size cc3_transform_4 reads3_4 false false 2 stage3_4 sem3_4
    hrank3 hreads3_4 hinb3_4 nbuf3_4 (Memref.isWhole_whole _) hwx3_4 hstage3_4

abbrev win3_5 : Pipeline.Window sig grid3 :=
  Pipeline.Window.ofSpec (Memref.whole main_v40) S1000x300.size cc3_transform_5 reads3_5 false false 2 stage3_5 sem3_5
    hrank3 hreads3_5 hinb3_5 nbuf3_5 (Memref.isWhole_whole _) hwx3_5 hstage3_5

abbrev win3_6 : Pipeline.Window sig grid3 :=
  Pipeline.Window.ofSpec (Memref.whole main_v41) S1000x300.size cc3_transform_6 reads3_6 true false 2 stage3_6 sem3_6
    hrank3 hreads3_6 hinb3_6 nbuf3_6 (Memref.isWhole_whole _) hwx3_6 hstage3_6

abbrev win3 : Fin 7 → Pipeline.Window sig grid3 := fun | 0 => win3_0 | 1 => win3_1 | 2 => win3_2 | 3 => win3_3 | 4 => win3_4 | 5 => win3_5 | 6 => win3_6 | ⟨_ + 7, h⟩ => absurd h (Nat.not_lt.2 (Nat.le_add_left _ _))
abbrev spec3 : Fin 7 → Pipeline.WinSpec sig grid3.rank := fun w => (win3 w).toWinSpec

abbrev win4_0 : Pipeline.Window sig grid4 :=
  Pipeline.Window.ofSpec (Memref.whole main_v42) S2000x300.size cc4_transform_0 reads4_0 false false 2 stage4_0 sem4_0
    hrank4 hreads4_0 hinb4_0 nbuf4_0 (Memref.isWhole_whole _) hwx4_0 hstage4_0

abbrev win4_1 : Pipeline.Window sig grid4 :=
  Pipeline.Window.ofSpec (Memref.whole main_v43) S2000x300.size cc4_transform_1 reads4_1 false false 2 stage4_1 sem4_1
    hrank4 hreads4_1 hinb4_1 nbuf4_1 (Memref.isWhole_whole _) hwx4_1 hstage4_1

abbrev win4_2 : Pipeline.Window sig grid4 :=
  Pipeline.Window.ofSpec (Memref.whole main_v0_0) S2000x300.size cc4_transform_2 reads4_2 false false 2 stage4_2 sem4_2
    hrank4 hreads4_2 hinb4_2 nbuf4_2 (Memref.isWhole_whole _) hwx4_2 hstage4_2

abbrev win4_3 : Pipeline.Window sig grid4 :=
  Pipeline.Window.ofSpec (Memref.whole main_arg6) S300x300.size cc4_transform_3 reads4_3 false true 1 stage4_3 sem4_3
    hrank4 hreads4_3 hinb4_3 nbuf4_3 (Memref.isWhole_whole _) hwx4_3 hstage4_3

abbrev win4_4 : Pipeline.Window sig grid4 :=
  Pipeline.Window.ofSpec (Memref.whole main_v44) S2000x300.size cc4_transform_4 reads4_4 true false 2 stage4_4 sem4_4
    hrank4 hreads4_4 hinb4_4 nbuf4_4 (Memref.isWhole_whole _) hwx4_4 hstage4_4

abbrev win4 : Fin 5 → Pipeline.Window sig grid4 := fun | 0 => win4_0 | 1 => win4_1 | 2 => win4_2 | 3 => win4_3 | 4 => win4_4 | ⟨_ + 5, h⟩ => absurd h (Nat.not_lt.2 (Nat.le_add_left _ _))
abbrev spec4 : Fin 5 → Pipeline.WinSpec sig grid4.rank := fun w => (win4 w).toWinSpec

abbrev win5_0 : Pipeline.Window sig grid5 :=
  Pipeline.Window.ofSpec (Memref.whole main_v47) S1000x300.size cc5_transform_0 reads5_0 false false 2 stage5_0 sem5_0
    hrank5 hreads5_0 hinb5_0 nbuf5_0 (Memref.isWhole_whole _) hwx5_0 hstage5_0

abbrev win5_1 : Pipeline.Window sig grid5 :=
  Pipeline.Window.ofSpec (Memref.whole main_v50) S1000x300.size cc5_transform_1 reads5_1 false false 2 stage5_1 sem5_1
    hrank5 hreads5_1 hinb5_1 nbuf5_1 (Memref.isWhole_whole _) hwx5_1 hstage5_1

abbrev win5_2 : Pipeline.Window sig grid5 :=
  Pipeline.Window.ofSpec (Memref.whole main_v53) S1000x300.size cc5_transform_2 reads5_2 false false 2 stage5_2 sem5_2
    hrank5 hreads5_2 hinb5_2 nbuf5_2 (Memref.isWhole_whole _) hwx5_2 hstage5_2

abbrev win5_3 : Pipeline.Window sig grid5 :=
  Pipeline.Window.ofSpec (Memref.whole main_v56) S1000x300.size cc5_transform_3 reads5_3 false false 2 stage5_3 sem5_3
    hrank5 hreads5_3 hinb5_3 nbuf5_3 (Memref.isWhole_whole _) hwx5_3 hstage5_3

abbrev win5_4 : Pipeline.Window sig grid5 :=
  Pipeline.Window.ofSpec (Memref.whole main_v59) S1000x300.size cc5_transform_4 reads5_4 false false 2 stage5_4 sem5_4
    hrank5 hreads5_4 hinb5_4 nbuf5_4 (Memref.isWhole_whole _) hwx5_4 hstage5_4

abbrev win5_5 : Pipeline.Window sig grid5 :=
  Pipeline.Window.ofSpec (Memref.whole main_v62) S1000x300.size cc5_transform_5 reads5_5 false false 2 stage5_5 sem5_5
    hrank5 hreads5_5 hinb5_5 nbuf5_5 (Memref.isWhole_whole _) hwx5_5 hstage5_5

abbrev win5_6 : Pipeline.Window sig grid5 :=
  Pipeline.Window.ofSpec (Memref.whole main_v63) S1000x300.size cc5_transform_6 reads5_6 true false 2 stage5_6 sem5_6
    hrank5 hreads5_6 hinb5_6 nbuf5_6 (Memref.isWhole_whole _) hwx5_6 hstage5_6

abbrev win5 : Fin 7 → Pipeline.Window sig grid5 := fun | 0 => win5_0 | 1 => win5_1 | 2 => win5_2 | 3 => win5_3 | 4 => win5_4 | 5 => win5_5 | 6 => win5_6 | ⟨_ + 7, h⟩ => absurd h (Nat.not_lt.2 (Nat.le_add_left _ _))
abbrev spec5 : Fin 7 → Pipeline.WinSpec sig grid5.rank := fun w => (win5 w).toWinSpec

abbrev win6_0 : Pipeline.Window sig grid6 :=
  Pipeline.Window.ofSpec (Memref.whole main_arg0) S2000x133.size cc6_transform_0 reads6_0 false false 2 stage6_0 sem6_0
    hrank6 hreads6_0 hinb6_0 nbuf6_0 (Memref.isWhole_whole _) hwx6_0 hstage6_0

abbrev win6_1 : Pipeline.Window sig grid6 :=
  Pipeline.Window.ofSpec (Memref.whole main_v63) S2000x300.size cc6_transform_1 reads6_1 false false 2 stage6_1 sem6_1
    hrank6 hreads6_1 hinb6_1 nbuf6_1 (Memref.isWhole_whole _) hwx6_1 hstage6_1

abbrev win6_2 : Pipeline.Window sig grid6 :=
  Pipeline.Window.ofSpec (Memref.whole main_v64) S133x300.size cc6_transform_2 reads6_2 false true 1 stage6_2 sem6_2
    hrank6 hreads6_2 hinb6_2 nbuf6_2 (Memref.isWhole_whole _) hwx6_2 hstage6_2

abbrev win6_3 : Pipeline.Window sig grid6 :=
  Pipeline.Window.ofSpec (Memref.whole main_v65) S300x300.size cc6_transform_3 reads6_3 false true 1 stage6_3 sem6_3
    hrank6 hreads6_3 hinb6_3 nbuf6_3 (Memref.isWhole_whole _) hwx6_3 hstage6_3

abbrev win6_4 : Pipeline.Window sig grid6 :=
  Pipeline.Window.ofSpec (Memref.whole main_v66) S1x300.size cc6_transform_4 reads6_4 false true 1 stage6_4 sem6_4
    hrank6 hreads6_4 hinb6_4 nbuf6_4 (Memref.isWhole_whole _) hwx6_4 hstage6_4

abbrev win6_5 : Pipeline.Window sig grid6 :=
  Pipeline.Window.ofSpec (Memref.whole main_v67) S2000x300.size cc6_transform_5 reads6_5 true false 2 stage6_5 sem6_5
    hrank6 hreads6_5 hinb6_5 nbuf6_5 (Memref.isWhole_whole _) hwx6_5 hstage6_5

abbrev win6 : Fin 6 → Pipeline.Window sig grid6 := fun | 0 => win6_0 | 1 => win6_1 | 2 => win6_2 | 3 => win6_3 | 4 => win6_4 | 5 => win6_5 | ⟨_ + 6, h⟩ => absurd h (Nat.not_lt.2 (Nat.le_add_left _ _))
abbrev spec6 : Fin 6 → Pipeline.WinSpec sig grid6.rank := fun w => (win6 w).toWinSpec

class Facts : Prop extends Facts₀ where

variable [Facts]
-- ==== ReferenceIdeal.lean ====
abbrev S100000x133 : Shape := ⟨2, ![100000, 133]⟩
abbrev S200000x147 : Shape := ⟨2, ![200000, 147]⟩
abbrev S100000x6 : Shape := ⟨2, ![100000, 6]⟩
abbrev S200000 : Shape := ⟨1, ![200000]⟩
abbrev S147x300 : Shape := ⟨2, ![147, 300]⟩
abbrev S300x300 : Shape := ⟨2, ![300, 300]⟩
abbrev S433x300 : Shape := ⟨2, ![433, 300]⟩
abbrev S300 : Shape := ⟨1, ![300]⟩
abbrev S200000x300 : Shape := ⟨2, ![200000, 300]⟩
abbrev S_ : Shape := ⟨0, ![]⟩
abbrev S100000x6x1 : Shape := ⟨3, ![100000, 6, 1]⟩
abbrev S100000x6x300 : Shape := ⟨3, ![100000, 6, 300]⟩
abbrev S100000x300 : Shape := ⟨2, ![100000, 300]⟩
abbrev S200000x1 : Shape := ⟨2, ![200000, 1]⟩
abbrev S100000x433 : Shape := ⟨2, ![100000, 433]⟩
abbrev S1x300 : Shape := ⟨2, ![1, 300]⟩

abbrev nBuf : Space → Nat
  | .hbm => 102
  | .vmem => 0
  | .smem => 0
  | _ => 0

abbrev bufTy : (tb : Table) → Fin (tcTables nBuf tb) → BufTy
  | .hbm, ⟨0, _⟩ => ⟨S100000x133, .f32⟩
  | .hbm, ⟨1, _⟩ => ⟨S200000x147, .f32⟩
  | .hbm, ⟨2, _⟩ => ⟨S100000x6, .i32⟩
  | .hbm, ⟨3, _⟩ => ⟨S200000, .i32⟩
  | .hbm, ⟨4, _⟩ => ⟨S200000, .i32⟩
  | .hbm, ⟨5, _⟩ => ⟨S147x300, .f32⟩
  | .hbm, ⟨6, _⟩ => ⟨S300x300, .f32⟩
  | .hbm, ⟨7, _⟩ => ⟨S433x300, .f32⟩
  | .hbm, ⟨8, _⟩ => ⟨S300, .f32⟩
  | .hbm, ⟨9, _⟩ => ⟨S200000x300, .f32⟩
  | .hbm, ⟨10, _⟩ => ⟨S_, .f32⟩
  | .hbm, ⟨11, _⟩ => ⟨S200000x300, .f32⟩
  | .hbm, ⟨12, _⟩ => ⟨S200000x300, .f32⟩
  | .hbm, ⟨13, _⟩ => ⟨S_, .i32⟩
  | .hbm, ⟨14, _⟩ => ⟨S100000x6, .i32⟩
  | .hbm, ⟨15, _⟩ => ⟨S100000x6, .i1⟩
  | .hbm, ⟨16, _⟩ => ⟨S_, .i32⟩
  | .hbm, ⟨17, _⟩ => ⟨S100000x6, .i32⟩
  | .hbm, ⟨18, _⟩ => ⟨S100000x6, .i32⟩
  | .hbm, ⟨19, _⟩ => ⟨S100000x6, .i32⟩
  | .hbm, ⟨20, _⟩ => ⟨S100000x6x1, .i32⟩
  | .hbm, ⟨21, _⟩ => ⟨S100000x6x300, .f32⟩
  | .hbm, ⟨22, _⟩ => ⟨S_, .f32⟩
  | .hbm, ⟨23, _⟩ => ⟨S100000x300, .f32⟩
  | .hbm, ⟨24, _⟩ => ⟨S_, .i32⟩
  | .hbm, ⟨25, _⟩ => ⟨S200000, .i32⟩
  | .hbm, ⟨26, _⟩ => ⟨S200000, .i1⟩
  | .hbm, ⟨27, _⟩ => ⟨S_, .i32⟩
  | .hbm, ⟨28, _⟩ => ⟨S200000, .i32⟩
  | .hbm, ⟨29, _⟩ => ⟨S200000, .i32⟩
  | .hbm, ⟨30, _⟩ => ⟨S200000, .i32⟩
  | .hbm, ⟨31, _⟩ => ⟨S200000x1, .i32⟩
  | .hbm, ⟨32, _⟩ => ⟨S200000x300, .f32⟩
  | .hbm, ⟨33, _⟩ => ⟨S_, .i32⟩
  | .hbm, ⟨34, _⟩ => ⟨S200000, .i32⟩
  | .hbm, ⟨35, _⟩ => ⟨S200000, .i1⟩
  | .hbm, ⟨36, _⟩ => ⟨S_, .i32⟩
  | .hbm, ⟨37, _⟩ => ⟨S200000, .i32⟩
  | .hbm, ⟨38, _⟩ => ⟨S200000, .i32⟩
  | .hbm, ⟨39, _⟩ => ⟨S200000, .i32⟩
  | .hbm, ⟨40, _⟩ => ⟨S200000x1, .i32⟩
  | .hbm, ⟨41, _⟩ => ⟨S200000x300, .f32⟩
  | .hbm, ⟨42, _⟩ => ⟨S200000x300, .f32⟩
  | .hbm, ⟨43, _⟩ => ⟨S200000x300, .f32⟩
  | .hbm, ⟨44, _⟩ => ⟨S200000x300, .f32⟩
  | .hbm, ⟨45, _⟩ => ⟨S_, .f32⟩
  | .hbm, ⟨46, _⟩ => ⟨S200000x300, .f32⟩
  | .hbm, ⟨47, _⟩ => ⟨S200000x300, .f32⟩
  | .hbm, ⟨48, _⟩ => ⟨S_, .i32⟩
  | .hbm, ⟨49, _⟩ => ⟨S100000x6, .i32⟩
  | .hbm, ⟨50, _⟩ => ⟨S100000x6, .i1⟩
  | .hbm, ⟨51, _⟩ => ⟨S_, .i32⟩
  | .hbm, ⟨52, _⟩ => ⟨S100000x6, .i32⟩
  | .hbm, ⟨53, _⟩ => ⟨S100000x6, .i32⟩
  | .hbm, ⟨54, _⟩ => ⟨S100000x6, .i32⟩
  | .hbm, ⟨55, _⟩ => ⟨S100000x6x1, .i32⟩
  | .hbm, ⟨56, _⟩ => ⟨S100000x6x300, .f32⟩
  | .hbm, ⟨57, _⟩ => ⟨S_, .f32⟩
  | .hbm, ⟨58, _⟩ => ⟨S100000x300, .f32⟩
  | .hbm, ⟨59, _⟩ => ⟨S_, .i32⟩
  | .hbm, ⟨60, _⟩ => ⟨S200000, .i32⟩
  | .hbm, ⟨61, _⟩ => ⟨S200000, .i1⟩
  | .hbm, ⟨62, _⟩ => ⟨S_, .i32⟩
  | .hbm, ⟨63, _⟩ => ⟨S200000, .i32⟩
  | .hbm, ⟨64, _⟩ => ⟨S200000, .i32⟩
  | .hbm, ⟨65, _⟩ => ⟨S200000, .i32⟩
  | .hbm, ⟨66, _⟩ => ⟨S200000x1, .i32⟩
  | .hbm, ⟨67, _⟩ => ⟨S200000x300, .f32⟩
  | .hbm, ⟨68, _⟩ => ⟨S_, .i32⟩
  | .hbm, ⟨69, _⟩ => ⟨S200000, .i32⟩
  | .hbm, ⟨70, _⟩ => ⟨S200000, .i1⟩
  | .hbm, ⟨71, _⟩ => ⟨S_, .i32⟩
  | .hbm, ⟨72, _⟩ => ⟨S200000, .i32⟩
  | .hbm, ⟨73, _⟩ => ⟨S200000, .i32⟩
  | .hbm, ⟨74, _⟩ => ⟨S200000, .i32⟩
  | .hbm, ⟨75, _⟩ => ⟨S200000x1, .i32⟩
  | .hbm, ⟨76, _⟩ => ⟨S200000x300, .f32⟩
  | .hbm, ⟨77, _⟩ => ⟨S200000x300, .f32⟩
  | .hbm, ⟨78, _⟩ => ⟨S200000x300, .f32⟩
  | .hbm, ⟨79, _⟩ => ⟨S200000x300, .f32⟩
  | .hbm, ⟨80, _⟩ => ⟨S_, .f32⟩
  | .hbm, ⟨81, _⟩ => ⟨S200000x300, .f32⟩
  | .hbm, ⟨82, _⟩ => ⟨S200000x300, .f32⟩
  | .hbm, ⟨83, _⟩ => ⟨S_, .i32⟩
  | .hbm, ⟨84, _⟩ => ⟨S100000x6, .i32⟩
  | .hbm, ⟨85, _⟩ => ⟨S100000x6, .i1⟩
  | .hbm, ⟨86, _⟩ => ⟨S_, .i32⟩
  | .hbm, ⟨87, _⟩ => ⟨S100000x6, .i32⟩
  | .hbm, ⟨88, _⟩ => ⟨S100000x6, .i32⟩
  | .hbm, ⟨89, _⟩ => ⟨S100000x6, .i32⟩
  | .hbm, ⟨90, _⟩ => ⟨S100000x6x1, .i32⟩
  | .hbm, ⟨91, _⟩ => ⟨S100000x6x300, .f32⟩
  | .hbm, ⟨92, _⟩ => ⟨S_, .f32⟩
  | .hbm, ⟨93, _⟩ => ⟨S100000x300, .f32⟩
  | .hbm, ⟨94, _⟩ => ⟨S100000x433, .f32⟩
  | .hbm, ⟨95, _⟩ => ⟨S100000x300, .f32⟩
  | .hbm, ⟨96, _⟩ => ⟨S1x300, .f32⟩
  | .hbm, ⟨97, _⟩ => ⟨S100000x300, .f32⟩
  | .hbm, ⟨98, _⟩ => ⟨S100000x300, .f32⟩
  | .hbm, ⟨99, _⟩ => ⟨S_, .f32⟩
  | .hbm, ⟨100, _⟩ => ⟨S100000x300, .f32⟩
  | .hbm, ⟨101, _⟩ => ⟨S100000x300, .f32⟩
  | _, _ => ⟨S100000x133, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_call0_cst : Ref sig .tc := ⟨.hbm, 10, rfl⟩
abbrev main_call0_v0 : Ref sig .tc := ⟨.hbm, 11, rfl⟩
abbrev main_v1 : Ref sig .tc := ⟨.hbm, 12, rfl⟩
abbrev main_c : Ref sig .tc := ⟨.hbm, 13, rfl⟩
abbrev main_v2 : Ref sig .tc := ⟨.hbm, 14, rfl⟩
abbrev main_v3 : Ref sig .tc := ⟨.hbm, 15, rfl⟩
abbrev main_c_0 : Ref sig .tc := ⟨.hbm, 16, rfl⟩
abbrev main_v4 : Ref sig .tc := ⟨.hbm, 17, rfl⟩
abbrev main_v5 : Ref sig .tc := ⟨.hbm, 18, rfl⟩
abbrev main_v6 : Ref sig .tc := ⟨.hbm, 19, rfl⟩
abbrev main_v7 : Ref sig .tc := ⟨.hbm, 20, rfl⟩
abbrev main_v8 : Ref sig .tc := ⟨.hbm, 21, rfl⟩
abbrev main_cst : Ref sig .tc := ⟨.hbm, 22, rfl⟩
abbrev main_v9 : Ref sig .tc := ⟨.hbm, 23, rfl⟩
abbrev main_c_1 : Ref sig .tc := ⟨.hbm, 24, rfl⟩
abbrev main_v10 : Ref sig .tc := ⟨.hbm, 25, rfl⟩
abbrev main_v11 : Ref sig .tc := ⟨.hbm, 26, rfl⟩
abbrev main_c_2 : Ref sig .tc := ⟨.hbm, 27, rfl⟩
abbrev main_v12 : Ref sig .tc := ⟨.hbm, 28, rfl⟩
abbrev main_v13 : Ref sig .tc := ⟨.hbm, 29, rfl⟩
abbrev main_v14 : Ref sig .tc := ⟨.hbm, 30, rfl⟩
abbrev main_v15 : Ref sig .tc := ⟨.hbm, 31, rfl⟩
abbrev main_v16 : Ref sig .tc := ⟨.hbm, 32, rfl⟩
abbrev main_c_3 : Ref sig .tc := ⟨.hbm, 33, rfl⟩
abbrev main_v17 : Ref sig .tc := ⟨.hbm, 34, rfl⟩
abbrev main_v18 : Ref sig .tc := ⟨.hbm, 35, rfl⟩
abbrev main_c_4 : Ref sig .tc := ⟨.hbm, 36, rfl⟩
abbrev main_v19 : Ref sig .tc := ⟨.hbm, 37, rfl⟩
abbrev main_v20 : Ref sig .tc := ⟨.hbm, 38, rfl⟩
abbrev main_v21 : Ref sig .tc := ⟨.hbm, 39, rfl⟩
abbrev main_v22 : Ref sig .tc := ⟨.hbm, 40, rfl⟩
abbrev main_v23 : Ref sig .tc := ⟨.hbm, 41, rfl⟩
abbrev main_v24 : Ref sig .tc := ⟨.hbm, 42, rfl⟩
abbrev main_v25 : Ref sig .tc := ⟨.hbm, 43, rfl⟩
abbrev main_v26 : Ref sig .tc := ⟨.hbm, 44, rfl⟩
abbrev main_call1_cst : Ref sig .tc := ⟨.hbm, 45, rfl⟩
abbrev main_call1_v0 : Ref sig .tc := ⟨.hbm, 46, rfl⟩
abbrev main_v27 : Ref sig .tc := ⟨.hbm, 47, rfl⟩
abbrev main_c_5 : Ref sig .tc := ⟨.hbm, 48, rfl⟩
abbrev main_v28 : Ref sig .tc := ⟨.hbm, 49, rfl⟩
abbrev main_v29 : Ref sig .tc := ⟨.hbm, 50, rfl⟩
abbrev main_c_6 : Ref sig .tc := ⟨.hbm, 51, rfl⟩
abbrev main_v30 : Ref sig .tc := ⟨.hbm, 52, rfl⟩
abbrev main_v31 : Ref sig .tc := ⟨.hbm, 53, rfl⟩
abbrev main_v32 : Ref sig .tc := ⟨.hbm, 54, rfl⟩
abbrev main_v33 : Ref sig .tc := ⟨.hbm, 55, rfl⟩
abbrev main_v34 : Ref sig .tc := ⟨.hbm, 56, rfl⟩
abbrev main_cst_7 : Ref sig .tc := ⟨.hbm, 57, rfl⟩
abbrev main_v35 : Ref sig .tc := ⟨.hbm, 58, rfl⟩
abbrev main_c_8 : Ref sig .tc := ⟨.hbm, 59, rfl⟩
abbrev main_v36 : Ref sig .tc := ⟨.hbm, 60, rfl⟩
abbrev main_v37 : Ref sig .tc := ⟨.hbm, 61, rfl⟩
abbrev main_c_9 : Ref sig .tc := ⟨.hbm, 62, rfl⟩
abbrev main_v38 : Ref sig .tc := ⟨.hbm, 63, rfl⟩
abbrev main_v39 : Ref sig .tc := ⟨.hbm, 64, rfl⟩
abbrev main_v40 : Ref sig .tc := ⟨.hbm, 65, rfl⟩
abbrev main_v41 : Ref sig .tc := ⟨.hbm, 66, rfl⟩
abbrev main_v42 : Ref sig .tc := ⟨.hbm, 67, rfl⟩
abbrev main_c_10 : Ref sig .tc := ⟨.hbm, 68, rfl⟩
abbrev main_v43 : Ref sig .tc := ⟨.hbm, 69, rfl⟩
abbrev main_v44 : Ref sig .tc := ⟨.hbm, 70, rfl⟩
abbrev main_c_11 : Ref sig .tc := ⟨.hbm, 71, rfl⟩
abbrev main_v45 : Ref sig .tc := ⟨.hbm, 72, rfl⟩
abbrev main_v46 : Ref sig .tc := ⟨.hbm, 73, rfl⟩
abbrev main_v47 : Ref sig .tc := ⟨.hbm, 74, rfl⟩
abbrev main_v48 : Ref sig .tc := ⟨.hbm, 75, rfl⟩
abbrev main_v49 : Ref sig .tc := ⟨.hbm, 76, rfl⟩
abbrev main_v50 : Ref sig .tc := ⟨.hbm, 77, rfl⟩
abbrev main_v51 : Ref sig .tc := ⟨.hbm, 78, rfl⟩
abbrev main_v52 : Ref sig .tc := ⟨.hbm, 79, rfl⟩
abbrev main_call2_cst : Ref sig .tc := ⟨.hbm, 80, rfl⟩
abbrev main_call2_v0 : Ref sig .tc := ⟨.hbm, 81, rfl⟩
abbrev main_v53 : Ref sig .tc := ⟨.hbm, 82, rfl⟩
abbrev main_c_12 : Ref sig .tc := ⟨.hbm, 83, rfl⟩
abbrev main_v54 : Ref sig .tc := ⟨.hbm, 84, rfl⟩
abbrev main_v55 : Ref sig .tc := ⟨.hbm, 85, rfl⟩
abbrev main_c_13 : Ref sig .tc := ⟨.hbm, 86, rfl⟩
abbrev main_v56 : Ref sig .tc := ⟨.hbm, 87, rfl⟩
abbrev main_v57 : Ref sig .tc := ⟨.hbm, 88, rfl⟩
abbrev main_v58 : Ref sig .tc := ⟨.hbm, 89, rfl⟩
abbrev main_v59 : Ref sig .tc := ⟨.hbm, 90, rfl⟩
abbrev main_v60 : Ref sig .tc := ⟨.hbm, 91, rfl⟩
abbrev main_cst_14 : Ref sig .tc := ⟨.hbm, 92, rfl⟩
abbrev main_v61 : Ref sig .tc := ⟨.hbm, 93, rfl⟩
abbrev main_v62 : Ref sig .tc := ⟨.hbm, 94, rfl⟩
abbrev main_v63 : Ref sig .tc := ⟨.hbm, 95, rfl⟩
abbrev main_v64 : Ref sig .tc := ⟨.hbm, 96, rfl⟩
abbrev main_v65 : Ref sig .tc := ⟨.hbm, 97, rfl⟩
abbrev main_v66 : Ref sig .tc := ⟨.hbm, 98, rfl⟩
abbrev main_call3_cst : Ref sig .tc := ⟨.hbm, 99, rfl⟩
abbrev main_call3_v0 : Ref sig .tc := ⟨.hbm, 100, rfl⟩
abbrev main_v67 : Ref sig .tc := ⟨.hbm, 101, rfl⟩

abbrev nD : Nat := 1
abbrev τ : Topo := Topo.v7x

variable {F : FTy → Type} [FloatOps F]

class Facts₀ : Prop where
  bcast_S_S200000x300 : S_.BroadcastsInDim S200000x300 (![] : Fin 0 → Fin S200000x300.rank)
  bcast_S_S100000x6 : S_.BroadcastsInDim S100000x6 (![] : Fin 0 → Fin S100000x6.rank)
  bcast_S100000x6_S100000x6x1_0_1 : S100000x6.BroadcastsInDim S100000x6x1 (![0, 1] : Fin 2 → Fin S100000x6x1.rank)
  reducesTo_S100000x6x300_S100000x300_d1 : S100000x6x300.ReducesTo [1] S100000x300
  h_S_ : 0 < S_.numel
  bcast_S_S200000 : S_.BroadcastsInDim S200000 (![] : Fin 0 → Fin S200000.rank)
  bcast_S200000_S200000x1_0 : S200000.BroadcastsInDim S200000x1 (![0] : Fin 1 → Fin S200000x1.rank)
  concatenates_S100000x133_S100000x300_S100000x433_d1 : Shape.Concatenates [S100000x133, S100000x300] S100000x433 1
  bcast_S300_S1x300_1 : S300.BroadcastsInDim S1x300 (![1] : Fin 1 → Fin S1x300.rank)
  bcast_S1x300_S100000x300_0_1 : S1x300.BroadcastsInDim S100000x300 (![0, 1] : Fin 2 → Fin S100000x300.rank)
  bcast_S_S100000x300 : S_.BroadcastsInDim S100000x300 (![] : Fin 0 → Fin S100000x300.rank)
  dot_S200000x147_S147x300_S200000x300_1_0_0_1_n_n_wf : DotDims.WF S200000x147 S147x300 S200000x300 [1] [0] [0] [1] [] []
  gather_S200000x300_S100000x6x1_S100000x6x300_2_0_n_n_0_2_1300_wf : GatherDims.WF S200000x300 S100000x6x1 S100000x6x300 [2] [0] [] [0] [] 2 ![1, 300]
  gather_S100000x300_S200000x1_S200000x300_1_0_n_n_0_1_1300_wf : GatherDims.WF S100000x300 S200000x1 S200000x300 [1] [0] [] [0] [] 1 ![1, 300]
  gather_S200000x300_S200000x1_S200000x300_1_0_n_n_0_1_1300_wf : GatherDims.WF S200000x300 S200000x1 S200000x300 [1] [0] [] [0] [] 1 ![1, 300]
  dot_S200000x300_S300x300_S200000x300_1_0_0_1_n_n_wf : DotDims.WF S200000x300 S300x300 S200000x300 [1] [0] [0] [1] [] []
  dot_S100000x433_S433x300_S100000x300_1_0_0_1_n_n_wf : DotDims.WF S100000x433 S433x300 S100000x300 [1] [0] [0] [1] [] []

variable [Facts₀]

def dot_S200000x147_S147x300_S200000x300_1_0_0_1_n_n : DotDims S200000x147 S147x300 S200000x300 where
  lhsContracting := [1]
  rhsContracting := [0]
  lhsNonContracting := [0]
  rhsNonContracting := [1]
  lhsBatch := []
  rhsBatch := []
  wf := dot_S200000x147_S147x300_S200000x300_1_0_0_1_n_n_wf
def gather_S200000x300_S100000x6x1_S100000x6x300_2_0_n_n_0_2_1300 : GatherDims S200000x300 S100000x6x1 S100000x6x300 where
  offsetDims := [2]
  collapsedSliceDims := [0]
  operandBatchingDims := []
  startIndicesBatchingDims := []
  startIndexMap := [0]
  indexVectorDim := 2
  sliceSizes := ![1, 300]
  wf := gather_S200000x300_S100000x6x1_S100000x6x300_2_0_n_n_0_2_1300_wf
def gather_S100000x300_S200000x1_S200000x300_1_0_n_n_0_1_1300 : GatherDims S100000x300 S200000x1 S200000x300 where
  offsetDims := [1]
  collapsedSliceDims := [0]
  operandBatchingDims := []
  startIndicesBatchingDims := []
  startIndexMap := [0]
  indexVectorDim := 1
  sliceSizes := ![1, 300]
  wf := gather_S100000x300_S200000x1_S200000x300_1_0_n_n_0_1_1300_wf
def gather_S200000x300_S200000x1_S200000x300_1_0_n_n_0_1_1300 : GatherDims S200000x300 S200000x1 S200000x300 where
  offsetDims := [1]
  collapsedSliceDims := [0]
  operandBatchingDims := []
  startIndicesBatchingDims := []
  startIndexMap := [0]
  indexVectorDim := 1
  sliceSizes := ![1, 300]
  wf := gather_S200000x300_S200000x1_S200000x300_1_0_n_n_0_1_1300_wf
def dot_S200000x300_S300x300_S200000x300_1_0_0_1_n_n : DotDims S200000x300 S300x300 S200000x300 where
  lhsContracting := [1]
  rhsContracting := [0]
  lhsNonContracting := [0]
  rhsNonContracting := [1]
  lhsBatch := []
  rhsBatch := []
  wf := dot_S200000x300_S300x300_S200000x300_1_0_0_1_n_n_wf
def dot_S100000x433_S433x300_S100000x300_1_0_0_1_n_n : DotDims S100000x433 S433x300 S100000x300 where
  lhsContracting := [1]
  rhsContracting := [0]
  lhsNonContracting := [0]
  rhsNonContracting := [1]
  lhsBatch := []
  rhsBatch := []
  wf := dot_S100000x433_S433x300_S100000x300_1_0_0_1_n_n_wf

class Facts : Prop extends Facts₀ where

variable [Facts]
-- ==== Proof.Stages.lean ====
/- The stages of the network, as functions of whole arrays.

   A bond message table `msg : [200000, 300]` is re-aggregated per atom over the atom's six incoming bonds
   (`nbrSum`), read back per bond at the bond's source atom (`atomAt`) and at its reverse bond (`revAt`), and
   updated as `relu (inp + (atomAt − revAt) · W_h)` (`update`); after two updates the atom rows are read out as
   `relu ([f_atoms | nbrSum msg] · W_o + b_o)` (`readout`).  They are written with the reference program's own
   operations, so that the reference's result is their composition `out` by unfolding alone.

   The kernel program gathers rows with a bounds mask: `takeA`, `takeB`, `takeR` are its three gathers, each
   a row gather whose rows are replaced by a fill word wherever the (wrapped) index leaves `[0, n − 1]`. -/
import proofs.«417302_j82858509074740_1_alg».proof.Proof.Gen.KernelIdeal
import proofs.«417302_j82858509074740_1_alg».proof.Proof.Gen.ReferenceIdeal

noncomputable section

namespace Cert.Stages

open Idealize.ShloMosaic Cert.ReferenceIdeal Cert.ReferenceIdeal.Facts₀

variable {F : FTy → Type} [FloatOps F]

/-- `max x 0` on bond rows. -/
def relu2 (x : Vec F S200000x300 .f32) : Vec F S200000x300 .f32 :=
  maximumf x (broadcastInDim S200000x300 ![] bcast_S_S200000x300 (constant S_ .f32 0x00000000#32))

/-- `max x 0` on atom rows. -/
def relu1 (x : Vec F S100000x300 .f32) : Vec F S100000x300 .f32 :=
  maximumf x (broadcastInDim S100000x300 ![] bcast_S_S100000x300 (constant S_ .f32 0x00000000#32))

/-- The bond input `f_bonds · W_i`. -/
def inp (fb : Vec F S200000x147 .f32) (wi : Vec F S147x300 .f32) : Vec F S200000x300 .f32 :=
  Host.dotGeneral dot_S200000x147_S147x300_S200000x300_1_0_0_1_n_n none fb wi

/-- A negative index counts from the end of an axis of 200000 (atom → bond indices). -/
def wrapA (a2b : IVec S100000x6 32) : IVec S100000x6 32 :=
  select (cmpi .slt a2b (broadcastInDim S100000x6 ![] bcast_S_S100000x6 (constantI S_ 32 0#32)))
    (addi a2b (broadcastInDim S100000x6 ![] bcast_S_S100000x6 (constantI S_ 32 200000#32))) a2b

/-- A negative index counts from the end of an axis of 100000 (bond → atom indices). -/
def wrapB (b2a : IVec S200000 32) : IVec S200000 32 :=
  select (cmpi .slt b2a (broadcastInDim S200000 ![] bcast_S_S200000 (constantI S_ 32 0#32)))
    (addi b2a (broadcastInDim S200000 ![] bcast_S_S200000 (constantI S_ 32 100000#32))) b2a

/-- A negative index counts from the end of an axis of 200000 (bond → reverse bond indices). -/
def wrapR (b2revb : IVec S200000 32) : IVec S200000 32 :=
  select (cmpi .slt b2revb (broadcastInDim S200000 ![] bcast_S_S200000 (constantI S_ 32 0#32)))
    (addi b2revb (broadcastInDim S200000 ![] bcast_S_S200000 (constantI S_ 32 200000#32))) b2revb

/-- Per atom, the sum of the messages on its six incoming bonds. -/
def nbrSum (msg : Vec F S200000x300 .f32) (a2b : IVec S100000x6 32) : Vec F S100000x300 .f32 :=
  Host.reduceAdd (Host.gather gather_S200000x300_S100000x6x1_S100000x6x300_2_0_n_n_0_2_1300 msg
      (broadcastInDim S100000x6x1 ![0, 1] bcast_S100000x6_S100000x6x1_0_1 (wrapA a2b)))
    (constant S_ .f32 0x00000000#32) reducesTo_S100000x6x300_S100000x300_d1 h_S_

/-- Per bond, the atom row at the bond's source atom. -/
def atomAt (amsg : Vec F S100000x300 .f32) (b2a : IVec S200000 32) : Vec F S200000x300 .f32 :=
  Host.gather gather_S100000x300_S200000x1_S200000x300_1_0_n_n_0_1_1300 amsg
    (broadcastInDim S200000x1 ![0] bcast_S200000_S200000x1_0 (wrapB b2a))

/-- Per bond, the message on its reverse bond. -/
def revAt (msg : Vec F S200000x300 .f32) (b2revb : IVec S200000 32) : Vec F S200000x300 .f32 :=
  Host.gather gather_S200000x300_S200000x1_S200000x300_1_0_n_n_0_1_1300 msg
    (broadcastInDim S200000x1 ![0] bcast_S200000_S200000x1_0 (wrapR b2revb))

/-- One message update from the gathered rows: `relu (inp + (g1 − g2) · W_h)`. -/
def updateOf (i g1 g2 : Vec F S200000x300 .f32) (wh : Vec F S300x300 .f32) : Vec F S200000x300 .f32 :=
  relu2 (addf i (Host.dotGeneral dot_S200000x300_S300x300_S200000x300_1_0_0_1_n_n none (subf g1 g2) wh))

/-- One message update: the rows gathered from the current messages. -/
def update (i msg : Vec F S200000x300 .f32) (a2b : IVec S100000x6 32) (b2a b2revb : IVec S200000 32)
    (wh : Vec F S300x300 .f32) : Vec F S200000x300 .f32 :=
  updateOf i (atomAt (nbrSum msg a2b) b2a) (revAt msg b2revb) wh

/-- The atom readout `relu ([f_atoms | am] · W_o + b_o)`. -/
def readout (fa : Vec F S100000x133 .f32) (am : Vec F S100000x300 .f32) (wo : Vec F S433x300 .f32)
    (bo : Vec F S300 .f32) : Vec F S100000x300 .f32 :=
  relu1 (addf (Host.dotGeneral dot_S100000x433_S433x300_S100000x300_1_0_0_1_n_n none
      (concatenate S100000x433 1 [⟨S100000x133, fa⟩, ⟨S100000x300, am⟩] concatenates_S100000x133_S100000x300_S100000x433_d1) wo)
    (broadcastInDim S100000x300 ![0, 1] bcast_S1x300_S100000x300_0_1 (broadcastInDim S1x300 ![1] bcast_S300_S1x300_1 bo)))

/-- The whole network. -/
def out (fa : Vec F S100000x133 .f32) (fb : Vec F S200000x147 .f32) (a2b : IVec S100000x6 32) (b2a b2revb : IVec S200000 32)
    (wi : Vec F S147x300 .f32) (wh : Vec F S300x300 .f32) (wo : Vec F S433x300 .f32) (bo : Vec F S300 .f32) :
    Vec F S100000x300 .f32 :=
  readout fa (nbrSum (update (inp fb wi) (update (inp fb wi) (relu2 (inp fb wi)) a2b b2a b2revb wh) a2b b2a b2revb wh) a2b) wo bo

/-- The six-fold sum of atom rows, grouped from the left. -/
def add6 (c0 c1 c2 c3 c4 c5 : Vec F S100000x300 .f32) : Vec F S100000x300 .f32 :=
  addf (addf (addf (addf (addf c0 c1) c2) c3) c4) c5

end Cert.Stages

namespace Cert.KStages

open Idealize.ShloMosaic Cert.KernelIdeal Cert.KernelIdeal.Facts₀

variable {F : FTy → Type} [FloatOps F]

/-- Column `j` of the atom → bond index table, as the kernel program slices it. -/
def col0 (a2b : IVec S100000x6 32) : IVec S100000 32 := shapeCast S100000 (extractStridedSlice S100000x1 ![0, 0] a2b slices_S100000x6_S100000x1_0_0) shapeCasts_S100000x1_S100000
def col1 (a2b : IVec S100000x6 32) : IVec S100000 32 := shapeCast S100000 (extractStridedSlice S100000x1 ![0, 1] a2b slices_S100000x6_S100000x1_0_1) shapeCasts_S100000x1_S100000
def col2 (a2b : IVec S100000x6 32) : IVec S100000 32 := shapeCast S100000 (extractStridedSlice S100000x1 ![0, 2] a2b slices_S100000x6_S100000x1_0_2) shapeCasts_S100000x1_S100000
def col3 (a2b : IVec S100000x6 32) : IVec S100000 32 := shapeCast S100000 (extractStridedSlice S100000x1 ![0, 3] a2b slices_S100000x6_S100000x1_0_3) shapeCasts_S100000x1_S100000
def col4 (a2b : IVec S100000x6 32) : IVec S100000 32 := shapeCast S100000 (extractStridedSlice S100000x1 ![0, 4] a2b slices_S100000x6_S100000x1_0_4) shapeCasts_S100000x1_S100000
def col5 (a2b : IVec S100000x6 32) : IVec S100000 32 := shapeCast S100000 (extractStridedSlice S100000x1 ![0, 5] a2b slices_S100000x6_S100000x1_0_5) shapeCasts_S100000x1_S100000

/-- Rows of a bond table `[200000, 300]` at 100000 indices, a fill word where the wrapped index leaves `[0, 199999]`. -/
def takeA (x : Vec F S200000x300 .f32) (idx : IVec S100000 32) : Vec F S100000x300 .f32 :=
  select
    (broadcastInDim S100000x300 ![0] bcast_S100000_S100000x300_0
      (Host.reduce IntOp.andi
        (andi
          (cmpi .sge
            (broadcastInDim S100000x1 ![0] bcast_S100000_S100000x1_0
              (select (cmpi .slt idx (broadcastInDim S100000 ![] bcast_S_S100000 (constantI S_ 32 0#32)))
                (addi idx (broadcastInDim S100000 ![] bcast_S_S100000 (constantI S_ 32 200000#32))) idx))
            (broadcastInDim S100000x1 ![] bcast_S_S100000x1 (constantI S_ 32 0#32)))
          (cmpi .sle
            (broadcastInDim S100000x1 ![0] bcast_S100000_S100000x1_0
              (select (cmpi .slt idx (broadcastInDim S100000 ![] bcast_S_S100000 (constantI S_ 32 0#32)))
                (addi idx (broadcastInDim S100000 ![] bcast_S_S100000 (constantI S_ 32 200000#32))) idx))
            (broadcastInDim S100000x1 ![0, 1] bcast_S1x1_S100000x1_0_1
              (broadcastInDim S1x1 ![1] bcast_S1_S1x1_1 (constantI S1 32 199999#32)))))
        (constantI S_ 1 1#1) reducesTo_S100000x1_S100000_d1 h_S_))
    (Host.gather gather_S200000x300_S100000x1_S100000x300_1_0_n_n_0_1_1300 x
      (broadcastInDim S100000x1 ![0] bcast_S100000_S100000x1_0
        (select (cmpi .slt idx (broadcastInDim S100000 ![] bcast_S_S100000 (constantI S_ 32 0#32)))
          (addi idx (broadcastInDim S100000 ![] bcast_S_S100000 (constantI S_ 32 200000#32))) idx)))
    (broadcastInDim S100000x300 ![] bcast_S_S100000x300 (constant S_ .f32 0x7FC00000#32))

/-- Rows of an atom table `[100000, 300]` at 200000 indices, a fill word where the wrapped index leaves `[0, 99999]`. -/
def takeB (x : Vec F S100000x300 .f32) (idx : IVec S200000 32) : Vec F S200000x300 .f32 :=
  select
    (broadcastInDim S200000x300 ![0] bcast_S200000_S200000x300_0
      (Host.reduce IntOp.andi
        (andi
          (cmpi .sge
            (broadcastInDim S200000x1 ![0] bcast_S200000_S200000x1_0
              (select (cmpi .slt idx (broadcastInDim S200000 ![] bcast_S_S200000 (constantI S_ 32 0#32)))
                (addi idx (broadcastInDim S200000 ![] bcast_S_S200000 (constantI S_ 32 100000#32))) idx))
            (broadcastInDim S200000x1 ![] bcast_S_S200000x1 (constantI S_ 32 0#32)))
          (cmpi .sle
            (broadcastInDim S200000x1 ![0] bcast_S200000_S200000x1_0
              (select (cmpi .slt idx (broadcastInDim S200000 ![] bcast_S_S200000 (constantI S_ 32 0#32)))
                (addi idx (broadcastInDim S200000 ![] bcast_S_S200000 (constantI S_ 32 100000#32))) idx))
            (broadcastInDim S200000x1 ![0, 1] bcast_S1x1_S200000x1_0_1
              (broadcastInDim S1x1 ![1] bcast_S1_S1x1_1 (constantI S1 32 99999#32)))))
        (constantI S_ 1 1#1) reducesTo_S200000x1_S200000_d1 h_S_))
    (Host.gather gather_S100000x300_S200000x1_S200000x300_1_0_n_n_0_1_1300 x
      (broadcastInDim S200000x1 ![0] bcast_S200000_S200000x1_0
        (select (cmpi .slt idx (broadcastInDim S200000 ![] bcast_S_S200000 (constantI S_ 32 0#32)))
          (addi idx (broadcastInDim S200000 ![] bcast_S_S200000 (constantI S_ 32 100000#32))) idx)))
    (broadcastInDim S200000x300 ![] bcast_S_S200000x300 (constant S_ .f32 0x7FC00000#32))

/-- Rows of a bond table `[200000, 300]` at 200000 indices, a fill word where the wrapped index leaves `[0, 199999]`. -/
def takeR (x : Vec F S200000x300 .f32) (idx : IVec S200000 32) : Vec F S200000x300 .f32 :=
  select
    (broadcastInDim S200000x300 ![0] bcast_S200000_S200000x300_0
      (Host.reduce IntOp.andi
        (andi
          (cmpi .sge
            (broadcastInDim S200000x1 ![0] bcast_S200000_S200000x1_0
              (select (cmpi .slt idx (broadcastInDim S200000 ![] bcast_S_S200000 (constantI S_ 32 0#32)))
                (addi idx (broadcastInDim S200000 ![] bcast_S_S200000 (constantI S_ 32 200000#32))) idx))
            (broadcastInDim S200000x1 ![] bcast_S_S200000x1 (constantI S_ 32 0#32)))
          (cmpi .sle
            (broadcastInDim S200000x1 ![0] bcast_S200000_S200000x1_0
              (select (cmpi .slt idx (broadcastInDim S200000 ![] bcast_S_S200000 (constantI S_ 32 0#32)))
                (addi idx (broadcastInDim S200000 ![] bcast_S_S200000 (constantI S_ 32 200000#32))) idx))
            (broadcastInDim S200000x1 ![0, 1] bcast_S1x1_S200000x1_0_1
              (broadcastInDim S1x1 ![1] bcast_S1_S1x1_1 (constantI S1 32 199999#32)))))
        (constantI S_ 1 1#1) reducesTo_S200000x1_S200000_d1 h_S_))
    (Host.gather gather_S200000x300_S200000x1_S200000x300_1_0_n_n_0_1_1300 x
      (broadcastInDim S200000x1 ![0] bcast_S200000_S200000x1_0
        (select (cmpi .slt idx (broadcastInDim S200000 ![] bcast_S_S200000 (constantI S_ 32 0#32)))
          (addi idx (broadcastInDim S200000 ![] bcast_S_S200000 (constantI S_ 32 200000#32))) idx)))
    (broadcastInDim S200000x300 ![] bcast_S_S200000x300 (constant S_ .f32 0x7FC00000#32))

/-- The readout weight's rows for the atom features, and for the aggregated messages; the bias as one row. -/
def woA (wo : Vec F S433x300 .f32) : Vec F S133x300 .f32 := extractStridedSlice S133x300 ![0, 0] wo slices_S433x300_S133x300_0_0
def woB (wo : Vec F S433x300 .f32) : Vec F S300x300 .f32 := extractStridedSlice S300x300 ![133, 0] wo slices_S433x300_S300x300_133_0
def boRow (bo : Vec F S300 .f32) : Vec F S1x300 .f32 := shapeCast S1x300 bo shapeCasts_S300_S1x300

end Cert.KStages

end
-- ==== Proof.StageA.lean ====
/- Region 0 (bond input): block t of the grid holds rows 2000·t … 2000·t + 1999 of `f_bonds`; its matrix product
   with the whole `W_i` (the bf16 casts are the identity on extended reals, the accumulator starts at zero) is rows
   2000·t … of `f_bonds · W_i`, and the second output is its positive part.  The 100 blocks cover the array. -/
import proofs.«417302_j82858509074740_1_alg».proof.Proof.KernelIdealFrame
import proofs.«417302_j82858509074740_1_alg».proof.Proof.Stages
import proofs.«417302_j82858509074740_1_alg».proof.Proof.Gen.ReferenceIdeal.Read
import Idealize.ShloMosaic.Lib.Pipeline.Value
import Idealize.ShloMosaic.Lib.ValueIdx
import Idealize.ShloMosaic.PureOps.Ideal.Laws

set_option maxRecDepth 16384

noncomputable section

namespace Cert.KRegion

open Idealize.ShloMosaic Idealize.ShloMosaic.TcCoe Idealize.SL.Sem Idealize.ShloMosaic.Pipeline
open Cert.KernelIdeal Cert.KernelIdeal.Gen Cert.KernelIdeal.GenP

-- the TensorCore's buffer contents when the region is entered, at the ideal instance
variable (V : (c : Dev nD) → (b : Ref sig .tc) → Buf (Elt Ideal) ((c : Thread nD τ).loc b))

namespace StageA

/-! ## The body's matrix product at an index -/

/-- The block product's left operand is read at the output's row; -/
theorem lhs_blockDot_0 (j : S2000x300.Idx) (q : dot_S2000x147_S147x300_S2000x300_1_0_0_1_n_n.contr.Idx) :
    (dot_S2000x147_S147x300_S2000x300_1_0_0_1_n_n.lhsIdx j q 0).val = (j 0).val := by
  unfold DotDims.lhsIdx
  rw [dif_neg (show ¬(0 : Fin S2000x147.rank) ∈ dot_S2000x147_S147x300_S2000x300_1_0_0_1_n_n.lhsBatch by decide), dif_pos (show (0 : Fin S2000x147.rank) ∈ dot_S2000x147_S147x300_S2000x300_1_0_0_1_n_n.lhsNonContracting by decide)]
  rfl
/-- and at the summation index on its second axis. -/
theorem lhs_blockDot_1 (j : S2000x300.Idx) (q : dot_S2000x147_S147x300_S2000x300_1_0_0_1_n_n.contr.Idx) :
    (dot_S2000x147_S147x300_S2000x300_1_0_0_1_n_n.lhsIdx j q 1).val = (q ⟨0, by decide⟩).val :=
  dot_S2000x147_S147x300_S2000x300_1_0_0_1_n_n.lhsIdx_val_of_single rfl j q
/-- The right operand is read at the summation index on its first axis; -/
theorem rhs_blockDot_0 (j : S2000x300.Idx) (q : dot_S2000x147_S147x300_S2000x300_1_0_0_1_n_n.contr.Idx) :
    (dot_S2000x147_S147x300_S2000x300_1_0_0_1_n_n.rhsIdx j q 0).val = (q ⟨0, by decide⟩).val :=
  dot_S2000x147_S147x300_S2000x300_1_0_0_1_n_n.rhsIdx_val_of_single rfl j q
/-- and at the output's column. -/
theorem rhs_blockDot_1 (j : S2000x300.Idx) (q : dot_S2000x147_S147x300_S2000x300_1_0_0_1_n_n.contr.Idx) :
    (dot_S2000x147_S147x300_S2000x300_1_0_0_1_n_n.rhsIdx j q 1).val = (j 1).val := by
  unfold DotDims.rhsIdx
  rw [dif_neg (show ¬(1 : Fin S147x300.rank) ∈ dot_S2000x147_S147x300_S2000x300_1_0_0_1_n_n.rhsBatch by decide), dif_pos (show (1 : Fin S147x300.rank) ∈ dot_S2000x147_S147x300_S2000x300_1_0_0_1_n_n.rhsNonContracting by decide)]
  rfl

/-- Entry `(r, k)` of a block of 2000 rows of `f_bonds`, for the output entry `j = (r, q)`. -/
abbrev rowAt (j : S2000x300.Idx) (k : Fin 147) : S2000x147.Idx := fun a => match a with
  | ⟨0, _⟩ => ⟨(j 0).val, (j 0).isLt⟩
  | ⟨1, _⟩ => ⟨k.val, k.isLt⟩
/-- Entry `(k, q)` of `W_i`, for the output entry `j = (r, q)`. -/
abbrev colAt (j : S2000x300.Idx) (k : Fin 147) : S147x300.Idx := fun a => match a with
  | ⟨0, _⟩ => ⟨k.val, k.isLt⟩
  | ⟨1, _⟩ => ⟨(j 1).val, (j 1).isLt⟩

/-- The first stored value at `(r, q)`: `Σ_k x0[r, k] · x1[k, q]` (the casts to bf16 are the identity on extended
    reals and the accumulator is zero). -/
theorem blockProduct_apply (x0 : Vec Ideal S2000x147 .f32) (x1 : Vec Ideal S147x300 .f32) (j : S2000x300.Idx) :
    k0_pay1 (F := Ideal) x0 x1 j = ∑ k : Fin 147, x0 (rowAt j k) * x1 (colAt j k) := by
  refine (Ideal.matmul_constant_zero_apply dot_S2000x147_S147x300_S2000x300_1_0_0_1_n_n none
    (truncf .bf16 x0 bitsLt_bf16_f32) (truncf .bf16 x1 bitsLt_bf16_f32) j).trans ?_
  rw [← Equiv.sum_comp (ValueIdx.contrEquiv1 dot_S2000x147_S147x300_S2000x300_1_0_0_1_n_n 147 rfl rfl).symm]
  refine Finset.sum_congr rfl fun k _ => ?_
  have hk := ValueIdx.contrEquiv1_symm_val dot_S2000x147_S147x300_S2000x300_1_0_0_1_n_n 147 rfl rfl k
  have el : dot_S2000x147_S147x300_S2000x300_1_0_0_1_n_n.lhsIdx j ((ValueIdx.contrEquiv1 dot_S2000x147_S147x300_S2000x300_1_0_0_1_n_n 147 rfl rfl).symm k) = rowAt j k := funext fun a => Fin.ext (by
    match a with
    | ⟨0, _⟩ => exact lhs_blockDot_0 _ _
    | ⟨1, _⟩ => exact (lhs_blockDot_1 _ _).trans hk)
  have er : dot_S2000x147_S147x300_S2000x300_1_0_0_1_n_n.rhsIdx j ((ValueIdx.contrEquiv1 dot_S2000x147_S147x300_S2000x300_1_0_0_1_n_n 147 rfl rfl).symm k) = colAt j k := funext fun a => Fin.ext (by
    match a with
    | ⟨0, _⟩ => exact (rhs_blockDot_0 _ _).trans hk
    | ⟨1, _⟩ => exact rhs_blockDot_1 _ _)
  rw [el, er]
  rfl

/-- The second stored value at `(r, q)`: the larger of the first and the zero word. -/
theorem blockRelu_apply (x0 : Vec Ideal S2000x147 .f32) (x1 : Vec Ideal S147x300 .f32) (j : S2000x300.Idx) :
    k0_pay2 (F := Ideal) x0 x1 j = max (k0_pay1 (F := Ideal) x0 x1 j) (Ideal.ofBits .f32 0x00000000#32) := rfl

/-! ## Where the blocks sit -/

theorem hz : (![0, 0] : Fin 2 → Nat) = fun _ => 0 := funext fun a => by fin_cases a <;> rfl

/-- Over the 100 grid points: the block of `f_bonds` and both output blocks of point `t` are the `t`-th blocks of 2000
    rows, on all columns; the block of `W_i` is the whole matrix. -/
theorem idx_facts : ∀ t : Fin cfg0.N, win0_0.index t (0 : Fin 2) = t.val ∧ win0_0.index t (1 : Fin 2) = 0
    ∧ win0_1.index t (0 : Fin 2) = 0 ∧ win0_1.index t (1 : Fin 2) = 0
    ∧ win0_2.index t (0 : Fin 2) = t.val ∧ win0_2.index t (1 : Fin 2) = 0
    ∧ win0_3.index t (0 : Fin 2) = t.val ∧ win0_3.index t (1 : Fin 2) = 0 :=
  (by decide +kernel : ∀ t : Fin grid0.N, _)

/-- Entry `x` of the block of `f_bonds` at point `t` is entry `(2000·t + x₀, x₁)` of the array. -/
theorem rowBlock_apply (c : Dev nD) (t : Fin cfg0.N) (x : S2000x147.Idx) (k : S200000x147.Idx)
    (hk0 : (k 0).val = 2000 * t.val + (x 0).val) (hk1 : (k 1).val = (x 1).val) :
    (iblk0 V c 0 t : Vec Ideal S2000x147 .f32) x = (V c main_arg1 : S200000x147.Idx → Elt Ideal .f32) k := by
  obtain ⟨h0, h1, -⟩ := idx_facts t
  unfold iblk0
  rw [View.read_apply]
  show V c main_arg1 _ = V c main_arg1 _
  congr 1
  funext a
  apply Fin.ext
  match a with
  | ⟨0, _⟩ => show win0_0.index t 0 * 2000 + 1 * (x 0).val = (k 0).val; omega
  | ⟨1, _⟩ => show win0_0.index t 1 * 147 + 1 * (x 1).val = (k 1).val; omega

/-- Entry `x` of the block of `W_i` at any point is entry `x` of the array. -/
theorem weightBlock_apply (c : Dev nD) (t : Fin cfg0.N) (x : S147x300.Idx) (k : S147x300.Idx)
    (hk0 : (k 0).val = (x 0).val) (hk1 : (k 1).val = (x 1).val) :
    (iblk0 V c 1 t : Vec Ideal S147x300 .f32) x = (V c main_arg5 : S147x300.Idx → Elt Ideal .f32) k := by
  obtain ⟨-, -, h0, h1, -⟩ := idx_facts t
  unfold iblk0
  rw [View.read_apply]
  show V c main_arg5 _ = V c main_arg5 _
  congr 1
  funext a
  apply Fin.ext
  match a with
  | ⟨0, _⟩ => show win0_1.index t 0 * 147 + 1 * (x 0).val = (k 0).val; omega
  | ⟨1, _⟩ => show win0_1.index t 1 * 300 + 1 * (x 1).val = (k 1).val; omega

/-! ## The reference's two arrays at an index -/

/-- `f_bonds · W_i` at `(r, q)`: `Σ_k f_bonds[r, k] · W_i[k, q]`. -/
theorem inp_apply (fb : Vec Ideal S200000x147 .f32) (wi : Vec Ideal S147x300 .f32) (i : S200000x300.Idx) :
    Cert.Stages.inp (F := Ideal) fb wi i
      = ∑ k : Fin 147, fb (Cert.ReferenceIdeal.Read.lidx_main_v0 i k) * wi (Cert.ReferenceIdeal.Read.ridx_main_v0 i k) :=
  Cert.ReferenceIdeal.Read.val_main_v0_apply fb wi i

/-- The positive part at an index: the larger of the entry and the zero word. -/
theorem relu2_apply (y : Vec Ideal S200000x300 .f32) (i : S200000x300.Idx) :
    Cert.Stages.relu2 (F := Ideal) y i = max (y i) (Ideal.ofBits .f32 0x00000000#32) := by
  unfold Cert.Stages.relu2
  refine congrArg (max (y i)) ?_
  exact broadcastInDim_apply _ _ (constant (F := Ideal) _ .f32 0x00000000#32) i (fun a => a.elim0) (fun a => a.elim0)

/-- Rows `2000·t …` of `f_bonds` times `W_i` are rows `2000·t …` of the product: when `x0` is that block of rows of `fb`
    and `x1` is `wi`, entry `(r, q)` of the block product is entry `(2000·t + r, q)` of `fb · wi`. -/
theorem blockSum_eq (t : Nat) (x0 : Vec Ideal S2000x147 .f32) (x1 : Vec Ideal S147x300 .f32)
    (fb : Vec Ideal S200000x147 .f32) (wi : Vec Ideal S147x300 .f32)
    (h0 : ∀ (x : S2000x147.Idx) (k : S200000x147.Idx), (k 0).val = 2000 * t + (x 0).val → (k 1).val = (x 1).val → x0 x = fb k)
    (h1 : ∀ (x : S147x300.Idx) (k : S147x300.Idx), (k 0).val = (x 0).val → (k 1).val = (x 1).val → x1 x = wi k)
    (j : S2000x300.Idx) (i : S200000x300.Idx) (hi0 : (i 0).val = 2000 * t + (j 0).val) (hi1 : (i 1).val = (j 1).val) :
    ∑ k : Fin 147, x0 (rowAt j k) * x1 (colAt j k) = Cert.Stages.inp (F := Ideal) fb wi i := by
  rw [inp_apply]
  refine Finset.sum_congr rfl fun k _ => ?_
  rw [h0 (rowAt j k) (Cert.ReferenceIdeal.Read.lidx_main_v0 i k) hi0 rfl,
    h1 (colAt j k) (Cert.ReferenceIdeal.Read.ridx_main_v0 i k) rfl hi1]

/-! ## What a grid point writes back -/

/-- The first stored block at `(r, q)`, from the two loaded blocks. -/
theorem out_inp_apply (x0 : Vec Ideal S2000x147 .f32) (x1 : Vec Ideal S147x300 .f32) (j : S2000x300.Idx) :
    out0_2 (F := Ideal) x0 x1 j = ∑ k : Fin 147, x0 (rowAt j k) * x1 (colAt j k) := by
  unfold out0_2
  rw [View.canon_unit_zero hz]
  simp only [View.ld_unit_zero (S := S2000x147) hz, View.ld_unit_zero (S := S147x300) hz]
  exact blockProduct_apply x0 x1 j

/-- The second stored block at `(r, q)`: the larger of the first and the zero word. -/
theorem out_msg_apply (x0 : Vec Ideal S2000x147 .f32) (x1 : Vec Ideal S147x300 .f32) (j : S2000x300.Idx) :
    out0_3 (F := Ideal) x0 x1 j = max (∑ k : Fin 147, x0 (rowAt j k) * x1 (colAt j k)) (Ideal.ofBits .f32 0x00000000#32) := by
  unfold out0_3
  rw [View.canon_unit_zero hz]
  simp only [View.ld_unit_zero (S := S2000x147) hz, View.ld_unit_zero (S := S147x300) hz]
  rw [blockRelu_apply, blockProduct_apply]

/-- Point `t` writes back block `t` of `f_bonds · W_i`. -/
theorem flushed_inp (c : Dev nD) (t : Fin cfg0.N) :
    (dat0 (F := Ideal) V c).flushed 2 t
      = ((cfg0.win 2).blk t).view.read (Elt Ideal) (Cert.Stages.inp (F := Ideal) (V c main_arg1) (V c main_arg5)) := by
  show (cfg0.win 2).cut (grid0.coords t) ((dat0 V c).after 2 t) = _
  rw [after0_2]
  obtain ⟨-, -, -, -, h0, h1, -⟩ := idx_facts t
  funext j
  show out0_2 (iblk0 V c 0 t) (iblk0 V c 1 t) j
    = Cert.Stages.inp (F := Ideal) (V c main_arg1) (V c main_arg5) (((cfg0.win 2).blk t).view.emb j)
  refine (out_inp_apply _ _ j).trans ?_
  refine blockSum_eq t.val _ _ _ _ (rowBlock_apply V c t) (weightBlock_apply V c t) j _ ?_ ?_
  · show win0_2.index t (0 : Fin 2) * 2000 + 1 * (j 0).val = 2000 * t.val + (j 0).val; omega
  · show win0_2.index t (1 : Fin 2) * 300 + 1 * (j 1).val = (j 1).val; omega

/-- Point `t` writes back block `t` of the positive part of `f_bonds · W_i`. -/
theorem flushed_msg (c : Dev nD) (t : Fin cfg0.N) :
    (dat0 (F := Ideal) V c).flushed 3 t
      = ((cfg0.win 3).blk t).view.read (Elt Ideal)
          (Cert.Stages.relu2 (F := Ideal) (Cert.Stages.inp (F := Ideal) (V c main_arg1) (V c main_arg5))) := by
  show (cfg0.win 3).cut (grid0.coords t) ((dat0 V c).after 3 t) = _
  rw [after0_3]
  obtain ⟨-, -, -, -, -, -, h0, h1⟩ := idx_facts t
  funext j
  show out0_3 (iblk0 V c 0 t) (iblk0 V c 1 t) j
    = Cert.Stages.relu2 (F := Ideal) (Cert.Stages.inp (F := Ideal) (V c main_arg1) (V c main_arg5)) (((cfg0.win 3).blk t).view.emb j)
  refine (out_msg_apply _ _ j).trans ?_
  rw [relu2_apply]
  refine congrArg (max · _) ?_
  refine blockSum_eq t.val _ _ _ _ (rowBlock_apply V c t) (weightBlock_apply V c t) j _ ?_ ?_
  · show win0_3.index t (0 : Fin 2) * 2000 + 1 * (j 0).val = 2000 * t.val + (j 0).val; omega
  · show win0_3.index t (1 : Fin 2) * 300 + 1 * (j 1).val = (j 1).val; omega

/-! ## The 100 blocks cover the arrays -/

/-- An index is in point `t`'s block of the first output iff each coordinate is in the block's range. -/
theorem mem_blk_inp (t : Fin cfg0.N) (i : S200000x300.Idx) :
    i ∈ ((cfg0.win 2).blk t).view.set ↔ ∀ a : Fin 2, win0_2.index t a * S2000x300.size a ≤ (i a).val ∧ (i a).val < win0_2.index t a * S2000x300.size a + S2000x300.size a := by
  show i ∈ ((View.whole main_v0_0).slice (win0_2.rect t)).set ↔ _
  rw [View.set_slice_whole, Rect.mem_set_unit]
  exact Iff.rfl

/-- The same for the second output. -/
theorem mem_blk_msg (t : Fin cfg0.N) (i : S200000x300.Idx) :
    i ∈ ((cfg0.win 3).blk t).view.set ↔ ∀ a : Fin 2, win0_3.index t a * S2000x300.size a ≤ (i a).val ∧ (i a).val < win0_3.index t a * S2000x300.size a + S2000x300.size a := by
  show i ∈ ((View.whole main_v0_1).slice (win0_3.rect t)).set ↔ _
  rw [View.set_slice_whole, Rect.mem_set_unit]
  exact Iff.rfl

/-- Row `r` is in the block of point `r / 2000`. -/
theorem cover_inp (i : S200000x300.Idx) :
    ∃ t : Fin cfg0.N, (cfg0.win 2).flush t = true ∧ i ∈ ((cfg0.win 2).blk t).view.set := by
  have hi0 : (i 0).val < 200000 := (i 0).isLt
  have hi1 : (i 1).val < 300 := (i 1).isLt
  have hN : cfg0.N = 100 := N_0
  have ht : (i 0).val / 2000 < cfg0.N := by rw [hN]; omega
  obtain ⟨-, -, -, -, h0, h1, -⟩ := idx_facts ⟨(i 0).val / 2000, ht⟩
  refine ⟨⟨(i 0).val / 2000, ht⟩, flush0_2 _, ?_⟩
  rw [mem_blk_inp]
  intro a
  match a with
  | ⟨0, _⟩ => show win0_2.index ⟨(i 0).val / 2000, ht⟩ (0 : Fin 2) * 2000 ≤ (i 0).val ∧ (i 0).val < win0_2.index ⟨(i 0).val / 2000, ht⟩ (0 : Fin 2) * 2000 + 2000; rw [h0]; show (i 0).val / 2000 * 2000 ≤ (i 0).val ∧ (i 0).val < (i 0).val / 2000 * 2000 + 2000; omega
  | ⟨1, _⟩ => show win0_2.index ⟨(i 0).val / 2000, ht⟩ (1 : Fin 2) * 300 ≤ (i 1).val ∧ (i 1).val < win0_2.index ⟨(i 0).val / 2000, ht⟩ (1 : Fin 2) * 300 + 300; rw [h1]; omega

/-- The same for the second output. -/
theorem cover_msg (i : S200000x300.Idx) :
    ∃ t : Fin cfg0.N, (cfg0.win 3).flush t = true ∧ i ∈ ((cfg0.win 3).blk t).view.set := by
  have hi0 : (i 0).val < 200000 := (i 0).isLt
  have hi1 : (i 1).val < 300 := (i 1).isLt
  have hN : cfg0.N = 100 := N_0
  have ht : (i 0).val / 2000 < cfg0.N := by rw [hN]; omega
  obtain ⟨-, -, -, -, -, -, h0, h1⟩ := idx_facts ⟨(i 0).val / 2000, ht⟩
  refine ⟨⟨(i 0).val / 2000, ht⟩, flush0_3 _, ?_⟩
  rw [mem_blk_msg]
  intro a
  match a with
  | ⟨0, _⟩ => show win0_3.index ⟨(i 0).val / 2000, ht⟩ (0 : Fin 2) * 2000 ≤ (i 0).val ∧ (i 0).val < win0_3.index ⟨(i 0).val / 2000, ht⟩ (0 : Fin 2) * 2000 + 2000; rw [h0]; show (i 0).val / 2000 * 2000 ≤ (i 0).val ∧ (i 0).val < (i 0).val / 2000 * 2000 + 2000; omega
  | ⟨1, _⟩ => show win0_3.index ⟨(i 0).val / 2000, ht⟩ (1 : Fin 2) * 300 ≤ (i 1).val ∧ (i 1).val < win0_3.index ⟨(i 0).val / 2000, ht⟩ (1 : Fin 2) * 300 + 300; rw [h1]; omega

end StageA

open StageA

/-! ## The two arrays after the region -/

/-- After region 0, the first output array is `f_bonds · W_i` of the arrays the region found. -/
theorem region0_inp (c : Dev nD) :
    (dat0 (F := Ideal) V c).arrAt 2 cfg0.N = Cert.Stages.inp (F := Ideal) (V c main_arg1) (V c main_arg5) :=
  (dat0 (F := Ideal) V c).arrAt_eq_of_cover 2 _ (fun t _ => flushed_inp V c t) cover_inp

/-- After region 0, the second output array is the positive part of `f_bonds · W_i`. -/
theorem region0_msg (c : Dev nD) :
    (dat0 (F := Ideal) V c).arrAt 3 cfg0.N
      = Cert.Stages.relu2 (F := Ideal) (Cert.Stages.inp (F := Ideal) (V c main_arg1) (V c main_arg5)) :=
  (dat0 (F := Ideal) V c).arrAt_eq_of_cover 3 _ (fun t _ => flushed_msg V c t) cover_msg

end Cert.KRegion

end
-- ==== Proof.WalkHost.lean ====
/- The contents of the TensorCore's buffers at the boundaries between the kernel program's seven regions and its
   stretches of host operations.  A stretch rewrites only the buffers its operations write, each to its operation's
   value of the operands read where the stretch found them; so after the stretches between two regions each
   gathered table is the masked row gather of the message table at one column of the index table, and every other
   live buffer is as the earlier region left it.  A region rewrites only its own output arrays.  These facts hold
   for every float family. -/
import proofs.«417302_j82858509074740_1_alg».proof.Proof.KernelIdealFrame
import proofs.«417302_j82858509074740_1_alg».proof.Proof.Stages

set_option maxRecDepth 16384

noncomputable section

namespace Cert.Walk

open Idealize.ShloMosaic Idealize.ShloMosaic.TcCoe Idealize.SL.Sem Idealize.ShloMosaic.StableHlo
open Cert.KernelIdeal Cert.KernelIdeal.Gen Cert.KernelIdeal.GenP

variable {F : FTy → Type} [FloatOps F]
variable (m : (ℓ : Loc nD τ sig) → Buf (Elt F) ℓ) (ρ : Dev nD → PrngReg)

/-! ## Host stretches -/

set_option maxHeartbeats 4000000 in
/-- Between regions 0 and 1: the six column gathers of the first message table; the bond input, the messages and the arguments stay. -/
theorem gap1 (c : Dev nD) :
    W13 m ρ c (Proc.devRef .tc main_v3) = Cert.KStages.takeA (W1 m ρ c (Proc.devRef .tc main_v0_1)) (Cert.KStages.col0 (W1 m ρ c (Proc.devRef .tc main_arg2)))
    ∧ W13 m ρ c (Proc.devRef .tc main_v6) = Cert.KStages.takeA (W1 m ρ c (Proc.devRef .tc main_v0_1)) (Cert.KStages.col1 (W1 m ρ c (Proc.devRef .tc main_arg2)))
    ∧ W13 m ρ c (Proc.devRef .tc main_v9) = Cert.KStages.takeA (W1 m ρ c (Proc.devRef .tc main_v0_1)) (Cert.KStages.col2 (W1 m ρ c (Proc.devRef .tc main_arg2)))
    ∧ W13 m ρ c (Proc.devRef .tc main_v12) = Cert.KStages.takeA (W1 m ρ c (Proc.devRef .tc main_v0_1)) (Cert.KStages.col3 (W1 m ρ c (Proc.devRef .tc main_arg2)))
    ∧ W13 m ρ c (Proc.devRef .tc main_v15) = Cert.KStages.takeA (W1 m ρ c (Proc.devRef .tc main_v0_1)) (Cert.KStages.col4 (W1 m ρ c (Proc.devRef .tc main_arg2)))
    ∧ W13 m ρ c (Proc.devRef .tc main_v18) = Cert.KStages.takeA (W1 m ρ c (Proc.devRef .tc main_v0_1)) (Cert.KStages.col5 (W1 m ρ c (Proc.devRef .tc main_arg2)))
    ∧ W13 m ρ c (Proc.devRef .tc main_v0_0) = W1 m ρ c (Proc.devRef .tc main_v0_0)
    ∧ W13 m ρ c (Proc.devRef .tc main_v0_1) = W1 m ρ c (Proc.devRef .tc main_v0_1)
    ∧ W13 m ρ c (Proc.devRef .tc main_arg0) = W1 m ρ c (Proc.devRef .tc main_arg0)
    ∧ W13 m ρ c (Proc.devRef .tc main_arg2) = W1 m ρ c (Proc.devRef .tc main_arg2)
    ∧ W13 m ρ c (Proc.devRef .tc main_arg3) = W1 m ρ c (Proc.devRef .tc main_arg3)
    ∧ W13 m ρ c (Proc.devRef .tc main_arg4) = W1 m ρ c (Proc.devRef .tc main_arg4)
    ∧ W13 m ρ c (Proc.devRef .tc main_arg6) = W1 m ρ c (Proc.devRef .tc main_arg6)
    ∧ W13 m ρ c (Proc.devRef .tc main_arg7) = W1 m ρ c (Proc.devRef .tc main_arg7)
    ∧ W13 m ρ c (Proc.devRef .tc main_arg8) = W1 m ρ c (Proc.devRef .tc main_arg8) := by
  refine ⟨?_, ?_, ?_, ?_, ?_, ?_, ?_, ?_, ?_, ?_, ?_, ?_, ?_, ?_, ?_⟩ <;>
    (simp only [W13, W12, W11, W10, W9, W8, W7, W6, W5, W4, W3, W2, hostOps1, hostOps1_1, hostOps1_2, hostOps1_3, hostOps1_4, hostOps1_5, hostOps1_6, hostOps1_7, hostOps1_8, hostOps1_9, hostOps1_10, hostOps1_11]
     after_results_simp <;> (try simp only [TRef.ofBuf, TRef.toBuf, cast_eq]) <;> rfl)

set_option maxHeartbeats 4000000 in
/-- Between regions 1 and 2: the atom sums read at the bonds' source atoms, the messages read at the reverse bonds. -/
theorem gap2 (c : Dev nD) :
    W16 m ρ c (Proc.devRef .tc main_v20) = Cert.KStages.takeB (W14 m ρ c (Proc.devRef .tc main_v19)) (W14 m ρ c (Proc.devRef .tc main_arg3))
    ∧ W16 m ρ c (Proc.devRef .tc main_v21) = Cert.KStages.takeR (W14 m ρ c (Proc.devRef .tc main_v0_1)) (W14 m ρ c (Proc.devRef .tc main_arg4))
    ∧ W16 m ρ c (Proc.devRef .tc main_v0_0) = W14 m ρ c (Proc.devRef .tc main_v0_0)
    ∧ W16 m ρ c (Proc.devRef .tc main_arg0) = W14 m ρ c (Proc.devRef .tc main_arg0)
    ∧ W16 m ρ c (Proc.devRef .tc main_arg2) = W14 m ρ c (Proc.devRef .tc main_arg2)
    ∧ W16 m ρ c (Proc.devRef .tc main_arg3) = W14 m ρ c (Proc.devRef .tc main_arg3)
    ∧ W16 m ρ c (Proc.devRef .tc main_arg4) = W14 m ρ c (Proc.devRef .tc main_arg4)
    ∧ W16 m ρ c (Proc.devRef .tc main_arg6) = W14 m ρ c (Proc.devRef .tc main_arg6)
    ∧ W16 m ρ c (Proc.devRef .tc main_arg7) = W14 m ρ c (Proc.devRef .tc main_arg7)
    ∧ W16 m ρ c (Proc.devRef .tc main_arg8) = W14 m ρ c (Proc.devRef .tc main_arg8) := by
  refine ⟨?_, ?_, ?_, ?_, ?_, ?_, ?_, ?_, ?_, ?_⟩ <;>
    (simp only [W16, W15, hostOps2, hostOps2_1]
     after_results_simp <;> (try simp only [TRef.ofBuf, TRef.toBuf, cast_eq]) <;> rfl)

set_option maxHeartbeats 4000000 in
/-- Between regions 2 and 3: the six column gathers of the second message table. -/
theorem gap3 (c : Dev nD) :
    W29 m ρ c (Proc.devRef .tc main_v25) = Cert.KStages.takeA (W17 m ρ c (Proc.devRef .tc main_v22)) (Cert.KStages.col0 (W17 m ρ c (Proc.devRef .tc main_arg2)))
    ∧ W29 m ρ c (Proc.devRef .tc main_v28) = Cert.KStages.takeA (W17 m ρ c (Proc.devRef .tc main_v22)) (Cert.KStages.col1 (W17 m ρ c (Proc.devRef .tc main_arg2)))
    ∧ W29 m ρ c (Proc.devRef .tc main_v31) = Cert.KStages.takeA (W17 m ρ c (Proc.devRef .tc main_v22)) (Cert.KStages.col2 (W17 m ρ c (Proc.devRef .tc main_arg2)))
    ∧ W29 m ρ c (Proc.devRef .tc main_v34) = Cert.KStages.takeA (W17 m ρ c (Proc.devRef .tc main_v22)) (Cert.KStages.col3 (W17 m ρ c (Proc.devRef .tc main_arg2)))
    ∧ W29 m ρ c (Proc.devRef .tc main_v37) = Cert.KStages.takeA (W17 m ρ c (Proc.devRef .tc main_v22)) (Cert.KStages.col4 (W17 m ρ c (Proc.devRef .tc main_arg2)))
    ∧ W29 m ρ c (Proc.devRef .tc main_v40) = Cert.KStages.takeA (W17 m ρ c (Proc.devRef .tc main_v22)) (Cert.KStages.col5 (W17 m ρ c (Proc.devRef .tc main_arg2)))
    ∧ W29 m ρ c (Proc.devRef .tc main_v0_0) = W17 m ρ c (Proc.devRef .tc main_v0_0)
    ∧ W29 m ρ c (Proc.devRef .tc main_v22) = W17 m ρ c (Proc.devRef .tc main_v22)
    ∧ W29 m ρ c (Proc.devRef .tc main_arg0) = W17 m ρ c (Proc.devRef .tc main_arg0)
    ∧ W29 m ρ c (Proc.devRef .tc main_arg2) = W17 m ρ c (Proc.devRef .tc main_arg2)
    ∧ W29 m ρ c (Proc.devRef .tc main_arg3) = W17 m ρ c (Proc.devRef .tc main_arg3)
    ∧ W29 m ρ c (Proc.devRef .tc main_arg4) = W17 m ρ c (Proc.devRef .tc main_arg4)
    ∧ W29 m ρ c (Proc.devRef .tc main_arg6) = W17 m ρ c (Proc.devRef .tc main_arg6)
    ∧ W29 m ρ c (Proc.devRef .tc main_arg7) = W17 m ρ c (Proc.devRef .tc main_arg7)
    ∧ W29 m ρ c (Proc.devRef .tc main_arg8) = W17 m ρ c (Proc.devRef .tc main_arg8) := by
  refine ⟨?_, ?_, ?_, ?_, ?_, ?_, ?_, ?_, ?_, ?_, ?_, ?_, ?_, ?_, ?_⟩ <;>
    (simp only [W29, W28, W27, W26, W25, W24, W23, W22, W21, W20, W19, W18, hostOps3, hostOps3_1, hostOps3_2, hostOps3_3, hostOps3_4, hostOps3_5, hostOps3_6, hostOps3_7, hostOps3_8, hostOps3_9, hostOps3_10, hostOps3_11]
     after_results_simp <;> (try simp only [TRef.ofBuf, TRef.toBuf, cast_eq]) <;> rfl)

set_option maxHeartbeats 4000000 in
/-- Between regions 3 and 4: the second atom sums at the source atoms, the second messages at the reverse bonds. -/
theorem gap4 (c : Dev nD) :
    W32 m ρ c (Proc.devRef .tc main_v42) = Cert.KStages.takeB (W30 m ρ c (Proc.devRef .tc main_v41)) (W30 m ρ c (Proc.devRef .tc main_arg3))
    ∧ W32 m ρ c (Proc.devRef .tc main_v43) = Cert.KStages.takeR (W30 m ρ c (Proc.devRef .tc main_v22)) (W30 m ρ c (Proc.devRef .tc main_arg4))
    ∧ W32 m ρ c (Proc.devRef .tc main_v0_0) = W30 m ρ c (Proc.devRef .tc main_v0_0)
    ∧ W32 m ρ c (Proc.devRef .tc main_arg0) = W30 m ρ c (Proc.devRef .tc main_arg0)
    ∧ W32 m ρ c (Proc.devRef .tc main_arg2) = W30 m ρ c (Proc.devRef .tc main_arg2)
    ∧ W32 m ρ c (Proc.devRef .tc main_arg3) = W30 m ρ c (Proc.devRef .tc main_arg3)
    ∧ W32 m ρ c (Proc.devRef .tc main_arg4) = W30 m ρ c (Proc.devRef .tc main_arg4)
    ∧ W32 m ρ c (Proc.devRef .tc main_arg6) = W30 m ρ c (Proc.devRef .tc main_arg6)
    ∧ W32 m ρ c (Proc.devRef .tc main_arg7) = W30 m ρ c (Proc.devRef .tc main_arg7)
    ∧ W32 m ρ c (Proc.devRef .tc main_arg8) = W30 m ρ c (Proc.devRef .tc main_arg8) := by
  refine ⟨?_, ?_, ?_, ?_, ?_, ?_, ?_, ?_, ?_, ?_⟩ <;>
    (simp only [W32, W31, hostOps4, hostOps4_1]
     after_results_simp <;> (try simp only [TRef.ofBuf, TRef.toBuf, cast_eq]) <;> rfl)

set_option maxHeartbeats 4000000 in
/-- Between regions 4 and 5: the six column gathers of the third message table. -/
theorem gap5 (c : Dev nD) :
    W45 m ρ c (Proc.devRef .tc main_v47) = Cert.KStages.takeA (W33 m ρ c (Proc.devRef .tc main_v44)) (Cert.KStages.col0 (W33 m ρ c (Proc.devRef .tc main_arg2)))
    ∧ W45 m ρ c (Proc.devRef .tc main_v50) = Cert.KStages.takeA (W33 m ρ c (Proc.devRef .tc main_v44)) (Cert.KStages.col1 (W33 m ρ c (Proc.devRef .tc main_arg2)))
    ∧ W45 m ρ c (Proc.devRef .tc main_v53) = Cert.KStages.takeA (W33 m ρ c (Proc.devRef .tc main_v44)) (Cert.KStages.col2 (W33 m ρ c (Proc.devRef .tc main_arg2)))
    ∧ W45 m ρ c (Proc.devRef .tc main_v56) = Cert.KStages.takeA (W33 m ρ c (Proc.devRef .tc main_v44)) (Cert.KStages.col3 (W33 m ρ c (Proc.devRef .tc main_arg2)))
    ∧ W45 m ρ c (Proc.devRef .tc main_v59) = Cert.KStages.takeA (W33 m ρ c (Proc.devRef .tc main_v44)) (Cert.KStages.col4 (W33 m ρ c (Proc.devRef .tc main_arg2)))
    ∧ W45 m ρ c (Proc.devRef .tc main_v62) = Cert.KStages.takeA (W33 m ρ c (Proc.devRef .tc main_v44)) (Cert.KStages.col5 (W33 m ρ c (Proc.devRef .tc main_arg2)))
    ∧ W45 m ρ c (Proc.devRef .tc main_arg0) = W33 m ρ c (Proc.devRef .tc main_arg0)
    ∧ W45 m ρ c (Proc.devRef .tc main_arg2) = W33 m ρ c (Proc.devRef .tc main_arg2)
    ∧ W45 m ρ c (Proc.devRef .tc main_arg3) = W33 m ρ c (Proc.devRef .tc main_arg3)
    ∧ W45 m ρ c (Proc.devRef .tc main_arg4) = W33 m ρ c (Proc.devRef .tc main_arg4)
    ∧ W45 m ρ c (Proc.devRef .tc main_arg6) = W33 m ρ c (Proc.devRef .tc main_arg6)
    ∧ W45 m ρ c (Proc.devRef .tc main_arg7) = W33 m ρ c (Proc.devRef .tc main_arg7)
    ∧ W45 m ρ c (Proc.devRef .tc main_arg8) = W33 m ρ c (Proc.devRef .tc main_arg8) := by
  refine ⟨?_, ?_, ?_, ?_, ?_, ?_, ?_, ?_, ?_, ?_, ?_, ?_, ?_⟩ <;>
    (simp only [W45, W44, W43, W42, W41, W40, W39, W38, W37, W36, W35, W34, hostOps5, hostOps5_1, hostOps5_2, hostOps5_3, hostOps5_4, hostOps5_5, hostOps5_6, hostOps5_7, hostOps5_8, hostOps5_9, hostOps5_10, hostOps5_11]
     after_results_simp <;> (try simp only [TRef.ofBuf, TRef.toBuf, cast_eq]) <;> rfl)

/-- Between regions 5 and 6: the readout weight cut in its two row blocks, the bias as one row. -/
theorem gap6 (c : Dev nD) :
    W47 m ρ c (Proc.devRef .tc main_v64) = Cert.KStages.woA (W46 m ρ c (Proc.devRef .tc main_arg7))
    ∧ W47 m ρ c (Proc.devRef .tc main_v65) = Cert.KStages.woB (W46 m ρ c (Proc.devRef .tc main_arg7))
    ∧ W47 m ρ c (Proc.devRef .tc main_v66) = Cert.KStages.boRow (W46 m ρ c (Proc.devRef .tc main_arg8))
    ∧ W47 m ρ c (Proc.devRef .tc main_v63) = W46 m ρ c (Proc.devRef .tc main_v63)
    ∧ W47 m ρ c (Proc.devRef .tc main_arg0) = W46 m ρ c (Proc.devRef .tc main_arg0) := by
  refine ⟨?_, ?_, ?_, ?_, ?_⟩ <;>
    (simp only [W47, hostOps6]
     after_results_simp <;> (try simp only [TRef.ofBuf, TRef.toBuf, cast_eq]) <;> rfl)

/-! ## Regions: a region rewrites its own output arrays and nothing else -/

/-- Region 0 leaves its two outputs at what its write-backs fold to; the arguments stay. -/
theorem exit0 (c : Dev nD) :
    W1 m ρ c (Proc.devRef .tc main_v0_0) = (dat0 (V0 m ρ) c).arrAt 2 cfg0.N
    ∧ W1 m ρ c (Proc.devRef .tc main_v0_1) = (dat0 (V0 m ρ) c).arrAt 3 cfg0.N
    ∧ W1 m ρ c (Proc.devRef .tc main_arg0) = W0 m ρ c (Proc.devRef .tc main_arg0)
    ∧ W1 m ρ c (Proc.devRef .tc main_arg2) = W0 m ρ c (Proc.devRef .tc main_arg2)
    ∧ W1 m ρ c (Proc.devRef .tc main_arg3) = W0 m ρ c (Proc.devRef .tc main_arg3)
    ∧ W1 m ρ c (Proc.devRef .tc main_arg4) = W0 m ρ c (Proc.devRef .tc main_arg4)
    ∧ W1 m ρ c (Proc.devRef .tc main_arg6) = W0 m ρ c (Proc.devRef .tc main_arg6)
    ∧ W1 m ρ c (Proc.devRef .tc main_arg7) = W0 m ρ c (Proc.devRef .tc main_arg7)
    ∧ W1 m ρ c (Proc.devRef .tc main_arg8) = W0 m ρ c (Proc.devRef .tc main_arg8) :=
  ⟨W1_arr m ρ c 2,
   W1_arr m ρ c 3,
   W1_of_ne m ρ c main_arg0 (by decide),
   W1_of_ne m ρ c main_arg2 (by decide),
   W1_of_ne m ρ c main_arg3 (by decide),
   W1_of_ne m ρ c main_arg4 (by decide),
   W1_of_ne m ρ c main_arg6 (by decide),
   W1_of_ne m ρ c main_arg7 (by decide),
   W1_of_ne m ρ c main_arg8 (by decide)⟩

/-- Region 1 leaves the first atom sums. -/
theorem exit1 (c : Dev nD) :
    W14 m ρ c (Proc.devRef .tc main_v19) = (dat1 (V13 m ρ) c).arrAt 6 cfg1.N
    ∧ W14 m ρ c (Proc.devRef .tc main_v0_0) = W13 m ρ c (Proc.devRef .tc main_v0_0)
    ∧ W14 m ρ c (Proc.devRef .tc main_v0_1) = W13 m ρ c (Proc.devRef .tc main_v0_1)
    ∧ W14 m ρ c (Proc.devRef .tc main_arg0) = W13 m ρ c (Proc.devRef .tc main_arg0)
    ∧ W14 m ρ c (Proc.devRef .tc main_arg2) = W13 m ρ c (Proc.devRef .tc main_arg2)
    ∧ W14 m ρ c (Proc.devRef .tc main_arg3) = W13 m ρ c (Proc.devRef .tc main_arg3)
    ∧ W14 m ρ c (Proc.devRef .tc main_arg4) = W13 m ρ c (Proc.devRef .tc main_arg4)
    ∧ W14 m ρ c (Proc.devRef .tc main_arg6) = W13 m ρ c (Proc.devRef .tc main_arg6)
    ∧ W14 m ρ c (Proc.devRef .tc main_arg7) = W13 m ρ c (Proc.devRef .tc main_arg7)
    ∧ W14 m ρ c (Proc.devRef .tc main_arg8) = W13 m ρ c (Proc.devRef .tc main_arg8) :=
  ⟨W14_arr m ρ c 6,
   W14_of_ne m ρ c main_v0_0 (by decide),
   W14_of_ne m ρ c main_v0_1 (by decide),
   W14_of_ne m ρ c main_arg0 (by decide),
   W14_of_ne m ρ c main_arg2 (by decide),
   W14_of_ne m ρ c main_arg3 (by decide),
   W14_of_ne m ρ c main_arg4 (by decide),
   W14_of_ne m ρ c main_arg6 (by decide),
   W14_of_ne m ρ c main_arg7 (by decide),
   W14_of_ne m ρ c main_arg8 (by decide)⟩

/-- Region 2 leaves the second message table; the bond input and the weight it read through input windows stay. -/
theorem exit2 (c : Dev nD) :
    W17 m ρ c (Proc.devRef .tc main_v22) = (dat2 (V16 m ρ) c).arrAt 4 cfg2.N
    ∧ W17 m ρ c (Proc.devRef .tc main_v0_0) = W16 m ρ c (Proc.devRef .tc main_v0_0)
    ∧ W17 m ρ c (Proc.devRef .tc main_arg0) = W16 m ρ c (Proc.devRef .tc main_arg0)
    ∧ W17 m ρ c (Proc.devRef .tc main_arg2) = W16 m ρ c (Proc.devRef .tc main_arg2)
    ∧ W17 m ρ c (Proc.devRef .tc main_arg3) = W16 m ρ c (Proc.devRef .tc main_arg3)
    ∧ W17 m ρ c (Proc.devRef .tc main_arg4) = W16 m ρ c (Proc.devRef .tc main_arg4)
    ∧ W17 m ρ c (Proc.devRef .tc main_arg6) = W16 m ρ c (Proc.devRef .tc main_arg6)
    ∧ W17 m ρ c (Proc.devRef .tc main_arg7) = W16 m ρ c (Proc.devRef .tc main_arg7)
    ∧ W17 m ρ c (Proc.devRef .tc main_arg8) = W16 m ρ c (Proc.devRef .tc main_arg8) :=
  ⟨W17_arr m ρ c 4,
   (W17_arr m ρ c 2).trans (((dat2 (V16 m ρ) c).arrAt_in 2 rfl _).trans (A_eq2 (V16 m ρ) c 2)),
   W17_of_ne m ρ c main_arg0 (by decide),
   W17_of_ne m ρ c main_arg2 (by decide),
   W17_of_ne m ρ c main_arg3 (by decide),
   W17_of_ne m ρ c main_arg4 (by decide),
   (W17_arr m ρ c 3).trans (((dat2 (V16 m ρ) c).arrAt_in 3 rfl _).trans (A_eq2 (V16 m ρ) c 3)),
   W17_of_ne m ρ c main_arg7 (by decide),
   W17_of_ne m ρ c main_arg8 (by decide)⟩

/-- Region 3 leaves the second atom sums. -/
theorem exit3 (c : Dev nD) :
    W30 m ρ c (Proc.devRef .tc main_v41) = (dat3 (V29 m ρ) c).arrAt 6 cfg3.N
    ∧ W30 m ρ c (Proc.devRef .tc main_v0_0) = W29 m ρ c (Proc.devRef .tc main_v0_0)
    ∧ W30 m ρ c (Proc.devRef .tc main_v22) = W29 m ρ c (Proc.devRef .tc main_v22)
    ∧ W30 m ρ c (Proc.devRef .tc main_arg0) = W29 m ρ c (Proc.devRef .tc main_arg0)
    ∧ W30 m ρ c (Proc.devRef .tc main_arg2) = W29 m ρ c (Proc.devRef .tc main_arg2)
    ∧ W30 m ρ c (Proc.devRef .tc main_arg3) = W29 m ρ c (Proc.devRef .tc main_arg3)
    ∧ W30 m ρ c (Proc.devRef .tc main_arg4) = W29 m ρ c (Proc.devRef .tc main_arg4)
    ∧ W30 m ρ c (Proc.devRef .tc main_arg6) = W29 m ρ c (Proc.devRef .tc main_arg6)
    ∧ W30 m ρ c (Proc.devRef .tc main_arg7) = W29 m ρ c (Proc.devRef .tc main_arg7)
    ∧ W30 m ρ c (Proc.devRef .tc main_arg8) = W29 m ρ c (Proc.devRef .tc main_arg8) :=
  ⟨W30_arr m ρ c 6,
   W30_of_ne m ρ c main_v0_0 (by decide),
   W30_of_ne m ρ c main_v22 (by decide),
   W30_of_ne m ρ c main_arg0 (by decide),
   W30_of_ne m ρ c main_arg2 (by decide),
   W30_of_ne m ρ c main_arg3 (by decide),
   W30_of_ne m ρ c main_arg4 (by decide),
   W30_of_ne m ρ c main_arg6 (by decide),
   W30_of_ne m ρ c main_arg7 (by decide),
   W30_of_ne m ρ c main_arg8 (by decide)⟩

/-- Region 4 leaves the third message table; the bond input and the weight it read through input windows stay. -/
theorem exit4 (c : Dev nD) :
    W33 m ρ c (Proc.devRef .tc main_v44) = (dat4 (V32 m ρ) c).arrAt 4 cfg4.N
    ∧ W33 m ρ c (Proc.devRef .tc main_v0_0) = W32 m ρ c (Proc.devRef .tc main_v0_0)
    ∧ W33 m ρ c (Proc.devRef .tc main_arg0) = W32 m ρ c (Proc.devRef .tc main_arg0)
    ∧ W33 m ρ c (Proc.devRef .tc main_arg2) = W32 m ρ c (Proc.devRef .tc main_arg2)
    ∧ W33 m ρ c (Proc.devRef .tc main_arg3) = W32 m ρ c (Proc.devRef .tc main_arg3)
    ∧ W33 m ρ c (Proc.devRef .tc main_arg4) = W32 m ρ c (Proc.devRef .tc main_arg4)
    ∧ W33 m ρ c (Proc.devRef .tc main_arg6) = W32 m ρ c (Proc.devRef .tc main_arg6)
    ∧ W33 m ρ c (Proc.devRef .tc main_arg7) = W32 m ρ c (Proc.devRef .tc main_arg7)
    ∧ W33 m ρ c (Proc.devRef .tc main_arg8) = W32 m ρ c (Proc.devRef .tc main_arg8) :=
  ⟨W33_arr m ρ c 4,
   (W33_arr m ρ c 2).trans (((dat4 (V32 m ρ) c).arrAt_in 2 rfl _).trans (A_eq4 (V32 m ρ) c 2)),
   W33_of_ne m ρ c main_arg0 (by decide),
   W33_of_ne m ρ c main_arg2 (by decide),
   W33_of_ne m ρ c main_arg3 (by decide),
   W33_of_ne m ρ c main_arg4 (by decide),
   (W33_arr m ρ c 3).trans (((dat4 (V32 m ρ) c).arrAt_in 3 rfl _).trans (A_eq4 (V32 m ρ) c 3)),
   W33_of_ne m ρ c main_arg7 (by decide),
   W33_of_ne m ρ c main_arg8 (by decide)⟩

/-- Region 5 leaves the third atom sums. -/
theorem exit5 (c : Dev nD) :
    W46 m ρ c (Proc.devRef .tc main_v63) = (dat5 (V45 m ρ) c).arrAt 6 cfg5.N
    ∧ W46 m ρ c (Proc.devRef .tc main_arg0) = W45 m ρ c (Proc.devRef .tc main_arg0)
    ∧ W46 m ρ c (Proc.devRef .tc main_arg2) = W45 m ρ c (Proc.devRef .tc main_arg2)
    ∧ W46 m ρ c (Proc.devRef .tc main_arg3) = W45 m ρ c (Proc.devRef .tc main_arg3)
    ∧ W46 m ρ c (Proc.devRef .tc main_arg4) = W45 m ρ c (Proc.devRef .tc main_arg4)
    ∧ W46 m ρ c (Proc.devRef .tc main_arg6) = W45 m ρ c (Proc.devRef .tc main_arg6)
    ∧ W46 m ρ c (Proc.devRef .tc main_arg7) = W45 m ρ c (Proc.devRef .tc main_arg7)
    ∧ W46 m ρ c (Proc.devRef .tc main_arg8) = W45 m ρ c (Proc.devRef .tc main_arg8) :=
  ⟨W46_arr m ρ c 6,
   W46_of_ne m ρ c main_arg0 (by decide),
   W46_of_ne m ρ c main_arg2 (by decide),
   W46_of_ne m ρ c main_arg3 (by decide),
   W46_of_ne m ρ c main_arg4 (by decide),
   W46_of_ne m ρ c main_arg6 (by decide),
   W46_of_ne m ρ c main_arg7 (by decide),
   W46_of_ne m ρ c main_arg8 (by decide)⟩

/-- Region 6 leaves the result. -/
theorem exit6 (c : Dev nD) :
    W48 m ρ c (Proc.devRef .tc main_v67) = (dat6 (V47 m ρ) c).arrAt 5 cfg6.N :=
  W48_arr m ρ c 5

end Cert.Walk

end
-- ==== Proof.NbrSum.lean ====
/- The reference's neighbour sum at an index, for in-range indices: the gather places row `a2b[a, k]` of the message
   table at `[a, k, ·]` (a wrapped in-range index is itself, and the gather's clamp is then the identity), and the sum
   over the middle axis starts from zero. -/
import proofs.«417302_j82858509074740_1_alg».proof.Proof.Stages
import Idealize.ShloMosaic.Lib.ValueIdx
import Idealize.ShloMosaic.Lib.ValueLayout
import Idealize.ShloMosaic.Lib.Pipeline.Value
import Idealize.ShloMosaic.Lib.ReduceAll
import Idealize.ShloMosaic.Lib.StableHlo.Predicate
import Idealize.ShloMosaic.PureOps.Ideal.Laws

noncomputable section

namespace Cert.Gathers

open Idealize.ShloMosaic Idealize.ShloMosaic.ValueIdx

/-! ## A row gather of a rank-2 operand at a rank-3 array of start indices

What `x[idx]` of a table `x : [N, L]` at an integer array `idx : [R, C]` lowers to: offset axis 2, operand axis 0
collapsed and named by the start index map, slices `[1, L]`, the index vector on axis 2 of the indices `[R, C, 1]`. -/

section Rows
variable {α : Type}

/-- Those dimension numbers; their conditions are decided on a program's literal shapes. -/
abbrev rowDims (N L R C : Nat)
    (wf : GatherDims.WF ⟨2, ![N, L]⟩ ⟨3, ![R, C, 1]⟩ ⟨3, ![R, C, L]⟩ [2] [0] [] [0] [] 2 ![1, L]) :
    GatherDims ⟨2, ![N, L]⟩ ⟨3, ![R, C, 1]⟩ ⟨3, ![R, C, L]⟩ where
  offsetDims := [2]
  collapsedSliceDims := [0]
  operandBatchingDims := []
  startIndicesBatchingDims := []
  startIndexMap := [0]
  indexVectorDim := 2
  sliceSizes := ![1, L]
  wf := wf

/-- Operand axis 0 is collapsed and named by the start index map: its coordinate is the clamped start index. -/
theorem rows_axis0 {N L R C w : Nat}
    (wf : GatherDims.WF ⟨2, ![N, L]⟩ ⟨3, ![R, C, 1]⟩ ⟨3, ![R, C, L]⟩ [2] [0] [] [0] [] 2 ![1, L])
    (idx : IVec ⟨3, ![R, C, 1]⟩ w) (r : Fin R) (c : Fin C) (l : Fin L) :
    (rowDims N L R C wf).start (ix3 r c l) idx (0 : Fin 2) + (rowDims N L R C wf).batchCoord (ix3 r c l) (0 : Fin 2)
      + (rowDims N L R C wf).offCoord (ix3 r c l) (0 : Fin 2) = min (idx (ix3 r c (0 : Fin 1))).toInt.toNat (N - 1) := by
  rw [GatherDims.batchCoord_eq_zero _ _ _ List.not_mem_nil,
    GatherDims.offCoord_eq_zero _ _ _ (fun h => ((GatherDims.mem_sKept _ _).mp h).1 (List.mem_singleton.mpr rfl))]
  simp only [Nat.add_zero]
  unfold GatherDims.start
  rw [dif_pos (show (0 : Fin 2) ∈ (rowDims N L R C wf).startIndexMap from List.mem_singleton.mpr rfl)]
  have hsi : (rowDims N L R C wf).siIdx (ix3 r c l) ⟨List.idxOf (0 : Fin 2) (rowDims N L R C wf).startIndexMap,
      List.idxOf_lt_length_iff.2 (List.mem_singleton.mpr rfl)⟩ = ix3 r c (0 : Fin 1) := by
    funext b; refine Fin.ext ?_
    match b with
    | ⟨0, _⟩ => rfl
    | ⟨1, _⟩ => rfl
    | ⟨2, _⟩ => rfl
  rw [hsi]
  rfl

/-- Operand axis 1 is kept whole: its coordinate is the result's coordinate on the offset axis. -/
theorem rows_axis1 {N L R C w : Nat}
    (wf : GatherDims.WF ⟨2, ![N, L]⟩ ⟨3, ![R, C, 1]⟩ ⟨3, ![R, C, L]⟩ [2] [0] [] [0] [] 2 ![1, L])
    (idx : IVec ⟨3, ![R, C, 1]⟩ w) (r : Fin R) (c : Fin C) (l : Fin L) :
    (rowDims N L R C wf).start (ix3 r c l) idx (1 : Fin 2) + (rowDims N L R C wf).batchCoord (ix3 r c l) (1 : Fin 2)
      + (rowDims N L R C wf).offCoord (ix3 r c l) (1 : Fin 2) = l.val := by
  have h10 : (1 : Fin 2) ∉ ([0] : List (Fin 2)) := fun h => Nat.one_ne_zero (congrArg Fin.val (List.mem_singleton.mp h))
  have hs : (rowDims N L R C wf).start (ix3 r c l) idx (1 : Fin 2) = 0 := by
    unfold GatherDims.start
    rw [dif_neg h10]
  have ho : (rowDims N L R C wf).offCoord (ix3 r c l) (1 : Fin 2) = l.val := by
    unfold GatherDims.offCoord
    rw [dif_pos ((GatherDims.mem_sKept _ _).mpr ⟨h10, List.not_mem_nil⟩)]
    rfl
  rw [hs, ho, GatherDims.batchCoord_eq_zero _ _ _ List.not_mem_nil]
  omega

/-- The gather read at `(r, c, l)`: lane `l` of the operand's row at the start index `idx[r, c, 0]`, read signed and
    clamped into `[0, N − 1]`. -/
theorem gather_rows_apply {N L R C w : Nat} (hN : 0 < N)
    (wf : GatherDims.WF ⟨2, ![N, L]⟩ ⟨3, ![R, C, 1]⟩ ⟨3, ![R, C, L]⟩ [2] [0] [] [0] [] 2 ![1, L])
    (x : (⟨2, ![N, L]⟩ : Shape).Idx → α) (idx : IVec ⟨3, ![R, C, 1]⟩ w) (r : Fin R) (c : Fin C) (l : Fin L) :
    Host.gather (rowDims N L R C wf) x idx (ix3 r c l)
      = x (ix2 ⟨min (idx (ix3 r c (0 : Fin 1))).toInt.toNat (N - 1), by omega⟩ l) := by
  unfold Host.gather
  congr 1
  funext a
  refine Fin.ext ?_
  match a with
  | ⟨0, _⟩ => exact rows_axis0 wf idx r c l
  | ⟨1, _⟩ => exact rows_axis1 wf idx r c l

end Rows

/-! ## The sum over the middle axis, the broadcast of the indices, the wrap of an index -/

/-- The host's sum of a `[100000, 6, 300]` array over its middle axis, started from the zero word, is at `(a, q)` the
    sum over `k` of the entries `(a, k, q)`. -/
theorem reduceAdd_mid_apply (y : FVec Ideal ⟨3, ![100000, 6, 300]⟩ .f32)
    (hr : (⟨3, ![100000, 6, 300]⟩ : Shape).ReducesTo [1] ⟨2, ![100000, 300]⟩) {u : Shape} (hu : 0 < u.numel)
    (a : Fin 100000) (q : Fin 300) :
    Host.reduceAdd y (constant u .f32 0x00000000#32) hr hu (ix2 a q) = ∑ k : Fin 6, y (ix3 a k q) := by
  simp only [Host.reduceAdd, Ideal.hostReduceAdd_def]
  rw [Ideal.hostReduceAdd_single hr (by decide), constant_apply, Ideal.ofBits_zero_f32, zero_add]
  refine Finset.sum_congr rfl fun k _ => ?_
  exact congrArg y (funext fun b => Fin.ext (by match b with | ⟨0, _⟩ => rfl | ⟨1, _⟩ => rfl | ⟨2, _⟩ => rfl))

/-- The indices `[R, C]` given a trailing unit axis: at `(r, c, 0)` the entry `(r, c)`. -/
theorem bcast_unit_apply {β : Type} (hb : (⟨2, ![100000, 6]⟩ : Shape).BroadcastsInDim ⟨3, ![100000, 6, 1]⟩ ![0, 1])
    (v : (⟨2, ![100000, 6]⟩ : Shape).Idx → β) (r : Fin 100000) (c : Fin 6) :
    broadcastInDim ⟨3, ![100000, 6, 1]⟩ ![0, 1] hb v (ix3 r c (0 : Fin 1)) = v (ix2 r c) :=
  broadcastInDim_apply _ hb v _ (ix2 r c) (fun b => by match b with | ⟨0, _⟩ => rfl | ⟨1, _⟩ => rfl)

/-- A nonnegative word is not below zero: the select that wraps negative indices keeps it. -/
theorem wrap_of_nonneg (w alt : BitVec 32) (h : 0 ≤ w.toInt) : Scalar.select (IntOp.cmpi .slt w 0#32) alt w = w := by
  have hc : ¬IntOp.cmpi .slt w 0#32 = 1#1 := by
    rw [IntOp.cmpi_slt, show (0#32 : BitVec 32).toInt = 0 from by decide]; omega
  rw [eq_zero_of_ne_one hc, select_zero]

/-- An in-range atom → bond index is its own wrap. -/
theorem wrapA_apply (a2b : IVec Cert.ReferenceIdeal.S100000x6 32) (p : Cert.ReferenceIdeal.S100000x6.Idx)
    (h : 0 ≤ (a2b p).toInt) : Cert.Stages.wrapA a2b p = a2b p := by
  unfold Cert.Stages.wrapA
  rw [select_apply]
  exact wrap_of_nonneg _ _ h

/-- At atom `a` and lane `q` the neighbour sum is the sum over the six bonds of `a` of the message rows they name. -/
theorem nbrSum_apply (msg : Vec Ideal Cert.ReferenceIdeal.S200000x300 .f32) (a2b : IVec Cert.ReferenceIdeal.S100000x6 32)
    (h : ∀ p, 0 ≤ (a2b p).toInt ∧ (a2b p).toInt < 200000) (a : Fin 100000) (q : Fin 300) :
    Cert.Stages.nbrSum (F := Ideal) msg a2b (ix2 a q)
      = ∑ k : Fin 6, msg (ix2 (⟨(a2b (ix2 a k)).toInt.toNat, by have := h (ix2 a k); omega⟩ : Fin 200000) q) := by
  unfold Cert.Stages.nbrSum
  rw [reduceAdd_mid_apply]
  refine Finset.sum_congr rfl fun k _ => ?_
  have hd : Cert.ReferenceIdeal.gather_S200000x300_S100000x6x1_S100000x6x300_2_0_n_n_0_2_1300
      = rowDims 200000 300 100000 6 Cert.ReferenceIdeal.Facts₀.gather_S200000x300_S100000x6x1_S100000x6x300_2_0_n_n_0_2_1300_wf := rfl
  rw [hd, gather_rows_apply (by decide)]
  refine congrArg msg (congrArg (fun r => ix2 r q) (Fin.ext ?_))
  dsimp only
  rw [bcast_unit_apply, wrapA_apply a2b _ (h (ix2 a k)).1]
  have := h (ix2 a k)
  omega

end Cert.Gathers

end
-- ==== Proof.TakeA.lean ====
/- The six column gathers of the kernel program against the reference's one gather and sum.  For in-range indices
   column `j`'s masked gather is row `a2b[a, j]` of the message table at atom `a`; the reference gathers all six rows
   at once into `[a, j, ·]` and sums over `j` from zero.  Entry by entry both are the sum over the six bonds of one
   atom; addition of extended reals is commutative and associative, and zero is its unit. -/
import proofs.«417302_j82858509074740_1_alg».proof.Proof.Stages
import proofs.«417302_j82858509074740_1_alg».proof.Proof.NbrSum
import Idealize.ShloMosaic.Lib.ValueIdx
import Idealize.ShloMosaic.Lib.ValueLayout
import Idealize.ShloMosaic.Lib.Pipeline.Value
import Idealize.ShloMosaic.Lib.ReduceAll
import Idealize.ShloMosaic.Lib.StableHlo.Predicate
import Idealize.ShloMosaic.PureOps.Ideal.Laws

noncomputable section

namespace Cert.Gathers

open Idealize.ShloMosaic Idealize.ShloMosaic.ValueIdx

local notation "dK" => Cert.KernelIdeal.gather_S200000x300_S100000x1_S100000x300_1_0_n_n_0_1_1300

/-- A row gather of a table `[200000, 300]` at start indices `[100000, 1]`, read at `(a, c)`: the table at the
    start index `idx[a, 0]`, read signed and clamped into `[0, 199999]`, and lane `c`. -/
private theorem kRowGather_at {α : Type} {w : Nat} (x : Cert.KernelIdeal.S200000x300.Idx → α)
    (idx : IVec Cert.KernelIdeal.S100000x1 w) (a : Fin 100000) (c : Fin 300) :
    Host.gather dK x idx (ix2 a c) = x (ix2 ⟨min (idx (ix2 a (0 : Fin 1))).toInt.toNat 199999, by omega⟩ c) := by
  -- axis 0 is the collapsed axis the start index names: the clamped start alone
  have h0 : (GatherDims.operandIdx dK (ix2 a c) idx (0 : Fin 2)).val = min (idx (ix2 a (0 : Fin 1))).toInt.toNat 199999 := by
    show GatherDims.start dK (ix2 a c) idx (0 : Fin 2) + GatherDims.batchCoord dK (ix2 a c) (0 : Fin 2) + GatherDims.offCoord dK (ix2 a c) (0 : Fin 2) = _
    rw [GatherDims.batchCoord_eq_zero _ _ _ List.not_mem_nil,
      GatherDims.offCoord_eq_zero _ _ _ (fun h => ((GatherDims.mem_sKept _ _).mp h).1 (List.mem_singleton.mpr rfl))]
    simp only [Nat.add_zero]
    unfold GatherDims.start
    rw [dif_pos (show (0 : Fin 2) ∈ (GatherDims.startIndexMap dK) from List.mem_singleton.mpr rfl)]
    have hsi : GatherDims.siIdx dK (ix2 a c) ⟨List.idxOf (0 : Fin 2) (GatherDims.startIndexMap dK),
        List.idxOf_lt_length_iff.2 (List.mem_singleton.mpr rfl)⟩ = ix2 a (0 : Fin 1) := by
      funext e; refine Fin.ext ?_
      match e with
      | ⟨0, _⟩ => rfl
      | ⟨1, _⟩ => rfl
    rw [hsi]
    rfl
  -- axis 1 is the offset axis: the result's lane
  have h1 : (GatherDims.operandIdx dK (ix2 a c) idx (1 : Fin 2)).val = c.val := by
    show GatherDims.start dK (ix2 a c) idx (1 : Fin 2) + GatherDims.batchCoord dK (ix2 a c) (1 : Fin 2) + GatherDims.offCoord dK (ix2 a c) (1 : Fin 2) = _
    rw [GatherDims.batchCoord_eq_zero _ _ _ List.not_mem_nil]
    have hs : GatherDims.start dK (ix2 a c) idx (1 : Fin 2) = 0 := by
      unfold GatherDims.start
      rw [dif_neg (show (1 : Fin 2) ∉ (GatherDims.startIndexMap dK) by decide)]
    have ho : GatherDims.offCoord dK (ix2 a c) (1 : Fin 2) = c.val := by
      unfold GatherDims.offCoord
      rw [dif_pos (show (1 : Fin 2) ∈ (GatherDims.sKept dK) by decide)]
      rfl
    rw [hs, ho]; omega
  unfold Host.gather
  exact congrArg x (funext fun b => Fin.ext (match b with | ⟨0, _⟩ => h0 | ⟨1, _⟩ => h1))

/-- A left fold by `and` over one-bit words, all of them 1, from 1, is 1. -/
private theorem andFold_all_one {ι : Type} (f : ι → BitVec 1) :
    ∀ l : List ι, (∀ n ∈ l, f n = 1#1) → l.foldl (fun r n => IntOp.andi r (f n)) 1#1 = 1#1
  | [], _ => rfl
  | b :: l, hl => by
    have e : IntOp.andi 1#1 1#1 = 1#1 := by decide
    rw [List.foldl_cons, hl b List.mem_cons_self, e]
    exact andFold_all_one f l fun n hn => hl n (List.mem_cons_of_mem _ hn)

/-- A reduction by `and` from 1 of an array of one-bit words that are all 1 is 1 everywhere. -/
private theorem andReduce_all_one {s t u : Shape} {axes : List (Fin s.rank)} (x : s.Idx → BitVec 1) (init : u.Idx → BitVec 1)
    (h : s.ReducesTo axes t) (hu : 0 < u.numel) (hi : init (Shape.Idx.first hu) = 1#1) (hx : ∀ i, x i = 1#1) (j : t.Idx) :
    Host.reduce IntOp.andi x init h hu j = 1#1 := by
  rw [Host.reduce_eq_foldl, hi]
  exact andFold_all_one x _ fun n _ => hx n

/-- The bounds mask of indices that all lie in `[0, 199999]` is 1 everywhere. -/
private theorem boundsMask_all_one {s t u : Shape} {axes : List (Fin s.rank)} (W Z T : IVec s 32) (init : IVec u 1)
    (h : s.ReducesTo axes t) (hu : 0 < u.numel) (hi : init (Shape.Idx.first hu) = 1#1)
    (hZ : ∀ i, Z i = 0#32) (hT : ∀ i, T i = 199999#32) (hW : ∀ i, 0 ≤ (W i).toInt ∧ (W i).toInt < 200000) (j : t.Idx) :
    Host.reduce IntOp.andi (andi (cmpi .sge W Z) (cmpi .sle W T)) init h hu j = 1#1 := by
  refine andReduce_all_one _ _ h hu hi (fun i => ?_) j
  show IntOp.andi (IntOp.cmpi .sge (W i) (Z i)) (IntOp.cmpi .sle (W i) (T i)) = 1#1
  rw [hZ, hT]
  refine IntOp.andi_eq_one.2 ⟨IntOp.cmpi_sge.2 ?_, IntOp.cmpi_sle.2 ?_⟩
  · have e : (0#32 : BitVec 32).toInt = 0 := by decide
    have := (hW i).1; omega
  · have e : (199999#32 : BitVec 32).toInt = 199999 := by decide
    have := (hW i).2; omega

/-- Counting a non-negative index from the end of the axis leaves it as it is. -/
private theorem wrapSelect_id {s : Shape} (idx z n : IVec s 32) (hz : ∀ q, z q = 0#32) (h : ∀ q, 0 ≤ (idx q).toInt) :
    select (cmpi .slt idx z) (addi idx n) idx = idx := by
  funext q
  show Scalar.select (IntOp.cmpi .slt (idx q) (z q)) (IntOp.addi (idx q) (n q)) (idx q) = idx q
  have hc : IntOp.cmpi .slt (idx q) (z q) = 0#1 := by
    refine eq_zero_of_ne_one fun e => ?_
    have h1 := IntOp.cmpi_slt.1 e
    rw [hz q] at h1
    have e0 : (0#32 : BitVec 32).toInt = 0 := by decide
    have := h q; omega
  rw [hc, select_zero]

/-- A select on a bit that is 1 is its first operand. -/
private theorem select_bit_one {α : Type} (c : BitVec 1) (x y : α) (hc : c = 1#1) : Scalar.select c x y = x := by
  rw [hc]; exact select_one x y

section Kernel
open Cert.KernelIdeal Cert.KernelIdeal.Facts₀

/-- Column `j` of the index table, sliced and flattened, at atom `a` is the table's entry `(a, j)`. -/
private theorem col_at (a2b : IVec S100000x6 32) (j : Nat) (hj : j < 6) (hs : S100000x6.Slices ![0, j] S100000x1)
    (hc : S100000x1.ShapeCasts S100000) (a : Fin 100000) :
    shapeCast S100000 (extractStridedSlice S100000x1 ![0, j] a2b hs) hc (ix1 a) = a2b (ix2 a ⟨j, hj⟩) := by
  refine (shapeCast_apply _ hc (ix1 a) (ix2 a (0 : Fin 1)) ?_).trans ?_
  · rw [Shape.rowMajor_val_two, Shape.rowMajor_val_one]
    show a.val * 1 + 0 = a.val
    omega
  · refine extractStridedSlice_apply _ a2b hs _ _ (fun b => ?_)
    match b with
    | ⟨0, _⟩ => show a.val = 0 + a.val; omega
    | ⟨1, _⟩ => show j = j + 0; omega

/-- The masked row gather at in-range indices, read at `(a, c)`: row `idx[a]` of the table at lane `c`. -/
private theorem takeA_at (x : Vec Ideal S200000x300 .f32) (idx : IVec S100000 32)
    (hidx : ∀ q, 0 ≤ (idx q).toInt ∧ (idx q).toInt < 200000) (a : Fin 100000) (c : Fin 300)
    (r : Fin 200000) (hr : (idx (ix1 a)).toInt = r.val) :
    Cert.KStages.takeA (F := Ideal) x idx (ix2 a c) = x (ix2 r c) := by
  unfold Cert.KStages.takeA
  rw [wrapSelect_id idx (broadcastInDim S100000 ![] bcast_S_S100000 (constantI S_ 32 0#32)) _ (fun _ => rfl)
    (fun q => (hidx q).1)]
  rw [select_apply]
  refine (select_bit_one _ _ _ ?_).trans ?_
  · refine boundsMask_all_one _ _ _ _ _ _ ?_ ?_ ?_ ?_ _
    · rfl
    · exact fun _ => rfl
    · exact fun _ => rfl
    · exact fun i => hidx _
  · rw [kRowGather_at]
    have hb : (broadcastInDim S100000x1 ![0] bcast_S100000_S100000x1_0 idx) (ix2 a (0 : Fin 1)) = idx (ix1 a) :=
      broadcastInDim_apply _ _ idx _ (ix1 a) (fun e => match e with
        | ⟨0, _⟩ => by show a.val = if (100000 : Nat) = 1 then 0 else a.val; rw [if_neg (by decide)])
    refine congrArg (fun r' => x (ix2 r' c)) (Fin.ext ?_)
    show min ((broadcastInDim S100000x1 ![0] bcast_S100000_S100000x1_0 idx) (ix2 a (0 : Fin 1))).toInt.toNat 199999 = r.val
    rw [hb]
    have := r.isLt
    omega

/-- The masked gather at column `J` of an in-range index table, read at `(a, c)`. -/
private theorem takeA_col_at (msg : Vec Ideal S200000x300 .f32) (a2b : IVec S100000x6 32)
    (h : ∀ p, 0 ≤ (a2b p).toInt ∧ (a2b p).toInt < 200000) (J : Fin 6) (col : IVec S100000 32)
    (hcol : ∀ a : Fin 100000, col (ix1 a) = a2b (ix2 a J)) (a : Fin 100000) (c : Fin 300) :
    Cert.KStages.takeA (F := Ideal) msg col (ix2 a c)
      = msg (ix2 (⟨(a2b (ix2 a J)).toInt.toNat, by have := h (ix2 a J); omega⟩ : Fin 200000) c) := by
  refine takeA_at msg col (fun q => ?_) a c _ ?_
  · obtain ⟨a', rfl⟩ : ∃ a' : Fin 100000, q = ix1 a' := ⟨q 0, eq_ix1 q⟩
    rw [hcol]; exact h _
  · rw [hcol]; exact (Int.toNat_of_nonneg (h _).1).symm

end Kernel

/-- The six masked column gathers, added from the left, are the reference's neighbour sum. -/
theorem takeA_cols (msg : Vec Ideal Cert.KernelIdeal.S200000x300 .f32) (a2b : IVec Cert.KernelIdeal.S100000x6 32)
    (h : ∀ p, 0 ≤ (a2b p).toInt ∧ (a2b p).toInt < 200000) :
    Cert.Stages.add6 (F := Ideal)
        (Cert.KStages.takeA (F := Ideal) msg (Cert.KStages.col0 a2b)) (Cert.KStages.takeA (F := Ideal) msg (Cert.KStages.col1 a2b))
        (Cert.KStages.takeA (F := Ideal) msg (Cert.KStages.col2 a2b)) (Cert.KStages.takeA (F := Ideal) msg (Cert.KStages.col3 a2b))
        (Cert.KStages.takeA (F := Ideal) msg (Cert.KStages.col4 a2b)) (Cert.KStages.takeA (F := Ideal) msg (Cert.KStages.col5 a2b))
      = Cert.Stages.nbrSum (F := Ideal) msg a2b := by
  funext i
  obtain ⟨a, c, rfl⟩ : ∃ (a : Fin 100000) (c : Fin 300), i = ix2 a c := ⟨i 0, i 1, eq_ix2 i⟩
  rw [nbrSum_apply msg a2b h a c, Fin.sum_univ_six]
  unfold Cert.Stages.add6
  simp only [addf_apply]
  rw [takeA_col_at msg a2b h 0 (Cert.KStages.col0 a2b) (fun a => col_at a2b 0 (by decide) _ _ a) a c,
    takeA_col_at msg a2b h 1 (Cert.KStages.col1 a2b) (fun a => col_at a2b 1 (by decide) _ _ a) a c,
    takeA_col_at msg a2b h 2 (Cert.KStages.col2 a2b) (fun a => col_at a2b 2 (by decide) _ _ a) a c,
    takeA_col_at msg a2b h 3 (Cert.KStages.col3 a2b) (fun a => col_at a2b 3 (by decide) _ _ a) a c,
    takeA_col_at msg a2b h 4 (Cert.KStages.col4 a2b) (fun a => col_at a2b 4 (by decide) _ _ a) a c,
    takeA_col_at msg a2b h 5 (Cert.KStages.col5 a2b) (fun a => col_at a2b 5 (by decide) _ _ a) a c]

end Cert.Gathers

end
-- ==== Proof.TakeBR.lean ====
/- The kernel program's masked row gathers, when every index is in range.  For `0 ≤ idx p < n` the wrapped index is
   `idx p` itself and lies in `[0, n − 1]`, so the bounds mask is all ones and the masked gather is the plain row
   gather — the very gather the reference applies to the same wrapped indices. -/
import proofs.«417302_j82858509074740_1_alg».proof.Proof.Stages
import Idealize.ShloMosaic.Lib.ValueIdx
import Idealize.ShloMosaic.Lib.ValueLayout
import Idealize.ShloMosaic.Lib.Pipeline.Value
import Idealize.ShloMosaic.Lib.ReduceAll
import Idealize.ShloMosaic.Lib.StableHlo.Predicate
import Idealize.ShloMosaic.PureOps.Ideal.Laws

noncomputable section

namespace Cert.Gathers

open Idealize.ShloMosaic Idealize.ShloMosaic.ValueIdx

/-- A left fold by `and` over one-bit words that are all 1, started at 1, is 1. -/
theorem foldl_andi_ones {ι : Type} (f : ι → BitVec 1) (hf : ∀ n, f n = 1#1) :
    ∀ (l : List ι), l.foldl (fun r n => IntOp.andi r (f n)) 1#1 = 1#1
  | [] => rfl
  | a :: l => by
    have e : IntOp.andi (1#1) (f a) = 1#1 := by rw [hf a]; decide
    show l.foldl (fun r n => IntOp.andi r (f n)) (IntOp.andi 1#1 (f a)) = 1#1
    rw [e]; exact foldl_andi_ones f hf l

/-- A signed word in `[0, n]`, `n` below 2³¹, passes both bounds compares. -/
theorem inRange_bit (v : BitVec 32) (n : Nat) (hn : n < 2 ^ 31) (h0 : 0 ≤ v.toInt) (h1 : v.toInt ≤ n) :
    IntOp.andi (IntOp.cmpi .sge v 0#32) (IntOp.cmpi .sle v (BitVec.ofNat 32 n)) = 1#1 := by
  have e0 : IntOp.cmpi .sge v 0#32 = 1#1 := by
    unfold IntOp.cmpi
    rw [StableHlo.Predicate.ofBool_eq_one_iff]
    simp only [BitVec.sle, BitVec.toInt_zero, decide_eq_true_eq]
    exact h0
  have e1 : IntOp.cmpi .sle v (BitVec.ofNat 32 n) = 1#1 := by
    unfold IntOp.cmpi
    rw [StableHlo.Predicate.ofBool_eq_one_iff]
    simp only [BitVec.sle, StableHlo.Predicate.toInt_ofNat_small n hn, decide_eq_true_eq]
    exact h1
  rw [e0, e1]; decide

/-- A non-negative signed word is not below zero, so the wrap-around select keeps it. -/
theorem wrap_word (v c : BitVec 32) (h0 : 0 ≤ v.toInt) :
    Scalar.select (IntOp.cmpi .slt v 0#32) (IntOp.addi v c) v = v := by
  have e : IntOp.cmpi .slt v 0#32 = 0#1 := by
    unfold IntOp.cmpi
    have : v.slt 0#32 = false := by
      simp only [BitVec.slt, BitVec.toInt_zero, decide_eq_false_iff_not, not_lt]
      exact h0
    rw [this]; rfl
  rw [e, select_zero]

/-- On non-negative indices the wrap-around of negative indices is the identity. -/
theorem wrap_id {s : Shape} (idx Z C : IVec s 32) (hZ : ∀ k, Z k = 0#32) (h : ∀ k, 0 ≤ (idx k).toInt) :
    select (cmpi .slt idx Z) (addi idx C) idx = idx := by
  funext k
  show Scalar.select (IntOp.cmpi .slt (idx k) (Z k)) (IntOp.addi (idx k) (C k)) (idx k) = idx k
  rw [hZ k]; exact wrap_word _ _ (h k)

/-- The bounds mask of in-range indices: the `and`-reduce of the two compares, broadcast, is 1 everywhere. -/
theorem mask_one {s s1 t u t2 : Shape} {axes : List (Fin s1.rank)} (dimsW : Fin s.rank → Fin s1.rank)
    (hW : s.BroadcastsInDim s1 dimsW) (w : IVec s 32) (Z H : IVec s1 32) (n : Nat) (hn : n < 2 ^ 31)
    (hZ : ∀ q, Z q = 0#32) (hH : ∀ q, H q = BitVec.ofNat 32 n)
    (hw : ∀ k, 0 ≤ (w k).toInt ∧ (w k).toInt ≤ n)
    (init : IVec u 1) (hinit : ∀ z, init z = 1#1) (hr : s1.ReducesTo axes t) (hu : 0 < u.numel)
    (dimsM : Fin t.rank → Fin t2.rank) (hM : t.BroadcastsInDim t2 dimsM) (j : t2.Idx) :
    broadcastInDim t2 dimsM hM (Host.reduce IntOp.andi
      (andi (cmpi .sge (broadcastInDim s1 dimsW hW w) Z) (cmpi .sle (broadcastInDim s1 dimsW hW w) H))
      init hr hu) j = 1#1 := by
  unfold broadcastInDim
  rw [Host.reduce_eq_foldl, hinit]
  refine foldl_andi_ones _ (fun q => ?_) _
  show IntOp.andi (IntOp.cmpi .sge (w _) (Z q)) (IntOp.cmpi .sle (w _) (H q)) = 1#1
  rw [hZ q, hH q]
  exact inRange_bit _ n hn (hw _).1 (hw _).2

/-- With in-range indices the kernel program's atom-row gather is the plain row gather at the indices themselves. -/
theorem takeB_plain (amsg : Vec Ideal Cert.KernelIdeal.S100000x300 .f32) (b2a : IVec Cert.KernelIdeal.S200000 32)
    (h : ∀ p, 0 ≤ (b2a p).toInt ∧ (b2a p).toInt < 100000) :
    Cert.KStages.takeB (F := Ideal) amsg b2a =
      Host.gather Cert.KernelIdeal.gather_S100000x300_S200000x1_S200000x300_1_0_n_n_0_1_1300 amsg
        (broadcastInDim Cert.KernelIdeal.S200000x1 ![0] Cert.KernelIdeal.Facts₀.bcast_S200000_S200000x1_0 b2a) := by
  funext i
  unfold Cert.KStages.takeB
  rw [wrap_id (idx := b2a) (h := fun k => (h k).1), select_apply,
    mask_one (w := b2a) (n := 99999) (hn := by norm_num)
      (hw := fun k => ⟨(h k).1, by have := (h k).2; omega⟩), select_one]
  all_goals intro _; rfl

/-- With in-range indices the reference's atom-row gather reads at the indices themselves. -/
theorem atomAt_plain (amsg : Vec Ideal Cert.ReferenceIdeal.S100000x300 .f32) (b2a : IVec Cert.ReferenceIdeal.S200000 32)
    (h : ∀ p, 0 ≤ (b2a p).toInt) :
    Cert.Stages.atomAt (F := Ideal) amsg b2a =
      Host.gather Cert.ReferenceIdeal.gather_S100000x300_S200000x1_S200000x300_1_0_n_n_0_1_1300 amsg
        (broadcastInDim Cert.ReferenceIdeal.S200000x1 ![0] Cert.ReferenceIdeal.Facts₀.bcast_S200000_S200000x1_0 b2a) := by
  unfold Cert.Stages.atomAt Cert.Stages.wrapB
  rw [wrap_id (idx := b2a) (h := h)]
  intro _; rfl

/-- Atom rows read at in-range bond → atom indices: the masked gather is the reference's gather. -/
theorem takeB_eq (amsg : Vec Ideal Cert.KernelIdeal.S100000x300 .f32) (b2a : IVec Cert.KernelIdeal.S200000 32)
    (h : ∀ p, 0 ≤ (b2a p).toInt ∧ (b2a p).toInt < 100000) :
    Cert.KStages.takeB (F := Ideal) amsg b2a = Cert.Stages.atomAt (F := Ideal) amsg b2a := by
  rw [takeB_plain amsg b2a h, atomAt_plain amsg b2a (fun p => (h p).1)]
  rfl

/-- With in-range indices the kernel program's bond-row gather is the plain row gather at the indices themselves. -/
theorem takeR_plain (msg : Vec Ideal Cert.KernelIdeal.S200000x300 .f32) (b2revb : IVec Cert.KernelIdeal.S200000 32)
    (h : ∀ p, 0 ≤ (b2revb p).toInt ∧ (b2revb p).toInt < 200000) :
    Cert.KStages.takeR (F := Ideal) msg b2revb =
      Host.gather Cert.KernelIdeal.gather_S200000x300_S200000x1_S200000x300_1_0_n_n_0_1_1300 msg
        (broadcastInDim Cert.KernelIdeal.S200000x1 ![0] Cert.KernelIdeal.Facts₀.bcast_S200000_S200000x1_0 b2revb) := by
  funext i
  unfold Cert.KStages.takeR
  rw [wrap_id (idx := b2revb) (h := fun k => (h k).1), select_apply,
    mask_one (w := b2revb) (n := 199999) (hn := by norm_num)
      (hw := fun k => ⟨(h k).1, by have := (h k).2; omega⟩), select_one]
  all_goals intro _; rfl

/-- With in-range indices the reference's bond-row gather reads at the indices themselves. -/
theorem revAt_plain (msg : Vec Ideal Cert.ReferenceIdeal.S200000x300 .f32) (b2revb : IVec Cert.ReferenceIdeal.S200000 32)
    (h : ∀ p, 0 ≤ (b2revb p).toInt) :
    Cert.Stages.revAt (F := Ideal) msg b2revb =
      Host.gather Cert.ReferenceIdeal.gather_S200000x300_S200000x1_S200000x300_1_0_n_n_0_1_1300 msg
        (broadcastInDim Cert.ReferenceIdeal.S200000x1 ![0] Cert.ReferenceIdeal.Facts₀.bcast_S200000_S200000x1_0 b2revb) := by
  unfold Cert.Stages.revAt Cert.Stages.wrapR
  rw [wrap_id (idx := b2revb) (h := h)]
  intro _; rfl

/-- Bond rows read at in-range bond → reverse-bond indices: the masked gather is the reference's gather. -/
theorem takeR_eq (msg : Vec Ideal Cert.KernelIdeal.S200000x300 .f32) (b2revb : IVec Cert.KernelIdeal.S200000 32)
    (h : ∀ p, 0 ≤ (b2revb p).toInt ∧ (b2revb p).toInt < 200000) :
    Cert.KStages.takeR (F := Ideal) msg b2revb = Cert.Stages.revAt (F := Ideal) msg b2revb := by
  rw [takeR_plain msg b2revb h, revAt_plain msg b2revb (fun p => (h p).1)]
  rfl

end Cert.Gathers

end
-- ==== Proof.RoundCommon.lean ====
/- What every boundary of the kernel program keeps: the seven arguments that later items still read are as launched.
   And the one identity a message round rests on: with in-range indices the masked gathers are the plain ones and
   the six gathered columns add up to the neighbour sum, so the kernel's round is the reference's `update`. -/
import proofs.«417302_j82858509074740_1_alg».proof.Proof.WalkHost
import proofs.«417302_j82858509074740_1_alg».proof.Proof.TakeA
import proofs.«417302_j82858509074740_1_alg».proof.Proof.TakeBR

set_option maxRecDepth 16384

noncomputable section

namespace Cert.Walk

open Idealize.ShloMosaic Idealize.ShloMosaic.TcCoe Idealize.SL.Sem Idealize.ShloMosaic.StableHlo
open Cert.KernelIdeal Cert.KernelIdeal.Gen Cert.KernelIdeal.GenP
open Cert.Stages Cert.KStages

variable (m : (ℓ : Loc nD τ sig) → Buf (Elt Ideal) ℓ) (ρ : Dev nD → PrngReg) (c : Dev nD)

open Cert.Gathers

/-- At the contents `W` the arguments still to be read are as launched. -/
def ArgsAt (W : Valuation τ sig (Elt Ideal)) : Prop :=
  W (Proc.devRef .tc main_arg0) = m ((c : Thread nD τ).loc main_arg0)
  ∧ W (Proc.devRef .tc main_arg2) = m ((c : Thread nD τ).loc main_arg2)
  ∧ W (Proc.devRef .tc main_arg3) = m ((c : Thread nD τ).loc main_arg3)
  ∧ W (Proc.devRef .tc main_arg4) = m ((c : Thread nD τ).loc main_arg4)
  ∧ W (Proc.devRef .tc main_arg6) = m ((c : Thread nD τ).loc main_arg6)
  ∧ W (Proc.devRef .tc main_arg7) = m ((c : Thread nD τ).loc main_arg7)
  ∧ W (Proc.devRef .tc main_arg8) = m ((c : Thread nD τ).loc main_arg8)

/-- At launch they are. -/
theorem argsAt_launch : ArgsAt m c (W0 m ρ c) := ⟨rfl, rfl, rfl, rfl, rfl, rfl, rfl⟩

variable (h2 : ∀ p, 0 ≤ (((m ((c : Thread nD τ).loc main_arg2)) : IVec S100000x6 32) p).toInt ∧ (((m ((c : Thread nD τ).loc main_arg2)) : IVec S100000x6 32) p).toInt < 200000)
variable (h3 : ∀ p, 0 ≤ (((m ((c : Thread nD τ).loc main_arg3)) : IVec S200000 32) p).toInt ∧ (((m ((c : Thread nD τ).loc main_arg3)) : IVec S200000 32) p).toInt < 100000)
variable (h4 : ∀ p, 0 ≤ (((m ((c : Thread nD τ).loc main_arg4)) : IVec S200000 32) p).toInt ∧ (((m ((c : Thread nD τ).loc main_arg4)) : IVec S200000 32) p).toInt < 200000)
include h2 h3 h4

/-- The kernel's round on a message table `msg` with bond input `i` is the reference's update. -/
theorem round (i msg : Vec Ideal S200000x300 .f32) :
    updateOf (F := Ideal) i
        (takeB (F := Ideal)
          (add6 (F := Ideal) (takeA (F := Ideal) msg (col0 (m ((c : Thread nD τ).loc main_arg2)))) (takeA (F := Ideal) msg (col1 (m ((c : Thread nD τ).loc main_arg2)))) (takeA (F := Ideal) msg (col2 (m ((c : Thread nD τ).loc main_arg2))))
            (takeA (F := Ideal) msg (col3 (m ((c : Thread nD τ).loc main_arg2)))) (takeA (F := Ideal) msg (col4 (m ((c : Thread nD τ).loc main_arg2)))) (takeA (F := Ideal) msg (col5 (m ((c : Thread nD τ).loc main_arg2)))))
          (m ((c : Thread nD τ).loc main_arg3)))
        (takeR (F := Ideal) msg (m ((c : Thread nD τ).loc main_arg4))) (m ((c : Thread nD τ).loc main_arg6))
      = update (F := Ideal) i msg (m ((c : Thread nD τ).loc main_arg2)) (m ((c : Thread nD τ).loc main_arg3)) (m ((c : Thread nD τ).loc main_arg4)) (m ((c : Thread nD τ).loc main_arg6)) := by
  rw [takeA_cols msg (m ((c : Thread nD τ).loc main_arg2)) h2, takeB_eq _ (m ((c : Thread nD τ).loc main_arg3)) h3, takeR_eq msg (m ((c : Thread nD τ).loc main_arg4)) h4]
  rfl

end Cert.Walk

end
-- ==== Proof.Sum6_1.lean ====
/- Region 1 (first neighbour sum): block t holds atom rows 1000·t … 1000·t + 999 of each of the six gathered
   tables; the body adds them from the left, entry by entry.  The 100 blocks cover the array. -/
import proofs.«417302_j82858509074740_1_alg».proof.Proof.KernelIdealFrame
import proofs.«417302_j82858509074740_1_alg».proof.Proof.Stages
import Idealize.ShloMosaic.Lib.Pipeline.Value
import Idealize.ShloMosaic.Lib.ValueIdx
import Idealize.ShloMosaic.PureOps.Ideal.Laws

set_option maxRecDepth 16384

noncomputable section

namespace Cert.KRegion

open Idealize.ShloMosaic Idealize.ShloMosaic.TcCoe Idealize.SL.Sem Idealize.ShloMosaic.Pipeline
open Cert.KernelIdeal Cert.KernelIdeal.Gen Cert.KernelIdeal.GenP

/-! ## One block -/

/-- The body's one store starts at the origin of its block. -/
theorem origin1 : (![0, 0] : Fin 2 → Nat) = fun _ => 0 :=
  funext fun a => match a with
    | ⟨0, _⟩ => rfl
    | ⟨1, _⟩ => rfl

/-- What the body leaves in the output block: the six input blocks added from the left.  The store fills the
    whole block, each load reads a whole block, and the casts in between are to the block's own shape. -/
theorem block1_sum (x0 x1 x2 x3 x4 x5 : Vec Ideal S1000x300 .f32) :
    out1_6 (F := Ideal) x0 x1 x2 x3 x4 x5
      = addf (F := Ideal) (φ := .f32) (addf (addf (addf (addf x0 x1) x2) x3) x4) x5 := by
  unfold out1_6
  rw [View.canon_unit_zero origin1]
  simp only [View.ld_unit_zero (S := S1000x300) origin1]
  unfold k1_pay1
  simp only [shapeCast_self]

/-! ## The blocks in their arrays -/

/-- The printed index maps over the grid: at every point each input window's block index is the output
    window's, axis by axis. -/
theorem index1 : ∀ t : Fin cfg1.N, win1_0.index t (0 : Fin 2) = win1_6.index t (0 : Fin 2)
    ∧ win1_0.index t (1 : Fin 2) = win1_6.index t (1 : Fin 2)
    ∧ win1_1.index t (0 : Fin 2) = win1_6.index t (0 : Fin 2)
    ∧ win1_1.index t (1 : Fin 2) = win1_6.index t (1 : Fin 2)
    ∧ win1_2.index t (0 : Fin 2) = win1_6.index t (0 : Fin 2)
    ∧ win1_2.index t (1 : Fin 2) = win1_6.index t (1 : Fin 2)
    ∧ win1_3.index t (0 : Fin 2) = win1_6.index t (0 : Fin 2)
    ∧ win1_3.index t (1 : Fin 2) = win1_6.index t (1 : Fin 2)
    ∧ win1_4.index t (0 : Fin 2) = win1_6.index t (0 : Fin 2)
    ∧ win1_4.index t (1 : Fin 2) = win1_6.index t (1 : Fin 2)
    ∧ win1_5.index t (0 : Fin 2) = win1_6.index t (0 : Fin 2)
    ∧ win1_5.index t (1 : Fin 2) = win1_6.index t (1 : Fin 2) :=
  (by decide +kernel : ∀ t : Fin grid1.N, _)

/-- Every block row `q` of the output array, in column block 0, is some point's. -/
theorem index1_onto : ∀ q : Fin 100, ∃ t : Fin cfg1.N, win1_6.index t = ![q.val, 0] :=
  (by decide +kernel : ∀ q : Fin 100, ∃ t : Fin grid1.N, win1_6.index t = ![q.val, 0])

/-- Entry `j` of an input window's block at point `t` sits in its array where entry `j` of the output
    window's block sits in the output array: a block's coordinate is its index times the block's extent plus
    the coordinate inside the block. -/
theorem place1 (t : Fin cfg1.N) (j : S1000x300.Idx) :
    ((cfg1.win 0).blk t).view.emb j = ((cfg1.win 6).blk t).view.emb j
    ∧ ((cfg1.win 1).blk t).view.emb j = ((cfg1.win 6).blk t).view.emb j
    ∧ ((cfg1.win 2).blk t).view.emb j = ((cfg1.win 6).blk t).view.emb j
    ∧ ((cfg1.win 3).blk t).view.emb j = ((cfg1.win 6).blk t).view.emb j
    ∧ ((cfg1.win 4).blk t).view.emb j = ((cfg1.win 6).blk t).view.emb j
    ∧ ((cfg1.win 5).blk t).view.emb j = ((cfg1.win 6).blk t).view.emb j := by
  obtain ⟨e00, e01, e10, e11, e20, e21, e30, e31, e40, e41, e50, e51⟩ := index1 t
  refine ⟨?_, ?_, ?_, ?_, ?_, ?_⟩
  · funext a; apply Fin.ext
    match a with
    | ⟨0, _⟩ =>
      show win1_0.index t (0 : Fin 2) * 1000 + 1 * (j 0).val = win1_6.index t (0 : Fin 2) * 1000 + 1 * (j 0).val
      omega
    | ⟨1, _⟩ =>
      show win1_0.index t (1 : Fin 2) * 300 + 1 * (j 1).val = win1_6.index t (1 : Fin 2) * 300 + 1 * (j 1).val
      omega
  · funext a; apply Fin.ext
    match a with
    | ⟨0, _⟩ =>
      show win1_1.index t (0 : Fin 2) * 1000 + 1 * (j 0).val = win1_6.index t (0 : Fin 2) * 1000 + 1 * (j 0).val
      omega
    | ⟨1, _⟩ =>
      show win1_1.index t (1 : Fin 2) * 300 + 1 * (j 1).val = win1_6.index t (1 : Fin 2) * 300 + 1 * (j 1).val
      omega
  · funext a; apply Fin.ext
    match a with
    | ⟨0, _⟩ =>
      show win1_2.index t (0 : Fin 2) * 1000 + 1 * (j 0).val = win1_6.index t (0 : Fin 2) * 1000 + 1 * (j 0).val
      omega
    | ⟨1, _⟩ =>
      show win1_2.index t (1 : Fin 2) * 300 + 1 * (j 1).val = win1_6.index t (1 : Fin 2) * 300 + 1 * (j 1).val
      omega
  · funext a; apply Fin.ext
    match a with
    | ⟨0, _⟩ =>
      show win1_3.index t (0 : Fin 2) * 1000 + 1 * (j 0).val = win1_6.index t (0 : Fin 2) * 1000 + 1 * (j 0).val
      omega
    | ⟨1, _⟩ =>
      show win1_3.index t (1 : Fin 2) * 300 + 1 * (j 1).val = win1_6.index t (1 : Fin 2) * 300 + 1 * (j 1).val
      omega
  · funext a; apply Fin.ext
    match a with
    | ⟨0, _⟩ =>
      show win1_4.index t (0 : Fin 2) * 1000 + 1 * (j 0).val = win1_6.index t (0 : Fin 2) * 1000 + 1 * (j 0).val
      omega
    | ⟨1, _⟩ =>
      show win1_4.index t (1 : Fin 2) * 300 + 1 * (j 1).val = win1_6.index t (1 : Fin 2) * 300 + 1 * (j 1).val
      omega
  · funext a; apply Fin.ext
    match a with
    | ⟨0, _⟩ =>
      show win1_5.index t (0 : Fin 2) * 1000 + 1 * (j 0).val = win1_6.index t (0 : Fin 2) * 1000 + 1 * (j 0).val
      omega
    | ⟨1, _⟩ =>
      show win1_5.index t (1 : Fin 2) * 300 + 1 * (j 1).val = win1_6.index t (1 : Fin 2) * 300 + 1 * (j 1).val
      omega

/-- An index of the output array is in point `t`'s block iff each coordinate is in the block's range on its
    axis. -/
theorem mem_block1 (t : Fin cfg1.N) (i : S100000x300.Idx) :
    i ∈ ((cfg1.win 6).blk t).view.set ↔ ∀ a : Fin 2, win1_6.index t a * S1000x300.size a ≤ (i a).val
      ∧ (i a).val < win1_6.index t a * S1000x300.size a + S1000x300.size a := by
  show i ∈ ((View.whole main_v19).slice (win1_6.rect t)).set ↔ _
  rw [View.set_slice_whole, Rect.mem_set_unit]
  exact Iff.rfl

/-- The blocks cover the output array: atom row `r` is in the block of the point whose block row is
    `r / 1000`, and every point writes its block back. -/
theorem cover1 (i : S100000x300.Idx) :
    ∃ t : Fin cfg1.N, (cfg1.win 6).flush t = true ∧ i ∈ ((cfg1.win 6).blk t).view.set := by
  have hi0 : (i 0).val < 100000 := (i 0).isLt
  have hi1 : (i 1).val < 300 := (i 1).isLt
  obtain ⟨t, ht⟩ := index1_onto ⟨(i 0).val / 1000, by omega⟩
  have q0 : win1_6.index t (0 : Fin 2) = (i 0).val / 1000 := congrFun ht 0
  have q1 : win1_6.index t (1 : Fin 2) = 0 := congrFun ht 1
  refine ⟨t, flush1_6 t, ?_⟩
  rw [mem_block1]
  intro a
  match a with
  | ⟨0, _⟩ =>
    show win1_6.index t (0 : Fin 2) * 1000 ≤ (i 0).val ∧ (i 0).val < win1_6.index t (0 : Fin 2) * 1000 + 1000
    omega
  | ⟨1, _⟩ =>
    show win1_6.index t (1 : Fin 2) * 300 ≤ (i 1).val ∧ (i 1).val < win1_6.index t (1 : Fin 2) * 300 + 300
    omega

/-! ## The array -/

/-- Six entries added from the left. -/
abbrev entry1_sum (a0 a1 a2 a3 a4 a5 : Ideal .f32) : Ideal .f32 :=
  FloatOps.addf (FloatOps.addf (FloatOps.addf (FloatOps.addf (FloatOps.addf a0 a1) a2) a3) a4) a5

-- the TensorCore's buffer contents when the region is entered, at the ideal instance
variable (V : (c : Dev nD) → (b : Ref sig .tc) → Buf (Elt Ideal) ((c : Thread nD τ).loc b))

/-- What point `t` writes back is block `t` of the six-fold sum of the input arrays as the region finds them:
    both sides, read at an entry of the block, are the same five additions of the same six array entries. -/
theorem flushed1_sum (c : Dev nD) (t : Fin cfg1.N) :
    (dat1 (F := Ideal) V c).flushed 6 t
      = ((cfg1.win 6).blk t).view.read (Elt Ideal)
          (Cert.Stages.add6 (F := Ideal) (V c main_v3) (V c main_v6) (V c main_v9) (V c main_v12) (V c main_v15) (V c main_v18)) := by
  show (cfg1.win 6).cut (grid1.coords t) ((dat1 (F := Ideal) V c).after 6 t) = _
  rw [after1_6, block1_sum]
  funext j
  obtain ⟨p0, p1, p2, p3, p4, p5⟩ := place1 t j
  show entry1_sum (V c main_v3 (((cfg1.win 0).blk t).view.emb j)) (V c main_v6 (((cfg1.win 1).blk t).view.emb j))
        (V c main_v9 (((cfg1.win 2).blk t).view.emb j)) (V c main_v12 (((cfg1.win 3).blk t).view.emb j))
        (V c main_v15 (((cfg1.win 4).blk t).view.emb j)) (V c main_v18 (((cfg1.win 5).blk t).view.emb j))
      = entry1_sum (V c main_v3 (((cfg1.win 6).blk t).view.emb j)) (V c main_v6 (((cfg1.win 6).blk t).view.emb j))
        (V c main_v9 (((cfg1.win 6).blk t).view.emb j)) (V c main_v12 (((cfg1.win 6).blk t).view.emb j))
        (V c main_v15 (((cfg1.win 6).blk t).view.emb j)) (V c main_v18 (((cfg1.win 6).blk t).view.emb j))
  rw [p0, p1, p2, p3, p4, p5]

/-- After region 1, its output array is the six input arrays added from the left. -/
theorem region1_sum (c : Dev nD) :
    (dat1 (F := Ideal) V c).arrAt 6 cfg1.N
      = Cert.Stages.add6 (F := Ideal) (V c main_v3) (V c main_v6) (V c main_v9) (V c main_v12) (V c main_v15) (V c main_v18) :=
  (dat1 (F := Ideal) V c).arrAt_eq_of_cover 6 _ (fun t _ => flushed1_sum V c t) cover1

end Cert.KRegion

end
-- ==== Proof.StageC_2.lean ====
/- Region 2 (first message update): block t holds bond rows 2000·t … of the two gathered tables and of the bond
   input; the body forms `relu (inp + (g1 − g2) · W_h)` with the whole `W_h` (bf16 casts the identity, accumulator
   zero).  The 100 blocks cover the array. -/
import proofs.«417302_j82858509074740_1_alg».proof.Proof.KernelIdealFrame
import proofs.«417302_j82858509074740_1_alg».proof.Proof.Stages
import proofs.«417302_j82858509074740_1_alg».proof.Proof.Gen.ReferenceIdeal.Read
import Idealize.ShloMosaic.Lib.Pipeline.Value
import Idealize.ShloMosaic.Lib.ValueIdx
import Idealize.ShloMosaic.PureOps.Ideal.Laws

set_option maxRecDepth 16384

noncomputable section

namespace Cert.KRegion

open Idealize.ShloMosaic Idealize.ShloMosaic.TcCoe Idealize.SL.Sem Idealize.ShloMosaic.Pipeline
open Cert.KernelIdeal Cert.KernelIdeal.Gen Cert.KernelIdeal.GenP

/-! ## The block's value at an index -/

/-- The body's loads and its store start at row 0, column 0 of their buffers. -/
theorem region2_zeroOff : (![0, 0] : Fin 2 → Nat) = fun _ => 0 := funext fun a => by fin_cases a <;> rfl

/-- In the block product `[2000, 300] · [300, 300]`, the left operand is read at the output's row … -/
theorem region2_lhs_0 (j : S2000x300.Idx) (q : dot_S2000x300_S300x300_S2000x300_1_0_0_1_n_n.contr.Idx) :
    (dot_S2000x300_S300x300_S2000x300_1_0_0_1_n_n.lhsIdx j q 0).val = (j 0).val := by
  unfold DotDims.lhsIdx
  rw [dif_neg (show ¬(0 : Fin S2000x300.rank) ∈ dot_S2000x300_S300x300_S2000x300_1_0_0_1_n_n.lhsBatch by decide), dif_pos (show (0 : Fin S2000x300.rank) ∈ dot_S2000x300_S300x300_S2000x300_1_0_0_1_n_n.lhsNonContracting by decide)]
  rfl
/-- … and at the contracted column; -/
theorem region2_lhs_1 (j : S2000x300.Idx) (q : dot_S2000x300_S300x300_S2000x300_1_0_0_1_n_n.contr.Idx) :
    (dot_S2000x300_S300x300_S2000x300_1_0_0_1_n_n.lhsIdx j q 1).val = (q ⟨0, by decide⟩).val :=
  dot_S2000x300_S300x300_S2000x300_1_0_0_1_n_n.lhsIdx_val_of_single rfl j q
/-- the right operand at the contracted row … -/
theorem region2_rhs_0 (j : S2000x300.Idx) (q : dot_S2000x300_S300x300_S2000x300_1_0_0_1_n_n.contr.Idx) :
    (dot_S2000x300_S300x300_S2000x300_1_0_0_1_n_n.rhsIdx j q 0).val = (q ⟨0, by decide⟩).val :=
  dot_S2000x300_S300x300_S2000x300_1_0_0_1_n_n.rhsIdx_val_of_single rfl j q
/-- … and at the output's column. -/
theorem region2_rhs_1 (j : S2000x300.Idx) (q : dot_S2000x300_S300x300_S2000x300_1_0_0_1_n_n.contr.Idx) :
    (dot_S2000x300_S300x300_S2000x300_1_0_0_1_n_n.rhsIdx j q 1).val = (j 1).val := by
  unfold DotDims.rhsIdx
  rw [dif_neg (show ¬(1 : Fin S300x300.rank) ∈ dot_S2000x300_S300x300_S2000x300_1_0_0_1_n_n.rhsBatch by decide), dif_pos (show (1 : Fin S300x300.rank) ∈ dot_S2000x300_S300x300_S2000x300_1_0_0_1_n_n.rhsNonContracting by decide)]
  rfl

/-- Entry `(row of j, k)` of a block of bond rows. -/
abbrev region2_rowAt (j : S2000x300.Idx) (k : Fin 300) : S2000x300.Idx := fun a => match a with
  | ⟨0, _⟩ => ⟨(j 0).val, (j 0).isLt⟩
  | ⟨1, _⟩ => ⟨k.val, k.isLt⟩
/-- Entry `(k, column of j)` of the weight. -/
abbrev region2_colAt (j : S2000x300.Idx) (k : Fin 300) : S300x300.Idx := fun a => match a with
  | ⟨0, _⟩ => ⟨k.val, k.isLt⟩
  | ⟨1, _⟩ => ⟨(j 1).val, (j 1).isLt⟩

/-- What the body stores, at an index of the block: the casts to bf16 change nothing at the ideal values and the
    product is accumulated onto zero, so the entry is `max (inp + Σ_k (g1 − g2)[row, k] · W_h[k, col]) 0`. -/
theorem region2_pay_apply (x0 x1 x2 : Vec Ideal S2000x300 .f32) (x3 : Vec Ideal S300x300 .f32) (j : S2000x300.Idx) :
    k2_pay1 (F := Ideal) x0 x1 x3 x2 j
      = max (x2 j + ∑ k : Fin 300, (x0 (region2_rowAt j k) - x1 (region2_rowAt j k)) * x3 (region2_colAt j k))
          (Ideal.ofBits .f32 0x00000000#32) := by
  unfold k2_pay1
  simp only [shapeCast_self]
  show max (x2 j + FloatOps.matmul (F := Ideal) dot_S2000x300_S300x300_S2000x300_1_0_0_1_n_n none _ _ (constant (F := Ideal) S2000x300 .f32 0x00000000#32) j) _ = _
  rw [Ideal.matmul_constant_zero_apply, ← Equiv.sum_comp (ValueIdx.contrEquiv1 dot_S2000x300_S300x300_S2000x300_1_0_0_1_n_n 300 rfl rfl).symm]
  refine congrArg (fun s => max (x2 j + s) _) (Finset.sum_congr rfl fun k _ => ?_)
  have hk := ValueIdx.contrEquiv1_symm_val dot_S2000x300_S300x300_S2000x300_1_0_0_1_n_n 300 rfl rfl k
  have el : dot_S2000x300_S300x300_S2000x300_1_0_0_1_n_n.lhsIdx j ((ValueIdx.contrEquiv1 dot_S2000x300_S300x300_S2000x300_1_0_0_1_n_n 300 rfl rfl).symm k) = region2_rowAt j k := funext fun a => Fin.ext (by
    match a with
    | ⟨0, _⟩ => exact region2_lhs_0 _ _
    | ⟨1, _⟩ => exact (region2_lhs_1 _ _).trans hk)
  have er : dot_S2000x300_S300x300_S2000x300_1_0_0_1_n_n.rhsIdx j ((ValueIdx.contrEquiv1 dot_S2000x300_S300x300_S2000x300_1_0_0_1_n_n 300 rfl rfl).symm k) = region2_colAt j k := funext fun a => Fin.ext (by
    match a with
    | ⟨0, _⟩ => exact (region2_rhs_0 _ _).trans hk
    | ⟨1, _⟩ => exact region2_rhs_1 _ _)
  rw [el, er]
  rfl

/-! ## The update of whole arrays at an index -/

/-- The product of a bond table with the weight, at an index: the sum over the 300 contracted columns. -/
theorem region2_dot_apply (a : FVec Ideal Cert.ReferenceIdeal.S200000x300 .f32) (w : FVec Ideal Cert.ReferenceIdeal.S300x300 .f32)
    (r : Cert.ReferenceIdeal.S200000x300.Idx) :
    Host.dotGeneral (F := Ideal) Cert.ReferenceIdeal.dot_S200000x300_S300x300_S200000x300_1_0_0_1_n_n none a w r
      = ∑ k : Fin 300, a (Cert.ReferenceIdeal.Read.lidx_main_v25 r k) * w (Cert.ReferenceIdeal.Read.ridx_main_v25 r k) := by
  simp only [Host.dotGeneral]
  rw [Ideal.dotGeneral_apply, ← Equiv.sum_comp (ValueIdx.contrEquiv1 Cert.ReferenceIdeal.dot_S200000x300_S300x300_S200000x300_1_0_0_1_n_n 300 rfl rfl).symm]
  refine Finset.sum_congr rfl fun k _ => ?_
  have hk := ValueIdx.contrEquiv1_symm_val Cert.ReferenceIdeal.dot_S200000x300_S300x300_S200000x300_1_0_0_1_n_n 300 rfl rfl k
  have el : Cert.ReferenceIdeal.dot_S200000x300_S300x300_S200000x300_1_0_0_1_n_n.lhsIdx r ((ValueIdx.contrEquiv1 Cert.ReferenceIdeal.dot_S200000x300_S300x300_S200000x300_1_0_0_1_n_n 300 rfl rfl).symm k) = Cert.ReferenceIdeal.Read.lidx_main_v25 r k := funext fun a => Fin.ext (by
    match a with
    | ⟨0, _⟩ => exact Cert.ReferenceIdeal.Read.lhs_main_v25_0 _ _
    | ⟨1, _⟩ => exact (Cert.ReferenceIdeal.Read.lhs_main_v25_1 _ _).trans hk)
  have er : Cert.ReferenceIdeal.dot_S200000x300_S300x300_S200000x300_1_0_0_1_n_n.rhsIdx r ((ValueIdx.contrEquiv1 Cert.ReferenceIdeal.dot_S200000x300_S300x300_S200000x300_1_0_0_1_n_n 300 rfl rfl).symm k) = Cert.ReferenceIdeal.Read.ridx_main_v25 r k := funext fun a => Fin.ext (by
    match a with
    | ⟨0, _⟩ => exact (Cert.ReferenceIdeal.Read.rhs_main_v25_0 _ _).trans hk
    | ⟨1, _⟩ => exact Cert.ReferenceIdeal.Read.rhs_main_v25_1 _ _)
  rw [el, er]

/-- One message update at an index: `max (inp + Σ_k (g1 − g2)[row, k] · W_h[k, col]) 0`. -/
theorem region2_updateOf_apply (i g1 g2 : Vec Ideal Cert.ReferenceIdeal.S200000x300 .f32) (wh : Vec Ideal Cert.ReferenceIdeal.S300x300 .f32)
    (r : Cert.ReferenceIdeal.S200000x300.Idx) :
    Cert.Stages.updateOf (F := Ideal) i g1 g2 wh r
      = max (i r + ∑ k : Fin 300, (g1 (Cert.ReferenceIdeal.Read.lidx_main_v25 r k) - g2 (Cert.ReferenceIdeal.Read.lidx_main_v25 r k)) * wh (Cert.ReferenceIdeal.Read.ridx_main_v25 r k))
          (Ideal.ofBits .f32 0x00000000#32) := by
  unfold Cert.Stages.updateOf Cert.Stages.relu2
  simp only [ValueIdx.maximumf_apply, ValueIdx.addf_apply, region2_dot_apply, ValueIdx.subf_apply]
  rfl

/-! ## A block of rows against the arrays -/

/-- If three blocks hold rows `2000·b …` of three bond tables and a fourth holds the weight, then what the body stores
    is rows `2000·b …` of the update of those tables: row `2000·b + p` of the update depends on row `2000·b + p`
    of each table and on the whole weight. -/
theorem region2_block (A0 A1 A2 : Vec Ideal S200000x300 .f32) (W : Vec Ideal S300x300 .f32)
    (x0 x1 x2 : Vec Ideal S2000x300 .f32) (x3 : Vec Ideal S300x300 .f32) (b : Nat)
    (h0 : ∀ (y : S2000x300.Idx) (r : S200000x300.Idx), (r 0).val = b * 2000 + (y 0).val → (r 1).val = (y 1).val → x0 y = A0 r)
    (h1 : ∀ (y : S2000x300.Idx) (r : S200000x300.Idx), (r 0).val = b * 2000 + (y 0).val → (r 1).val = (y 1).val → x1 y = A1 r)
    (h2 : ∀ (y : S2000x300.Idx) (r : S200000x300.Idx), (r 0).val = b * 2000 + (y 0).val → (r 1).val = (y 1).val → x2 y = A2 r)
    (h3 : ∀ y : S300x300.Idx, x3 y = W y)
    (j : S2000x300.Idx) (r : S200000x300.Idx) (hr0 : (r 0).val = b * 2000 + (j 0).val) (hr1 : (r 1).val = (j 1).val) :
    k2_pay1 (F := Ideal) x0 x1 x3 x2 j = Cert.Stages.updateOf (F := Ideal) A2 A0 A1 W r := by
  rw [region2_pay_apply, region2_updateOf_apply, h2 j r hr0 hr1]
  refine congrArg (fun s => max (A2 r + s) (Ideal.ofBits .f32 0x00000000#32)) (Finset.sum_congr rfl fun k _ => ?_)
  have ec : region2_colAt j k = Cert.ReferenceIdeal.Read.ridx_main_v25 r k := funext fun a => Fin.ext (by
    match a with
    | ⟨0, _⟩ => rfl
    | ⟨1, _⟩ => exact hr1.symm)
  rw [h0 (region2_rowAt j k) (Cert.ReferenceIdeal.Read.lidx_main_v25 r k) hr0 rfl, h1 (region2_rowAt j k) (Cert.ReferenceIdeal.Read.lidx_main_v25 r k) hr0 rfl,
    h3 (region2_colAt j k), ec]

/-! ## The windows' blocks as rows of the arrays -/

-- the TensorCore's buffer contents when the region is entered, at the ideal instance
variable (V : (c : Dev nD) → (b : Ref sig .tc) → Buf (Elt Ideal) ((c : Thread nD τ).loc b))

/-- Over the grid of 100 points: the three row windows and the output window are at block `(t, 0)` at point `t`, the
    weight's window at block `(0, 0)`. -/
theorem region2_idx : ∀ t : Fin cfg2.N,
    win2_0.index t (0 : Fin 2) = t.val ∧ win2_0.index t (1 : Fin 2) = 0
    ∧ win2_1.index t (0 : Fin 2) = t.val ∧ win2_1.index t (1 : Fin 2) = 0
    ∧ win2_2.index t (0 : Fin 2) = t.val ∧ win2_2.index t (1 : Fin 2) = 0
    ∧ win2_3.index t (0 : Fin 2) = 0 ∧ win2_3.index t (1 : Fin 2) = 0
    ∧ win2_4.index t (0 : Fin 2) = t.val ∧ win2_4.index t (1 : Fin 2) = 0 :=
  (by decide +kernel : ∀ t : Fin grid2.N, _)

/-- Window 0's block at point `t` is rows `2000·t …` of the first gathered table. -/
theorem region2_blk0 (c : Dev nD) (t : Fin cfg2.N) (y : S2000x300.Idx) (r : S200000x300.Idx)
    (h0 : (r 0).val = t.val * 2000 + (y 0).val) (h1 : (r 1).val = (y 1).val) :
    (iblk2 (F := Ideal) V c 0 t : Vec Ideal S2000x300 .f32) y = (V c main_v20 : Vec Ideal S200000x300 .f32) r := by
  have e0 : win2_0.index t (0 : Fin 2) = t.val := (region2_idx t).1
  have e1 : win2_0.index t (1 : Fin 2) = 0 := (region2_idx t).2.1
  unfold iblk2
  rw [View.read_apply]
  show V c main_v20 _ = V c main_v20 _
  congr 1
  funext a
  apply Fin.ext
  match a with
  | ⟨0, _⟩ => show win2_0.index t (0 : Fin 2) * 2000 + 1 * (y 0).val = (r 0).val; omega
  | ⟨1, _⟩ => show win2_0.index t (1 : Fin 2) * 300 + 1 * (y 1).val = (r 1).val; omega

/-- Window 1's block at point `t` is rows `2000·t …` of the second gathered table. -/
theorem region2_blk1 (c : Dev nD) (t : Fin cfg2.N) (y : S2000x300.Idx) (r : S200000x300.Idx)
    (h0 : (r 0).val = t.val * 2000 + (y 0).val) (h1 : (r 1).val = (y 1).val) :
    (iblk2 (F := Ideal) V c 1 t : Vec Ideal S2000x300 .f32) y = (V c main_v21 : Vec Ideal S200000x300 .f32) r := by
  have e0 : win2_1.index t (0 : Fin 2) = t.val := (region2_idx t).2.2.1
  have e1 : win2_1.index t (1 : Fin 2) = 0 := (region2_idx t).2.2.2.1
  unfold iblk2
  rw [View.read_apply]
  show V c main_v21 _ = V c main_v21 _
  congr 1
  funext a
  apply Fin.ext
  match a with
  | ⟨0, _⟩ => show win2_1.index t (0 : Fin 2) * 2000 + 1 * (y 0).val = (r 0).val; omega
  | ⟨1, _⟩ => show win2_1.index t (1 : Fin 2) * 300 + 1 * (y 1).val = (r 1).val; omega

/-- Window 2's block at point `t` is rows `2000·t …` of the bond input. -/
theorem region2_blk2 (c : Dev nD) (t : Fin cfg2.N) (y : S2000x300.Idx) (r : S200000x300.Idx)
    (h0 : (r 0).val = t.val * 2000 + (y 0).val) (h1 : (r 1).val = (y 1).val) :
    (iblk2 (F := Ideal) V c 2 t : Vec Ideal S2000x300 .f32) y = (V c main_v0_0 : Vec Ideal S200000x300 .f32) r := by
  have e0 : win2_2.index t (0 : Fin 2) = t.val := (region2_idx t).2.2.2.2.1
  have e1 : win2_2.index t (1 : Fin 2) = 0 := (region2_idx t).2.2.2.2.2.1
  unfold iblk2
  rw [View.read_apply]
  show V c main_v0_0 _ = V c main_v0_0 _
  congr 1
  funext a
  apply Fin.ext
  match a with
  | ⟨0, _⟩ => show win2_2.index t (0 : Fin 2) * 2000 + 1 * (y 0).val = (r 0).val; omega
  | ⟨1, _⟩ => show win2_2.index t (1 : Fin 2) * 300 + 1 * (y 1).val = (r 1).val; omega

/-- Window 3's block at every point is the whole weight. -/
theorem region2_blk3 (c : Dev nD) (t : Fin cfg2.N) (y : S300x300.Idx) :
    (iblk2 (F := Ideal) V c 3 t : Vec Ideal S300x300 .f32) y = (V c main_arg6 : Vec Ideal S300x300 .f32) y := by
  have e0 : win2_3.index t (0 : Fin 2) = 0 := (region2_idx t).2.2.2.2.2.2.1
  have e1 : win2_3.index t (1 : Fin 2) = 0 := (region2_idx t).2.2.2.2.2.2.2.1
  unfold iblk2
  rw [View.read_apply]
  show V c main_arg6 _ = V c main_arg6 _
  congr 1
  funext a
  apply Fin.ext
  match a with
  | ⟨0, _⟩ => show win2_3.index t (0 : Fin 2) * 300 + 1 * (y 0).val = (y 0).val; omega
  | ⟨1, _⟩ => show win2_3.index t (1 : Fin 2) * 300 + 1 * (y 1).val = (y 1).val; omega

/-! ## From the blocks to the array -/

/-- What point `t` writes back is block `t` of the update of the arrays the region found. -/
theorem region2_flushed (c : Dev nD) (t : Fin cfg2.N) :
    (dat2 (F := Ideal) V c).flushed 4 t
      = ((cfg2.win 4).blk t).view.read (Elt Ideal)
          (Cert.Stages.updateOf (F := Ideal) (V c main_v0_0) (V c main_v20) (V c main_v21) (V c main_arg6)) := by
  show (cfg2.win 4).cut (grid2.coords t) ((dat2 V c).after 4 t) = _
  rw [after2_4]
  unfold out2_4
  rw [View.canon_unit_zero region2_zeroOff]
  simp only [View.ld_unit_zero (S := S2000x300) region2_zeroOff, View.ld_unit_zero (S := S300x300) region2_zeroOff]
  have e0 : win2_4.index t (0 : Fin 2) = t.val := (region2_idx t).2.2.2.2.2.2.2.2.1
  have e1 : win2_4.index t (1 : Fin 2) = 0 := (region2_idx t).2.2.2.2.2.2.2.2.2
  funext j
  show k2_pay1 (F := Ideal) (iblk2 V c 0 t) (iblk2 V c 1 t) (iblk2 V c 3 t) (iblk2 V c 2 t) j
    = Cert.Stages.updateOf (F := Ideal) (V c main_v0_0) (V c main_v20) (V c main_v21) (V c main_arg6) (((cfg2.win 4).blk t).view.emb j)
  refine region2_block (V c main_v20) (V c main_v21) (V c main_v0_0) (V c main_arg6)
    (iblk2 V c 0 t) (iblk2 V c 1 t) (iblk2 V c 2 t) (iblk2 V c 3 t) t.val
    (region2_blk0 V c t) (region2_blk1 V c t) (region2_blk2 V c t) (region2_blk3 V c t)
    j (((cfg2.win 4).blk t).view.emb j) ?_ ?_
  · show win2_4.index t (0 : Fin 2) * 2000 + 1 * (j 0).val = t.val * 2000 + (j 0).val; omega
  · show win2_4.index t (1 : Fin 2) * 300 + 1 * (j 1).val = (j 1).val; omega

/-- An index of the output array is in point `t`'s block iff each coordinate is in the block's range on its axis. -/
theorem region2_mem_blk (t : Fin cfg2.N) (i : S200000x300.Idx) :
    i ∈ ((cfg2.win 4).blk t).view.set ↔ ∀ a : Fin 2, win2_4.index t a * S2000x300.size a ≤ (i a).val ∧ (i a).val < win2_4.index t a * S2000x300.size a + S2000x300.size a := by
  show i ∈ ((View.whole main_v22).slice (win2_4.rect t)).set ↔ _
  rw [View.set_slice_whole, Rect.mem_set_unit]
  exact Iff.rfl

/-- Bond row `r` is written back by point `r / 2000`. -/
theorem region2_cover (i : S200000x300.Idx) :
    ∃ t : Fin cfg2.N, (cfg2.win 4).flush t = true ∧ i ∈ ((cfg2.win 4).blk t).view.set := by
  have hi0 : (i 0).val < 200000 := (i 0).isLt
  have hi1 : (i 1).val < 300 := (i 1).isLt
  have hN : cfg2.N = 100 := N_2
  obtain ⟨t, ht⟩ : ∃ t : Fin cfg2.N, t.val = (i 0).val / 2000 := ⟨⟨(i 0).val / 2000, by rw [hN]; omega⟩, rfl⟩
  have e0 : win2_4.index t (0 : Fin 2) = t.val := (region2_idx t).2.2.2.2.2.2.2.2.1
  have e1 : win2_4.index t (1 : Fin 2) = 0 := (region2_idx t).2.2.2.2.2.2.2.2.2
  refine ⟨t, flush2_4 t, ?_⟩
  rw [region2_mem_blk]
  intro a
  match a with
  | ⟨0, _⟩ => show win2_4.index t (0 : Fin 2) * 2000 ≤ (i 0).val ∧ (i 0).val < win2_4.index t (0 : Fin 2) * 2000 + 2000; omega
  | ⟨1, _⟩ => show win2_4.index t (1 : Fin 2) * 300 ≤ (i 1).val ∧ (i 1).val < win2_4.index t (1 : Fin 2) * 300 + 300; omega

/-- After region 2, its output array is the message update of the arrays the region found. -/
theorem region2_msg (c : Dev nD) :
    (dat2 (F := Ideal) V c).arrAt 4 cfg2.N
      = Cert.Stages.updateOf (F := Ideal) (V c main_v0_0) (V c main_v20) (V c main_v21) (V c main_arg6) :=
  (dat2 (F := Ideal) V c).arrAt_eq_of_cover 4
    (Cert.Stages.updateOf (F := Ideal) (V c main_v0_0) (V c main_v20) (V c main_v21) (V c main_arg6))
    (fun t _ => region2_flushed V c t) region2_cover

end Cert.KRegion

end
-- ==== Proof.Round1.lean ====
/- One message round of the kernel program: from the exit of the region that left a message table, through the six
   column gathers, the neighbour sum of the next region, the two row gathers and the update of the region after it,
   to that region's exit. -/
import proofs.«417302_j82858509074740_1_alg».proof.Proof.RoundCommon
import proofs.«417302_j82858509074740_1_alg».proof.Proof.Sum6_1
import proofs.«417302_j82858509074740_1_alg».proof.Proof.StageC_2

set_option maxRecDepth 16384

noncomputable section

namespace Cert.Walk

open Idealize.ShloMosaic Idealize.ShloMosaic.TcCoe Idealize.SL.Sem Idealize.ShloMosaic.StableHlo
open Cert.KernelIdeal Cert.KernelIdeal.Gen Cert.KernelIdeal.GenP
open Cert.Stages Cert.KStages

variable (m : (ℓ : Loc nD τ sig) → Buf (Elt Ideal) ℓ) (ρ : Dev nD → PrngReg) (c : Dev nD)

open Cert.KRegion

variable (h2 : ∀ p, 0 ≤ (((m ((c : Thread nD τ).loc main_arg2)) : IVec S100000x6 32) p).toInt ∧ (((m ((c : Thread nD τ).loc main_arg2)) : IVec S100000x6 32) p).toInt < 200000)
variable (h3 : ∀ p, 0 ≤ (((m ((c : Thread nD τ).loc main_arg3)) : IVec S200000 32) p).toInt ∧ (((m ((c : Thread nD τ).loc main_arg3)) : IVec S200000 32) p).toInt < 100000)
variable (h4 : ∀ p, 0 ≤ (((m ((c : Thread nD τ).loc main_arg4)) : IVec S200000 32) p).toInt ∧ (((m ((c : Thread nD τ).loc main_arg4)) : IVec S200000 32) p).toInt < 200000)
include h2 h3 h4

/-- If the first boundary holds a bond input `i` and a message table `msg` (and the arguments), the boundary two regions
    on holds `i` and the updated messages (and the arguments). -/
theorem round1 (i msg : Vec Ideal S200000x300 .f32)
    (hI : W1 m ρ c (Proc.devRef .tc main_v0_0) = i) (hM : W1 m ρ c (Proc.devRef .tc main_v0_1) = msg)
    (hargs : ArgsAt m c (W1 m ρ c)) :
    W17 m ρ c (Proc.devRef .tc main_v22) = update (F := Ideal) i msg (m ((c : Thread nD τ).loc main_arg2)) (m ((c : Thread nD τ).loc main_arg3)) (m ((c : Thread nD τ).loc main_arg4)) (m ((c : Thread nD τ).loc main_arg6))
    ∧ W17 m ρ c (Proc.devRef .tc main_v0_0) = i
    ∧ ArgsAt m c (W17 m ρ c) := by
  obtain ⟨x0, x2, x3, x4, x6, x7, x8⟩ := hargs
  obtain ⟨g0, g1, g2, g3, g4, g5, gi, gm, a0, a2, a3, a4, a6, a7, a8⟩ := gap1 m ρ c
  obtain ⟨s, ei, em, b0, b2, b3, b4, b6, b7, b8⟩ := exit1 m ρ c
  obtain ⟨t1, t2, ci, c0, c2, c3, c4, c6, c7, c8⟩ := gap2 m ρ c
  obtain ⟨u, di, d0, d2, d3, d4, d6, d7, d8⟩ := exit2 m ρ c
  -- the atom sums: the summing region's six inputs are the six column gathers of `msg`
  have hs : W14 m ρ c (Proc.devRef .tc main_v19)
      = add6 (F := Ideal) (takeA (F := Ideal) msg (col0 (m ((c : Thread nD τ).loc main_arg2)))) (takeA (F := Ideal) msg (col1 (m ((c : Thread nD τ).loc main_arg2)))) (takeA (F := Ideal) msg (col2 (m ((c : Thread nD τ).loc main_arg2)))) (takeA (F := Ideal) msg (col3 (m ((c : Thread nD τ).loc main_arg2)))) (takeA (F := Ideal) msg (col4 (m ((c : Thread nD τ).loc main_arg2)))) (takeA (F := Ideal) msg (col5 (m ((c : Thread nD τ).loc main_arg2)))) := by
    rw [s]
    refine (region1_sum (V13 m ρ) c).trans ?_
    show add6 (F := Ideal) (W13 m ρ c (Proc.devRef .tc main_v3)) (W13 m ρ c (Proc.devRef .tc main_v6)) (W13 m ρ c (Proc.devRef .tc main_v9)) (W13 m ρ c (Proc.devRef .tc main_v12)) (W13 m ρ c (Proc.devRef .tc main_v15)) (W13 m ρ c (Proc.devRef .tc main_v18)) = _
    rw [g0, g1, g2, g3, g4, g5, hM, x2]
  refine ⟨?_, ?_, ?_⟩
  · -- the updating region's four inputs: the two row gathers, the bond input, the weight
    rw [u]
    refine (region2_msg (V16 m ρ) c).trans ?_
    show updateOf (F := Ideal) (W16 m ρ c (Proc.devRef .tc main_v0_0)) (W16 m ρ c (Proc.devRef .tc main_v20)) (W16 m ρ c (Proc.devRef .tc main_v21))
      (W16 m ρ c (Proc.devRef .tc main_arg6)) = _
    rw [t1, t2, ci, c6, hs, ei, gi, hI, em, gm, hM, b3, a3, x3, b4, a4, x4, b6, a6, x6]
    exact round m c h2 h3 h4 i msg
  · rw [di, ci, ei, gi, hI]
  · exact ⟨d0.trans (c0.trans (b0.trans (a0.trans x0))),
      d2.trans (c2.trans (b2.trans (a2.trans x2))),
      d3.trans (c3.trans (b3.trans (a3.trans x3))),
      d4.trans (c4.trans (b4.trans (a4.trans x4))),
      d6.trans (c6.trans (b6.trans (a6.trans x6))),
      d7.trans (c7.trans (b7.trans (a7.trans x7))),
      d8.trans (c8.trans (b8.trans (a8.trans x8)))⟩

end Cert.Walk

end
-- ==== Proof.Sum6_3.lean ====
/- Region 3 (second neighbour sum): block t holds atom rows 1000·t … 1000·t + 999 of each of the six gathered
   tables; the body adds them from the left, entry by entry.  The 100 blocks cover the array. -/
import proofs.«417302_j82858509074740_1_alg».proof.Proof.KernelIdealFrame
import proofs.«417302_j82858509074740_1_alg».proof.Proof.Stages
import Idealize.ShloMosaic.Lib.Pipeline.Value
import Idealize.ShloMosaic.Lib.ValueIdx
import Idealize.ShloMosaic.PureOps.Ideal.Laws

set_option maxRecDepth 16384

noncomputable section

namespace Cert.KRegion

open Idealize.ShloMosaic Idealize.ShloMosaic.TcCoe Idealize.SL.Sem Idealize.ShloMosaic.Pipeline
open Cert.KernelIdeal Cert.KernelIdeal.Gen Cert.KernelIdeal.GenP

/-! ## One block -/

/-- The body's one store starts at the origin of its block. -/
theorem origin1_r3 : (![0, 0] : Fin 2 → Nat) = fun _ => 0 :=
  funext fun a => match a with
    | ⟨0, _⟩ => rfl
    | ⟨1, _⟩ => rfl

/-- What the body leaves in the output block: the six input blocks added from the left.  The store fills the
    whole block, each load reads a whole block, and the casts in between are to the block's own shape. -/
theorem block1_sum_r3 (x0 x1 x2 x3 x4 x5 : Vec Ideal S1000x300 .f32) :
    out3_6 (F := Ideal) x0 x1 x2 x3 x4 x5
      = addf (F := Ideal) (φ := .f32) (addf (addf (addf (addf x0 x1) x2) x3) x4) x5 := by
  unfold out3_6
  rw [View.canon_unit_zero origin1_r3]
  simp only [View.ld_unit_zero (S := S1000x300) origin1_r3]
  unfold k3_pay1
  simp only [shapeCast_self]

/-! ## The blocks in their arrays -/

/-- The printed index maps over the grid: at every point each input window's block index is the output
    window's, axis by axis. -/
theorem index1_r3 : ∀ t : Fin cfg3.N, win3_0.index t (0 : Fin 2) = win3_6.index t (0 : Fin 2)
    ∧ win3_0.index t (1 : Fin 2) = win3_6.index t (1 : Fin 2)
    ∧ win3_1.index t (0 : Fin 2) = win3_6.index t (0 : Fin 2)
    ∧ win3_1.index t (1 : Fin 2) = win3_6.index t (1 : Fin 2)
    ∧ win3_2.index t (0 : Fin 2) = win3_6.index t (0 : Fin 2)
    ∧ win3_2.index t (1 : Fin 2) = win3_6.index t (1 : Fin 2)
    ∧ win3_3.index t (0 : Fin 2) = win3_6.index t (0 : Fin 2)
    ∧ win3_3.index t (1 : Fin 2) = win3_6.index t (1 : Fin 2)
    ∧ win3_4.index t (0 : Fin 2) = win3_6.index t (0 : Fin 2)
    ∧ win3_4.index t (1 : Fin 2) = win3_6.index t (1 : Fin 2)
    ∧ win3_5.index t (0 : Fin 2) = win3_6.index t (0 : Fin 2)
    ∧ win3_5.index t (1 : Fin 2) = win3_6.index t (1 : Fin 2) :=
  (by decide +kernel : ∀ t : Fin grid3.N, _)

/-- Every block row `q` of the output array, in column block 0, is some point's. -/
theorem index1_onto_r3 : ∀ q : Fin 100, ∃ t : Fin cfg3.N, win3_6.index t = ![q.val, 0] :=
  (by decide +kernel : ∀ q : Fin 100, ∃ t : Fin grid3.N, win3_6.index t = ![q.val, 0])

/-- Entry `j` of an input window's block at point `t` sits in its array where entry `j` of the output
    window's block sits in the output array: a block's coordinate is its index times the block's extent plus
    the coordinate inside the block. -/
theorem place1_r3 (t : Fin cfg3.N) (j : S1000x300.Idx) :
    ((cfg3.win 0).blk t).view.emb j = ((cfg3.win 6).blk t).view.emb j
    ∧ ((cfg3.win 1).blk t).view.emb j = ((cfg3.win 6).blk t).view.emb j
    ∧ ((cfg3.win 2).blk t).view.emb j = ((cfg3.win 6).blk t).view.emb j
    ∧ ((cfg3.win 3).blk t).view.emb j = ((cfg3.win 6).blk t).view.emb j
    ∧ ((cfg3.win 4).blk t).view.emb j = ((cfg3.win 6).blk t).view.emb j
    ∧ ((cfg3.win 5).blk t).view.emb j = ((cfg3.win 6).blk t).view.emb j := by
  obtain ⟨e00, e01, e10, e11, e20, e21, e30, e31, e40, e41, e50, e51⟩ := index1_r3 t
  refine ⟨?_, ?_, ?_, ?_, ?_, ?_⟩
  · funext a; apply Fin.ext
    match a with
    | ⟨0, _⟩ =>
      show win3_0.index t (0 : Fin 2) * 1000 + 1 * (j 0).val = win3_6.index t (0 : Fin 2) * 1000 + 1 * (j 0).val
      omega
    | ⟨1, _⟩ =>
      show win3_0.index t (1 : Fin 2) * 300 + 1 * (j 1).val = win3_6.index t (1 : Fin 2) * 300 + 1 * (j 1).val
      omega
  · funext a; apply Fin.ext
    match a with
    | ⟨0, _⟩ =>
      show win3_1.index t (0 : Fin 2) * 1000 + 1 * (j 0).val = win3_6.index t (0 : Fin 2) * 1000 + 1 * (j 0).val
      omega
    | ⟨1, _⟩ =>
      show win3_1.index t (1 : Fin 2) * 300 + 1 * (j 1).val = win3_6.index t (1 : Fin 2) * 300 + 1 * (j 1).val
      omega
  · funext a; apply Fin.ext
    match a with
    | ⟨0, _⟩ =>
      show win3_2.index t (0 : Fin 2) * 1000 + 1 * (j 0).val = win3_6.index t (0 : Fin 2) * 1000 + 1 * (j 0).val
      omega
    | ⟨1, _⟩ =>
      show win3_2.index t (1 : Fin 2) * 300 + 1 * (j 1).val = win3_6.index t (1 : Fin 2) * 300 + 1 * (j 1).val
      omega
  · funext a; apply Fin.ext
    match a with
    | ⟨0, _⟩ =>
      show win3_3.index t (0 : Fin 2) * 1000 + 1 * (j 0).val = win3_6.index t (0 : Fin 2) * 1000 + 1 * (j 0).val
      omega
    | ⟨1, _⟩ =>
      show win3_3.index t (1 : Fin 2) * 300 + 1 * (j 1).val = win3_6.index t (1 : Fin 2) * 300 + 1 * (j 1).val
      omega
  · funext a; apply Fin.ext
    match a with
    | ⟨0, _⟩ =>
      show win3_4.index t (0 : Fin 2) * 1000 + 1 * (j 0).val = win3_6.index t (0 : Fin 2) * 1000 + 1 * (j 0).val
      omega
    | ⟨1, _⟩ =>
      show win3_4.index t (1 : Fin 2) * 300 + 1 * (j 1).val = win3_6.index t (1 : Fin 2) * 300 + 1 * (j 1).val
      omega
  · funext a; apply Fin.ext
    match a with
    | ⟨0, _⟩ =>
      show win3_5.index t (0 : Fin 2) * 1000 + 1 * (j 0).val = win3_6.index t (0 : Fin 2) * 1000 + 1 * (j 0).val
      omega
    | ⟨1, _⟩ =>
      show win3_5.index t (1 : Fin 2) * 300 + 1 * (j 1).val = win3_6.index t (1 : Fin 2) * 300 + 1 * (j 1).val
      omega

/-- An index of the output array is in point `t`'s block iff each coordinate is in the block's range on its
    axis. -/
theorem mem_block1_r3 (t : Fin cfg3.N) (i : S100000x300.Idx) :
    i ∈ ((cfg3.win 6).blk t).view.set ↔ ∀ a : Fin 2, win3_6.index t a * S1000x300.size a ≤ (i a).val
      ∧ (i a).val < win3_6.index t a * S1000x300.size a + S1000x300.size a := by
  show i ∈ ((View.whole main_v41).slice (win3_6.rect t)).set ↔ _
  rw [View.set_slice_whole, Rect.mem_set_unit]
  exact Iff.rfl

/-- The blocks cover the output array: atom row `r` is in the block of the point whose block row is
    `r / 1000`, and every point writes its block back. -/
theorem cover1_r3 (i : S100000x300.Idx) :
    ∃ t : Fin cfg3.N, (cfg3.win 6).flush t = true ∧ i ∈ ((cfg3.win 6).blk t).view.set := by
  have hi0 : (i 0).val < 100000 := (i 0).isLt
  have hi1 : (i 1).val < 300 := (i 1).isLt
  obtain ⟨t, ht⟩ := index1_onto_r3 ⟨(i 0).val / 1000, by omega⟩
  have q0 : win3_6.index t (0 : Fin 2) = (i 0).val / 1000 := congrFun ht 0
  have q1 : win3_6.index t (1 : Fin 2) = 0 := congrFun ht 1
  refine ⟨t, flush3_6 t, ?_⟩
  rw [mem_block1_r3]
  intro a
  match a with
  | ⟨0, _⟩ =>
    show win3_6.index t (0 : Fin 2) * 1000 ≤ (i 0).val ∧ (i 0).val < win3_6.index t (0 : Fin 2) * 1000 + 1000
    omega
  | ⟨1, _⟩ =>
    show win3_6.index t (1 : Fin 2) * 300 ≤ (i 1).val ∧ (i 1).val < win3_6.index t (1 : Fin 2) * 300 + 300
    omega

/-! ## The array -/

/-- Six entries added from the left. -/
abbrev entry1_sum_r3 (a0 a1 a2 a3 a4 a5 : Ideal .f32) : Ideal .f32 :=
  FloatOps.addf (FloatOps.addf (FloatOps.addf (FloatOps.addf (FloatOps.addf a0 a1) a2) a3) a4) a5

-- the TensorCore's buffer contents when the region is entered, at the ideal instance
variable (V : (c : Dev nD) → (b : Ref sig .tc) → Buf (Elt Ideal) ((c : Thread nD τ).loc b))

/-- What point `t` writes back is block `t` of the six-fold sum of the input arrays as the region finds them:
    both sides, read at an entry of the block, are the same five additions of the same six array entries. -/
theorem flushed1_sum_r3 (c : Dev nD) (t : Fin cfg3.N) :
    (dat3 (F := Ideal) V c).flushed 6 t
      = ((cfg3.win 6).blk t).view.read (Elt Ideal)
          (Cert.Stages.add6 (F := Ideal) (V c main_v25) (V c main_v28) (V c main_v31) (V c main_v34) (V c main_v37) (V c main_v40)) := by
  show (cfg3.win 6).cut (grid3.coords t) ((dat3 (F := Ideal) V c).after 6 t) = _
  rw [after3_6, block1_sum_r3]
  funext j
  obtain ⟨p0, p1, p2, p3, p4, p5⟩ := place1_r3 t j
  show entry1_sum_r3 (V c main_v25 (((cfg3.win 0).blk t).view.emb j)) (V c main_v28 (((cfg3.win 1).blk t).view.emb j))
        (V c main_v31 (((cfg3.win 2).blk t).view.emb j)) (V c main_v34 (((cfg3.win 3).blk t).view.emb j))
        (V c main_v37 (((cfg3.win 4).blk t).view.emb j)) (V c main_v40 (((cfg3.win 5).blk t).view.emb j))
      = entry1_sum_r3 (V c main_v25 (((cfg3.win 6).blk t).view.emb j)) (V c main_v28 (((cfg3.win 6).blk t).view.emb j))
        (V c main_v31 (((cfg3.win 6).blk t).view.emb j)) (V c main_v34 (((cfg3.win 6).blk t).view.emb j))
        (V c main_v37 (((cfg3.win 6).blk t).view.emb j)) (V c main_v40 (((cfg3.win 6).blk t).view.emb j))
  rw [p0, p1, p2, p3, p4, p5]

/-- After region 3, its output array is the six input arrays added from the left. -/
theorem region3_sum (c : Dev nD) :
    (dat3 (F := Ideal) V c).arrAt 6 cfg3.N
      = Cert.Stages.add6 (F := Ideal) (V c main_v25) (V c main_v28) (V c main_v31) (V c main_v34) (V c main_v37) (V c main_v40) :=
  (dat3 (F := Ideal) V c).arrAt_eq_of_cover 6 _ (fun t _ => flushed1_sum_r3 V c t) cover1_r3

end Cert.KRegion

end
-- ==== Proof.StageC_4.lean ====
/- Region 4 (second message update): block t holds bond rows 2000·t … of the two gathered tables and of the bond
   input; the body forms `relu (inp + (g1 − g2) · W_h)` with the whole `W_h` (bf16 casts the identity, accumulator
   zero).  The 100 blocks cover the array. -/
import proofs.«417302_j82858509074740_1_alg».proof.Proof.KernelIdealFrame
import proofs.«417302_j82858509074740_1_alg».proof.Proof.Stages
import proofs.«417302_j82858509074740_1_alg».proof.Proof.Gen.ReferenceIdeal.Read
import Idealize.ShloMosaic.Lib.Pipeline.Value
import Idealize.ShloMosaic.Lib.ValueIdx
import Idealize.ShloMosaic.PureOps.Ideal.Laws

set_option maxRecDepth 16384

noncomputable section

namespace Cert.KRegion

open Idealize.ShloMosaic Idealize.ShloMosaic.TcCoe Idealize.SL.Sem Idealize.ShloMosaic.Pipeline
open Cert.KernelIdeal Cert.KernelIdeal.Gen Cert.KernelIdeal.GenP

/-! ## The block's value at an index -/

/-- The body's loads and its store start at row 0, column 0 of their buffers. -/
theorem region2_zeroOff_r4 : (![0, 0] : Fin 2 → Nat) = fun _ => 0 := funext fun a => by fin_cases a <;> rfl

/-- In the block product `[2000, 300] · [300, 300]`, the left operand is read at the output's row … -/
theorem region2_lhs_0_r4 (j : S2000x300.Idx) (q : dot_S2000x300_S300x300_S2000x300_1_0_0_1_n_n.contr.Idx) :
    (dot_S2000x300_S300x300_S2000x300_1_0_0_1_n_n.lhsIdx j q 0).val = (j 0).val := by
  unfold DotDims.lhsIdx
  rw [dif_neg (show ¬(0 : Fin S2000x300.rank) ∈ dot_S2000x300_S300x300_S2000x300_1_0_0_1_n_n.lhsBatch by decide), dif_pos (show (0 : Fin S2000x300.rank) ∈ dot_S2000x300_S300x300_S2000x300_1_0_0_1_n_n.lhsNonContracting by decide)]
  rfl
/-- … and at the contracted column; -/
theorem region2_lhs_1_r4 (j : S2000x300.Idx) (q : dot_S2000x300_S300x300_S2000x300_1_0_0_1_n_n.contr.Idx) :
    (dot_S2000x300_S300x300_S2000x300_1_0_0_1_n_n.lhsIdx j q 1).val = (q ⟨0, by decide⟩).val :=
  dot_S2000x300_S300x300_S2000x300_1_0_0_1_n_n.lhsIdx_val_of_single rfl j q
/-- the right operand at the contracted row … -/
theorem region2_rhs_0_r4 (j : S2000x300.Idx) (q : dot_S2000x300_S300x300_S2000x300_1_0_0_1_n_n.contr.Idx) :
    (dot_S2000x300_S300x300_S2000x300_1_0_0_1_n_n.rhsIdx j q 0).val = (q ⟨0, by decide⟩).val :=
  dot_S2000x300_S300x300_S2000x300_1_0_0_1_n_n.rhsIdx_val_of_single rfl j q
/-- … and at the output's column. -/
theorem region2_rhs_1_r4 (j : S2000x300.Idx) (q : dot_S2000x300_S300x300_S2000x300_1_0_0_1_n_n.contr.Idx) :
    (dot_S2000x300_S300x300_S2000x300_1_0_0_1_n_n.rhsIdx j q 1).val = (j 1).val := by
  unfold DotDims.rhsIdx
  rw [dif_neg (show ¬(1 : Fin S300x300.rank) ∈ dot_S2000x300_S300x300_S2000x300_1_0_0_1_n_n.rhsBatch by decide), dif_pos (show (1 : Fin S300x300.rank) ∈ dot_S2000x300_S300x300_S2000x300_1_0_0_1_n_n.rhsNonContracting by decide)]
  rfl

/-- Entry `(row of j, k)` of a block of bond rows. -/
abbrev region2_rowAt_r4 (j : S2000x300.Idx) (k : Fin 300) : S2000x300.Idx := fun a => match a with
  | ⟨0, _⟩ => ⟨(j 0).val, (j 0).isLt⟩
  | ⟨1, _⟩ => ⟨k.val, k.isLt⟩
/-- Entry `(k, column of j)` of the weight. -/
abbrev region2_colAt_r4 (j : S2000x300.Idx) (k : Fin 300) : S300x300.Idx := fun a => match a with
  | ⟨0, _⟩ => ⟨k.val, k.isLt⟩
  | ⟨1, _⟩ => ⟨(j 1).val, (j 1).isLt⟩

/-- What the body stores, at an index of the block: the casts to bf16 change nothing at the ideal values and the
    product is accumulated onto zero, so the entry is `max (inp + Σ_k (g1 − g2)[row, k] · W_h[k, col]) 0`. -/
theorem region2_pay_apply_r4 (x0 x1 x2 : Vec Ideal S2000x300 .f32) (x3 : Vec Ideal S300x300 .f32) (j : S2000x300.Idx) :
    k4_pay1 (F := Ideal) x0 x1 x3 x2 j
      = max (x2 j + ∑ k : Fin 300, (x0 (region2_rowAt_r4 j k) - x1 (region2_rowAt_r4 j k)) * x3 (region2_colAt_r4 j k))
          (Ideal.ofBits .f32 0x00000000#32) := by
  unfold k4_pay1
  simp only [shapeCast_self]
  show max (x2 j + FloatOps.matmul (F := Ideal) dot_S2000x300_S300x300_S2000x300_1_0_0_1_n_n none _ _ (constant (F := Ideal) S2000x300 .f32 0x00000000#32) j) _ = _
  rw [Ideal.matmul_constant_zero_apply, ← Equiv.sum_comp (ValueIdx.contrEquiv1 dot_S2000x300_S300x300_S2000x300_1_0_0_1_n_n 300 rfl rfl).symm]
  refine congrArg (fun s => max (x2 j + s) _) (Finset.sum_congr rfl fun k _ => ?_)
  have hk := ValueIdx.contrEquiv1_symm_val dot_S2000x300_S300x300_S2000x300_1_0_0_1_n_n 300 rfl rfl k
  have el : dot_S2000x300_S300x300_S2000x300_1_0_0_1_n_n.lhsIdx j ((ValueIdx.contrEquiv1 dot_S2000x300_S300x300_S2000x300_1_0_0_1_n_n 300 rfl rfl).symm k) = region2_rowAt_r4 j k := funext fun a => Fin.ext (by
    match a with
    | ⟨0, _⟩ => exact region2_lhs_0_r4 _ _
    | ⟨1, _⟩ => exact (region2_lhs_1_r4 _ _).trans hk)
  have er : dot_S2000x300_S300x300_S2000x300_1_0_0_1_n_n.rhsIdx j ((ValueIdx.contrEquiv1 dot_S2000x300_S300x300_S2000x300_1_0_0_1_n_n 300 rfl rfl).symm k) = region2_colAt_r4 j k := funext fun a => Fin.ext (by
    match a with
    | ⟨0, _⟩ => exact (region2_rhs_0_r4 _ _).trans hk
    | ⟨1, _⟩ => exact region2_rhs_1_r4 _ _)
  rw [el, er]
  rfl

/-! ## The update of whole arrays at an index -/

/-- The product of a bond table with the weight, at an index: the sum over the 300 contracted columns. -/
theorem region2_dot_apply_r4 (a : FVec Ideal Cert.ReferenceIdeal.S200000x300 .f32) (w : FVec Ideal Cert.ReferenceIdeal.S300x300 .f32)
    (r : Cert.ReferenceIdeal.S200000x300.Idx) :
    Host.dotGeneral (F := Ideal) Cert.ReferenceIdeal.dot_S200000x300_S300x300_S200000x300_1_0_0_1_n_n none a w r
      = ∑ k : Fin 300, a (Cert.ReferenceIdeal.Read.lidx_main_v25 r k) * w (Cert.ReferenceIdeal.Read.ridx_main_v25 r k) := by
  simp only [Host.dotGeneral]
  rw [Ideal.dotGeneral_apply, ← Equiv.sum_comp (ValueIdx.contrEquiv1 Cert.ReferenceIdeal.dot_S200000x300_S300x300_S200000x300_1_0_0_1_n_n 300 rfl rfl).symm]
  refine Finset.sum_congr rfl fun k _ => ?_
  have hk := ValueIdx.contrEquiv1_symm_val Cert.ReferenceIdeal.dot_S200000x300_S300x300_S200000x300_1_0_0_1_n_n 300 rfl rfl k
  have el : Cert.ReferenceIdeal.dot_S200000x300_S300x300_S200000x300_1_0_0_1_n_n.lhsIdx r ((ValueIdx.contrEquiv1 Cert.ReferenceIdeal.dot_S200000x300_S300x300_S200000x300_1_0_0_1_n_n 300 rfl rfl).symm k) = Cert.ReferenceIdeal.Read.lidx_main_v25 r k := funext fun a => Fin.ext (by
    match a with
    | ⟨0, _⟩ => exact Cert.ReferenceIdeal.Read.lhs_main_v25_0 _ _
    | ⟨1, _⟩ => exact (Cert.ReferenceIdeal.Read.lhs_main_v25_1 _ _).trans hk)
  have er : Cert.ReferenceIdeal.dot_S200000x300_S300x300_S200000x300_1_0_0_1_n_n.rhsIdx r ((ValueIdx.contrEquiv1 Cert.ReferenceIdeal.dot_S200000x300_S300x300_S200000x300_1_0_0_1_n_n 300 rfl rfl).symm k) = Cert.ReferenceIdeal.Read.ridx_main_v25 r k := funext fun a => Fin.ext (by
    match a with
    | ⟨0, _⟩ => exact (Cert.ReferenceIdeal.Read.rhs_main_v25_0 _ _).trans hk
    | ⟨1, _⟩ => exact Cert.ReferenceIdeal.Read.rhs_main_v25_1 _ _)
  rw [el, er]

/-- One message update at an index: `max (inp + Σ_k (g1 − g2)[row, k] · W_h[k, col]) 0`. -/
theorem region2_updateOf_apply_r4 (i g1 g2 : Vec Ideal Cert.ReferenceIdeal.S200000x300 .f32) (wh : Vec Ideal Cert.ReferenceIdeal.S300x300 .f32)
    (r : Cert.ReferenceIdeal.S200000x300.Idx) :
    Cert.Stages.updateOf (F := Ideal) i g1 g2 wh r
      = max (i r + ∑ k : Fin 300, (g1 (Cert.ReferenceIdeal.Read.lidx_main_v25 r k) - g2 (Cert.ReferenceIdeal.Read.lidx_main_v25 r k)) * wh (Cert.ReferenceIdeal.Read.ridx_main_v25 r k))
          (Ideal.ofBits .f32 0x00000000#32) := by
  unfold Cert.Stages.updateOf Cert.Stages.relu2
  simp only [ValueIdx.maximumf_apply, ValueIdx.addf_apply, region2_dot_apply_r4, ValueIdx.subf_apply]
  rfl

/-! ## A block of rows against the arrays -/

/-- If three blocks hold rows `2000·b …` of three bond tables and a fourth holds the weight, then what the body stores
    is rows `2000·b …` of the update of those tables: row `2000·b + p` of the update depends on row `2000·b + p`
    of each table and on the whole weight. -/
theorem region2_block_r4 (A0 A1 A2 : Vec Ideal S200000x300 .f32) (W : Vec Ideal S300x300 .f32)
    (x0 x1 x2 : Vec Ideal S2000x300 .f32) (x3 : Vec Ideal S300x300 .f32) (b : Nat)
    (h0 : ∀ (y : S2000x300.Idx) (r : S200000x300.Idx), (r 0).val = b * 2000 + (y 0).val → (r 1).val = (y 1).val → x0 y = A0 r)
    (h1 : ∀ (y : S2000x300.Idx) (r : S200000x300.Idx), (r 0).val = b * 2000 + (y 0).val → (r 1).val = (y 1).val → x1 y = A1 r)
    (h2 : ∀ (y : S2000x300.Idx) (r : S200000x300.Idx), (r 0).val = b * 2000 + (y 0).val → (r 1).val = (y 1).val → x2 y = A2 r)
    (h3 : ∀ y : S300x300.Idx, x3 y = W y)
    (j : S2000x300.Idx) (r : S200000x300.Idx) (hr0 : (r 0).val = b * 2000 + (j 0).val) (hr1 : (r 1).val = (j 1).val) :
    k4_pay1 (F := Ideal) x0 x1 x3 x2 j = Cert.Stages.updateOf (F := Ideal) A2 A0 A1 W r := by
  rw [region2_pay_apply_r4, region2_updateOf_apply_r4, h2 j r hr0 hr1]
  refine congrArg (fun s => max (A2 r + s) (Ideal.ofBits .f32 0x00000000#32)) (Finset.sum_congr rfl fun k _ => ?_)
  have ec : region2_colAt_r4 j k = Cert.ReferenceIdeal.Read.ridx_main_v25 r k := funext fun a => Fin.ext (by
    match a with
    | ⟨0, _⟩ => rfl
    | ⟨1, _⟩ => exact hr1.symm)
  rw [h0 (region2_rowAt_r4 j k) (Cert.ReferenceIdeal.Read.lidx_main_v25 r k) hr0 rfl, h1 (region2_rowAt_r4 j k) (Cert.ReferenceIdeal.Read.lidx_main_v25 r k) hr0 rfl,
    h3 (region2_colAt_r4 j k), ec]

/-! ## The windows' blocks as rows of the arrays -/

-- the TensorCore's buffer contents when the region is entered, at the ideal instance
variable (V : (c : Dev nD) → (b : Ref sig .tc) → Buf (Elt Ideal) ((c : Thread nD τ).loc b))

/-- Over the grid of 100 points: the three row windows and the output window are at block `(t, 0)` at point `t`, the
    weight's window at block `(0, 0)`. -/
theorem region2_idx_r4 : ∀ t : Fin cfg4.N,
    win4_0.index t (0 : Fin 2) = t.val ∧ win4_0.index t (1 : Fin 2) = 0
    ∧ win4_1.index t (0 : Fin 2) = t.val ∧ win4_1.index t (1 : Fin 2) = 0
    ∧ win4_2.index t (0 : Fin 2) = t.val ∧ win4_2.index t (1 : Fin 2) = 0
    ∧ win4_3.index t (0 : Fin 2) = 0 ∧ win4_3.index t (1 : Fin 2) = 0
    ∧ win4_4.index t (0 : Fin 2) = t.val ∧ win4_4.index t (1 : Fin 2) = 0 :=
  (by decide +kernel : ∀ t : Fin grid4.N, _)

/-- Window 0's block at point `t` is rows `2000·t …` of the first gathered table. -/
theorem region2_blk0_r4 (c : Dev nD) (t : Fin cfg4.N) (y : S2000x300.Idx) (r : S200000x300.Idx)
    (h0 : (r 0).val = t.val * 2000 + (y 0).val) (h1 : (r 1).val = (y 1).val) :
    (iblk4 (F := Ideal) V c 0 t : Vec Ideal S2000x300 .f32) y = (V c main_v42 : Vec Ideal S200000x300 .f32) r := by
  have e0 : win4_0.index t (0 : Fin 2) = t.val := (region2_idx_r4 t).1
  have e1 : win4_0.index t (1 : Fin 2) = 0 := (region2_idx_r4 t).2.1
  unfold iblk4
  rw [View.read_apply]
  show V c main_v42 _ = V c main_v42 _
  congr 1
  funext a
  apply Fin.ext
  match a with
  | ⟨0, _⟩ => show win4_0.index t (0 : Fin 2) * 2000 + 1 * (y 0).val = (r 0).val; omega
  | ⟨1, _⟩ => show win4_0.index t (1 : Fin 2) * 300 + 1 * (y 1).val = (r 1).val; omega

/-- Window 1's block at point `t` is rows `2000·t …` of the second gathered table. -/
theorem region2_blk1_r4 (c : Dev nD) (t : Fin cfg4.N) (y : S2000x300.Idx) (r : S200000x300.Idx)
    (h0 : (r 0).val = t.val * 2000 + (y 0).val) (h1 : (r 1).val = (y 1).val) :
    (iblk4 (F := Ideal) V c 1 t : Vec Ideal S2000x300 .f32) y = (V c main_v43 : Vec Ideal S200000x300 .f32) r := by
  have e0 : win4_1.index t (0 : Fin 2) = t.val := (region2_idx_r4 t).2.2.1
  have e1 : win4_1.index t (1 : Fin 2) = 0 := (region2_idx_r4 t).2.2.2.1
  unfold iblk4
  rw [View.read_apply]
  show V c main_v43 _ = V c main_v43 _
  congr 1
  funext a
  apply Fin.ext
  match a with
  | ⟨0, _⟩ => show win4_1.index t (0 : Fin 2) * 2000 + 1 * (y 0).val = (r 0).val; omega
  | ⟨1, _⟩ => show win4_1.index t (1 : Fin 2) * 300 + 1 * (y 1).val = (r 1).val; omega

/-- Window 2's block at point `t` is rows `2000·t …` of the bond input. -/
theorem region2_blk2_r4 (c : Dev nD) (t : Fin cfg4.N) (y : S2000x300.Idx) (r : S200000x300.Idx)
    (h0 : (r 0).val = t.val * 2000 + (y 0).val) (h1 : (r 1).val = (y 1).val) :
    (iblk4 (F := Ideal) V c 2 t : Vec Ideal S2000x300 .f32) y = (V c main_v0_0 : Vec Ideal S200000x300 .f32) r := by
  have e0 : win4_2.index t (0 : Fin 2) = t.val := (region2_idx_r4 t).2.2.2.2.1
  have e1 : win4_2.index t (1 : Fin 2) = 0 := (region2_idx_r4 t).2.2.2.2.2.1
  unfold iblk4
  rw [View.read_apply]
  show V c main_v0_0 _ = V c main_v0_0 _
  congr 1
  funext a
  apply Fin.ext
  match a with
  | ⟨0, _⟩ => show win4_2.index t (0 : Fin 2) * 2000 + 1 * (y 0).val = (r 0).val; omega
  | ⟨1, _⟩ => show win4_2.index t (1 : Fin 2) * 300 + 1 * (y 1).val = (r 1).val; omega

/-- Window 3's block at every point is the whole weight. -/
theorem region2_blk3_r4 (c : Dev nD) (t : Fin cfg4.N) (y : S300x300.Idx) :
    (iblk4 (F := Ideal) V c 3 t : Vec Ideal S300x300 .f32) y = (V c main_arg6 : Vec Ideal S300x300 .f32) y := by
  have e0 : win4_3.index t (0 : Fin 2) = 0 := (region2_idx_r4 t).2.2.2.2.2.2.1
  have e1 : win4_3.index t (1 : Fin 2) = 0 := (region2_idx_r4 t).2.2.2.2.2.2.2.1
  unfold iblk4
  rw [View.read_apply]
  show V c main_arg6 _ = V c main_arg6 _
  congr 1
  funext a
  apply Fin.ext
  match a with
  | ⟨0, _⟩ => show win4_3.index t (0 : Fin 2) * 300 + 1 * (y 0).val = (y 0).val; omega
  | ⟨1, _⟩ => show win4_3.index t (1 : Fin 2) * 300 + 1 * (y 1).val = (y 1).val; omega

/-! ## From the blocks to the array -/

/-- What point `t` writes back is block `t` of the update of the arrays the region found. -/
theorem region2_flushed_r4 (c : Dev nD) (t : Fin cfg4.N) :
    (dat4 (F := Ideal) V c).flushed 4 t
      = ((cfg4.win 4).blk t).view.read (Elt Ideal)
          (Cert.Stages.updateOf (F := Ideal) (V c main_v0_0) (V c main_v42) (V c main_v43) (V c main_arg6)) := by
  show (cfg4.win 4).cut (grid4.coords t) ((dat4 V c).after 4 t) = _
  rw [after4_4]
  unfold out4_4
  rw [View.canon_unit_zero region2_zeroOff_r4]
  simp only [View.ld_unit_zero (S := S2000x300) region2_zeroOff_r4, View.ld_unit_zero (S := S300x300) region2_zeroOff_r4]
  have e0 : win4_4.index t (0 : Fin 2) = t.val := (region2_idx_r4 t).2.2.2.2.2.2.2.2.1
  have e1 : win4_4.index t (1 : Fin 2) = 0 := (region2_idx_r4 t).2.2.2.2.2.2.2.2.2
  funext j
  show k4_pay1 (F := Ideal) (iblk4 V c 0 t) (iblk4 V c 1 t) (iblk4 V c 3 t) (iblk4 V c 2 t) j
    = Cert.Stages.updateOf (F := Ideal) (V c main_v0_0) (V c main_v42) (V c main_v43) (V c main_arg6) (((cfg4.win 4).blk t).view.emb j)
  refine region2_block_r4 (V c main_v42) (V c main_v43) (V c main_v0_0) (V c main_arg6)
    (iblk4 V c 0 t) (iblk4 V c 1 t) (iblk4 V c 2 t) (iblk4 V c 3 t) t.val
    (region2_blk0_r4 V c t) (region2_blk1_r4 V c t) (region2_blk2_r4 V c t) (region2_blk3_r4 V c t)
    j (((cfg4.win 4).blk t).view.emb j) ?_ ?_
  · show win4_4.index t (0 : Fin 2) * 2000 + 1 * (j 0).val = t.val * 2000 + (j 0).val; omega
  · show win4_4.index t (1 : Fin 2) * 300 + 1 * (j 1).val = (j 1).val; omega

/-- An index of the output array is in point `t`'s block iff each coordinate is in the block's range on its axis. -/
theorem region2_mem_blk_r4 (t : Fin cfg4.N) (i : S200000x300.Idx) :
    i ∈ ((cfg4.win 4).blk t).view.set ↔ ∀ a : Fin 2, win4_4.index t a * S2000x300.size a ≤ (i a).val ∧ (i a).val < win4_4.index t a * S2000x300.size a + S2000x300.size a := by
  show i ∈ ((View.whole main_v44).slice (win4_4.rect t)).set ↔ _
  rw [View.set_slice_whole, Rect.mem_set_unit]
  exact Iff.rfl

/-- Bond row `r` is written back by point `r / 2000`. -/
theorem region2_cover_r4 (i : S200000x300.Idx) :
    ∃ t : Fin cfg4.N, (cfg4.win 4).flush t = true ∧ i ∈ ((cfg4.win 4).blk t).view.set := by
  have hi0 : (i 0).val < 200000 := (i 0).isLt
  have hi1 : (i 1).val < 300 := (i 1).isLt
  have hN : cfg4.N = 100 := N_4
  obtain ⟨t, ht⟩ : ∃ t : Fin cfg4.N, t.val = (i 0).val / 2000 := ⟨⟨(i 0).val / 2000, by rw [hN]; omega⟩, rfl⟩
  have e0 : win4_4.index t (0 : Fin 2) = t.val := (region2_idx_r4 t).2.2.2.2.2.2.2.2.1
  have e1 : win4_4.index t (1 : Fin 2) = 0 := (region2_idx_r4 t).2.2.2.2.2.2.2.2.2
  refine ⟨t, flush4_4 t, ?_⟩
  rw [region2_mem_blk_r4]
  intro a
  match a with
  | ⟨0, _⟩ => show win4_4.index t (0 : Fin 2) * 2000 ≤ (i 0).val ∧ (i 0).val < win4_4.index t (0 : Fin 2) * 2000 + 2000; omega
  | ⟨1, _⟩ => show win4_4.index t (1 : Fin 2) * 300 ≤ (i 1).val ∧ (i 1).val < win4_4.index t (1 : Fin 2) * 300 + 300; omega

/-- After region 4, its output array is the message update of the arrays the region found. -/
theorem region4_msg (c : Dev nD) :
    (dat4 (F := Ideal) V c).arrAt 4 cfg4.N
      = Cert.Stages.updateOf (F := Ideal) (V c main_v0_0) (V c main_v42) (V c main_v43) (V c main_arg6) :=
  (dat4 (F := Ideal) V c).arrAt_eq_of_cover 4
    (Cert.Stages.updateOf (F := Ideal) (V c main_v0_0) (V c main_v42) (V c main_v43) (V c main_arg6))
    (fun t _ => region2_flushed_r4 V c t) region2_cover_r4

end Cert.KRegion

end
-- ==== Proof.Round2.lean ====
/- One message round of the kernel program: from the exit of the region that left a message table, through the six
   column gathers, the neighbour sum of the next region, the two row gathers and the update of the region after it,
   to that region's exit. -/
import proofs.«417302_j82858509074740_1_alg».proof.Proof.RoundCommon
import proofs.«417302_j82858509074740_1_alg».proof.Proof.Sum6_3
import proofs.«417302_j82858509074740_1_alg».proof.Proof.StageC_4

set_option maxRecDepth 16384

noncomputable section

namespace Cert.Walk

open Idealize.ShloMosaic Idealize.ShloMosaic.TcCoe Idealize.SL.Sem Idealize.ShloMosaic.StableHlo
open Cert.KernelIdeal Cert.KernelIdeal.Gen Cert.KernelIdeal.GenP
open Cert.Stages Cert.KStages

variable (m : (ℓ : Loc nD τ sig) → Buf (Elt Ideal) ℓ) (ρ : Dev nD → PrngReg) (c : Dev nD)

open Cert.KRegion

variable (h2 : ∀ p, 0 ≤ (((m ((c : Thread nD τ).loc main_arg2)) : IVec S100000x6 32) p).toInt ∧ (((m ((c : Thread nD τ).loc main_arg2)) : IVec S100000x6 32) p).toInt < 200000)
variable (h3 : ∀ p, 0 ≤ (((m ((c : Thread nD τ).loc main_arg3)) : IVec S200000 32) p).toInt ∧ (((m ((c : Thread nD τ).loc main_arg3)) : IVec S200000 32) p).toInt < 100000)
variable (h4 : ∀ p, 0 ≤ (((m ((c : Thread nD τ).loc main_arg4)) : IVec S200000 32) p).toInt ∧ (((m ((c : Thread nD τ).loc main_arg4)) : IVec S200000 32) p).toInt < 200000)
include h2 h3 h4

/-- If the first boundary holds a bond input `i` and a message table `msg` (and the arguments), the boundary two regions
    on holds `i` and the updated messages (and the arguments). -/
theorem round2 (i msg : Vec Ideal S200000x300 .f32)
    (hI : W17 m ρ c (Proc.devRef .tc main_v0_0) = i) (hM : W17 m ρ c (Proc.devRef .tc main_v22) = msg)
    (hargs : ArgsAt m c (W17 m ρ c)) :
    W33 m ρ c (Proc.devRef .tc main_v44) = update (F := Ideal) i msg (m ((c : Thread nD τ).loc main_arg2)) (m ((c : Thread nD τ).loc main_arg3)) (m ((c : Thread nD τ).loc main_arg4)) (m ((c : Thread nD τ).loc main_arg6))
    ∧ W33 m ρ c (Proc.devRef .tc main_v0_0) = i
    ∧ ArgsAt m c (W33 m ρ c) := by
  obtain ⟨x0, x2, x3, x4, x6, x7, x8⟩ := hargs
  obtain ⟨g0, g1, g2, g3, g4, g5, gi, gm, a0, a2, a3, a4, a6, a7, a8⟩ := gap3 m ρ c
  obtain ⟨s, ei, em, b0, b2, b3, b4, b6, b7, b8⟩ := exit3 m ρ c
  obtain ⟨t1, t2, ci, c0, c2, c3, c4, c6, c7, c8⟩ := gap4 m ρ c
  obtain ⟨u, di, d0, d2, d3, d4, d6, d7, d8⟩ := exit4 m ρ c
  -- the atom sums: the summing region's six inputs are the six column gathers of `msg`
  have hs : W30 m ρ c (Proc.devRef .tc main_v41)
      = add6 (F := Ideal) (takeA (F := Ideal) msg (col0 (m ((c : Thread nD τ).loc main_arg2)))) (takeA (F := Ideal) msg (col1 (m ((c : Thread nD τ).loc main_arg2)))) (takeA (F := Ideal) msg (col2 (m ((c : Thread nD τ).loc main_arg2)))) (takeA (F := Ideal) msg (col3 (m ((c : Thread nD τ).loc main_arg2)))) (takeA (F := Ideal) msg (col4 (m ((c : Thread nD τ).loc main_arg2)))) (takeA (F := Ideal) msg (col5 (m ((c : Thread nD τ).loc main_arg2)))) := by
    rw [s]
    refine (region3_sum (V29 m ρ) c).trans ?_
    show add6 (F := Ideal) (W29 m ρ c (Proc.devRef .tc main_v25)) (W29 m ρ c (Proc.devRef .tc main_v28)) (W29 m ρ c (Proc.devRef .tc main_v31)) (W29 m ρ c (Proc.devRef .tc main_v34)) (W29 m ρ c (Proc.devRef .tc main_v37)) (W29 m ρ c (Proc.devRef .tc main_v40)) = _
    rw [g0, g1, g2, g3, g4, g5, hM, x2]
  refine ⟨?_, ?_, ?_⟩
  · -- the updating region's four inputs: the two row gathers, the bond input, the weight
    rw [u]
    refine (region4_msg (V32 m ρ) c).trans ?_
    show updateOf (F := Ideal) (W32 m ρ c (Proc.devRef .tc main_v0_0)) (W32 m ρ c (Proc.devRef .tc main_v42)) (W32 m ρ c (Proc.devRef .tc main_v43))
      (W32 m ρ c (Proc.devRef .tc main_arg6)) = _
    rw [t1, t2, ci, c6, hs, ei, gi, hI, em, gm, hM, b3, a3, x3, b4, a4, x4, b6, a6, x6]
    exact round m c h2 h3 h4 i msg
  · rw [di, ci, ei, gi, hI]
  · exact ⟨d0.trans (c0.trans (b0.trans (a0.trans x0))),
      d2.trans (c2.trans (b2.trans (a2.trans x2))),
      d3.trans (c3.trans (b3.trans (a3.trans x3))),
      d4.trans (c4.trans (b4.trans (a4.trans x4))),
      d6.trans (c6.trans (b6.trans (a6.trans x6))),
      d7.trans (c7.trans (b7.trans (a7.trans x7))),
      d8.trans (c8.trans (b8.trans (a8.trans x8)))⟩

end Cert.Walk

end
-- ==== Proof.Sum6_5.lean ====
/- Region 5 (third neighbour sum): block t holds atom rows 1000·t … 1000·t + 999 of each of the six gathered
   tables; the body adds them from the left, entry by entry.  The 100 blocks cover the array. -/
import proofs.«417302_j82858509074740_1_alg».proof.Proof.KernelIdealFrame
import proofs.«417302_j82858509074740_1_alg».proof.Proof.Stages
import Idealize.ShloMosaic.Lib.Pipeline.Value
import Idealize.ShloMosaic.Lib.ValueIdx
import Idealize.ShloMosaic.PureOps.Ideal.Laws

set_option maxRecDepth 16384

noncomputable section

namespace Cert.KRegion

open Idealize.ShloMosaic Idealize.ShloMosaic.TcCoe Idealize.SL.Sem Idealize.ShloMosaic.Pipeline
open Cert.KernelIdeal Cert.KernelIdeal.Gen Cert.KernelIdeal.GenP

/-! ## One block -/

/-- The body's one store starts at the origin of its block. -/
theorem origin1_r5 : (![0, 0] : Fin 2 → Nat) = fun _ => 0 :=
  funext fun a => match a with
    | ⟨0, _⟩ => rfl
    | ⟨1, _⟩ => rfl

/-- What the body leaves in the output block: the six input blocks added from the left.  The store fills the
    whole block, each load reads a whole block, and the casts in between are to the block's own shape. -/
theorem block1_sum_r5 (x0 x1 x2 x3 x4 x5 : Vec Ideal S1000x300 .f32) :
    out5_6 (F := Ideal) x0 x1 x2 x3 x4 x5
      = addf (F := Ideal) (φ := .f32) (addf (addf (addf (addf x0 x1) x2) x3) x4) x5 := by
  unfold out5_6
  rw [View.canon_unit_zero origin1_r5]
  simp only [View.ld_unit_zero (S := S1000x300) origin1_r5]
  unfold k5_pay1
  simp only [shapeCast_self]

/-! ## The blocks in their arrays -/

/-- The printed index maps over the grid: at every point each input window's block index is the output
    window's, axis by axis. -/
theorem index1_r5 : ∀ t : Fin cfg5.N, win5_0.index t (0 : Fin 2) = win5_6.index t (0 : Fin 2)
    ∧ win5_0.index t (1 : Fin 2) = win5_6.index t (1 : Fin 2)
    ∧ win5_1.index t (0 : Fin 2) = win5_6.index t (0 : Fin 2)
    ∧ win5_1.index t (1 : Fin 2) = win5_6.index t (1 : Fin 2)
    ∧ win5_2.index t (0 : Fin 2) = win5_6.index t (0 : Fin 2)
    ∧ win5_2.index t (1 : Fin 2) = win5_6.index t (1 : Fin 2)
    ∧ win5_3.index t (0 : Fin 2) = win5_6.index t (0 : Fin 2)
    ∧ win5_3.index t (1 : Fin 2) = win5_6.index t (1 : Fin 2)
    ∧ win5_4.index t (0 : Fin 2) = win5_6.index t (0 : Fin 2)
    ∧ win5_4.index t (1 : Fin 2) = win5_6.index t (1 : Fin 2)
    ∧ win5_5.index t (0 : Fin 2) = win5_6.index t (0 : Fin 2)
    ∧ win5_5.index t (1 : Fin 2) = win5_6.index t (1 : Fin 2) :=
  (by decide +kernel : ∀ t : Fin grid5.N, _)

/-- Every block row `q` of the output array, in column block 0, is some point's. -/
theorem index1_onto_r5 : ∀ q : Fin 100, ∃ t : Fin cfg5.N, win5_6.index t = ![q.val, 0] :=
  (by decide +kernel : ∀ q : Fin 100, ∃ t : Fin grid5.N, win5_6.index t = ![q.val, 0])

/-- Entry `j` of an input window's block at point `t` sits in its array where entry `j` of the output
    window's block sits in the output array: a block's coordinate is its index times the block's extent plus
    the coordinate inside the block. -/
theorem place1_r5 (t : Fin cfg5.N) (j : S1000x300.Idx) :
    ((cfg5.win 0).blk t).view.emb j = ((cfg5.win 6).blk t).view.emb j
    ∧ ((cfg5.win 1).blk t).view.emb j = ((cfg5.win 6).blk t).view.emb j
    ∧ ((cfg5.win 2).blk t).view.emb j = ((cfg5.win 6).blk t).view.emb j
    ∧ ((cfg5.win 3).blk t).view.emb j = ((cfg5.win 6).blk t).view.emb j
    ∧ ((cfg5.win 4).blk t).view.emb j = ((cfg5.win 6).blk t).view.emb j
    ∧ ((cfg5.win 5).blk t).view.emb j = ((cfg5.win 6).blk t).view.emb j := by
  obtain ⟨e00, e01, e10, e11, e20, e21, e30, e31, e40, e41, e50, e51⟩ := index1_r5 t
  refine ⟨?_, ?_, ?_, ?_, ?_, ?_⟩
  · funext a; apply Fin.ext
    match a with
    | ⟨0, _⟩ =>
      show win5_0.index t (0 : Fin 2) * 1000 + 1 * (j 0).val = win5_6.index t (0 : Fin 2) * 1000 + 1 * (j 0).val
      omega
    | ⟨1, _⟩ =>
      show win5_0.index t (1 : Fin 2) * 300 + 1 * (j 1).val = win5_6.index t (1 : Fin 2) * 300 + 1 * (j 1).val
      omega
  · funext a; apply Fin.ext
    match a with
    | ⟨0, _⟩ =>
      show win5_1.index t (0 : Fin 2) * 1000 + 1 * (j 0).val = win5_6.index t (0 : Fin 2) * 1000 + 1 * (j 0).val
      omega
    | ⟨1, _⟩ =>
      show win5_1.index t (1 : Fin 2) * 300 + 1 * (j 1).val = win5_6.index t (1 : Fin 2) * 300 + 1 * (j 1).val
      omega
  · funext a; apply Fin.ext
    match a with
    | ⟨0, _⟩ =>
      show win5_2.index t (0 : Fin 2) * 1000 + 1 * (j 0).val = win5_6.index t (0 : Fin 2) * 1000 + 1 * (j 0).val
      omega
    | ⟨1, _⟩ =>
      show win5_2.index t (1 : Fin 2) * 300 + 1 * (j 1).val = win5_6.index t (1 : Fin 2) * 300 + 1 * (j 1).val
      omega
  · funext a; apply Fin.ext
    match a with
    | ⟨0, _⟩ =>
      show win5_3.index t (0 : Fin 2) * 1000 + 1 * (j 0).val = win5_6.index t (0 : Fin 2) * 1000 + 1 * (j 0).val
      omega
    | ⟨1, _⟩ =>
      show win5_3.index t (1 : Fin 2) * 300 + 1 * (j 1).val = win5_6.index t (1 : Fin 2) * 300 + 1 * (j 1).val
      omega
  · funext a; apply Fin.ext
    match a with
    | ⟨0, _⟩ =>
      show win5_4.index t (0 : Fin 2) * 1000 + 1 * (j 0).val = win5_6.index t (0 : Fin 2) * 1000 + 1 * (j 0).val
      omega
    | ⟨1, _⟩ =>
      show win5_4.index t (1 : Fin 2) * 300 + 1 * (j 1).val = win5_6.index t (1 : Fin 2) * 300 + 1 * (j 1).val
      omega
  · funext a; apply Fin.ext
    match a with
    | ⟨0, _⟩ =>
      show win5_5.index t (0 : Fin 2) * 1000 + 1 * (j 0).val = win5_6.index t (0 : Fin 2) * 1000 + 1 * (j 0).val
      omega
    | ⟨1, _⟩ =>
      show win5_5.index t (1 : Fin 2) * 300 + 1 * (j 1).val = win5_6.index t (1 : Fin 2) * 300 + 1 * (j 1).val
      omega

/-- An index of the output array is in point `t`'s block iff each coordinate is in the block's range on its
    axis. -/
theorem mem_block1_r5 (t : Fin cfg5.N) (i : S100000x300.Idx) :
    i ∈ ((cfg5.win 6).blk t).view.set ↔ ∀ a : Fin 2, win5_6.index t a * S1000x300.size a ≤ (i a).val
      ∧ (i a).val < win5_6.index t a * S1000x300.size a + S1000x300.size a := by
  show i ∈ ((View.whole main_v63).slice (win5_6.rect t)).set ↔ _
  rw [View.set_slice_whole, Rect.mem_set_unit]
  exact Iff.rfl

/-- The blocks cover the output array: atom row `r` is in the block of the point whose block row is
    `r / 1000`, and every point writes its block back. -/
theorem cover1_r5 (i : S100000x300.Idx) :
    ∃ t : Fin cfg5.N, (cfg5.win 6).flush t = true ∧ i ∈ ((cfg5.win 6).blk t).view.set := by
  have hi0 : (i 0).val < 100000 := (i 0).isLt
  have hi1 : (i 1).val < 300 := (i 1).isLt
  obtain ⟨t, ht⟩ := index1_onto_r5 ⟨(i 0).val / 1000, by omega⟩
  have q0 : win5_6.index t (0 : Fin 2) = (i 0).val / 1000 := congrFun ht 0
  have q1 : win5_6.index t (1 : Fin 2) = 0 := congrFun ht 1
  refine ⟨t, flush5_6 t, ?_⟩
  rw [mem_block1_r5]
  intro a
  match a with
  | ⟨0, _⟩ =>
    show win5_6.index t (0 : Fin 2) * 1000 ≤ (i 0).val ∧ (i 0).val < win5_6.index t (0 : Fin 2) * 1000 + 1000
    omega
  | ⟨1, _⟩ =>
    show win5_6.index t (1 : Fin 2) * 300 ≤ (i 1).val ∧ (i 1).val < win5_6.index t (1 : Fin 2) * 300 + 300
    omega

/-! ## The array -/

/-- Six entries added from the left. -/
abbrev entry1_sum_r5 (a0 a1 a2 a3 a4 a5 : Ideal .f32) : Ideal .f32 :=
  FloatOps.addf (FloatOps.addf (FloatOps.addf (FloatOps.addf (FloatOps.addf a0 a1) a2) a3) a4) a5

-- the TensorCore's buffer contents when the region is entered, at the ideal instance
variable (V : (c : Dev nD) → (b : Ref sig .tc) → Buf (Elt Ideal) ((c : Thread nD τ).loc b))

/-- What point `t` writes back is block `t` of the six-fold sum of the input arrays as the region finds them:
    both sides, read at an entry of the block, are the same five additions of the same six array entries. -/
theorem flushed1_sum_r5 (c : Dev nD) (t : Fin cfg5.N) :
    (dat5 (F := Ideal) V c).flushed 6 t
      = ((cfg5.win 6).blk t).view.read (Elt Ideal)
          (Cert.Stages.add6 (F := Ideal) (V c main_v47) (V c main_v50) (V c main_v53) (V c main_v56) (V c main_v59) (V c main_v62)) := by
  show (cfg5.win 6).cut (grid5.coords t) ((dat5 (F := Ideal) V c).after 6 t) = _
  rw [after5_6, block1_sum_r5]
  funext j
  obtain ⟨p0, p1, p2, p3, p4, p5⟩ := place1_r5 t j
  show entry1_sum_r5 (V c main_v47 (((cfg5.win 0).blk t).view.emb j)) (V c main_v50 (((cfg5.win 1).blk t).view.emb j))
        (V c main_v53 (((cfg5.win 2).blk t).view.emb j)) (V c main_v56 (((cfg5.win 3).blk t).view.emb j))
        (V c main_v59 (((cfg5.win 4).blk t).view.emb j)) (V c main_v62 (((cfg5.win 5).blk t).view.emb j))
      = entry1_sum_r5 (V c main_v47 (((cfg5.win 6).blk t).view.emb j)) (V c main_v50 (((cfg5.win 6).blk t).view.emb j))
        (V c main_v53 (((cfg5.win 6).blk t).view.emb j)) (V c main_v56 (((cfg5.win 6).blk t).view.emb j))
        (V c main_v59 (((cfg5.win 6).blk t).view.emb j)) (V c main_v62 (((cfg5.win 6).blk t).view.emb j))
  rw [p0, p1, p2, p3, p4, p5]

/-- After region 5, its output array is the six input arrays added from the left. -/
theorem region5_sum (c : Dev nD) :
    (dat5 (F := Ideal) V c).arrAt 6 cfg5.N
      = Cert.Stages.add6 (F := Ideal) (V c main_v47) (V c main_v50) (V c main_v53) (V c main_v56) (V c main_v59) (V c main_v62) :=
  (dat5 (F := Ideal) V c).arrAt_eq_of_cover 6 _ (fun t _ => flushed1_sum_r5 V c t) cover1_r5

end Cert.KRegion

end
-- ==== Proof.StageD.lean ====
/- Region 6 (atom readout): block t holds atom rows 2000·t … of `f_atoms` and of the aggregated messages; the body
   forms `relu (f_atoms · W_oa + am · W_ob + b_o)`.  With `W_oa`, `W_ob` the first 133 and the last 300 rows of
   `W_o`, the two products add up to the product of the joined rows `[f_atoms | am]` with `W_o`: a sum over 433
   columns split at 133.  The 50 blocks cover the array. -/
import proofs.«417302_j82858509074740_1_alg».proof.Proof.KernelIdealFrame
import proofs.«417302_j82858509074740_1_alg».proof.Proof.Stages
import proofs.«417302_j82858509074740_1_alg».proof.Proof.Gen.ReferenceIdeal.Read
import Idealize.ShloMosaic.Lib.Pipeline.Value
import Idealize.ShloMosaic.Lib.ValueIdx
import Idealize.ShloMosaic.PureOps.Ideal.Laws

set_option maxRecDepth 16384

noncomputable section

namespace Cert.KRegion

open Idealize.ShloMosaic Idealize.ShloMosaic.TcCoe Idealize.SL.Sem Idealize.ShloMosaic.Pipeline
open Cert.KernelIdeal Cert.KernelIdeal.Gen Cert.KernelIdeal.GenP
open Idealize.ShloMosaic.ValueIdx

/-! ## The body's two matrix products at an index

Each contracts axis 1 of its left operand with axis 0 of its right operand; into a zero accumulator the product at
`(p, q)` is the plain sum `∑ k, a (p, k) * b (k, q)`. -/

theorem lhsA_0 (i : S2000x300.Idx) (q : dot_S2000x133_S133x300_S2000x300_1_0_0_1_n_n.contr.Idx) :
    (dot_S2000x133_S133x300_S2000x300_1_0_0_1_n_n.lhsIdx i q 0).val = (i 0).val := by
  unfold DotDims.lhsIdx
  rw [dif_neg (show ¬(0 : Fin S2000x133.rank) ∈ dot_S2000x133_S133x300_S2000x300_1_0_0_1_n_n.lhsBatch by decide), dif_pos (show (0 : Fin S2000x133.rank) ∈ dot_S2000x133_S133x300_S2000x300_1_0_0_1_n_n.lhsNonContracting by decide)]
  rfl
theorem lhsA_1 (i : S2000x300.Idx) (q : dot_S2000x133_S133x300_S2000x300_1_0_0_1_n_n.contr.Idx) :
    (dot_S2000x133_S133x300_S2000x300_1_0_0_1_n_n.lhsIdx i q 1).val = (q ⟨0, by decide⟩).val :=
  dot_S2000x133_S133x300_S2000x300_1_0_0_1_n_n.lhsIdx_val_of_single rfl i q
theorem rhsA_0 (i : S2000x300.Idx) (q : dot_S2000x133_S133x300_S2000x300_1_0_0_1_n_n.contr.Idx) :
    (dot_S2000x133_S133x300_S2000x300_1_0_0_1_n_n.rhsIdx i q 0).val = (q ⟨0, by decide⟩).val :=
  dot_S2000x133_S133x300_S2000x300_1_0_0_1_n_n.rhsIdx_val_of_single rfl i q
theorem rhsA_1 (i : S2000x300.Idx) (q : dot_S2000x133_S133x300_S2000x300_1_0_0_1_n_n.contr.Idx) :
    (dot_S2000x133_S133x300_S2000x300_1_0_0_1_n_n.rhsIdx i q 1).val = (i 1).val := by
  unfold DotDims.rhsIdx
  rw [dif_neg (show ¬(1 : Fin S133x300.rank) ∈ dot_S2000x133_S133x300_S2000x300_1_0_0_1_n_n.rhsBatch by decide), dif_pos (show (1 : Fin S133x300.rank) ∈ dot_S2000x133_S133x300_S2000x300_1_0_0_1_n_n.rhsNonContracting by decide)]
  rfl

/-- The product with the atom-feature rows of the weight, at an index. -/
theorem mmA_apply (a : FVec Ideal S2000x133 .bf16) (b : FVec Ideal S133x300 .bf16) (p : Fin 2000) (q : Fin 300) :
    matmul dot_S2000x133_S133x300_S2000x300_1_0_0_1_n_n none a b (constant S2000x300 .f32 0x00000000#32) (ix2 p q)
      = ∑ k : Fin 133, a (ix2 p k) * b (ix2 k q) := by
  show FloatOps.matmul dot_S2000x133_S133x300_S2000x300_1_0_0_1_n_n none a b (constant S2000x300 .f32 0x00000000#32) (ix2 p q) = _
  rw [Ideal.matmul_constant_zero_apply, ← Equiv.sum_comp (contrEquiv1 dot_S2000x133_S133x300_S2000x300_1_0_0_1_n_n 133 rfl rfl).symm]
  refine Finset.sum_congr rfl fun k _ => ?_
  have hk := contrEquiv1_symm_val dot_S2000x133_S133x300_S2000x300_1_0_0_1_n_n 133 rfl rfl k
  have el : dot_S2000x133_S133x300_S2000x300_1_0_0_1_n_n.lhsIdx (ix2 p q) ((contrEquiv1 dot_S2000x133_S133x300_S2000x300_1_0_0_1_n_n 133 rfl rfl).symm k) = ix2 p k := funext fun a => Fin.ext (by
    match a with
    | ⟨0, _⟩ => exact lhsA_0 _ _
    | ⟨1, _⟩ => exact (lhsA_1 _ _).trans hk)
  have er : dot_S2000x133_S133x300_S2000x300_1_0_0_1_n_n.rhsIdx (ix2 p q) ((contrEquiv1 dot_S2000x133_S133x300_S2000x300_1_0_0_1_n_n 133 rfl rfl).symm k) = ix2 k q := funext fun a => Fin.ext (by
    match a with
    | ⟨0, _⟩ => exact (rhsA_0 _ _).trans hk
    | ⟨1, _⟩ => exact rhsA_1 _ _)
  rw [el, er]

theorem lhsB_0 (i : S2000x300.Idx) (q : dot_S2000x300_S300x300_S2000x300_1_0_0_1_n_n.contr.Idx) :
    (dot_S2000x300_S300x300_S2000x300_1_0_0_1_n_n.lhsIdx i q 0).val = (i 0).val := by
  unfold DotDims.lhsIdx
  rw [dif_neg (show ¬(0 : Fin S2000x300.rank) ∈ dot_S2000x300_S300x300_S2000x300_1_0_0_1_n_n.lhsBatch by decide), dif_pos (show (0 : Fin S2000x300.rank) ∈ dot_S2000x300_S300x300_S2000x300_1_0_0_1_n_n.lhsNonContracting by decide)]
  rfl
theorem lhsB_1 (i : S2000x300.Idx) (q : dot_S2000x300_S300x300_S2000x300_1_0_0_1_n_n.contr.Idx) :
    (dot_S2000x300_S300x300_S2000x300_1_0_0_1_n_n.lhsIdx i q 1).val = (q ⟨0, by decide⟩).val :=
  dot_S2000x300_S300x300_S2000x300_1_0_0_1_n_n.lhsIdx_val_of_single rfl i q
theorem rhsB_0 (i : S2000x300.Idx) (q : dot_S2000x300_S300x300_S2000x300_1_0_0_1_n_n.contr.Idx) :
    (dot_S2000x300_S300x300_S2000x300_1_0_0_1_n_n.rhsIdx i q 0).val = (q ⟨0, by decide⟩).val :=
  dot_S2000x300_S300x300_S2000x300_1_0_0_1_n_n.rhsIdx_val_of_single rfl i q
theorem rhsB_1 (i : S2000x300.Idx) (q : dot_S2000x300_S300x300_S2000x300_1_0_0_1_n_n.contr.Idx) :
    (dot_S2000x300_S300x300_S2000x300_1_0_0_1_n_n.rhsIdx i q 1).val = (i 1).val := by
  unfold DotDims.rhsIdx
  rw [dif_neg (show ¬(1 : Fin S300x300.rank) ∈ dot_S2000x300_S300x300_S2000x300_1_0_0_1_n_n.rhsBatch by decide), dif_pos (show (1 : Fin S300x300.rank) ∈ dot_S2000x300_S300x300_S2000x300_1_0_0_1_n_n.rhsNonContracting by decide)]
  rfl

/-- The product with the message rows of the weight, at an index. -/
theorem mmB_apply (a : FVec Ideal S2000x300 .bf16) (b : FVec Ideal S300x300 .bf16) (p : Fin 2000) (q : Fin 300) :
    matmul dot_S2000x300_S300x300_S2000x300_1_0_0_1_n_n none a b (constant S2000x300 .f32 0x00000000#32) (ix2 p q)
      = ∑ k : Fin 300, a (ix2 p k) * b (ix2 k q) := by
  show FloatOps.matmul dot_S2000x300_S300x300_S2000x300_1_0_0_1_n_n none a b (constant S2000x300 .f32 0x00000000#32) (ix2 p q) = _
  rw [Ideal.matmul_constant_zero_apply, ← Equiv.sum_comp (contrEquiv1 dot_S2000x300_S300x300_S2000x300_1_0_0_1_n_n 300 rfl rfl).symm]
  refine Finset.sum_congr rfl fun k _ => ?_
  have hk := contrEquiv1_symm_val dot_S2000x300_S300x300_S2000x300_1_0_0_1_n_n 300 rfl rfl k
  have el : dot_S2000x300_S300x300_S2000x300_1_0_0_1_n_n.lhsIdx (ix2 p q) ((contrEquiv1 dot_S2000x300_S300x300_S2000x300_1_0_0_1_n_n 300 rfl rfl).symm k) = ix2 p k := funext fun a => Fin.ext (by
    match a with
    | ⟨0, _⟩ => exact lhsB_0 _ _
    | ⟨1, _⟩ => exact (lhsB_1 _ _).trans hk)
  have er : dot_S2000x300_S300x300_S2000x300_1_0_0_1_n_n.rhsIdx (ix2 p q) ((contrEquiv1 dot_S2000x300_S300x300_S2000x300_1_0_0_1_n_n 300 rfl rfl).symm k) = ix2 k q := funext fun a => Fin.ext (by
    match a with
    | ⟨0, _⟩ => exact (rhsB_0 _ _).trans hk
    | ⟨1, _⟩ => exact rhsB_1 _ _)
  rw [el, er]

/-- The body's payload at an index: both products, the bias row, and the maximum with zero. -/
theorem pay_apply (x0 : Vec Ideal S2000x133 .f32) (x1 : Vec Ideal S2000x300 .f32) (x2 : Vec Ideal S133x300 .f32)
    (x3 : Vec Ideal S300x300 .f32) (x4 : Vec Ideal S1x300 .f32) (p : Fin 2000) (q : Fin 300) :
    k6_pay1 (F := Ideal) x0 x1 x2 x3 x4 (ix2 p q)
      = max ((∑ k : Fin 133, x0 (ix2 p k) * x2 (ix2 k q)) + (∑ k : Fin 300, x1 (ix2 p k) * x3 (ix2 k q))
          + x4 (ix2 (0 : Fin 1) q)) (Ideal.ofBits .f32 0x00000000#32) := by
  unfold k6_pay1
  simp only [shapeCast_self]
  rw [maximumf_apply, addf_apply, addf_apply, mmA_apply, mmB_apply]
  rw [broadcastTo_apply x4 Cert.KernelIdeal.Facts₀.broadcasts_S1x300_S2000x300 (ix2 p q) (ix2 (0 : Fin 1) q) (fun a => match a with
    | ⟨0, _⟩ => by show 0 = if (1 : Nat) = 1 then 0 else _; rw [if_pos rfl]
    | ⟨1, _⟩ => by show q.val = if (300 : Nat) = 1 then 0 else _; rw [if_neg (by decide)]; rfl)]
  rfl

/-! ## The reference's readout at an index

Its product contracts the 433 joined columns; columns `0 … 132` of the joined rows are the atom features, columns
`133 … 432` the aggregated messages. -/

/-- Column `k` of the first 133 among the 433 joined columns … -/
abbrev colA (k : Fin 133) : Fin 433 := ⟨k.val, by omega⟩
/-- … and column `k` of the last 300. -/
abbrev colB (k : Fin 300) : Fin 433 := ⟨133 + k.val, by omega⟩

/-- A sum over the 433 joined columns is the sum over the first 133 plus the sum over the last 300. -/
theorem sum_split {M : Type} [AddCommMonoid M] (f : Fin 433 → M) :
    ∑ k, f k = ∑ k : Fin 133, f (colA k) + ∑ k : Fin 300, f (colB k) :=
  Fin.sum_univ_add (a := 133) (b := 300) f

/-- The reference's product at an index: the sum over the joined columns. -/
theorem dotR_apply (a : FVec Ideal Cert.ReferenceIdeal.S100000x433 .f32) (b : FVec Ideal S433x300 .f32) (r : Fin 100000) (q : Fin 300) :
    Host.dotGeneral Cert.ReferenceIdeal.dot_S100000x433_S433x300_S100000x300_1_0_0_1_n_n none a b (ix2 r q)
      = ∑ k : Fin 433, a (ix2 r k) * b (ix2 k q) := by
  simp only [Host.dotGeneral]
  rw [Ideal.dotGeneral_apply, ← Equiv.sum_comp (contrEquiv1 Cert.ReferenceIdeal.dot_S100000x433_S433x300_S100000x300_1_0_0_1_n_n 433 rfl rfl).symm]
  refine Finset.sum_congr rfl fun k _ => ?_
  have hk := contrEquiv1_symm_val Cert.ReferenceIdeal.dot_S100000x433_S433x300_S100000x300_1_0_0_1_n_n 433 rfl rfl k
  have el : Cert.ReferenceIdeal.dot_S100000x433_S433x300_S100000x300_1_0_0_1_n_n.lhsIdx (ix2 r q) ((contrEquiv1 Cert.ReferenceIdeal.dot_S100000x433_S433x300_S100000x300_1_0_0_1_n_n 433 rfl rfl).symm k) = ix2 r k := funext fun a => Fin.ext (by
    match a with
    | ⟨0, _⟩ => exact Cert.ReferenceIdeal.Read.lhs_main_v63_0 _ _
    | ⟨1, _⟩ => exact (Cert.ReferenceIdeal.Read.lhs_main_v63_1 _ _).trans hk)
  have er : Cert.ReferenceIdeal.dot_S100000x433_S433x300_S100000x300_1_0_0_1_n_n.rhsIdx (ix2 r q) ((contrEquiv1 Cert.ReferenceIdeal.dot_S100000x433_S433x300_S100000x300_1_0_0_1_n_n 433 rfl rfl).symm k) = ix2 k q := funext fun a => Fin.ext (by
    match a with
    | ⟨0, _⟩ => exact (Cert.ReferenceIdeal.Read.rhs_main_v63_0 _ _).trans hk
    | ⟨1, _⟩ => exact Cert.ReferenceIdeal.Read.rhs_main_v63_1 _ _)
  rw [el, er]

/-- The joined rows at one of the first 133 columns are the atom features … -/
theorem joined_left (fa : Vec Ideal S100000x133 .f32) (am : Vec Ideal S100000x300 .f32) (r : Fin 100000) (k : Fin 133) :
    concatenate Cert.ReferenceIdeal.S100000x433 1 [⟨S100000x133, fa⟩, ⟨S100000x300, am⟩]
        Cert.ReferenceIdeal.Facts₀.concatenates_S100000x133_S100000x300_S100000x433_d1 (ix2 r (colA k)) = fa (ix2 r k) :=
  concatenate_pair_apply_left 1 fa am _ (ix2 r (colA k)) rfl (ix2 r k) (fun b => by
    match b with
    | ⟨0, _⟩ => rfl
    | ⟨1, _⟩ => rfl)

/-- … and at one of the last 300 the aggregated messages. -/
theorem joined_right (fa : Vec Ideal S100000x133 .f32) (am : Vec Ideal S100000x300 .f32) (r : Fin 100000) (k : Fin 300) :
    concatenate Cert.ReferenceIdeal.S100000x433 1 [⟨S100000x133, fa⟩, ⟨S100000x300, am⟩]
        Cert.ReferenceIdeal.Facts₀.concatenates_S100000x133_S100000x300_S100000x433_d1 (ix2 r (colB k)) = am (ix2 r k) :=
  concatenate_pair_apply_right 1 fa am _ (ix2 r (colB k)) rfl rfl (ix2 r k) (fun b hb => by
    match b, hb with
    | ⟨0, _⟩, _ => rfl
    | ⟨1, _⟩, hb => exact absurd rfl hb) (by
    show k.val + 133 = 133 + k.val
    omega)

/-- The reference's readout at an index: the two partial products over the joined columns, the bias, and the
    maximum with zero. -/
theorem readout_apply (fa : Vec Ideal S100000x133 .f32) (am : Vec Ideal S100000x300 .f32) (wo : Vec Ideal S433x300 .f32)
    (bo : Vec Ideal S300 .f32) (r : Fin 100000) (q : Fin 300) :
    Cert.Stages.readout (F := Ideal) fa am wo bo (ix2 r q)
      = max ((∑ k : Fin 133, fa (ix2 r k) * wo (ix2 (colA k) q)) + (∑ k : Fin 300, am (ix2 r k) * wo (ix2 (colB k) q))
          + bo (ix1 q)) (Ideal.ofBits .f32 0x00000000#32) := by
  unfold Cert.Stages.readout Cert.Stages.relu1
  rw [maximumf_apply, addf_apply, dotR_apply, sum_split]
  have eb : broadcastInDim Cert.ReferenceIdeal.S100000x300 ![0, 1] Cert.ReferenceIdeal.Facts₀.bcast_S1x300_S100000x300_0_1
      (broadcastInDim Cert.ReferenceIdeal.S1x300 ![1] Cert.ReferenceIdeal.Facts₀.bcast_S300_S1x300_1 bo) (ix2 r q) = bo (ix1 q) := by
    rw [broadcastInDim_apply _ Cert.ReferenceIdeal.Facts₀.bcast_S1x300_S100000x300_0_1 _ (ix2 r q) (ix2 (0 : Fin 1) q) (fun a => match a with
      | ⟨0, _⟩ => by show 0 = if (1 : Nat) = 1 then 0 else r.val; rw [if_pos rfl]
      | ⟨1, _⟩ => by show q.val = if (300 : Nat) = 1 then 0 else q.val; rw [if_neg (by decide)])]
    exact broadcastInDim_apply _ Cert.ReferenceIdeal.Facts₀.bcast_S300_S1x300_1 bo (ix2 (0 : Fin 1) q) (ix1 q) (fun a => match a with
      | ⟨0, _⟩ => by show q.val = if (300 : Nat) = 1 then 0 else q.val; rw [if_neg (by decide)])
  have ez : broadcastInDim Cert.ReferenceIdeal.S100000x300 ![] Cert.ReferenceIdeal.Facts₀.bcast_S_S100000x300
      (constant (F := Ideal) Cert.ReferenceIdeal.S_ .f32 0x00000000#32) (ix2 r q) = Ideal.ofBits .f32 0x00000000#32 :=
    broadcastInDim_apply _ Cert.ReferenceIdeal.Facts₀.bcast_S_S100000x300 _ (ix2 r q) ix0 (fun a => a.elim0)
  rw [eb, ez]
  refine congrArg₂ max (congrArg₂ (· + ·) (congrArg₂ (· + ·) (Finset.sum_congr rfl fun k _ => ?_) (Finset.sum_congr rfl fun k _ => ?_)) rfl) rfl
  · exact congrArg (· * wo (ix2 (colA k) q)) (joined_left fa am r k)
  · exact congrArg (· * wo (ix2 (colB k) q)) (joined_right fa am r k)

/-! ## The weight windows at an index -/

/-- Row `k` of the atom-feature block of the weight is row `k` of the weight … -/
theorem woA_apply (wo : Vec Ideal S433x300 .f32) (k : Fin 133) (q : Fin 300) :
    Cert.KStages.woA (F := Ideal) wo (ix2 k q) = wo (ix2 (colA k) q) := by
  unfold Cert.KStages.woA
  exact extractStridedSlice_apply _ wo _ (ix2 k q) (ix2 (colA k) q) (fun a => match a with
    | ⟨0, _⟩ => by show k.val = 0 + k.val; omega
    | ⟨1, _⟩ => by show q.val = 0 + q.val; omega)

/-- … row `k` of its message block is row `133 + k` … -/
theorem woB_apply (wo : Vec Ideal S433x300 .f32) (k : Fin 300) (q : Fin 300) :
    Cert.KStages.woB (F := Ideal) wo (ix2 k q) = wo (ix2 (colB k) q) := by
  unfold Cert.KStages.woB
  exact extractStridedSlice_apply _ wo _ (ix2 k q) (ix2 (colB k) q) (fun a => match a with
    | ⟨0, _⟩ => by show 133 + k.val = 133 + k.val; rfl
    | ⟨1, _⟩ => by show q.val = 0 + q.val; omega)

/-- … and the bias as one row reads the bias. -/
theorem boRow_apply (bo : Vec Ideal S300 .f32) (q : Fin 300) :
    Cert.KStages.boRow (F := Ideal) bo (ix2 (0 : Fin 1) q) = bo (ix1 q) := by
  unfold Cert.KStages.boRow
  exact shapeCast_apply bo _ (ix2 (0 : Fin 1) q) (ix1 q) (by
    rw [Shape.rowMajor_val_one, Shape.rowMajor_val_two]
    show q.val = 0 * 300 + q.val
    omega)

/-! ## One block against the readout -/

/-- The body's payload at `(p, q)` is the readout at `(r, q)` when the two row blocks read rows `r` of the arrays at
    row `p`, and the weight windows hold the weight's two row blocks and the bias row. -/
theorem block_apply (x0 : Vec Ideal S2000x133 .f32) (x1 : Vec Ideal S2000x300 .f32) (x2 : Vec Ideal S133x300 .f32)
    (x3 : Vec Ideal S300x300 .f32) (x4 : Vec Ideal S1x300 .f32)
    (fa : Vec Ideal S100000x133 .f32) (am : Vec Ideal S100000x300 .f32) (wo : Vec Ideal S433x300 .f32) (bo : Vec Ideal S300 .f32)
    (r : Fin 100000) (p : Fin 2000) (q : Fin 300)
    (h0 : ∀ k : Fin 133, x0 (ix2 p k) = fa (ix2 r k)) (h1 : ∀ k : Fin 300, x1 (ix2 p k) = am (ix2 r k))
    (h2 : x2 = Cert.KStages.woA (F := Ideal) wo) (h3 : x3 = Cert.KStages.woB (F := Ideal) wo)
    (h4 : x4 = Cert.KStages.boRow (F := Ideal) bo) :
    k6_pay1 (F := Ideal) x0 x1 x2 x3 x4 (ix2 p q) = Cert.Stages.readout (F := Ideal) fa am wo bo (ix2 r q) := by
  rw [pay_apply, readout_apply, h2, h3, h4, boRow_apply]
  refine congrArg₂ max (congrArg₂ (· + ·) (congrArg₂ (· + ·) (Finset.sum_congr rfl fun k _ => ?_) (Finset.sum_congr rfl fun k _ => ?_)) rfl) rfl
  · rw [h0, woA_apply]
  · rw [h1, woB_apply]

/-- The same at any index `j` of the block and any index `i` of the array in the same column: what the two row blocks
    hold in row `j 0` is what the arrays hold in row `i 0`. -/
theorem block_at (x0 : Vec Ideal S2000x133 .f32) (x1 : Vec Ideal S2000x300 .f32) (x2 : Vec Ideal S133x300 .f32)
    (x3 : Vec Ideal S300x300 .f32) (x4 : Vec Ideal S1x300 .f32)
    (fa : Vec Ideal S100000x133 .f32) (am : Vec Ideal S100000x300 .f32) (wo : Vec Ideal S433x300 .f32) (bo : Vec Ideal S300 .f32)
    (j : S2000x300.Idx) (i : S100000x300.Idx) (hq : (i 1).val = (j 1).val)
    (h0 : ∀ (y : S2000x133.Idx) (z : S100000x133.Idx), (y 0).val = (j 0).val → (z 0).val = (i 0).val → (z 1).val = (y 1).val → x0 y = fa z)
    (h1 : ∀ (y : S2000x300.Idx) (z : S100000x300.Idx), (y 0).val = (j 0).val → (z 0).val = (i 0).val → (z 1).val = (y 1).val → x1 y = am z)
    (h2 : x2 = Cert.KStages.woA (F := Ideal) wo) (h3 : x3 = Cert.KStages.woB (F := Ideal) wo)
    (h4 : x4 = Cert.KStages.boRow (F := Ideal) bo) :
    k6_pay1 (F := Ideal) x0 x1 x2 x3 x4 j = Cert.Stages.readout (F := Ideal) fa am wo bo i := by
  obtain ⟨p, q, rfl⟩ : ∃ (p : Fin 2000) (q : Fin 300), j = ix2 p q := ⟨j 0, j 1, eq_ix2 j⟩
  obtain ⟨r, q', rfl⟩ : ∃ (r : Fin 100000) (q' : Fin 300), i = ix2 r q' := ⟨i 0, i 1, eq_ix2 i⟩
  obtain rfl : q' = q := Fin.ext hq
  exact block_apply x0 x1 x2 x3 x4 fa am wo bo r p q' (fun k => h0 _ _ rfl rfl rfl) (fun k => h1 _ _ rfl rfl rfl) h2 h3 h4

/-! ## From the blocks to the array -/

theorem zero_offsets : (![0, 0] : Fin 2 → Nat) = fun _ => 0 := funext fun a => by fin_cases a <;> rfl

/-- The printed index maps, decided over the grid: the two row windows and the output window sit at block row `t`,
    block column 0; the three weight windows at block (0, 0). -/
theorem idx_facts6 : ∀ t : Fin cfg6.N,
    win6_0.index t (0 : Fin 2) = t.val ∧ win6_0.index t (1 : Fin 2) = 0
    ∧ win6_1.index t (0 : Fin 2) = t.val ∧ win6_1.index t (1 : Fin 2) = 0
    ∧ win6_2.index t (0 : Fin 2) = 0 ∧ win6_2.index t (1 : Fin 2) = 0
    ∧ win6_3.index t (0 : Fin 2) = 0 ∧ win6_3.index t (1 : Fin 2) = 0
    ∧ win6_4.index t (0 : Fin 2) = 0 ∧ win6_4.index t (1 : Fin 2) = 0
    ∧ win6_5.index t (0 : Fin 2) = t.val ∧ win6_5.index t (1 : Fin 2) = 0 :=
  (by decide +kernel : ∀ t : Fin grid6.N, _)

/-- Every block row of the output is some point's. -/
theorem idx_onto6 : ∀ q0 : Fin 50, ∃ t : Fin cfg6.N, win6_5.index t = ![q0.val, 0] :=
  (by decide +kernel : ∀ q0 : Fin 50, ∃ t : Fin grid6.N, win6_5.index t = ![q0.val, 0])

-- the TensorCore's buffer contents when the region is entered, at the ideal instance
variable (V : (c : Dev nD) → (b : Ref sig .tc) → Buf (Elt Ideal) ((c : Thread nD τ).loc b))

/-- What point `t` writes back is block `t` of the readout of the arrays the region found. -/
theorem flushed6_eq (c : Dev nD) (wo : Vec Ideal S433x300 .f32) (bo : Vec Ideal S300 .f32)
    (hA : V c main_v64 = Cert.KStages.woA (F := Ideal) wo) (hB : V c main_v65 = Cert.KStages.woB (F := Ideal) wo)
    (hR : V c main_v66 = Cert.KStages.boRow (F := Ideal) bo) (t : Fin cfg6.N) :
    (dat6 (F := Ideal) V c).flushed 5 t
      = ((cfg6.win 5).blk t).view.read (Elt Ideal)
          (Cert.Stages.readout (F := Ideal) (V c main_arg0) (V c main_v63) wo bo) := by
  show (cfg6.win 5).cut (grid6.coords t) ((dat6 V c).after 5 t) = _
  rw [after6_5]
  unfold out6_5
  rw [View.canon_unit_zero zero_offsets]
  simp only [View.ld_unit_zero (S := S2000x133) zero_offsets, View.ld_unit_zero (S := S2000x300) zero_offsets,
    View.ld_unit_zero (S := S133x300) zero_offsets, View.ld_unit_zero (S := S300x300) zero_offsets,
    View.ld_unit_zero (S := S1x300) zero_offsets]
  obtain ⟨e00, e01, e10, e11, e20, e21, e30, e31, e40, e41, e50, e51⟩ := idx_facts6 t
  refine funext fun (j : S2000x300.Idx) => ?_
  show k6_pay1 (F := Ideal) (iblk6 V c 0 t) (iblk6 V c 1 t) (iblk6 V c 2 t) (iblk6 V c 3 t) (iblk6 V c 4 t) j
    = Cert.Stages.readout (F := Ideal) (V c main_arg0) (V c main_v63) wo bo (((cfg6.win 5).blk t).view.emb j)
  have hi0 : (((((cfg6.win 5).blk t).view.emb j : S100000x300.Idx)) 0).val = win6_5.index t (0 : Fin 2) * 2000 + 1 * (j 0).val := rfl
  have hi1 : (((((cfg6.win 5).blk t).view.emb j : S100000x300.Idx)) 1).val = win6_5.index t (1 : Fin 2) * 300 + 1 * (j 1).val := rfl
  refine block_at _ _ _ _ _ (V c main_arg0) (V c main_v63) wo bo j (((cfg6.win 5).blk t).view.emb j) (hi1.trans (by omega)) ?_ ?_ ?_ ?_ ?_
  · intro y z hy hz hyz
    have hz' := hz.trans hi0
    show V c main_arg0 (((cfg6.win 0).blk t).view.emb y) = V c main_arg0 z
    refine congrArg _ (funext fun a => Fin.ext ?_)
    match a with
    | ⟨0, _⟩ => show win6_0.index t (0 : Fin 2) * 2000 + 1 * (y 0).val = (z 0).val; omega
    | ⟨1, _⟩ => show win6_0.index t (1 : Fin 2) * 133 + 1 * (y 1).val = (z 1).val; omega
  · intro y z hy hz hyz
    have hz' := hz.trans hi0
    show V c main_v63 (((cfg6.win 1).blk t).view.emb y) = V c main_v63 z
    refine congrArg _ (funext fun a => Fin.ext ?_)
    match a with
    | ⟨0, _⟩ => show win6_1.index t (0 : Fin 2) * 2000 + 1 * (y 0).val = (z 0).val; omega
    | ⟨1, _⟩ => show win6_1.index t (1 : Fin 2) * 300 + 1 * (y 1).val = (z 1).val; omega
  · rw [← hA]
    funext y
    show V c main_v64 (((cfg6.win 2).blk t).view.emb y) = V c main_v64 y
    refine congrArg _ (funext fun a => Fin.ext ?_)
    match a with
    | ⟨0, _⟩ => show win6_2.index t (0 : Fin 2) * 133 + 1 * (y 0).val = (y 0).val; omega
    | ⟨1, _⟩ => show win6_2.index t (1 : Fin 2) * 300 + 1 * (y 1).val = (y 1).val; omega
  · rw [← hB]
    funext y
    show V c main_v65 (((cfg6.win 3).blk t).view.emb y) = V c main_v65 y
    refine congrArg _ (funext fun a => Fin.ext ?_)
    match a with
    | ⟨0, _⟩ => show win6_3.index t (0 : Fin 2) * 300 + 1 * (y 0).val = (y 0).val; omega
    | ⟨1, _⟩ => show win6_3.index t (1 : Fin 2) * 300 + 1 * (y 1).val = (y 1).val; omega
  · rw [← hR]
    funext y
    show V c main_v66 (((cfg6.win 4).blk t).view.emb y) = V c main_v66 y
    refine congrArg _ (funext fun a => Fin.ext ?_)
    match a with
    | ⟨0, _⟩ => show win6_4.index t (0 : Fin 2) * 1 + 1 * (y 0).val = (y 0).val; omega
    | ⟨1, _⟩ => show win6_4.index t (1 : Fin 2) * 300 + 1 * (y 1).val = (y 1).val; omega

/-- An index of the output array is in point `t`'s block iff each coordinate is in the block's range on its axis. -/
theorem mem_blk6 (t : Fin cfg6.N) (i : S100000x300.Idx) :
    i ∈ ((cfg6.win 5).blk t).view.set ↔ ∀ a : Fin 2, win6_5.index t a * S2000x300.size a ≤ (i a).val ∧ (i a).val < win6_5.index t a * S2000x300.size a + S2000x300.size a := by
  show i ∈ ((View.whole main_v67).slice (win6_5.rect t)).set ↔ _
  rw [View.set_slice_whole, Rect.mem_set_unit]
  exact Iff.rfl

/-- Atom row `r` is in the block of point `r / 2000`: the 50 blocks cover the array. -/
theorem cover6 (i : S100000x300.Idx) :
    ∃ t : Fin cfg6.N, (cfg6.win 5).flush t = true ∧ i ∈ ((cfg6.win 5).blk t).view.set := by
  have hi0 : (i 0).val < 100000 := (i 0).isLt
  have hi1 : (i 1).val < 300 := (i 1).isLt
  obtain ⟨t, ht⟩ := idx_onto6 ⟨(i 0).val / 2000, by omega⟩
  have q0 : win6_5.index t (0 : Fin 2) = (i 0).val / 2000 := congrFun ht 0
  have q1 : win6_5.index t (1 : Fin 2) = 0 := congrFun ht 1
  refine ⟨t, flush6_5 t, ?_⟩
  rw [mem_blk6]
  intro a
  match a with
  | ⟨0, _⟩ => show win6_5.index t (0 : Fin 2) * 2000 ≤ (i 0).val ∧ (i 0).val < win6_5.index t (0 : Fin 2) * 2000 + 2000; omega
  | ⟨1, _⟩ => show win6_5.index t (1 : Fin 2) * 300 ≤ (i 1).val ∧ (i 1).val < win6_5.index t (1 : Fin 2) * 300 + 300; omega

/-- After region 6, its output array is the readout of the arrays the region found, when its three weight windows
    hold the two row blocks of `W_o` and `b_o` as one row. -/
theorem region6_out (c : Dev nD) (wo : Vec Ideal S433x300 .f32) (bo : Vec Ideal S300 .f32)
    (hA : V c main_v64 = Cert.KStages.woA (F := Ideal) wo) (hB : V c main_v65 = Cert.KStages.woB (F := Ideal) wo)
    (hR : V c main_v66 = Cert.KStages.boRow (F := Ideal) bo) :
    (dat6 (F := Ideal) V c).arrAt 5 cfg6.N
      = Cert.Stages.readout (F := Ideal) (V c main_arg0) (V c main_v63) wo bo :=
  (dat6 (F := Ideal) V c).arrAt_eq_of_cover 5 (Cert.Stages.readout (F := Ideal) (V c main_arg0) (V c main_v63) wo bo) (fun t _ => flushed6_eq V c wo bo hA hB hR t) cover6

end Cert.KRegion

end
-- ==== Proof.KernelValue.lean ====
/- The kernel program's result array is the network of `Stages.lean` applied to the argument arrays, when the three
   index arguments are in range: region 0 gives the bond input and the first messages, two rounds update the
   messages, and the last neighbour sum feeds the readout of region 6, whose weight windows are the two row blocks
   of the readout weight and the bias as one row. -/
import proofs.«417302_j82858509074740_1_alg».proof.Proof.StageA
import proofs.«417302_j82858509074740_1_alg».proof.Proof.Round1
import proofs.«417302_j82858509074740_1_alg».proof.Proof.Round2
import proofs.«417302_j82858509074740_1_alg».proof.Proof.Sum6_5
import proofs.«417302_j82858509074740_1_alg».proof.Proof.StageD

set_option maxRecDepth 16384

noncomputable section

namespace Cert.Walk

open Idealize.ShloMosaic Idealize.ShloMosaic.TcCoe Idealize.SL.Sem Idealize.ShloMosaic.StableHlo
open Cert.KernelIdeal Cert.KernelIdeal.Gen Cert.KernelIdeal.GenP
open Cert.Stages Cert.KStages

variable (m : (ℓ : Loc nD τ sig) → Buf (Elt Ideal) ℓ) (ρ : Dev nD → PrngReg) (c : Dev nD)

open Cert.KRegion Cert.Gathers

variable (h2 : ∀ p, 0 ≤ (((m ((c : Thread nD τ).loc main_arg2)) : IVec S100000x6 32) p).toInt ∧ (((m ((c : Thread nD τ).loc main_arg2)) : IVec S100000x6 32) p).toInt < 200000)
variable (h3 : ∀ p, 0 ≤ (((m ((c : Thread nD τ).loc main_arg3)) : IVec S200000 32) p).toInt ∧ (((m ((c : Thread nD τ).loc main_arg3)) : IVec S200000 32) p).toInt < 100000)
variable (h4 : ∀ p, 0 ≤ (((m ((c : Thread nD τ).loc main_arg4)) : IVec S200000 32) p).toInt ∧ (((m ((c : Thread nD τ).loc main_arg4)) : IVec S200000 32) p).toInt < 200000)
include h2 h3 h4

/-- The last boundary's contents at the result buffer. -/
theorem kernel_value :
    W48 m ρ c (Proc.devRef .tc main_v67)
      = out (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) := by
  -- region 0
  obtain ⟨e0, e1, z0, z2, z3, z4, z6, z7, z8⟩ := exit0 m ρ c
  have hI : W1 m ρ c (Proc.devRef .tc main_v0_0) = inp (F := Ideal) (m ((c : Thread nD τ).loc main_arg1)) (m ((c : Thread nD τ).loc main_arg5)) := e0.trans (region0_inp (V0 m ρ) c)
  have hM : W1 m ρ c (Proc.devRef .tc main_v0_1) = relu2 (F := Ideal) (inp (F := Ideal) (m ((c : Thread nD τ).loc main_arg1)) (m ((c : Thread nD τ).loc main_arg5))) :=
    e1.trans (region0_msg (V0 m ρ) c)
  have hA1 : ArgsAt m c (W1 m ρ c) := ⟨z0, z2, z3, z4, z6, z7, z8⟩
  -- the two rounds
  obtain ⟨hM1, hI1, hA17⟩ := round1 m ρ c h2 h3 h4 _ _ hI hM hA1
  obtain ⟨hM2, -, hA33⟩ := round2 m ρ c h2 h3 h4 _ _ hI1 hM1 hA17
  obtain ⟨x0, x2, x3, x4, x6, x7, x8⟩ := hA33
  -- the last neighbour sum
  obtain ⟨g0, g1, g2, g3, g4, g5, a0, a2, a3, a4, a6, a7, a8⟩ := gap5 m ρ c
  obtain ⟨s, b0, b2, b3, b4, b6, b7, b8⟩ := exit5 m ρ c
  obtain ⟨wa, wb, wr, cs, c0⟩ := gap6 m ρ c
  have u := exit6 m ρ c
  have hs : W46 m ρ c (Proc.devRef .tc main_v63) = nbrSum (F := Ideal) (update (F := Ideal) (inp (F := Ideal) (m ((c : Thread nD τ).loc main_arg1)) (m ((c : Thread nD τ).loc main_arg5))) (update (F := Ideal) (inp (F := Ideal) (m ((c : Thread nD τ).loc main_arg1)) (m ((c : Thread nD τ).loc main_arg5))) (relu2 (F := Ideal) (inp (F := Ideal) (m ((c : Thread nD τ).loc main_arg1)) (m ((c : Thread nD τ).loc main_arg5)))) (m ((c : Thread nD τ).loc main_arg2)) (m ((c : Thread nD τ).loc main_arg3)) (m ((c : Thread nD τ).loc main_arg4)) (m ((c : Thread nD τ).loc main_arg6))) (m ((c : Thread nD τ).loc main_arg2)) (m ((c : Thread nD τ).loc main_arg3)) (m ((c : Thread nD τ).loc main_arg4)) (m ((c : Thread nD τ).loc main_arg6))) (m ((c : Thread nD τ).loc main_arg2)) := by
    rw [s]
    refine (region5_sum (V45 m ρ) c).trans ?_
    show add6 (F := Ideal) (W45 m ρ c (Proc.devRef .tc main_v47)) (W45 m ρ c (Proc.devRef .tc main_v50)) (W45 m ρ c (Proc.devRef .tc main_v53)) (W45 m ρ c (Proc.devRef .tc main_v56)) (W45 m ρ c (Proc.devRef .tc main_v59)) (W45 m ρ c (Proc.devRef .tc main_v62)) = _
    rw [g0, g1, g2, g3, g4, g5, hM2, x2]
    exact takeA_cols _ (m ((c : Thread nD τ).loc main_arg2)) h2
  have h7 : W46 m ρ c (Proc.devRef .tc main_arg7) = (m ((c : Thread nD τ).loc main_arg7)) := b7.trans (a7.trans x7)
  have h8 : W46 m ρ c (Proc.devRef .tc main_arg8) = (m ((c : Thread nD τ).loc main_arg8)) := b8.trans (a8.trans x8)
  have h0 : W47 m ρ c (Proc.devRef .tc main_arg0) = (m ((c : Thread nD τ).loc main_arg0)) := c0.trans (b0.trans (a0.trans x0))
  -- region 6
  rw [u]
  refine (region6_out (V47 m ρ) c (m ((c : Thread nD τ).loc main_arg7)) (m ((c : Thread nD τ).loc main_arg8)) (wa.trans (by rw [h7])) (wb.trans (by rw [h7])) (wr.trans (by rw [h8]))).trans ?_
  show readout (F := Ideal) (W47 m ρ c (Proc.devRef .tc main_arg0)) (W47 m ρ c (Proc.devRef .tc main_v63)) (m ((c : Thread nD τ).loc main_arg7)) (m ((c : Thread nD τ).loc main_arg8)) = _
  rw [h0, cs, hs]
  rfl

end Cert.Walk

end
-- ==== Proof.RefOut.lean ====
/- The reference program's result is the network of `Stages.lean` applied to the argument arrays: its run's
   composed term is that composition written out, so unfolding the stage functions closes it.  Stated for any
   float family: nothing is evaluated. -/
import proofs.«417302_j82858509074740_1_alg».proof.Proof.Gen.ReferenceIdeal.Run
import proofs.«417302_j82858509074740_1_alg».proof.Proof.Stages

set_option maxRecDepth 16384

noncomputable section

namespace Cert.RefOut

open Idealize.ShloMosaic Idealize.ShloMosaic.TcCoe Idealize.SL.Sem Cert.ReferenceIdeal

variable {F : FTy → Type} [FloatOps F]

/-- The reference's result array is `Stages.out` of its nine argument arrays. -/
theorem res_eq (m : (ℓ : Loc nD τ sig) → Buf (Elt F) ℓ) (c : Dev nD) :
    Cert.ReferenceIdeal.Value.res_main_v67 (F := F) m c
      = Cert.Stages.out (F := F) (m ((c.tc : Thread nD τ).loc main_arg0)) (m ((c.tc : Thread nD τ).loc main_arg1))
          (m ((c.tc : Thread nD τ).loc main_arg2)) (m ((c.tc : Thread nD τ).loc main_arg3)) (m ((c.tc : Thread nD τ).loc main_arg4))
          (m ((c.tc : Thread nD τ).loc main_arg5)) (m ((c.tc : Thread nD τ).loc main_arg6)) (m ((c.tc : Thread nD τ).loc main_arg7))
          (m ((c.tc : Thread nD τ).loc main_arg8)) := by
  unfold Cert.ReferenceIdeal.Value.res_main_v67 Cert.Stages.out Cert.Stages.readout Cert.Stages.update Cert.Stages.updateOf
    Cert.Stages.nbrSum Cert.Stages.atomAt Cert.Stages.revAt Cert.Stages.relu1 Cert.Stages.relu2 Cert.Stages.inp
    Cert.Stages.wrapA Cert.Stages.wrapB Cert.Stages.wrapR
  rfl

end Cert.RefOut

end
-- ==== Proof.PreRange.lean ====
/- What the precondition says of the three index inputs.  It is a conjunction, over every entry, of finiteness of
   the float inputs and of `0 ≤ a2b < 200000`, `0 ≤ b2a < 100000`, `0 ≤ b2revb < 200000` as signed comparisons; an
   `and` over all entries is one exactly when every entry is one. -/
import proofs.«417302_j82858509074740_1_alg».proof.Pre_finite_inputs
import proofs.«417302_j82858509074740_1_alg».proof.Proof.Gen.Pre_finite_inputs
import Idealize.ShloMosaic.PureOps.Ideal
import Idealize.ShloMosaic.Lib.ReduceAll
import Idealize.ShloMosaic.Lib.StableHlo.Predicate
import Idealize.ShloMosaic.Lib.ValueIdx

noncomputable section

namespace Cert.PreRange

open Idealize.ShloMosaic Cert.Pre_finite_inputs

/-- The scalar shape has one index. -/
instance subsingleton_scalar : Subsingleton S_.Idx := ⟨fun _ _ => funext fun d => d.elim0⟩

/-- One entry of a printed range test: the word `w` compared, signed, with a scalar 0 and a scalar `n` broadcast
    to the shape of the table, the two bits joined by `and`.  The bit is one exactly when `0 ≤ w < n` signed. -/
theorem entry {s : Shape} (a : IVec s 32) (n : Nat) (hn : (BitVec.ofNat 32 n).toInt = n)
    (hb : S_.BroadcastsInDim s (![] : Fin 0 → Fin s.rank)) (p : s.Idx)
    (e : andi (cmpi .sge a (broadcastInDim s ![] hb (constantI S_ 32 0#32)))
        (cmpi .slt a (broadcastInDim s ![] hb (constantI S_ 32 (BitVec.ofNat 32 n)))) p = 1#1) :
    0 ≤ (a p).toInt ∧ (a p).toInt < n := by
  simp only [andi, cmpi, broadcastInDim, constantI] at e
  rw [IntOp.andi_eq_one, IntOp.cmpi_sge, IntOp.cmpi_slt, hn, show (0#32 : BitVec 32).toInt = 0 from by decide] at e
  exact e

/-- The last part of the chain: its result is the `and` of what came before, of the all-reduce of the first
    table's entry bits, and of the two range tests of the other tables. -/
theorem part2 (a3 a4 : IVec S200000 32) (v28 : IVec S_ 1) (v33 : IVec S100000x6 1) (j : S_.Idx)
    (h : fn_part2 (F := Ideal) a3 a4 v28 v33 j = 1#1) :
    (∀ p, v33 p = 1#1) ∧ (∀ p, 0 ≤ (a3 p).toInt ∧ (a3 p).toInt < 100000)
      ∧ (∀ p, 0 ≤ (a4 p).toInt ∧ (a4 p).toInt < 200000) := by
  unfold fn_part2 at h
  dsimp only at h
  rw [show ∀ (x y : IVec S_ 1), andi x y j = IntOp.andi (x j) (y j) from fun _ _ => rfl, IntOp.andi_eq_one] at h
  obtain ⟨h, h4⟩ := h
  rw [show ∀ (x y : IVec S_ 1), andi x y j = IntOp.andi (x j) (y j) from fun _ _ => rfl, IntOp.andi_eq_one] at h
  obtain ⟨h, h3⟩ := h
  rw [show ∀ (x y : IVec S_ 1), andi x y j = IntOp.andi (x j) (y j) from fun _ _ => rfl, IntOp.andi_eq_one] at h
  obtain ⟨-, h2⟩ := h
  refine ⟨fun p => Host.reduce_andi_all _ _ _ _ j h2 p, fun p => ?_, fun p => ?_⟩
  · exact entry a3 100000 (by decide) _ p (Host.reduce_andi_all _ _ _ _ j h3 p)
  · exact entry a4 200000 (by decide) _ p (Host.reduce_andi_all _ _ _ _ j h4 p)

/-- The middle part: it forms the first table's entry bits and hands them on. -/
theorem part1 (a2 : IVec S100000x6 32) (a3 a4 : IVec S200000 32) (a7 : FVec Ideal S433x300 .f32)
    (a8 : FVec Ideal S300 .f32) (v13 : IVec S_ 1) (v16 : IVec S300x300 1) (j : S_.Idx)
    (h : fn_part1 (F := Ideal) a2 a3 a4 a7 a8 v13 v16 j = 1#1) :
    (∀ p, 0 ≤ (a2 p).toInt ∧ (a2 p).toInt < 200000) ∧ (∀ p, 0 ≤ (a3 p).toInt ∧ (a3 p).toInt < 100000)
      ∧ (∀ p, 0 ≤ (a4 p).toInt ∧ (a4 p).toInt < 200000) := by
  unfold fn_part1 at h
  obtain ⟨h2, h34⟩ := part2 a3 a4 _ _ j h
  exact ⟨fun p => entry a2 200000 (by decide) _ p (h2 p), h34⟩

/-- Under the precondition every index input is in the range of the axis it indexes. -/
theorem ranges (a0 : FVec Ideal S100000x133 .f32) (a1 : FVec Ideal S200000x147 .f32) (a2 : IVec S100000x6 32)
    (a3 a4 : IVec S200000 32) (a5 : FVec Ideal S147x300 .f32) (a6 : FVec Ideal S300x300 .f32)
    (a7 : FVec Ideal S433x300 .f32) (a8 : FVec Ideal S300 .f32)
    (h : Cert.Pre_finite_inputs.fn (F := Ideal) a0 a1 a2 a3 a4 a5 a6 a7 a8 = (fun _ => 1#1)) :
    (∀ p, 0 ≤ (a2 p).toInt ∧ (a2 p).toInt < 200000) ∧ (∀ p, 0 ≤ (a3 p).toInt ∧ (a3 p).toInt < 100000)
      ∧ (∀ p, 0 ≤ (a4 p).toInt ∧ (a4 p).toInt < 200000) := by
  have h0 := congrFun h ValueIdx.ix0
  unfold Cert.Pre_finite_inputs.fn at h0
  exact part1 a2 a3 a4 a7 a8 _ _ ValueIdx.ix0 h0

end Cert.PreRange

end
-- ==== Proof.lean ====
/- The certificate's claims, assembled.

   The kernel program runs a message-passing network as seven pipelined regions (the bond input and its positive
   part; three six-way neighbour sums; two message updates; the atom readout) with masked row gathers on the host
   between them; the reference computes the same network with plain (clamping) gathers, one sum over the gathered
   neighbour axis and one matrix product of the joined atom rows.  Under the precondition every index is in the
   range of the axis it indexes, so every masked gather is the plain one; everything else is regrouping of sums of
   extended reals.  Both programs end at `Stages.out` of the argument arrays: the kernel's by the walk through
   its region boundaries (`Walk.kernel_value`), the reference's by unfolding its run's term (`RefOut.res_eq`). -/
import proofs.«417302_j82858509074740_1_alg».proof.Defs
import proofs.«417302_j82858509074740_1_alg».proof.Proof.Gen.Kernel
import proofs.«417302_j82858509074740_1_alg».proof.Proof.KernelFrame
import proofs.«417302_j82858509074740_1_alg».proof.Proof.Gen.KernelIdeal
import proofs.«417302_j82858509074740_1_alg».proof.Proof.KernelIdealFrame
import proofs.«417302_j82858509074740_1_alg».proof.Proof.RunNamed
import proofs.«417302_j82858509074740_1_alg».proof.Proof.KernelValue
import proofs.«417302_j82858509074740_1_alg».proof.Proof.Gen.ReferenceIdeal
import proofs.«417302_j82858509074740_1_alg».proof.Proof.Gen.ReferenceIdeal.Run
import proofs.«417302_j82858509074740_1_alg».proof.Proof.RefOut
import proofs.«417302_j82858509074740_1_alg».proof.Proof.Gen.Pre_finite_inputs
import proofs.«417302_j82858509074740_1_alg».proof.Proof.PreRange
import Idealize.ShloMosaic.Adequacy
import Idealize.ShloMosaic.Init

set_option maxRecDepth 16384

noncomputable section

namespace Cert.Proof

open Idealize.ShloMosaic Idealize.SL.Sem

/-- The word-level kernel program runs and keeps its arguments: the generated frame. -/
theorem frame_k : Cert.frame_Kernel := fun m ρ _ => Cert.Kernel.GenP.frame m ρ

/-- The idealized kernel program runs and keeps its arguments: the generated frame. -/
theorem frame_ki : Cert.frame_KernelIdeal := fun m ρ _ => Cert.KernelIdeal.GenP.frame m ρ

/-- The reference runs and keeps its arguments: its generated run with the result dropped. -/
theorem frame_ri : Cert.frame_ReferenceIdeal := fun m ρ _ =>
  (θ_run Cert.ReferenceIdeal.defs _ _).mono (fun _ h c => (h c).2) (Cert.ReferenceIdeal.Value.run (F := Ideal) m ρ)

/-- The ideal pass rewrote nothing: there is nothing to preserve. -/
theorem preserves : Cert.preserves_Kernel_KernelIdeal := trivial

/-- Both programs end with the network's value of the (agreeing) arguments. -/
theorem algebraic : Cert.algebraic_KernelIdeal_ReferenceIdeal := by
  intro m ρ m' ρ' hpre hagree
  refine ⟨fun c => Cert.Stages.out (F := Ideal) (m ((c.tc : Thread Cert.KernelIdeal.nD Cert.KernelIdeal.τ).loc Cert.KernelIdeal.main_arg0))
      (m ((c.tc : Thread Cert.KernelIdeal.nD Cert.KernelIdeal.τ).loc Cert.KernelIdeal.main_arg1))
      (m ((c.tc : Thread Cert.KernelIdeal.nD Cert.KernelIdeal.τ).loc Cert.KernelIdeal.main_arg2))
      (m ((c.tc : Thread Cert.KernelIdeal.nD Cert.KernelIdeal.τ).loc Cert.KernelIdeal.main_arg3))
      (m ((c.tc : Thread Cert.KernelIdeal.nD Cert.KernelIdeal.τ).loc Cert.KernelIdeal.main_arg4))
      (m ((c.tc : Thread Cert.KernelIdeal.nD Cert.KernelIdeal.τ).loc Cert.KernelIdeal.main_arg5))
      (m ((c.tc : Thread Cert.KernelIdeal.nD Cert.KernelIdeal.τ).loc Cert.KernelIdeal.main_arg6))
      (m ((c.tc : Thread Cert.KernelIdeal.nD Cert.KernelIdeal.τ).loc Cert.KernelIdeal.main_arg7))
      (m ((c.tc : Thread Cert.KernelIdeal.nD Cert.KernelIdeal.τ).loc Cert.KernelIdeal.main_arg8)), ?_, ?_⟩
  · refine (θ_run Cert.KernelIdeal.defs _ _).mono (fun r h c => ⟨(h c).1.trans ?_, (h c).2⟩)
      (Cert.KernelIdeal.GenP.run_named (F := Ideal) m ρ)
    obtain ⟨h2, h3, h4⟩ := Cert.PreRange.ranges _ _ _ _ _ _ _ _ _ (hpre c)
    exact Cert.Walk.kernel_value m ρ c h2 h3 h4
  · refine (θ_run Cert.ReferenceIdeal.defs _ _).mono (fun r h c => ⟨(h c).1.trans ?_, (h c).2⟩)
      (Cert.ReferenceIdeal.Value.run (F := Ideal) m' ρ')
    rw [Cert.RefOut.res_eq, (hagree c).1, (hagree c).2.1, (hagree c).2.2.1, (hagree c).2.2.2.1, (hagree c).2.2.2.2.1,
      (hagree c).2.2.2.2.2.1, (hagree c).2.2.2.2.2.2.1, (hagree c).2.2.2.2.2.2.2.1, (hagree c).2.2.2.2.2.2.2.2]

theorem claim : Cert.Claim := ⟨Cert.Kernel.Gen.facts, Cert.KernelIdeal.Gen.facts, Cert.ReferenceIdeal.Gen.facts, Cert.Pre_finite_inputs.Gen.facts,
  frame_k, frame_ki, frame_ri, preserves, algebraic⟩

end Cert.Proof

end
